-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x64 .f32) (main_arg1 : IVec S1024 32) (main_arg2 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 99999#32
  let main_v11 : IVec S1024 32 := broadcastInDim S1024 ![] bcast_S_S1024 main_c_3
  let main_v12 : IVec S1024 1 := cmpi .sle main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x64 : Shape := ⟨2, ![1024, 64]⟩
abbrev S1024 : Shape := ⟨1, ![1024]⟩
abbrev S100000x64 : Shape := ⟨2, ![100000, 64]⟩
abbrev S64x1024 : Shape := ⟨2, ![64, 1024]⟩
abbrev S64x100000 : Shape := ⟨2, ![64, 100000]⟩
abbrev S100000x1024 : Shape := ⟨2, ![100000, 1024]⟩
abbrev S8x1024 : Shape := ⟨2, ![8, 1024]⟩
abbrev S64x4096 : Shape := ⟨2, ![64, 4096]⟩
abbrev S4096x1024 : Shape := ⟨2, ![4096, 1024]⟩
abbrev S1x1024 : Shape := ⟨2, ![1, 1024]⟩
abbrev S32x128 : Shape := ⟨2, ![32, 128]⟩
abbrev S32 : Shape := ⟨1, ![32]⟩
abbrev S_ : Shape := ⟨0, ![]⟩
abbrev S100000x128 : Shape := ⟨2, ![100000, 128]⟩
abbrev S16 : Shape := ⟨1, ![16]⟩
abbrev S1x16 : Shape := ⟨2, ![1, 16]⟩
abbrev S8x128 : Shape := ⟨2, ![8, 128]⟩
abbrev S1x1 : Shape := ⟨2, ![1, 1]⟩
abbrev S1x1x1024 : Shape := ⟨3, ![1, 1, 1024]⟩
abbrev S1 : Shape := ⟨1, ![1]⟩
abbrev S1x1x1 : Shape := ⟨3, ![1, 1, 1]⟩
abbrev S1x8x128 : Shape := ⟨3, ![1, 8, 128]⟩
abbrev S1024x100000 : Shape := ⟨2, ![1024, 100000]⟩

abbrev nBuf : Table → Nat
  | .hbm => 15
  | .local .tc .vmem => 10
  | .local .tc .smem => 1
  | .local .scVector .vmem => 3
  | _ => 0

abbrev bufTy : (tb : Table) → Fin (nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S64x1024, .f32⟩
  | .hbm, ⟨4, _⟩ => ⟨S64x100000, .f32⟩
  | .hbm, ⟨5, _⟩ => ⟨S100000x1024, .f32⟩
  | .hbm, ⟨6, _⟩ => ⟨S8x1024, .f32⟩
  | .hbm, ⟨7, _⟩ => ⟨S1024, .f32⟩
  | .hbm, ⟨8, _⟩ => ⟨S8x128, .f32⟩
  | .hbm, ⟨9, _⟩ => ⟨S1x1, .f32⟩
  | .hbm, ⟨10, _⟩ => ⟨S1024x100000, .f32⟩
  | .hbm, ⟨11, _⟩ => ⟨S_, .f32⟩
  | .hbm, ⟨12, _⟩ => ⟨S_, .i1⟩
  | .hbm, ⟨13, _⟩ => ⟨S_, .f32⟩
  | .hbm, ⟨14, _⟩ => ⟨S_, .f32⟩
  | .local .tc .vmem, ⟨0, _⟩ => ⟨S64x1024, .f32⟩
  | .local .tc .vmem, ⟨1, _⟩ => ⟨S64x4096, .f32⟩
  | .local .tc .vmem, ⟨2, _⟩ => ⟨S64x4096, .f32⟩
  | .local .tc .vmem, ⟨3, _⟩ => ⟨S4096x1024, .f32⟩
  | .local .tc .vmem, ⟨4, _⟩ => ⟨S4096x1024, .f32⟩
  | .local .tc .vmem, ⟨5, _⟩ => ⟨S8x1024, .f32⟩
  | .local .tc .vmem, ⟨6, _⟩ => ⟨S64x1024, .f32⟩
  | .local .tc .vmem, ⟨7, _⟩ => ⟨S8x1024, .f32⟩
  | .local .tc .vmem, ⟨8, _⟩ => ⟨S8x128, .f32⟩
  | .local .tc .vmem, ⟨9, _⟩ => ⟨S8x1024, .f32⟩
  | .local .tc .smem, ⟨0, _⟩ => ⟨S1x1, .f32⟩
  | .local .scVector .vmem, ⟨0, _⟩ => ⟨S1024, .i32⟩
  | .local .scVector .vmem, ⟨1, _⟩ => ⟨S32x128, .f32⟩
  | .local .scVector .vmem, ⟨2, _⟩ => ⟨S32, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_arg1_scv : Ref sig .scVector := ⟨.hbm, 1, rfl⟩
abbrev main_v2_0_scv : Ref sig .scVector := ⟨.hbm, 5, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc2_sem0_0 : DmaSem sig := 9
abbrev cc2_sem1_0 : DmaSem sig := 10
abbrev cc2_sem2_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_7 : BitVec 32 := 24#32
  let v11 : BitVec 1 := Scalar.cmpi .eq arg0 c24_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v1 c4_i32
  let c0_i32_3 : BitVec 32 := 0#32
  let v16 : BitVec 1 := Scalar.cmpi .ne v15 c0_i32_3
  let v17 : BitVec 1 := Scalar.andi v14 v16
  let v3 : BitVec 32 := Scalar.divsi v1 c4_i32
  let c1_i32 : BitVec 32 := 1#32
  let v18 : BitVec 32 := Scalar.subi v3 c1_i32
  let v19 : BitVec 32 := Scalar.select v17 v18 v3
  let c128_i32 : BitVec 32 := 128#32
  let v20 : BitVec 32 := Scalar.muli v19 c128_i32
  ![0, v20.toNat]
def k1_off3 (i : grid1.Coords) : Fin 2 → Nat :=
  let c0_i32_14 : BitVec 32 := 0#32
  let v39 : Index := Scalar.indexCast c0_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_13 : BitVec 32 := 0#32
  let v38 : BitVec 32 := Scalar.addi v31 c0_i32_13
  let v40 : Index := Scalar.indexCast v38
  ![0, v40.toNat]
def k1_off4 (i : grid1.Coords) : Fin 2 → Nat :=
  let c1_i32_17 : BitVec 32 := 1#32
  let v47 : Index := Scalar.indexCast c1_i32_17
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_16 : BitVec 32 := 0#32
  let v46 : BitVec 32 := Scalar.addi v31 c0_i32_16
  let v48 : Index := Scalar.indexCast v46
  ![1, v48.toNat]
def k1_off5 (i : grid1.Coords) : Fin 2 → Nat :=
  let c2_i32_20 : BitVec 32 := 2#32
  let v55 : Index := Scalar.indexCast c2_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_19 : BitVec 32 := 0#32
  let v54 : BitVec 32 := Scalar.addi v31 c0_i32_19
  let v56 : Index := Scalar.indexCast v54
  ![2, v56.toNat]
def k1_off6 (i : grid1.Coords) : Fin 2 → Nat :=
  let c3_i32 : BitVec 32 := 3#32
  let v63 : Index := Scalar.indexCast c3_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_22 : BitVec 32 := 0#32
  let v62 : BitVec 32 := Scalar.addi v31 c0_i32_22
  let v64 : Index := Scalar.indexCast v62
  ![3, v64.toNat]
def k1_off7 (i : grid1.Coords) : Fin 2 → Nat :=
  let c4_i32_25 : BitVec 32 := 4#32
  let v71 : Index := Scalar.indexCast c4_i32_25
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_24 : BitVec 32 := 0#32
  let v70 : BitVec 32 := Scalar.addi v31 c0_i32_24
  let v72 : Index := Scalar.indexCast v70
  ![4, v72.toNat]
def k1_off8 (i : grid1.Coords) : Fin 2 → Nat :=
  let c5_i32 : BitVec 32 := 5#32
  let v79 : Index := Scalar.indexCast c5_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_27 : BitVec 32 := 0#32
  let v78 : BitVec 32 := Scalar.addi v31 c0_i32_27
  let v80 : Index := Scalar.indexCast v78
  ![5, v80.toNat]
def k1_off9 (i : grid1.Coords) : Fin 2 → Nat :=
  let c6_i32 : BitVec 32 := 6#32
  let v87 : Index := Scalar.indexCast c6_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_29 : BitVec 32 := 0#32
  let v86 : BitVec 32 := Scalar.addi v31 c0_i32_29
  let v88 : Index := Scalar.indexCast v86
  ![6, v88.toNat]
def k1_off10 (i : grid1.Coords) : Fin 2 → Nat :=
  let c7_i32 : BitVec 32 := 7#32
  let v95 : Index := Scalar.indexCast c7_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_31 : BitVec 32 := 0#32
  let v94 : BitVec 32 := Scalar.addi v31 c0_i32_31
  let v96 : Index := Scalar.indexCast v94
  ![7, v96.toNat]
def k1_off11 (i : grid1.Coords) : Fin 2 → Nat :=
  let c8_i32 : BitVec 32 := 8#32
  let v103 : Index := Scalar.indexCast c8_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_33 : BitVec 32 := 0#32
  let v102 : BitVec 32 := Scalar.addi v31 c0_i32_33
  let v104 : Index := Scalar.indexCast v102
  ![8, v104.toNat]
def k1_off12 (i : grid1.Coords) : Fin 2 → Nat :=
  let c9_i32 : BitVec 32 := 9#32
  let v111 : Index := Scalar.indexCast c9_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_35 : BitVec 32 := 0#32
  let v110 : BitVec 32 := Scalar.addi v31 c0_i32_35
  let v112 : Index := Scalar.indexCast v110
  ![9, v112.toNat]
def k1_off13 (i : grid1.Coords) : Fin 2 → Nat :=
  let c10_i32 : BitVec 32 := 10#32
  let v119 : Index := Scalar.indexCast c10_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_37 : BitVec 32 := 0#32
  let v118 : BitVec 32 := Scalar.addi v31 c0_i32_37
  let v120 : Index := Scalar.indexCast v118
  ![10, v120.toNat]
def k1_off14 (i : grid1.Coords) : Fin 2 → Nat :=
  let c11_i32 : BitVec 32 := 11#32
  let v127 : Index := Scalar.indexCast c11_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_39 : BitVec 32 := 0#32
  let v126 : BitVec 32 := Scalar.addi v31 c0_i32_39
  let v128 : Index := Scalar.indexCast v126
  ![11, v128.toNat]
def k1_off15 (i : grid1.Coords) : Fin 2 → Nat :=
  let c12_i32 : BitVec 32 := 12#32
  let v135 : Index := Scalar.indexCast c12_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_41 : BitVec 32 := 0#32
  let v134 : BitVec 32 := Scalar.addi v31 c0_i32_41
  let v136 : Index := Scalar.indexCast v134
  ![12, v136.toNat]
def k1_off16 (i : grid1.Coords) : Fin 2 → Nat :=
  let c13_i32 : BitVec 32 := 13#32
  let v143 : Index := Scalar.indexCast c13_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_43 : BitVec 32 := 0#32
  let v142 : BitVec 32 := Scalar.addi v31 c0_i32_43
  let v144 : Index := Scalar.indexCast v142
  ![13, v144.toNat]
def k1_off17 (i : grid1.Coords) : Fin 2 → Nat :=
  let c14_i32 : BitVec 32 := 14#32
  let v151 : Index := Scalar.indexCast c14_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_45 : BitVec 32 := 0#32
  let v150 : BitVec 32 := Scalar.addi v31 c0_i32_45
  let v152 : Index := Scalar.indexCast v150
  ![14, v152.toNat]
def k1_off18 (i : grid1.Coords) : Fin 2 → Nat :=
  let c15_i32 : BitVec 32 := 15#32
  let v159 : Index := Scalar.indexCast c15_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c0_i32_47 : BitVec 32 := 0#32
  let v158 : BitVec 32 := Scalar.addi v31 c0_i32_47
  let v160 : Index := Scalar.indexCast v158
  ![15, v160.toNat]
def k1_off19 (i : grid1.Coords) : Fin 2 → Nat :=
  let c16_i32_50 : BitVec 32 := 16#32
  let v171 : Index := Scalar.indexCast c16_i32_50
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32 : BitVec 32 := 16#32
  let v170 : BitVec 32 := Scalar.addi v31 c16_i32
  let v172 : Index := Scalar.indexCast v170
  ![16, v172.toNat]
def k1_off20 (i : grid1.Coords) : Fin 2 → Nat :=
  let c17_i32 : BitVec 32 := 17#32
  let v179 : Index := Scalar.indexCast c17_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_52 : BitVec 32 := 16#32
  let v178 : BitVec 32 := Scalar.addi v31 c16_i32_52
  let v180 : Index := Scalar.indexCast v178
  ![17, v180.toNat]
def k1_off21 (i : grid1.Coords) : Fin 2 → Nat :=
  let c18_i32 : BitVec 32 := 18#32
  let v187 : Index := Scalar.indexCast c18_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_54 : BitVec 32 := 16#32
  let v186 : BitVec 32 := Scalar.addi v31 c16_i32_54
  let v188 : Index := Scalar.indexCast v186
  ![18, v188.toNat]
def k1_off22 (i : grid1.Coords) : Fin 2 → Nat :=
  let c19_i32 : BitVec 32 := 19#32
  let v195 : Index := Scalar.indexCast c19_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_56 : BitVec 32 := 16#32
  let v194 : BitVec 32 := Scalar.addi v31 c16_i32_56
  let v196 : Index := Scalar.indexCast v194
  ![19, v196.toNat]
def k1_off23 (i : grid1.Coords) : Fin 2 → Nat :=
  let c20_i32 : BitVec 32 := 20#32
  let v203 : Index := Scalar.indexCast c20_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_58 : BitVec 32 := 16#32
  let v202 : BitVec 32 := Scalar.addi v31 c16_i32_58
  let v204 : Index := Scalar.indexCast v202
  ![20, v204.toNat]
def k1_off24 (i : grid1.Coords) : Fin 2 → Nat :=
  let c21_i32 : BitVec 32 := 21#32
  let v211 : Index := Scalar.indexCast c21_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_60 : BitVec 32 := 16#32
  let v210 : BitVec 32 := Scalar.addi v31 c16_i32_60
  let v212 : Index := Scalar.indexCast v210
  ![21, v212.toNat]
def k1_off25 (i : grid1.Coords) : Fin 2 → Nat :=
  let c22_i32 : BitVec 32 := 22#32
  let v219 : Index := Scalar.indexCast c22_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_62 : BitVec 32 := 16#32
  let v218 : BitVec 32 := Scalar.addi v31 c16_i32_62
  let v220 : Index := Scalar.indexCast v218
  ![22, v220.toNat]
def k1_off26 (i : grid1.Coords) : Fin 2 → Nat :=
  let c23_i32 : BitVec 32 := 23#32
  let v227 : Index := Scalar.indexCast c23_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_64 : BitVec 32 := 16#32
  let v226 : BitVec 32 := Scalar.addi v31 c16_i32_64
  let v228 : Index := Scalar.indexCast v226
  ![23, v228.toNat]
def k1_off27 (i : grid1.Coords) : Fin 2 → Nat :=
  let c24_i32 : BitVec 32 := 24#32
  let v235 : Index := Scalar.indexCast c24_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_66 : BitVec 32 := 16#32
  let v234 : BitVec 32 := Scalar.addi v31 c16_i32_66
  let v236 : Index := Scalar.indexCast v234
  ![24, v236.toNat]
def k1_off28 (i : grid1.Coords) : Fin 2 → Nat :=
  let c25_i32 : BitVec 32 := 25#32
  let v243 : Index := Scalar.indexCast c25_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_68 : BitVec 32 := 16#32
  let v242 : BitVec 32 := Scalar.addi v31 c16_i32_68
  let v244 : Index := Scalar.indexCast v242
  ![25, v244.toNat]
def k1_off29 (i : grid1.Coords) : Fin 2 → Nat :=
  let c26_i32 : BitVec 32 := 26#32
  let v251 : Index := Scalar.indexCast c26_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_70 : BitVec 32 := 16#32
  let v250 : BitVec 32 := Scalar.addi v31 c16_i32_70
  let v252 : Index := Scalar.indexCast v250
  ![26, v252.toNat]
def k1_off30 (i : grid1.Coords) : Fin 2 → Nat :=
  let c27_i32 : BitVec 32 := 27#32
  let v259 : Index := Scalar.indexCast c27_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_72 : BitVec 32 := 16#32
  let v258 : BitVec 32 := Scalar.addi v31 c16_i32_72
  let v260 : Index := Scalar.indexCast v258
  ![27, v260.toNat]
def k1_off31 (i : grid1.Coords) : Fin 2 → Nat :=
  let c28_i32 : BitVec 32 := 28#32
  let v267 : Index := Scalar.indexCast c28_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_74 : BitVec 32 := 16#32
  let v266 : BitVec 32 := Scalar.addi v31 c16_i32_74
  let v268 : Index := Scalar.indexCast v266
  ![28, v268.toNat]
def k1_off32 (i : grid1.Coords) : Fin 2 → Nat :=
  let c29_i32 : BitVec 32 := 29#32
  let v275 : Index := Scalar.indexCast c29_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_76 : BitVec 32 := 16#32
  let v274 : BitVec 32 := Scalar.addi v31 c16_i32_76
  let v276 : Index := Scalar.indexCast v274
  ![29, v276.toNat]
def k1_off33 (i : grid1.Coords) : Fin 2 → Nat :=
  let c30_i32 : BitVec 32 := 30#32
  let v283 : Index := Scalar.indexCast c30_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_78 : BitVec 32 := 16#32
  let v282 : BitVec 32 := Scalar.addi v31 c16_i32_78
  let v284 : Index := Scalar.indexCast v282
  ![30, v284.toNat]
def k1_off34 (i : grid1.Coords) : Fin 2 → Nat :=
  let c31_i32 : BitVec 32 := 31#32
  let v291 : Index := Scalar.indexCast c31_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  let c16_i32_80 : BitVec 32 := 16#32
  let v290 : BitVec 32 := Scalar.addi v31 c16_i32_80
  let v292 : Index := Scalar.indexCast v290
  ![31, v292.toNat]
abbrev grid2 : Pipeline.Grid := .none

abbrev stage2_0 : Fin 1 → Memref sig .tc .vmem S8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x64_S64x1024_1_0 : S1024x64.Transposes [1, 0] S64x1024
  transposes_S100000x64_S64x100000_1_0 : S100000x64.Transposes [1, 0] S64x100000
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x1024_S1024 : S64x1024.Reduces [0] S1024
  shapeCasts_S1024_S1x1024 : S1024.ShapeCasts S1x1024
  broadcasts_S1x1024_S64x1024 : S1x1024.Broadcasts S64x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1024_S4096x1024_0_0 : ∀ a, (![0, 0] : Fin 2 → Nat) a + S4096x1024.size a ≤ S4096x1024.size a
  h_S4096x1024 : 0 < S4096x1024.numel
  inb_S4096x1024_S8x1024_0_0 : ∀ a, (![0, 0] : Fin 2 → Nat) a + S8x1024.size a ≤ S4096x1024.size a
  inb_S4096x1024_S8x1024_8_0 : ∀ a, (![8, 0] : Fin 2 → Nat) a + S8x1024.size a ≤ S4096x1024.size a
  inb_S4096x1024_S8x1024_16_0 : ∀ a, (![16, 0] : Fin 2 → Nat) a + S8x1024.size a ≤ S4096x1024.size a
  inb_S4096x1024_S8x1024_24_0 : ∀ a, (![24, 0] : Fin 2 → Nat) a + S8x1024.size a ≤ S4096x1024.size a
  inb_S4096x1024_S8x1024_32_0 : ∀ a, (![32, 0] : Fin 2 → Nat) a + S8x1024.size a ≤ S4096x1024.size a
  inb_S4096x1024_S8x1024_40_0 : ∀ a, (![40, 0] : Fin 2 → Nat) a + S8x1024.size a ≤ S4096x1024.size a
  inb_S4096x1024_S8x1024_48_0 : ∀ a, (![48, 0] : Fin 2 → Nat) a + S8x1024.size a ≤ S4096x1024.size a
  inb_S4096x1024_S8x1024_56_0 : ∀ a, (![56, 0] : Fin 2 → Nat) a + S8x1024.size a ≤ S4096x1024.size a
  inb_S4096x1024_S8x1024_64_0 : ∀ a, (![64, 0] : Fin 2 → Nat) a + S8x1024.size a ≤ S4096x1024.size a
  inb_S4096x1024_S8x1024_72_0 : ∀ a, (![72, 0] : Fin 2 → Nat) a + S8x1024.size a ≤ S4096x1024.size a
  inb_S4096x1024_S8x1024_80_0 : ∀ a, (![80, 0] : Fin 2 → Nat) a + S8x1024.size a ≤ S4096x1024.size a
  inb_S4096x1024_S8x1024_88_0 : ∀ a, (![88, 0] : Fin 2 → Nat) a + S8x1024.size a ≤ S4096x1024.size a
  inb_S4096x1024_S8x1024_96_0 : ∀ a, (![96, 0] : Fin 2 → Nat) a + S8x1024.size a ≤ S4096x1024.size a
  inb_S4096x1024_S8x1024_104_0 : ∀ a, (![104, 0] : Fin 2 → Nat) a + S8x1024.size a ≤ S4096x1024.size a
  inb_S4096x1024_S8x1024_112_0 : ∀ a, (![112, 0] : Fin 2 → Nat) a + S8x1024.size a ≤ S4096x1024.size a
  inb_S4096x1024_S8x1024_120_0 : ∀ a, (![120, 0] : Fin 2 → Nat) a + S8x1024.size a ≤ S4096x1024.size a
  inb_S4096x1024_S8x1024_128_0 : ∀ a, (![128, 0] : Fin 2 → Nat) a + S8x1024.size a ≤ S4096x1024.size a
  inb_S4096x1024_S8x1024_136_0 : ∀ a, (![136, 0] : Fin 2 → Nat) a + S8x1024.size a ≤ S4096x1024.size a
  inb_S4096x1024_S8x1024_144_0 : ∀ a, (![144, 0] : Fin 2 → Nat) a + S8x1024.size a ≤ S4096x1024.size a
  inb_S4096x1024_S8x1024_152_0 : ∀ a, (![152, 0] : Fin 2 → Nat) a + S8x1024.size a ≤ S4096x1024.size a
  inb_S4096x1024_S8x1024_160_0 : ∀ a, (![160, 0] : Fin 2 → Nat) a + S8x1024.size a ≤ S4096x1024.size a
  inb_S4096x1024_S8x1024_168_0 : ∀ a, (![168, 0] : Fin 2 → Nat) a + S8x1024.size a ≤ S4096x1024.size a
  inb_S4096x1024_S8x1024_176_0 : ∀ a, (![176, 0] : Fin 2 → Nat) a + S8x1024.size a ≤ S4096x1024.size a
  inb_S4096x1024_S8x1024_184_0 : ∀ a, (![184, 0] : Fin 2 → Nat) a + S8x1024.size a ≤ S4096x1024.size a
  inb_S4096x1024_S8x1024_192_0 : ∀ a, (![192, 0] : Fin 2 → Nat) a + S8x1024.size a ≤ S4096x1024.size a
  inb_S4096x1024_S8x1024_200_0 : ∀ a, (![200, 0] : Fin 2 → Nat) a + S8x1024.size a ≤ S4096x1024.size a
  inb_S4096x1024_S8x1024_208_0 : ∀ a, (![208, 0] : Fin 2 → Nat) a + S8x1024.size a ≤ S4096x1024.size a
  inb_S4096x1024_S8x1024_216_0 : ∀ a, (![216, 0] : Fin 2 → Nat) a + S8x1024.size a ≤ S4096x1024.size a
  inb_S4096x1024_S8x1024_224_0 : ∀ a, (![224, 0] : Fin 2 → Nat) a + S8x1024.size a ≤ S4096x1024.size a
  inb_S4096x1024_S8x1024_232_0 : ∀ a, (![232, 0] : Fin 2 → Nat) a + S8x1024.size a ≤ S4096x1024.size a
  inb_S4096x1024_S8x1024_240_0 : ∀ a, (![240, 0] : Fin 2 → Nat) a + S8x1024.size a ≤ S4096x1024.size a
  inb_S4096x1024_S8x1024_248_0 : ∀ a, (![248, 0] : Fin 2 → Nat) a + S8x1024.size a ≤ S4096x1024.size a
  inb_S4096x1024_S8x1024_256_0 : ∀ a, (![256, 0] : Fin 2 → Nat) a + S8x1024.size a ≤ S4096x1024.size a
  inb_S4096x1024_S8x1024_264_0 : ∀ a, (![264, 0] : Fin 2 → Nat) a + S8x1024.size a ≤ S4096x1024.size a
  inb_S4096x1024_S8x1024_272_0 : ∀ a, (![272, 0] : Fin 2 → Nat) a + S8x1024.size a ≤ S4096x1024.size a
  inb_S4096x1024_S8x1024_280_0 : ∀ a, (![280, 0] : Fin 2 → Nat) a + S8x1024.size a ≤ S4096x1024.size a
  inb_S4096x1024_S8x1024_288_0 : ∀ a, (![288, 0] : Fin 2 → Nat) a + S8x1024.size a ≤ S4096x1024.size a
  inb_S4096x1024_S8x1024_296_0 : ∀ a, (![296, 0] : Fin 2 → Nat) a + S8x1024.size a ≤ S4096x1024.size a
  inb_S4096x1024_S8x1024_304_0 : ∀ a, (![304, 0] : Fin 2 → Nat) a + S8x1024.size a ≤ S4096x1024.size a
  inb_S4096x1024_S8x1024_312_0 : ∀ a, (![312, 0] : Fin 2 → Nat) a + S8x1024.size a ≤ S4096x1024.size a
  inb_S4096x1024_S8x1024_320_0 : ∀ a, (![320, 0] : Fin 2 → Nat) a + S8x1024.size a ≤ S4096x1024.size a
  inb_S4096x1024_S8x1024_328_0 : ∀ a, (![328, 0] : Fin 2 → Nat) a + S8x1024.size a ≤ S4096x1024.size a
  inb_S4096x1024_S8x1024_336_0 : ∀ a, (![336, 0] : Fin 2 → Nat) a + S8x1024.size a ≤ S4096x1024.size a
  inb_S4096x1024_S8x1024_344_0 : ∀ a, (![344, 0] : Fin 2 → Nat) a + S8x1024.size a ≤ S4096x1024.size a
  inb_S4096x1024_S8x1024_352_0 : ∀ a, (![352, 0] : Fin 2 → Nat) a + S8x1024.size a ≤ S4096x1024.size a
  inb_S4096x1024_S8x1024_360_0 : ∀ a, (![360, 0] : Fin 2 → Nat) a + S8x1024.size a ≤ S4096x1024.size a
  inb_S4096x1024_S8x1024_368_0 : ∀ a, (![368, 0] : Fin 2 → Nat) a + S8x1024.size a ≤ S4096x1024.size a
  inb_S4096x1024_S8x1024_376_0 : ∀ a, (![376, 0] : Fin 2 → Nat) a + S8x1024.size a ≤ S4096x1024.size a
  inb_S4096x1024_S8x1024_384_0 : ∀ a, (![384, 0] : Fin 2 → Nat) a + S8x1024.size a ≤ S4096x1024.size a
  inb_S4096x1024_S8x1024_392_0 : ∀ a, (![392, 0] : Fin 2 → Nat) a + S8x1024.size a ≤ S4096x1024.size a
  inb_S4096x1024_S8x1024_400_0 : ∀ a, (![400, 0] : Fin 2 → Nat) a + S8x1024.size a ≤ S4096x1024.size a
  inb_S4096x1024_S8x1024_408_0 : ∀ a, (![408, 0] : Fin 2 → Nat) a + S8x1024.size a ≤ S4096x1024.size a
  inb_S4096x1024_S8x1024_416_0 : ∀ a, (![416, 0] : Fin 2 → Nat) a + S8x1024.size a ≤ S4096x1024.size a
  inb_S4096x1024_S8x1024_424_0 : ∀ a, (![424, 0] : Fin 2 → Nat) a + S8x1024.size a ≤ S4096x1024.size a
  inb_S4096x1024_S8x1024_432_0 : ∀ a, (![432, 0] : Fin 2 → Nat) a + S8x1024.size a ≤ S4096x1024.size a
  inb_S4096x1024_S8x1024_440_0 : ∀ a, (![440, 0] : Fin 2 → Nat) a + S8x1024.size a ≤ S4096x1024.size a
  inb_S4096x1024_S8x1024_448_0 : ∀ a, (![448, 0] : Fin 2 → Nat) a + S8x1024.size a ≤ S4096x1024.size a
  inb_S4096x1024_S8x1024_456_0 : ∀ a, (![456, 0] : Fin 2 → Nat) a + S8x1024.size a ≤ S4096x1024.size a
  inb_S4096x1024_S8x1024_464_0 : ∀ a, (![464, 0] : Fin 2 → Nat) a + S8x1024.size a ≤ S4096x1024.size a
  inb_S4096x1024_S8x1024_472_0 : ∀ a, (![472, 0] : Fin 2 → Nat) a + S8x1024.size a ≤ S4096x1024.size a
  inb_S4096x1024_S8x1024_480_0 : ∀ a, (![480, 0] : Fin 2 → Nat) a + S8x1024.size a ≤ S4096x1024.size a
  inb_S4096x1024_S8x1024_488_0 : ∀ a, (![488, 0] : Fin 2 → Nat) a + S8x1024.size a ≤ S4096x1024.size a
  inb_S4096x1024_S8x1024_496_0 : ∀ a, (![496, 0] : Fin 2 → Nat) a + S8x1024.size a ≤ S4096x1024.size a
  inb_S4096x1024_S8x1024_504_0 : ∀ a, (![504, 0] : Fin 2 → Nat) a + S8x1024.size a ≤ S4096x1024.size a
  inb_S4096x1024_S8x1024_512_0 : ∀ a, (![512, 0] : Fin 2 → Nat) a + S8x1024.size a ≤ S4096x1024.size a
  inb_S4096x1024_S8x1024_520_0 : ∀ a, (![520, 0] : Fin 2 → Nat) a + S8x1024.size a ≤ S4096x1024.size a
  inb_S4096x1024_S8x1024_528_0 : ∀ a, (![528, 0] : Fin 2 → Nat) a + S8x1024.size a ≤ S4096x1024.size a
  inb_S4096x1024_S8x1024_536_0 : ∀ a, (![536, 0] : Fin 2 → Nat) a + S8x1024.size a ≤ S4096x1024.size a
  inb_S4096x1024_S8x1024_544_0 : ∀ a, (![544, 0] : Fin 2 → Nat) a + S8x1024.size a ≤ S4096x1024.size a
  inb_S4096x1024_S8x1024_552_0 : ∀ a, (![552, 0] : Fin 2 → Nat) a + S8x1024.size a ≤ S4096x1024.size a
  inb_S4096x1024_S8x1024_560_0 : ∀ a, (![560, 0] : Fin 2 → Nat) a + S8x1024.size a ≤ S4096x1024.size a
  inb_S4096x1024_S8x1024_568_0 : ∀ a, (![568, 0] : Fin 2 → Nat) a + S8x1024.size a ≤ S4096x1024.size a
  inb_S4096x1024_S8x1024_576_0 : ∀ a, (![576, 0] : Fin 2 → Nat) a + S8x1024.size a ≤ S4096x1024.size a
  inb_S4096x1024_S8x1024_584_0 : ∀ a, (![584, 0] : Fin 2 → Nat) a + S8x1024.size a ≤ S4096x1024.size a
  inb_S4096x1024_S8x1024_592_0 : ∀ a, (![592, 0] : Fin 2 → Nat) a + S8x1024.size a ≤ S4096x1024.size a
  inb_S4096x1024_S8x1024_600_0 : ∀ a, (![600, 0] : Fin 2 → Nat) a + S8x1024.size a ≤ S4096x1024.size a
  inb_S4096x1024_S8x1024_608_0 : ∀ a, (![608, 0] : Fin 2 → Nat) a + S8x1024.size a ≤ S4096x1024.size a
  inb_S4096x1024_S8x1024_616_0 : ∀ a, (![616, 0] : Fin 2 → Nat) a + S8x1024.size a ≤ S4096x1024.size a
  inb_S4096x1024_S8x1024_624_0 : ∀ a, (![624, 0] : Fin 2 → Nat) a + S8x1024.size a ≤ S4096x1024.size a
  inb_S4096x1024_S8x1024_632_0 : ∀ a, (![632, 0] : Fin 2 → Nat) a + S8x1024.size a ≤ S4096x1024.size a
  inb_S4096x1024_S8x1024_640_0 : ∀ a, (![640, 0] : Fin 2 → Nat) a + S8x1024.size a ≤ S4096x1024.size a
  inb_S4096x1024_S8x1024_648_0 : ∀ a, (![648, 0] : Fin 2 → Nat) a + S8x1024.size a ≤ S4096x1024.size a
  inb_S4096x1024_S8x1024_656_0 : ∀ a, (![656, 0] : Fin 2 → Nat) a + S8x1024.size a ≤ S4096x1024.size a
  inb_S4096x1024_S8x1024_664_0 : ∀ a, (![664, 0] : Fin 2 → Nat) a + S8x1024.size a ≤ S4096x1024.size a
  inb_S4096x1024_S8x1024_672_0 : ∀ a, (![672, 0] : Fin 2 → Nat) a + S8x1024.size a ≤ S4096x1024.size a
  inb_S4096x1024_S8x1024_680_0 : ∀ a, (![680, 0] : Fin 2 → Nat) a + S8x1024.size a ≤ S4096x1024.size a
  inb_S4096x1024_S8x1024_688_0 : ∀ a, (![688, 0] : Fin 2 → Nat) a + S8x1024.size a ≤ S4096x1024.size a
  inb_S4096x1024_S8x1024_696_0 : ∀ a, (![696, 0] : Fin 2 → Nat) a + S8x1024.size a ≤ S4096x1024.size a
  inb_S4096x1024_S8x1024_704_0 : ∀ a, (![704, 0] : Fin 2 → Nat) a + S8x1024.size a ≤ S4096x1024.size a
  inb_S4096x1024_S8x1024_712_0 : ∀ a, (![712, 0] : Fin 2 → Nat) a + S8x1024.size a ≤ S4096x1024.size a
  inb_S4096x1024_S8x1024_720_0 : ∀ a, (![720, 0] : Fin 2 → Nat) a + S8x1024.size a ≤ S4096x1024.size a
  inb_S4096x1024_S8x1024_728_0 : ∀ a, (![728, 0] : Fin 2 → Nat) a + S8x1024.size a ≤ S4096x1024.size a
  inb_S4096x1024_S8x1024_736_0 : ∀ a, (![736, 0] : Fin 2 → Nat) a + S8x1024.size a ≤ S4096x1024.size a
  inb_S4096x1024_S8x1024_744_0 : ∀ a, (![744, 0] : Fin 2 → Nat) a + S8x1024.size a ≤ S4096x1024.size a
  inb_S4096x1024_S8x1024_752_0 : ∀ a, (![752, 0] : Fin 2 → Nat) a + S8x1024.size a ≤ S4096x1024.size a
  inb_S4096x1024_S8x1024_760_0 : ∀ a, (![760, 0] : Fin 2 → Nat) a + S8x1024.size a ≤ S4096x1024.size a
  inb_S4096x1024_S8x1024_768_0 : ∀ a, (![768, 0] : Fin 2 → Nat) a + S8x1024.size a ≤ S4096x1024.size a
  inb_S4096x1024_S8x1024_776_0 : ∀ a, (![776, 0] : Fin 2 → Nat) a + S8x1024.size a ≤ S4096x1024.size a
  inb_S4096x1024_S8x1024_784_0 : ∀ a, (![784, 0] : Fin 2 → Nat) a + S8x1024.size a ≤ S4096x1024.size a
  inb_S4096x1024_S8x1024_792_0 : ∀ a, (![792, 0] : Fin 2 → Nat) a + S8x1024.size a ≤ S4096x1024.size a
  inb_S4096x1024_S8x1024_800_0 : ∀ a, (![800, 0] : Fin 2 → Nat) a + S8x1024.size a ≤ S4096x1024.size a
  inb_S4096x1024_S8x1024_808_0 : ∀ a, (![808, 0] : Fin 2 → Nat) a + S8x1024.size a ≤ S4096x1024.size a
  inb_S4096x1024_S8x1024_816_0 : ∀ a, (![816, 0] : Fin 2 → Nat) a + S8x1024.size a ≤ S4096x1024.size a
  inb_S4096x1024_S8x1024_824_0 : ∀ a, (![824, 0] : Fin 2 → Nat) a + S8x1024.size a ≤ S4096x1024.size a
  inb_S4096x1024_S8x1024_832_0 : ∀ a, (![832, 0] : Fin 2 → Nat) a + S8x1024.size a ≤ S4096x1024.size a
  inb_S4096x1024_S8x1024_840_0 : ∀ a, (![840, 0] : Fin 2 → Nat) a + S8x1024.size a ≤ S4096x1024.size a
  inb_S4096x1024_S8x1024_848_0 : ∀ a, (![848, 0] : Fin 2 → Nat) a + S8x1024.size a ≤ S4096x1024.size a
  inb_S4096x1024_S8x1024_856_0 : ∀ a, (![856, 0] : Fin 2 → Nat) a + S8x1024.size a ≤ S4096x1024.size a
  inb_S4096x1024_S8x1024_864_0 : ∀ a, (![864, 0] : Fin 2 → Nat) a + S8x1024.size a ≤ S4096x1024.size a
  inb_S4096x1024_S8x1024_872_0 : ∀ a, (![872, 0] : Fin 2 → Nat) a + S8x1024.size a ≤ S4096x1024.size a
  inb_S4096x1024_S8x1024_880_0 : ∀ a, (![880, 0] : Fin 2 → Nat) a + S8x1024.size a ≤ S4096x1024.size a
  inb_S4096x1024_S8x1024_888_0 : ∀ a, (![888, 0] : Fin 2 → Nat) a + S8x1024.size a ≤ S4096x1024.size a
  inb_S4096x1024_S8x1024_896_0 : ∀ a, (![896, 0] : Fin 2 → Nat) a + S8x1024.size a ≤ S4096x1024.size a
  inb_S4096x1024_S8x1024_904_0 : ∀ a, (![904, 0] : Fin 2 → Nat) a + S8x1024.size a ≤ S4096x1024.size a
  inb_S4096x1024_S8x1024_912_0 : ∀ a, (![912, 0] : Fin 2 → Nat) a + S8x1024.size a ≤ S4096x1024.size a
  inb_S4096x1024_S8x1024_920_0 : ∀ a, (![920, 0] : Fin 2 → Nat) a + S8x1024.size a ≤ S4096x1024.size a
  inb_S4096x1024_S8x1024_928_0 : ∀ a, (![928, 0] : Fin 2 → Nat) a + S8x1024.size a ≤ S4096x1024.size a
  inb_S4096x1024_S8x1024_936_0 : ∀ a, (![936, 0] : Fin 2 → Nat) a + S8x1024.size a ≤ S4096x1024.size a
  inb_S4096x1024_S8x1024_944_0 : ∀ a, (![944, 0] : Fin 2 → Nat) a + S8x1024.size a ≤ S4096x1024.size a
  inb_S4096x1024_S8x1024_952_0 : ∀ a, (![952, 0] : Fin 2 → Nat) a + S8x1024.size a ≤ S4096x1024.size a
  inb_S4096x1024_S8x1024_960_0 : ∀ a, (![960, 0] : Fin 2 → Nat) a + S8x1024.size a ≤ S4096x1024.size a
  inb_S4096x1024_S8x1024_968_0 : ∀ a, (![968, 0] : Fin 2 → Nat) a + S8x1024.size a ≤ S4096x1024.size a
  inb_S4096x1024_S8x1024_976_0 : ∀ a, (![976, 0] : Fin 2 → Nat) a + S8x1024.size a ≤ S4096x1024.size a
  inb_S4096x1024_S8x1024_984_0 : ∀ a, (![984, 0] : Fin 2 → Nat) a + S8x1024.size a ≤ S4096x1024.size a
  inb_S4096x1024_S8x1024_992_0 : ∀ a, (![992, 0] : Fin 2 → Nat) a + S8x1024.size a ≤ S4096x1024.size a
  inb_S4096x1024_S8x1024_1000_0 : ∀ a, (![1000, 0] : Fin 2 → Nat) a + S8x1024.size a ≤ S4096x1024.size a
  inb_S4096x1024_S8x1024_1008_0 : ∀ a, (![1008, 0] : Fin 2 → Nat) a + S8x1024.size a ≤ S4096x1024.size a
  inb_S4096x1024_S8x1024_1016_0 : ∀ a, (![1016, 0] : Fin 2 → Nat) a + S8x1024.size a ≤ S4096x1024.size a
  inb_S4096x1024_S8x1024_1024_0 : ∀ a, (![1024, 0] : Fin 2 → Nat) a + S8x1024.size a ≤ S4096x1024.size a
  inb_S4096x1024_S8x1024_1032_0 : ∀ a, (![1032, 0] : Fin 2 → Nat) a + S8x1024.size a ≤ S4096x1024.size a
  inb_S4096x1024_S8x1024_1040_0 : ∀ a, (![1040, 0] : Fin 2 → Nat) a + S8x1024.size a ≤ S4096x1024.size a
  inb_S4096x1024_S8x1024_1048_0 : ∀ a, (![1048, 0] : Fin 2 → Nat) a + S8x1024.size a ≤ S4096x1024.size a
  inb_S4096x1024_S8x1024_1056_0 : ∀ a, (![1056, 0] : Fin 2 → Nat) a + S8x1024.size a ≤ S4096x1024.size a
  inb_S4096x1024_S8x1024_1064_0 : ∀ a, (![1064, 0] : Fin 2 → Nat) a + S8x1024.size a ≤ S4096x1024.size a
  inb_S4096x1024_S8x1024_1072_0 : ∀ a, (![1072, 0] : Fin 2 → Nat) a + S8x1024.size a ≤ S4096x1024.size a
  inb_S4096x1024_S8x1024_1080_0 : ∀ a, (![1080, 0] : Fin 2 → Nat) a + S8x1024.size a ≤ S4096x1024.size a
  inb_S4096x1024_S8x1024_1088_0 : ∀ a, (![1088, 0] : Fin 2 → Nat) a + S8x1024.size a ≤ S4096x1024.size a
  inb_S4096x1024_S8x1024_1096_0 : ∀ a, (![1096, 0] : Fin 2 → Nat) a + S8x1024.size a ≤ S4096x1024.size a
  inb_S4096x1024_S8x1024_1104_0 : ∀ a, (![1104, 0] : Fin 2 → Nat) a + S8x1024.size a ≤ S4096x1024.size a
  inb_S4096x1024_S8x1024_1112_0 : ∀ a, (![1112, 0] : Fin 2 → Nat) a + S8x1024.size a ≤ S4096x1024.size a
  inb_S4096x1024_S8x1024_1120_0 : ∀ a, (![1120, 0] : Fin 2 → Nat) a + S8x1024.size a ≤ S4096x1024.size a
  inb_S4096x1024_S8x1024_1128_0 : ∀ a, (![1128, 0] : Fin 2 → Nat) a + S8x1024.size a ≤ S4096x1024.size a
  inb_S4096x1024_S8x1024_1136_0 : ∀ a, (![1136, 0] : Fin 2 → Nat) a + S8x1024.size a ≤ S4096x1024.size a
  inb_S4096x1024_S8x1024_1144_0 : ∀ a, (![1144, 0] : Fin 2 → Nat) a + S8x1024.size a ≤ S4096x1024.size a
  inb_S4096x1024_S8x1024_1152_0 : ∀ a, (![1152, 0] : Fin 2 → Nat) a + S8x1024.size a ≤ S4096x1024.size a
  inb_S4096x1024_S8x1024_1160_0 : ∀ a, (![1160, 0] : Fin 2 → Nat) a + S8x1024.size a ≤ S4096x1024.size a
  inb_S4096x1024_S8x1024_1168_0 : ∀ a, (![1168, 0] : Fin 2 → Nat) a + S8x1024.size a ≤ S4096x1024.size a
  inb_S4096x1024_S8x1024_1176_0 : ∀ a, (![1176, 0] : Fin 2 → Nat) a + S8x1024.size a ≤ S4096x1024.size a
  inb_S4096x1024_S8x1024_1184_0 : ∀ a, (![1184, 0] : Fin 2 → Nat) a + S8x1024.size a ≤ S4096x1024.size a
  inb_S4096x1024_S8x1024_1192_0 : ∀ a, (![1192, 0] : Fin 2 → Nat) a + S8x1024.size a ≤ S4096x1024.size a
  inb_S4096x1024_S8x1024_1200_0 : ∀ a, (![1200, 0] : Fin 2 → Nat) a + S8x1024.size a ≤ S4096x1024.size a
  inb_S4096x1024_S8x1024_1208_0 : ∀ a, (![1208, 0] : Fin 2 → Nat) a + S8x1024.size a ≤ S4096x1024.size a
  inb_S4096x1024_S8x1024_1216_0 : ∀ a, (![1216, 0] : Fin 2 → Nat) a + S8x1024.size a ≤ S4096x1024.size a
  inb_S4096x1024_S8x1024_1224_0 : ∀ a, (![1224, 0] : Fin 2 → Nat) a + S8x1024.size a ≤ S4096x1024.size a
  inb_S4096x1024_S8x1024_1232_0 : ∀ a, (![1232, 0] : Fin 2 → Nat) a + S8x1024.size a ≤ S4096x1024.size a
  inb_S4096x1024_S8x1024_1240_0 : ∀ a, (![1240, 0] : Fin 2 → Nat) a + S8x1024.size a ≤ S4096x1024.size a
  inb_S4096x1024_S8x1024_1248_0 : ∀ a, (![1248, 0] : Fin 2 → Nat) a + S8x1024.size a ≤ S4096x1024.size a
  inb_S4096x1024_S8x1024_1256_0 : ∀ a, (![1256, 0] : Fin 2 → Nat) a + S8x1024.size a ≤ S4096x1024.size a
  inb_S4096x1024_S8x1024_1264_0 : ∀ a, (![1264, 0] : Fin 2 → Nat) a + S8x1024.size a ≤ S4096x1024.size a
  inb_S4096x1024_S8x1024_1272_0 : ∀ a, (![1272, 0] : Fin 2 → Nat) a + S8x1024.size a ≤ S4096x1024.size a
  inb_S4096x1024_S8x1024_1280_0 : ∀ a, (![1280, 0] : Fin 2 → Nat) a + S8x1024.size a ≤ S4096x1024.size a
  inb_S4096x1024_S8x1024_1288_0 : ∀ a, (![1288, 0] : Fin 2 → Nat) a + S8x1024.size a ≤ S4096x1024.size a
  inb_S4096x1024_S8x1024_1296_0 : ∀ a, (![1296, 0] : Fin 2 → Nat) a + S8x1024.size a ≤ S4096x1024.size a
  inb_S4096x1024_S8x1024_1304_0 : ∀ a, (![1304, 0] : Fin 2 → Nat) a + S8x1024.size a ≤ S4096x1024.size a
  inb_S4096x1024_S8x1024_1312_0 : ∀ a, (![1312, 0] : Fin 2 → Nat) a + S8x1024.size a ≤ S4096x1024.size a
  inb_S4096x1024_S8x1024_1320_0 : ∀ a, (![1320, 0] : Fin 2 → Nat) a + S8x1024.size a ≤ S4096x1024.size a
  inb_S4096x1024_S8x1024_1328_0 : ∀ a, (![1328, 0] : Fin 2 → Nat) a + S8x1024.size a ≤ S4096x1024.size a
  inb_S4096x1024_S8x1024_1336_0 : ∀ a, (![1336, 0] : Fin 2 → Nat) a + S8x1024.size a ≤ S4096x1024.size a
  inb_S4096x1024_S8x1024_1344_0 : ∀ a, (![1344, 0] : Fin 2 → Nat) a + S8x1024.size a ≤ S4096x1024.size a
  inb_S4096x1024_S8x1024_1352_0 : ∀ a, (![1352, 0] : Fin 2 → Nat) a + S8x1024.size a ≤ S4096x1024.size a
  inb_S4096x1024_S8x1024_1360_0 : ∀ a, (![1360, 0] : Fin 2 → Nat) a + S8x1024.size a ≤ S4096x1024.size a
  inb_S4096x1024_S8x1024_1368_0 : ∀ a, (![1368, 0] : Fin 2 → Nat) a + S8x1024.size a ≤ S4096x1024.size a
  inb_S4096x1024_S8x1024_1376_0 : ∀ a, (![1376, 0] : Fin 2 → Nat) a + S8x1024.size a ≤ S4096x1024.size a
  inb_S4096x1024_S8x1024_1384_0 : ∀ a, (![1384, 0] : Fin 2 → Nat) a + S8x1024.size a ≤ S4096x1024.size a
  inb_S4096x1024_S8x1024_1392_0 : ∀ a, (![1392, 0] : Fin 2 → Nat) a + S8x1024.size a ≤ S4096x1024.size a
  inb_S4096x1024_S8x1024_1400_0 : ∀ a, (![1400, 0] : Fin 2 → Nat) a + S8x1024.size a ≤ S4096x1024.size a
  inb_S4096x1024_S8x1024_1408_0 : ∀ a, (![1408, 0] : Fin 2 → Nat) a + S8x1024.size a ≤ S4096x1024.size a
  inb_S4096x1024_S8x1024_1416_0 : ∀ a, (![1416, 0] : Fin 2 → Nat) a + S8x1024.size a ≤ S4096x1024.size a
  inb_S4096x1024_S8x1024_1424_0 : ∀ a, (![1424, 0] : Fin 2 → Nat) a + S8x1024.size a ≤ S4096x1024.size a
  inb_S4096x1024_S8x1024_1432_0 : ∀ a, (![1432, 0] : Fin 2 → Nat) a + S8x1024.size a ≤ S4096x1024.size a
  inb_S4096x1024_S8x1024_1440_0 : ∀ a, (![1440, 0] : Fin 2 → Nat) a + S8x1024.size a ≤ S4096x1024.size a
  inb_S4096x1024_S8x1024_1448_0 : ∀ a, (![1448, 0] : Fin 2 → Nat) a + S8x1024.size a ≤ S4096x1024.size a
  inb_S4096x1024_S8x1024_1456_0 : ∀ a, (![1456, 0] : Fin 2 → Nat) a + S8x1024.size a ≤ S4096x1024.size a
  inb_S4096x1024_S8x1024_1464_0 : ∀ a, (![1464, 0] : Fin 2 → Nat) a + S8x1024.size a ≤ S4096x1024.size a
  inb_S4096x1024_S8x1024_1472_0 : ∀ a, (![1472, 0] : Fin 2 → Nat) a + S8x1024.size a ≤ S4096x1024.size a
  inb_S4096x1024_S8x1024_1480_0 : ∀ a, (![1480, 0] : Fin 2 → Nat) a + S8x1024.size a ≤ S4096x1024.size a
  inb_S4096x1024_S8x1024_1488_0 : ∀ a, (![1488, 0] : Fin 2 → Nat) a + S8x1024.size a ≤ S4096x1024.size a
  inb_S4096x1024_S8x1024_1496_0 : ∀ a, (![1496, 0] : Fin 2 → Nat) a + S8x1024.size a ≤ S4096x1024.size a
  inb_S4096x1024_S8x1024_1504_0 : ∀ a, (![1504, 0] : Fin 2 → Nat) a + S8x1024.size a ≤ S4096x1024.size a
  inb_S4096x1024_S8x1024_1512_0 : ∀ a, (![1512, 0] : Fin 2 → Nat) a + S8x1024.size a ≤ S4096x1024.size a
  inb_S4096x1024_S8x1024_1520_0 : ∀ a, (![1520, 0] : Fin 2 → Nat) a + S8x1024.size a ≤ S4096x1024.size a
  inb_S4096x1024_S8x1024_1528_0 : ∀ a, (![1528, 0] : Fin 2 → Nat) a + S8x1024.size a ≤ S4096x1024.size a
  inb_S4096x1024_S8x1024_1536_0 : ∀ a, (![1536, 0] : Fin 2 → Nat) a + S8x1024.size a ≤ S4096x1024.size a
  inb_S4096x1024_S8x1024_1544_0 : ∀ a, (![1544, 0] : Fin 2 → Nat) a + S8x1024.size a ≤ S4096x1024.size a
  inb_S4096x1024_S8x1024_1552_0 : ∀ a, (![1552, 0] : Fin 2 → Nat) a + S8x1024.size a ≤ S4096x1024.size a
  inb_S4096x1024_S8x1024_1560_0 : ∀ a, (![1560, 0] : Fin 2 → Nat) a + S8x1024.size a ≤ S4096x1024.size a
  inb_S4096x1024_S8x1024_1568_0 : ∀ a, (![1568, 0] : Fin 2 → Nat) a + S8x1024.size a ≤ S4096x1024.size a
  inb_S4096x1024_S8x1024_1576_0 : ∀ a, (![1576, 0] : Fin 2 → Nat) a + S8x1024.size a ≤ S4096x1024.size a
  inb_S4096x1024_S8x1024_1584_0 : ∀ a, (![1584, 0] : Fin 2 → Nat) a + S8x1024.size a ≤ S4096x1024.size a
  inb_S4096x1024_S8x1024_1592_0 : ∀ a, (![1592, 0] : Fin 2 → Nat) a + S8x1024.size a ≤ S4096x1024.size a
  inb_S4096x1024_S8x1024_1600_0 : ∀ a, (![1600, 0] : Fin 2 → Nat) a + S8x1024.size a ≤ S4096x1024.size a
  inb_S4096x1024_S8x1024_1608_0 : ∀ a, (![1608, 0] : Fin 2 → Nat) a + S8x1024.size a ≤ S4096x1024.size a
  inb_S4096x1024_S8x1024_1616_0 : ∀ a, (![1616, 0] : Fin 2 → Nat) a + S8x1024.size a ≤ S4096x1024.size a
  inb_S4096x1024_S8x1024_1624_0 : ∀ a, (![1624, 0] : Fin 2 → Nat) a + S8x1024.size a ≤ S4096x1024.size a
  inb_S4096x1024_S8x1024_1632_0 : ∀ a, (![1632, 0] : Fin 2 → Nat) a + S8x1024.size a ≤ S4096x1024.size a
  inb_S4096x1024_S8x1024_1640_0 : ∀ a, (![1640, 0] : Fin 2 → Nat) a + S8x1024.size a ≤ S4096x1024.size a
  inb_S4096x1024_S8x1024_1648_0 : ∀ a, (![1648, 0] : Fin 2 → Nat) a + S8x1024.size a ≤ S4096x1024.size a
  inb_S4096x1024_S8x1024_1656_0 : ∀ a, (![1656, 0] : Fin 2 → Nat) a + S8x1024.size a ≤ S4096x1024.size a
  inb_S4096x1024_S8x1024_1664_0 : ∀ a, (![1664, 0] : Fin 2 → Nat) a + S8x1024.size a ≤ S4096x1024.size a
  inb_S4096x1024_S8x1024_1672_0 : ∀ a, (![1672, 0] : Fin 2 → Nat) a + S8x1024.size a ≤ S4096x1024.size a
  inb_S4096x1024_S8x1024_1680_0 : ∀ a, (![1680, 0] : Fin 2 → Nat) a + S8x1024.size a ≤ S4096x1024.size a
  inb_S4096x1024_S8x1024_1688_0 : ∀ a, (![1688, 0] : Fin 2 → Nat) a + S8x1024.size a ≤ S4096x1024.size a
  inb_S4096x1024_S8x1024_1696_0 : ∀ a, (![1696, 0] : Fin 2 → Nat) a + S8x1024.size a ≤ S4096x1024.size a
  inb_S4096x1024_S8x1024_1704_0 : ∀ a, (![1704, 0] : Fin 2 → Nat) a + S8x1024.size a ≤ S4096x1024.size a
  inb_S4096x1024_S8x1024_1712_0 : ∀ a, (![1712, 0] : Fin 2 → Nat) a + S8x1024.size a ≤ S4096x1024.size a
  inb_S4096x1024_S8x1024_1720_0 : ∀ a, (![1720, 0] : Fin 2 → Nat) a + S8x1024.size a ≤ S4096x1024.size a
  inb_S4096x1024_S8x1024_1728_0 : ∀ a, (![1728, 0] : Fin 2 → Nat) a + S8x1024.size a ≤ S4096x1024.size a
  inb_S4096x1024_S8x1024_1736_0 : ∀ a, (![1736, 0] : Fin 2 → Nat) a + S8x1024.size a ≤ S4096x1024.size a
  inb_S4096x1024_S8x1024_1744_0 : ∀ a, (![1744, 0] : Fin 2 → Nat) a + S8x1024.size a ≤ S4096x1024.size a
  inb_S4096x1024_S8x1024_1752_0 : ∀ a, (![1752, 0] : Fin 2 → Nat) a + S8x1024.size a ≤ S4096x1024.size a
  inb_S4096x1024_S8x1024_1760_0 : ∀ a, (![1760, 0] : Fin 2 → Nat) a + S8x1024.size a ≤ S4096x1024.size a
  inb_S4096x1024_S8x1024_1768_0 : ∀ a, (![1768, 0] : Fin 2 → Nat) a + S8x1024.size a ≤ S4096x1024.size a
  inb_S4096x1024_S8x1024_1776_0 : ∀ a, (![1776, 0] : Fin 2 → Nat) a + S8x1024.size a ≤ S4096x1024.size a
  inb_S4096x1024_S8x1024_1784_0 : ∀ a, (![1784, 0] : Fin 2 → Nat) a + S8x1024.size a ≤ S4096x1024.size a
  inb_S4096x1024_S8x1024_1792_0 : ∀ a, (![1792, 0] : Fin 2 → Nat) a + S8x1024.size a ≤ S4096x1024.size a
  inb_S4096x1024_S8x1024_1800_0 : ∀ a, (![1800, 0] : Fin 2 → Nat) a + S8x1024.size a ≤ S4096x1024.size a
  inb_S4096x1024_S8x1024_1808_0 : ∀ a, (![1808, 0] : Fin 2 → Nat) a + S8x1024.size a ≤ S4096x1024.size a
  inb_S4096x1024_S8x1024_1816_0 : ∀ a, (![1816, 0] : Fin 2 → Nat) a + S8x1024.size a ≤ S4096x1024.size a
  inb_S4096x1024_S8x1024_1824_0 : ∀ a, (![1824, 0] : Fin 2 → Nat) a + S8x1024.size a ≤ S4096x1024.size a
  inb_S4096x1024_S8x1024_1832_0 : ∀ a, (![1832, 0] : Fin 2 → Nat) a + S8x1024.size a ≤ S4096x1024.size a
  inb_S4096x1024_S8x1024_1840_0 : ∀ a, (![1840, 0] : Fin 2 → Nat) a + S8x1024.size a ≤ S4096x1024.size a
  inb_S4096x1024_S8x1024_1848_0 : ∀ a, (![1848, 0] : Fin 2 → Nat) a + S8x1024.size a ≤ S4096x1024.size a
  inb_S4096x1024_S8x1024_1856_0 : ∀ a, (![1856, 0] : Fin 2 → Nat) a + S8x1024.size a ≤ S4096x1024.size a
  inb_S4096x1024_S8x1024_1864_0 : ∀ a, (![1864, 0] : Fin 2 → Nat) a + S8x1024.size a ≤ S4096x1024.size a
  inb_S4096x1024_S8x1024_1872_0 : ∀ a, (![1872, 0] : Fin 2 → Nat) a + S8x1024.size a ≤ S4096x1024.size a
  inb_S4096x1024_S8x1024_1880_0 : ∀ a, (![1880, 0] : Fin 2 → Nat) a + S8x1024.size a ≤ S4096x1024.size a
  inb_S4096x1024_S8x1024_1888_0 : ∀ a, (![1888, 0] : Fin 2 → Nat) a + S8x1024.size a ≤ S4096x1024.size a
  inb_S4096x1024_S8x1024_1896_0 : ∀ a, (![1896, 0] : Fin 2 → Nat) a + S8x1024.size a ≤ S4096x1024.size a
  inb_S4096x1024_S8x1024_1904_0 : ∀ a, (![1904, 0] : Fin 2 → Nat) a + S8x1024.size a ≤ S4096x1024.size a
  inb_S4096x1024_S8x1024_1912_0 : ∀ a, (![1912, 0] : Fin 2 → Nat) a + S8x1024.size a ≤ S4096x1024.size a
  inb_S4096x1024_S8x1024_1920_0 : ∀ a, (![1920, 0] : Fin 2 → Nat) a + S8x1024.size a ≤ S4096x1024.size a
  inb_S4096x1024_S8x1024_1928_0 : ∀ a, (![1928, 0] : Fin 2 → Nat) a + S8x1024.size a ≤ S4096x1024.size a
  inb_S4096x1024_S8x1024_1936_0 : ∀ a, (![1936, 0] : Fin 2 → Nat) a + S8x1024.size a ≤ S4096x1024.size a
  inb_S4096x1024_S8x1024_1944_0 : ∀ a, (![1944, 0] : Fin 2 → Nat) a + S8x1024.size a ≤ S4096x1024.size a
  inb_S4096x1024_S8x1024_1952_0 : ∀ a, (![1952, 0] : Fin 2 → Nat) a + S8x1024.size a ≤ S4096x1024.size a
  inb_S4096x1024_S8x1024_1960_0 : ∀ a, (![1960, 0] : Fin 2 → Nat) a + S8x1024.size a ≤ S4096x1024.size a
  inb_S4096x1024_S8x1024_1968_0 : ∀ a, (![1968, 0] : Fin 2 → Nat) a + S8x1024.size a ≤ S4096x1024.size a
  inb_S4096x1024_S8x1024_1976_0 : ∀ a, (![1976, 0] : Fin 2 → Nat) a + S8x1024.size a ≤ S4096x1024.size a
  inb_S4096x1024_S8x1024_1984_0 : ∀ a, (![1984, 0] : Fin 2 → Nat) a + S8x1024.size a ≤ S4096x1024.size a
  inb_S4096x1024_S8x1024_1992_0 : ∀ a, (![1992, 0] : Fin 2 → Nat) a + S8x1024.size a ≤ S4096x1024.size a
  inb_S4096x1024_S8x1024_2000_0 : ∀ a, (![2000, 0] : Fin 2 → Nat) a + S8x1024.size a ≤ S4096x1024.size a
  inb_S4096x1024_S8x1024_2008_0 : ∀ a, (![2008, 0] : Fin 2 → Nat) a + S8x1024.size a ≤ S4096x1024.size a
  inb_S4096x1024_S8x1024_2016_0 : ∀ a, (![2016, 0] : Fin 2 → Nat) a + S8x1024.size a ≤ S4096x1024.size a
  inb_S4096x1024_S8x1024_2024_0 : ∀ a, (![2024, 0] : Fin 2 → Nat) a + S8x1024.size a ≤ S4096x1024.size a
  inb_S4096x1024_S8x1024_2032_0 : ∀ a, (![2032, 0] : Fin 2 → Nat) a + S8x1024.size a ≤ S4096x1024.size a
  inb_S4096x1024_S8x1024_2040_0 : ∀ a, (![2040, 0] : Fin 2 → Nat) a + S8x1024.size a ≤ S4096x1024.size a
  inb_S4096x1024_S8x1024_2048_0 : ∀ a, (![2048, 0] : Fin 2 → Nat) a + S8x1024.size a ≤ S4096x1024.size a
  inb_S4096x1024_S8x1024_2056_0 : ∀ a, (![2056, 0] : Fin 2 → Nat) a + S8x1024.size a ≤ S4096x1024.size a
  inb_S4096x1024_S8x1024_2064_0 : ∀ a, (![2064, 0] : Fin 2 → Nat) a + S8x1024.size a ≤ S4096x1024.size a
  inb_S4096x1024_S8x1024_2072_0 : ∀ a, (![2072, 0] : Fin 2 → Nat) a + S8x1024.size a ≤ S4096x1024.size a
  inb_S4096x1024_S8x1024_2080_0 : ∀ a, (![2080, 0] : Fin 2 → Nat) a + S8x1024.size a ≤ S4096x1024.size a
  inb_S4096x1024_S8x1024_2088_0 : ∀ a, (![2088, 0] : Fin 2 → Nat) a + S8x1024.size a ≤ S4096x1024.size a
  inb_S4096x1024_S8x1024_2096_0 : ∀ a, (![2096, 0] : Fin 2 → Nat) a + S8x1024.size a ≤ S4096x1024.size a
  inb_S4096x1024_S8x1024_2104_0 : ∀ a, (![2104, 0] : Fin 2 → Nat) a + S8x1024.size a ≤ S4096x1024.size a
  inb_S4096x1024_S8x1024_2112_0 : ∀ a, (![2112, 0] : Fin 2 → Nat) a + S8x1024.size a ≤ S4096x1024.size a
  inb_S4096x1024_S8x1024_2120_0 : ∀ a, (![2120, 0] : Fin 2 → Nat) a + S8x1024.size a ≤ S4096x1024.size a
  inb_S4096x1024_S8x1024_2128_0 : ∀ a, (![2128, 0] : Fin 2 → Nat) a + S8x1024.size a ≤ S4096x1024.size a
  inb_S4096x1024_S8x1024_2136_0 : ∀ a, (![2136, 0] : Fin 2 → Nat) a + S8x1024.size a ≤ S4096x1024.size a
  inb_S4096x1024_S8x1024_2144_0 : ∀ a, (![2144, 0] : Fin 2 → Nat) a + S8x1024.size a ≤ S4096x1024.size a
  inb_S4096x1024_S8x1024_2152_0 : ∀ a, (![2152, 0] : Fin 2 → Nat) a + S8x1024.size a ≤ S4096x1024.size a
  inb_S4096x1024_S8x1024_2160_0 : ∀ a, (![2160, 0] : Fin 2 → Nat) a + S8x1024.size a ≤ S4096x1024.size a
  inb_S4096x1024_S8x1024_2168_0 : ∀ a, (![2168, 0] : Fin 2 → Nat) a + S8x1024.size a ≤ S4096x1024.size a
  inb_S4096x1024_S8x1024_2176_0 : ∀ a, (![2176, 0] : Fin 2 → Nat) a + S8x1024.size a ≤ S4096x1024.size a
  inb_S4096x1024_S8x1024_2184_0 : ∀ a, (![2184, 0] : Fin 2 → Nat) a + S8x1024.size a ≤ S4096x1024.size a
  inb_S4096x1024_S8x1024_2192_0 : ∀ a, (![2192, 0] : Fin 2 → Nat) a + S8x1024.size a ≤ S4096x1024.size a
  inb_S4096x1024_S8x1024_2200_0 : ∀ a, (![2200, 0] : Fin 2 → Nat) a + S8x1024.size a ≤ S4096x1024.size a
  inb_S4096x1024_S8x1024_2208_0 : ∀ a, (![2208, 0] : Fin 2 → Nat) a + S8x1024.size a ≤ S4096x1024.size a
  inb_S4096x1024_S8x1024_2216_0 : ∀ a, (![2216, 0] : Fin 2 → Nat) a + S8x1024.size a ≤ S4096x1024.size a
  inb_S4096x1024_S8x1024_2224_0 : ∀ a, (![2224, 0] : Fin 2 → Nat) a + S8x1024.size a ≤ S4096x1024.size a
  inb_S4096x1024_S8x1024_2232_0 : ∀ a, (![2232, 0] : Fin 2 → Nat) a + S8x1024.size a ≤ S4096x1024.size a
  inb_S4096x1024_S8x1024_2240_0 : ∀ a, (![2240, 0] : Fin 2 → Nat) a + S8x1024.size a ≤ S4096x1024.size a
  inb_S4096x1024_S8x1024_2248_0 : ∀ a, (![2248, 0] : Fin 2 → Nat) a + S8x1024.size a ≤ S4096x1024.size a
  inb_S4096x1024_S8x1024_2256_0 : ∀ a, (![2256, 0] : Fin 2 → Nat) a + S8x1024.size a ≤ S4096x1024.size a
  inb_S4096x1024_S8x1024_2264_0 : ∀ a, (![2264, 0] : Fin 2 → Nat) a + S8x1024.size a ≤ S4096x1024.size a
  inb_S4096x1024_S8x1024_2272_0 : ∀ a, (![2272, 0] : Fin 2 → Nat) a + S8x1024.size a ≤ S4096x1024.size a
  inb_S4096x1024_S8x1024_2280_0 : ∀ a, (![2280, 0] : Fin 2 → Nat) a + S8x1024.size a ≤ S4096x1024.size a
  inb_S4096x1024_S8x1024_2288_0 : ∀ a, (![2288, 0] : Fin 2 → Nat) a + S8x1024.size a ≤ S4096x1024.size a
  inb_S4096x1024_S8x1024_2296_0 : ∀ a, (![2296, 0] : Fin 2 → Nat) a + S8x1024.size a ≤ S4096x1024.size a
  inb_S4096x1024_S8x1024_2304_0 : ∀ a, (![2304, 0] : Fin 2 → Nat) a + S8x1024.size a ≤ S4096x1024.size a
  inb_S4096x1024_S8x1024_2312_0 : ∀ a, (![2312, 0] : Fin 2 → Nat) a + S8x1024.size a ≤ S4096x1024.size a
  inb_S4096x1024_S8x1024_2320_0 : ∀ a, (![2320, 0] : Fin 2 → Nat) a + S8x1024.size a ≤ S4096x1024.size a
  inb_S4096x1024_S8x1024_2328_0 : ∀ a, (![2328, 0] : Fin 2 → Nat) a + S8x1024.size a ≤ S4096x1024.size a
  inb_S4096x1024_S8x1024_2336_0 : ∀ a, (![2336, 0] : Fin 2 → Nat) a + S8x1024.size a ≤ S4096x1024.size a
  inb_S4096x1024_S8x1024_2344_0 : ∀ a, (![2344, 0] : Fin 2 → Nat) a + S8x1024.size a ≤ S4096x1024.size a
  inb_S4096x1024_S8x1024_2352_0 : ∀ a, (![2352, 0] : Fin 2 → Nat) a + S8x1024.size a ≤ S4096x1024.size a
  inb_S4096x1024_S8x1024_2360_0 : ∀ a, (![2360, 0] : Fin 2 → Nat) a + S8x1024.size a ≤ S4096x1024.size a
  inb_S4096x1024_S8x1024_2368_0 : ∀ a, (![2368, 0] : Fin 2 → Nat) a + S8x1024.size a ≤ S4096x1024.size a
  inb_S4096x1024_S8x1024_2376_0 : ∀ a, (![2376, 0] : Fin 2 → Nat) a + S8x1024.size a ≤ S4096x1024.size a
  inb_S4096x1024_S8x1024_2384_0 : ∀ a, (![2384, 0] : Fin 2 → Nat) a + S8x1024.size a ≤ S4096x1024.size a
  inb_S4096x1024_S8x1024_2392_0 : ∀ a, (![2392, 0] : Fin 2 → Nat) a + S8x1024.size a ≤ S4096x1024.size a
  inb_S4096x1024_S8x1024_2400_0 : ∀ a, (![2400, 0] : Fin 2 → Nat) a + S8x1024.size a ≤ S4096x1024.size a
  inb_S4096x1024_S8x1024_2408_0 : ∀ a, (![2408, 0] : Fin 2 → Nat) a + S8x1024.size a ≤ S4096x1024.size a
  inb_S4096x1024_S8x1024_2416_0 : ∀ a, (![2416, 0] : Fin 2 → Nat) a + S8x1024.size a ≤ S4096x1024.size a
  inb_S4096x1024_S8x1024_2424_0 : ∀ a, (![2424, 0] : Fin 2 → Nat) a + S8x1024.size a ≤ S4096x1024.size a
  inb_S4096x1024_S8x1024_2432_0 : ∀ a, (![2432, 0] : Fin 2 → Nat) a + S8x1024.size a ≤ S4096x1024.size a
  inb_S4096x1024_S8x1024_2440_0 : ∀ a, (![2440, 0] : Fin 2 → Nat) a + S8x1024.size a ≤ S4096x1024.size a
  inb_S4096x1024_S8x1024_2448_0 : ∀ a, (![2448, 0] : Fin 2 → Nat) a + S8x1024.size a ≤ S4096x1024.size a
  inb_S4096x1024_S8x1024_2456_0 : ∀ a, (![2456, 0] : Fin 2 → Nat) a + S8x1024.size a ≤ S4096x1024.size a
  inb_S4096x1024_S8x1024_2464_0 : ∀ a, (![2464, 0] : Fin 2 → Nat) a + S8x1024.size a ≤ S4096x1024.size a
  inb_S4096x1024_S8x1024_2472_0 : ∀ a, (![2472, 0] : Fin 2 → Nat) a + S8x1024.size a ≤ S4096x1024.size a
  inb_S4096x1024_S8x1024_2480_0 : ∀ a, (![2480, 0] : Fin 2 → Nat) a + S8x1024.size a ≤ S4096x1024.size a
  inb_S4096x1024_S8x1024_2488_0 : ∀ a, (![2488, 0] : Fin 2 → Nat) a + S8x1024.size a ≤ S4096x1024.size a
  inb_S4096x1024_S8x1024_2496_0 : ∀ a, (![2496, 0] : Fin 2 → Nat) a + S8x1024.size a ≤ S4096x1024.size a
  inb_S4096x1024_S8x1024_2504_0 : ∀ a, (![2504, 0] : Fin 2 → Nat) a + S8x1024.size a ≤ S4096x1024.size a
  inb_S4096x1024_S8x1024_2512_0 : ∀ a, (![2512, 0] : Fin 2 → Nat) a + S8x1024.size a ≤ S4096x1024.size a
  inb_S4096x1024_S8x1024_2520_0 : ∀ a, (![2520, 0] : Fin 2 → Nat) a + S8x1024.size a ≤ S4096x1024.size a
  inb_S4096x1024_S8x1024_2528_0 : ∀ a, (![2528, 0] : Fin 2 → Nat) a + S8x1024.size a ≤ S4096x1024.size a
  inb_S4096x1024_S8x1024_2536_0 : ∀ a, (![2536, 0] : Fin 2 → Nat) a + S8x1024.size a ≤ S4096x1024.size a
  inb_S4096x1024_S8x1024_2544_0 : ∀ a, (![2544, 0] : Fin 2 → Nat) a + S8x1024.size a ≤ S4096x1024.size a
  inb_S4096x1024_S8x1024_2552_0 : ∀ a, (![2552, 0] : Fin 2 → Nat) a + S8x1024.size a ≤ S4096x1024.size a
  inb_S4096x1024_S8x1024_2560_0 : ∀ a, (![2560, 0] : Fin 2 → Nat) a + S8x1024.size a ≤ S4096x1024.size a
  inb_S4096x1024_S8x1024_2568_0 : ∀ a, (![2568, 0] : Fin 2 → Nat) a + S8x1024.size a ≤ S4096x1024.size a
  inb_S4096x1024_S8x1024_2576_0 : ∀ a, (![2576, 0] : Fin 2 → Nat) a + S8x1024.size a ≤ S4096x1024.size a
  inb_S4096x1024_S8x1024_2584_0 : ∀ a, (![2584, 0] : Fin 2 → Nat) a + S8x1024.size a ≤ S4096x1024.size a
  inb_S4096x1024_S8x1024_2592_0 : ∀ a, (![2592, 0] : Fin 2 → Nat) a + S8x1024.size a ≤ S4096x1024.size a
  inb_S4096x1024_S8x1024_2600_0 : ∀ a, (![2600, 0] : Fin 2 → Nat) a + S8x1024.size a ≤ S4096x1024.size a
  inb_S4096x1024_S8x1024_2608_0 : ∀ a, (![2608, 0] : Fin 2 → Nat) a + S8x1024.size a ≤ S4096x1024.size a
  inb_S4096x1024_S8x1024_2616_0 : ∀ a, (![2616, 0] : Fin 2 → Nat) a + S8x1024.size a ≤ S4096x1024.size a
  inb_S4096x1024_S8x1024_2624_0 : ∀ a, (![2624, 0] : Fin 2 → Nat) a + S8x1024.size a ≤ S4096x1024.size a
  inb_S4096x1024_S8x1024_2632_0 : ∀ a, (![2632, 0] : Fin 2 → Nat) a + S8x1024.size a ≤ S4096x1024.size a
  inb_S4096x1024_S8x1024_2640_0 : ∀ a, (![2640, 0] : Fin 2 → Nat) a + S8x1024.size a ≤ S4096x1024.size a
  inb_S4096x1024_S8x1024_2648_0 : ∀ a, (![2648, 0] : Fin 2 → Nat) a + S8x1024.size a ≤ S4096x1024.size a
  inb_S4096x1024_S8x1024_2656_0 : ∀ a, (![2656, 0] : Fin 2 → Nat) a + S8x1024.size a ≤ S4096x1024.size a
  inb_S4096x1024_S8x1024_2664_0 : ∀ a, (![2664, 0] : Fin 2 → Nat) a + S8x1024.size a ≤ S4096x1024.size a
  inb_S4096x1024_S8x1024_2672_0 : ∀ a, (![2672, 0] : Fin 2 → Nat) a + S8x1024.size a ≤ S4096x1024.size a
  inb_S4096x1024_S8x1024_2680_0 : ∀ a, (![2680, 0] : Fin 2 → Nat) a + S8x1024.size a ≤ S4096x1024.size a
  inb_S4096x1024_S8x1024_2688_0 : ∀ a, (![2688, 0] : Fin 2 → Nat) a + S8x1024.size a ≤ S4096x1024.size a
  inb_S4096x1024_S8x1024_2696_0 : ∀ a, (![2696, 0] : Fin 2 → Nat) a + S8x1024.size a ≤ S4096x1024.size a
  inb_S4096x1024_S8x1024_2704_0 : ∀ a, (![2704, 0] : Fin 2 → Nat) a + S8x1024.size a ≤ S4096x1024.size a
  inb_S4096x1024_S8x1024_2712_0 : ∀ a, (![2712, 0] : Fin 2 → Nat) a + S8x1024.size a ≤ S4096x1024.size a
  inb_S4096x1024_S8x1024_2720_0 : ∀ a, (![2720, 0] : Fin 2 → Nat) a + S8x1024.size a ≤ S4096x1024.size a
  inb_S4096x1024_S8x1024_2728_0 : ∀ a, (![2728, 0] : Fin 2 → Nat) a + S8x1024.size a ≤ S4096x1024.size a
  inb_S4096x1024_S8x1024_2736_0 : ∀ a, (![2736, 0] : Fin 2 → Nat) a + S8x1024.size a ≤ S4096x1024.size a
  inb_S4096x1024_S8x1024_2744_0 : ∀ a, (![2744, 0] : Fin 2 → Nat) a + S8x1024.size a ≤ S4096x1024.size a
  inb_S4096x1024_S8x1024_2752_0 : ∀ a, (![2752, 0] : Fin 2 → Nat) a + S8x1024.size a ≤ S4096x1024.size a
  inb_S4096x1024_S8x1024_2760_0 : ∀ a, (![2760, 0] : Fin 2 → Nat) a + S8x1024.size a ≤ S4096x1024.size a
  inb_S4096x1024_S8x1024_2768_0 : ∀ a, (![2768, 0] : Fin 2 → Nat) a + S8x1024.size a ≤ S4096x1024.size a
  inb_S4096x1024_S8x1024_2776_0 : ∀ a, (![2776, 0] : Fin 2 → Nat) a + S8x1024.size a ≤ S4096x1024.size a
  inb_S4096x1024_S8x1024_2784_0 : ∀ a, (![2784, 0] : Fin 2 → Nat) a + S8x1024.size a ≤ S4096x1024.size a
  inb_S4096x1024_S8x1024_2792_0 : ∀ a, (![2792, 0] : Fin 2 → Nat) a + S8x1024.size a ≤ S4096x1024.size a
  inb_S4096x1024_S8x1024_2800_0 : ∀ a, (![2800, 0] : Fin 2 → Nat) a + S8x1024.size a ≤ S4096x1024.size a
  inb_S4096x1024_S8x1024_2808_0 : ∀ a, (![2808, 0] : Fin 2 → Nat) a + S8x1024.size a ≤ S4096x1024.size a
  inb_S4096x1024_S8x1024_2816_0 : ∀ a, (![2816, 0] : Fin 2 → Nat) a + S8x1024.size a ≤ S4096x1024.size a
  inb_S4096x1024_S8x1024_2824_0 : ∀ a, (![2824, 0] : Fin 2 → Nat) a + S8x1024.size a ≤ S4096x1024.size a
  inb_S4096x1024_S8x1024_2832_0 : ∀ a, (![2832, 0] : Fin 2 → Nat) a + S8x1024.size a ≤ S4096x1024.size a
  inb_S4096x1024_S8x1024_2840_0 : ∀ a, (![2840, 0] : Fin 2 → Nat) a + S8x1024.size a ≤ S4096x1024.size a
  inb_S4096x1024_S8x1024_2848_0 : ∀ a, (![2848, 0] : Fin 2 → Nat) a + S8x1024.size a ≤ S4096x1024.size a
  inb_S4096x1024_S8x1024_2856_0 : ∀ a, (![2856, 0] : Fin 2 → Nat) a + S8x1024.size a ≤ S4096x1024.size a
  inb_S4096x1024_S8x1024_2864_0 : ∀ a, (![2864, 0] : Fin 2 → Nat) a + S8x1024.size a ≤ S4096x1024.size a
  inb_S4096x1024_S8x1024_2872_0 : ∀ a, (![2872, 0] : Fin 2 → Nat) a + S8x1024.size a ≤ S4096x1024.size a
  inb_S4096x1024_S8x1024_2880_0 : ∀ a, (![2880, 0] : Fin 2 → Nat) a + S8x1024.size a ≤ S4096x1024.size a
  inb_S4096x1024_S8x1024_2888_0 : ∀ a, (![2888, 0] : Fin 2 → Nat) a + S8x1024.size a ≤ S4096x1024.size a
  inb_S4096x1024_S8x1024_2896_0 : ∀ a, (![2896, 0] : Fin 2 → Nat) a + S8x1024.size a ≤ S4096x1024.size a
  inb_S4096x1024_S8x1024_2904_0 : ∀ a, (![2904, 0] : Fin 2 → Nat) a + S8x1024.size a ≤ S4096x1024.size a
  inb_S4096x1024_S8x1024_2912_0 : ∀ a, (![2912, 0] : Fin 2 → Nat) a + S8x1024.size a ≤ S4096x1024.size a
  inb_S4096x1024_S8x1024_2920_0 : ∀ a, (![2920, 0] : Fin 2 → Nat) a + S8x1024.size a ≤ S4096x1024.size a
  inb_S4096x1024_S8x1024_2928_0 : ∀ a, (![2928, 0] : Fin 2 → Nat) a + S8x1024.size a ≤ S4096x1024.size a
  inb_S4096x1024_S8x1024_2936_0 : ∀ a, (![2936, 0] : Fin 2 → Nat) a + S8x1024.size a ≤ S4096x1024.size a
  inb_S4096x1024_S8x1024_2944_0 : ∀ a, (![2944, 0] : Fin 2 → Nat) a + S8x1024.size a ≤ S4096x1024.size a
  inb_S4096x1024_S8x1024_2952_0 : ∀ a, (![2952, 0] : Fin 2 → Nat) a + S8x1024.size a ≤ S4096x1024.size a
  inb_S4096x1024_S8x1024_2960_0 : ∀ a, (![2960, 0] : Fin 2 → Nat) a + S8x1024.size a ≤ S4096x1024.size a
  inb_S4096x1024_S8x1024_2968_0 : ∀ a, (![2968, 0] : Fin 2 → Nat) a + S8x1024.size a ≤ S4096x1024.size a
  inb_S4096x1024_S8x1024_2976_0 : ∀ a, (![2976, 0] : Fin 2 → Nat) a + S8x1024.size a ≤ S4096x1024.size a
  inb_S4096x1024_S8x1024_2984_0 : ∀ a, (![2984, 0] : Fin 2 → Nat) a + S8x1024.size a ≤ S4096x1024.size a
  inb_S4096x1024_S8x1024_2992_0 : ∀ a, (![2992, 0] : Fin 2 → Nat) a + S8x1024.size a ≤ S4096x1024.size a
  inb_S4096x1024_S8x1024_3000_0 : ∀ a, (![3000, 0] : Fin 2 → Nat) a + S8x1024.size a ≤ S4096x1024.size a
  inb_S4096x1024_S8x1024_3008_0 : ∀ a, (![3008, 0] : Fin 2 → Nat) a + S8x1024.size a ≤ S4096x1024.size a
  inb_S4096x1024_S8x1024_3016_0 : ∀ a, (![3016, 0] : Fin 2 → Nat) a + S8x1024.size a ≤ S4096x1024.size a
  inb_S4096x1024_S8x1024_3024_0 : ∀ a, (![3024, 0] : Fin 2 → Nat) a + S8x1024.size a ≤ S4096x1024.size a
  inb_S4096x1024_S8x1024_3032_0 : ∀ a, (![3032, 0] : Fin 2 → Nat) a + S8x1024.size a ≤ S4096x1024.size a
  inb_S4096x1024_S8x1024_3040_0 : ∀ a, (![3040, 0] : Fin 2 → Nat) a + S8x1024.size a ≤ S4096x1024.size a
  inb_S4096x1024_S8x1024_3048_0 : ∀ a, (![3048, 0] : Fin 2 → Nat) a + S8x1024.size a ≤ S4096x1024.size a
  inb_S4096x1024_S8x1024_3056_0 : ∀ a, (![3056, 0] : Fin 2 → Nat) a + S8x1024.size a ≤ S4096x1024.size a
  inb_S4096x1024_S8x1024_3064_0 : ∀ a, (![3064, 0] : Fin 2 → Nat) a + S8x1024.size a ≤ S4096x1024.size a
  inb_S4096x1024_S8x1024_3072_0 : ∀ a, (![3072, 0] : Fin 2 → Nat) a + S8x1024.size a ≤ S4096x1024.size a
  inb_S4096x1024_S8x1024_3080_0 : ∀ a, (![3080, 0] : Fin 2 → Nat) a + S8x1024.size a ≤ S4096x1024.size a
  inb_S4096x1024_S8x1024_3088_0 : ∀ a, (![3088, 0] : Fin 2 → Nat) a + S8x1024.size a ≤ S4096x1024.size a
  inb_S4096x1024_S8x1024_3096_0 : ∀ a, (![3096, 0] : Fin 2 → Nat) a + S8x1024.size a ≤ S4096x1024.size a
  inb_S4096x1024_S8x1024_3104_0 : ∀ a, (![3104, 0] : Fin 2 → Nat) a + S8x1024.size a ≤ S4096x1024.size a
  inb_S4096x1024_S8x1024_3112_0 : ∀ a, (![3112, 0] : Fin 2 → Nat) a + S8x1024.size a ≤ S4096x1024.size a
  inb_S4096x1024_S8x1024_3120_0 : ∀ a, (![3120, 0] : Fin 2 → Nat) a + S8x1024.size a ≤ S4096x1024.size a
  inb_S4096x1024_S8x1024_3128_0 : ∀ a, (![3128, 0] : Fin 2 → Nat) a + S8x1024.size a ≤ S4096x1024.size a
  inb_S4096x1024_S8x1024_3136_0 : ∀ a, (![3136, 0] : Fin 2 → Nat) a + S8x1024.size a ≤ S4096x1024.size a
  inb_S4096x1024_S8x1024_3144_0 : ∀ a, (![3144, 0] : Fin 2 → Nat) a + S8x1024.size a ≤ S4096x1024.size a
  inb_S4096x1024_S8x1024_3152_0 : ∀ a, (![3152, 0] : Fin 2 → Nat) a + S8x1024.size a ≤ S4096x1024.size a
  inb_S4096x1024_S8x1024_3160_0 : ∀ a, (![3160, 0] : Fin 2 → Nat) a + S8x1024.size a ≤ S4096x1024.size a
  inb_S4096x1024_S8x1024_3168_0 : ∀ a, (![3168, 0] : Fin 2 → Nat) a + S8x1024.size a ≤ S4096x1024.size a
  inb_S4096x1024_S8x1024_3176_0 : ∀ a, (![3176, 0] : Fin 2 → Nat) a + S8x1024.size a ≤ S4096x1024.size a
  inb_S4096x1024_S8x1024_3184_0 : ∀ a, (![3184, 0] : Fin 2 → Nat) a + S8x1024.size a ≤ S4096x1024.size a
  inb_S4096x1024_S8x1024_3192_0 : ∀ a, (![3192, 0] : Fin 2 → Nat) a + S8x1024.size a ≤ S4096x1024.size a
  inb_S4096x1024_S8x1024_3200_0 : ∀ a, (![3200, 0] : Fin 2 → Nat) a + S8x1024.size a ≤ S4096x1024.size a
  inb_S4096x1024_S8x1024_3208_0 : ∀ a, (![3208, 0] : Fin 2 → Nat) a + S8x1024.size a ≤ S4096x1024.size a
  inb_S4096x1024_S8x1024_3216_0 : ∀ a, (![3216, 0] : Fin 2 → Nat) a + S8x1024.size a ≤ S4096x1024.size a
  inb_S4096x1024_S8x1024_3224_0 : ∀ a, (![3224, 0] : Fin 2 → Nat) a + S8x1024.size a ≤ S4096x1024.size a
  inb_S4096x1024_S8x1024_3232_0 : ∀ a, (![3232, 0] : Fin 2 → Nat) a + S8x1024.size a ≤ S4096x1024.size a
  inb_S4096x1024_S8x1024_3240_0 : ∀ a, (![3240, 0] : Fin 2 → Nat) a + S8x1024.size a ≤ S4096x1024.size a
  inb_S4096x1024_S8x1024_3248_0 : ∀ a, (![3248, 0] : Fin 2 → Nat) a + S8x1024.size a ≤ S4096x1024.size a
  inb_S4096x1024_S8x1024_3256_0 : ∀ a, (![3256, 0] : Fin 2 → Nat) a + S8x1024.size a ≤ S4096x1024.size a
  inb_S4096x1024_S8x1024_3264_0 : ∀ a, (![3264, 0] : Fin 2 → Nat) a + S8x1024.size a ≤ S4096x1024.size a
  inb_S4096x1024_S8x1024_3272_0 : ∀ a, (![3272, 0] : Fin 2 → Nat) a + S8x1024.size a ≤ S4096x1024.size a
  inb_S4096x1024_S8x1024_3280_0 : ∀ a, (![3280, 0] : Fin 2 → Nat) a + S8x1024.size a ≤ S4096x1024.size a
  inb_S4096x1024_S8x1024_3288_0 : ∀ a, (![3288, 0] : Fin 2 → Nat) a + S8x1024.size a ≤ S4096x1024.size a
  inb_S4096x1024_S8x1024_3296_0 : ∀ a, (![3296, 0] : Fin 2 → Nat) a + S8x1024.size a ≤ S4096x1024.size a
  inb_S4096x1024_S8x1024_3304_0 : ∀ a, (![3304, 0] : Fin 2 → Nat) a + S8x1024.size a ≤ S4096x1024.size a
  inb_S4096x1024_S8x1024_3312_0 : ∀ a, (![3312, 0] : Fin 2 → Nat) a + S8x1024.size a ≤ S4096x1024.size a
  inb_S4096x1024_S8x1024_3320_0 : ∀ a, (![3320, 0] : Fin 2 → Nat) a + S8x1024.size a ≤ S4096x1024.size a
  inb_S4096x1024_S8x1024_3328_0 : ∀ a, (![3328, 0] : Fin 2 → Nat) a + S8x1024.size a ≤ S4096x1024.size a
  inb_S4096x1024_S8x1024_3336_0 : ∀ a, (![3336, 0] : Fin 2 → Nat) a + S8x1024.size a ≤ S4096x1024.size a
  inb_S4096x1024_S8x1024_3344_0 : ∀ a, (![3344, 0] : Fin 2 → Nat) a + S8x1024.size a ≤ S4096x1024.size a
  inb_S4096x1024_S8x1024_3352_0 : ∀ a, (![3352, 0] : Fin 2 → Nat) a + S8x1024.size a ≤ S4096x1024.size a
  inb_S4096x1024_S8x1024_3360_0 : ∀ a, (![3360, 0] : Fin 2 → Nat) a + S8x1024.size a ≤ S4096x1024.size a
  inb_S4096x1024_S8x1024_3368_0 : ∀ a, (![3368, 0] : Fin 2 → Nat) a + S8x1024.size a ≤ S4096x1024.size a
  inb_S4096x1024_S8x1024_3376_0 : ∀ a, (![3376, 0] : Fin 2 → Nat) a + S8x1024.size a ≤ S4096x1024.size a
  inb_S4096x1024_S8x1024_3384_0 : ∀ a, (![3384, 0] : Fin 2 → Nat) a + S8x1024.size a ≤ S4096x1024.size a
  inb_S4096x1024_S8x1024_3392_0 : ∀ a, (![3392, 0] : Fin 2 → Nat) a + S8x1024.size a ≤ S4096x1024.size a
  inb_S4096x1024_S8x1024_3400_0 : ∀ a, (![3400, 0] : Fin 2 → Nat) a + S8x1024.size a ≤ S4096x1024.size a
  inb_S4096x1024_S8x1024_3408_0 : ∀ a, (![3408, 0] : Fin 2 → Nat) a + S8x1024.size a ≤ S4096x1024.size a
  inb_S4096x1024_S8x1024_3416_0 : ∀ a, (![3416, 0] : Fin 2 → Nat) a + S8x1024.size a ≤ S4096x1024.size a
  inb_S4096x1024_S8x1024_3424_0 : ∀ a, (![3424, 0] : Fin 2 → Nat) a + S8x1024.size a ≤ S4096x1024.size a
  inb_S4096x1024_S8x1024_3432_0 : ∀ a, (![3432, 0] : Fin 2 → Nat) a + S8x1024.size a ≤ S4096x1024.size a
  inb_S4096x1024_S8x1024_3440_0 : ∀ a, (![3440, 0] : Fin 2 → Nat) a + S8x1024.size a ≤ S4096x1024.size a
  inb_S4096x1024_S8x1024_3448_0 : ∀ a, (![3448, 0] : Fin 2 → Nat) a + S8x1024.size a ≤ S4096x1024.size a
  inb_S4096x1024_S8x1024_3456_0 : ∀ a, (![3456, 0] : Fin 2 → Nat) a + S8x1024.size a ≤ S4096x1024.size a
  inb_S4096x1024_S8x1024_3464_0 : ∀ a, (![3464, 0] : Fin 2 → Nat) a + S8x1024.size a ≤ S4096x1024.size a
  inb_S4096x1024_S8x1024_3472_0 : ∀ a, (![3472, 0] : Fin 2 → Nat) a + S8x1024.size a ≤ S4096x1024.size a
  inb_S4096x1024_S8x1024_3480_0 : ∀ a, (![3480, 0] : Fin 2 → Nat) a + S8x1024.size a ≤ S4096x1024.size a
  inb_S4096x1024_S8x1024_3488_0 : ∀ a, (![3488, 0] : Fin 2 → Nat) a + S8x1024.size a ≤ S4096x1024.size a
  inb_S4096x1024_S8x1024_3496_0 : ∀ a, (![3496, 0] : Fin 2 → Nat) a + S8x1024.size a ≤ S4096x1024.size a
  inb_S4096x1024_S8x1024_3504_0 : ∀ a, (![3504, 0] : Fin 2 → Nat) a + S8x1024.size a ≤ S4096x1024.size a
  inb_S4096x1024_S8x1024_3512_0 : ∀ a, (![3512, 0] : Fin 2 → Nat) a + S8x1024.size a ≤ S4096x1024.size a
  inb_S4096x1024_S8x1024_3520_0 : ∀ a, (![3520, 0] : Fin 2 → Nat) a + S8x1024.size a ≤ S4096x1024.size a
  inb_S4096x1024_S8x1024_3528_0 : ∀ a, (![3528, 0] : Fin 2 → Nat) a + S8x1024.size a ≤ S4096x1024.size a
  inb_S4096x1024_S8x1024_3536_0 : ∀ a, (![3536, 0] : Fin 2 → Nat) a + S8x1024.size a ≤ S4096x1024.size a
  inb_S4096x1024_S8x1024_3544_0 : ∀ a, (![3544, 0] : Fin 2 → Nat) a + S8x1024.size a ≤ S4096x1024.size a
  inb_S4096x1024_S8x1024_3552_0 : ∀ a, (![3552, 0] : Fin 2 → Nat) a + S8x1024.size a ≤ S4096x1024.size a
  inb_S4096x1024_S8x1024_3560_0 : ∀ a, (![3560, 0] : Fin 2 → Nat) a + S8x1024.size a ≤ S4096x1024.size a
  inb_S4096x1024_S8x1024_3568_0 : ∀ a, (![3568, 0] : Fin 2 → Nat) a + S8x1024.size a ≤ S4096x1024.size a
  inb_S4096x1024_S8x1024_3576_0 : ∀ a, (![3576, 0] : Fin 2 → Nat) a + S8x1024.size a ≤ S4096x1024.size a
  inb_S4096x1024_S8x1024_3584_0 : ∀ a, (![3584, 0] : Fin 2 → Nat) a + S8x1024.size a ≤ S4096x1024.size a
  inb_S4096x1024_S8x1024_3592_0 : ∀ a, (![3592, 0] : Fin 2 → Nat) a + S8x1024.size a ≤ S4096x1024.size a
  inb_S4096x1024_S8x1024_3600_0 : ∀ a, (![3600, 0] : Fin 2 → Nat) a + S8x1024.size a ≤ S4096x1024.size a
  inb_S4096x1024_S8x1024_3608_0 : ∀ a, (![3608, 0] : Fin 2 → Nat) a + S8x1024.size a ≤ S4096x1024.size a
  inb_S4096x1024_S8x1024_3616_0 : ∀ a, (![3616, 0] : Fin 2 → Nat) a + S8x1024.size a ≤ S4096x1024.size a
  inb_S4096x1024_S8x1024_3624_0 : ∀ a, (![3624, 0] : Fin 2 → Nat) a + S8x1024.size a ≤ S4096x1024.size a
  inb_S4096x1024_S8x1024_3632_0 : ∀ a, (![3632, 0] : Fin 2 → Nat) a + S8x1024.size a ≤ S4096x1024.size a
  inb_S4096x1024_S8x1024_3640_0 : ∀ a, (![3640, 0] : Fin 2 → Nat) a + S8x1024.size a ≤ S4096x1024.size a
  inb_S4096x1024_S8x1024_3648_0 : ∀ a, (![3648, 0] : Fin 2 → Nat) a + S8x1024.size a ≤ S4096x1024.size a
  inb_S4096x1024_S8x1024_3656_0 : ∀ a, (![3656, 0] : Fin 2 → Nat) a + S8x1024.size a ≤ S4096x1024.size a
  inb_S4096x1024_S8x1024_3664_0 : ∀ a, (![3664, 0] : Fin 2 → Nat) a + S8x1024.size a ≤ S4096x1024.size a
  inb_S4096x1024_S8x1024_3672_0 : ∀ a, (![3672, 0] : Fin 2 → Nat) a + S8x1024.size a ≤ S4096x1024.size a
  inb_S4096x1024_S8x1024_3680_0 : ∀ a, (![3680, 0] : Fin 2 → Nat) a + S8x1024.size a ≤ S4096x1024.size a
  inb_S4096x1024_S8x1024_3688_0 : ∀ a, (![3688, 0] : Fin 2 → Nat) a + S8x1024.size a ≤ S4096x1024.size a
  inb_S4096x1024_S8x1024_3696_0 : ∀ a, (![3696, 0] : Fin 2 → Nat) a + S8x1024.size a ≤ S4096x1024.size a
  inb_S4096x1024_S8x1024_3704_0 : ∀ a, (![3704, 0] : Fin 2 → Nat) a + S8x1024.size a ≤ S4096x1024.size a
  inb_S4096x1024_S8x1024_3712_0 : ∀ a, (![3712, 0] : Fin 2 → Nat) a + S8x1024.size a ≤ S4096x1024.size a
  inb_S4096x1024_S8x1024_3720_0 : ∀ a, (![3720, 0] : Fin 2 → Nat) a + S8x1024.size a ≤ S4096x1024.size a
  inb_S4096x1024_S8x1024_3728_0 : ∀ a, (![3728, 0] : Fin 2 → Nat) a + S8x1024.size a ≤ S4096x1024.size a
  inb_S4096x1024_S8x1024_3736_0 : ∀ a, (![3736, 0] : Fin 2 → Nat) a + S8x1024.size a ≤ S4096x1024.size a
  inb_S4096x1024_S8x1024_3744_0 : ∀ a, (![3744, 0] : Fin 2 → Nat) a + S8x1024.size a ≤ S4096x1024.size a
  inb_S4096x1024_S8x1024_3752_0 : ∀ a, (![3752, 0] : Fin 2 → Nat) a + S8x1024.size a ≤ S4096x1024.size a
  inb_S4096x1024_S8x1024_3760_0 : ∀ a, (![3760, 0] : Fin 2 → Nat) a + S8x1024.size a ≤ S4096x1024.size a
  inb_S4096x1024_S8x1024_3768_0 : ∀ a, (![3768, 0] : Fin 2 → Nat) a + S8x1024.size a ≤ S4096x1024.size a
  inb_S4096x1024_S8x1024_3776_0 : ∀ a, (![3776, 0] : Fin 2 → Nat) a + S8x1024.size a ≤ S4096x1024.size a
  inb_S4096x1024_S8x1024_3784_0 : ∀ a, (![3784, 0] : Fin 2 → Nat) a + S8x1024.size a ≤ S4096x1024.size a
  inb_S4096x1024_S8x1024_3792_0 : ∀ a, (![3792, 0] : Fin 2 → Nat) a + S8x1024.size a ≤ S4096x1024.size a
  inb_S4096x1024_S8x1024_3800_0 : ∀ a, (![3800, 0] : Fin 2 → Nat) a + S8x1024.size a ≤ S4096x1024.size a
  inb_S4096x1024_S8x1024_3808_0 : ∀ a, (![3808, 0] : Fin 2 → Nat) a + S8x1024.size a ≤ S4096x1024.size a
  inb_S4096x1024_S8x1024_3816_0 : ∀ a, (![3816, 0] : Fin 2 → Nat) a + S8x1024.size a ≤ S4096x1024.size a
  inb_S4096x1024_S8x1024_3824_0 : ∀ a, (![3824, 0] : Fin 2 → Nat) a + S8x1024.size a ≤ S4096x1024.size a
  inb_S4096x1024_S8x1024_3832_0 : ∀ a, (![3832, 0] : Fin 2 → Nat) a + S8x1024.size a ≤ S4096x1024.size a
  inb_S4096x1024_S8x1024_3840_0 : ∀ a, (![3840, 0] : Fin 2 → Nat) a + S8x1024.size a ≤ S4096x1024.size a
  inb_S4096x1024_S8x1024_3848_0 : ∀ a, (![3848, 0] : Fin 2 → Nat) a + S8x1024.size a ≤ S4096x1024.size a
  inb_S4096x1024_S8x1024_3856_0 : ∀ a, (![3856, 0] : Fin 2 → Nat) a + S8x1024.size a ≤ S4096x1024.size a
  inb_S4096x1024_S8x1024_3864_0 : ∀ a, (![3864, 0] : Fin 2 → Nat) a + S8x1024.size a ≤ S4096x1024.size a
  inb_S4096x1024_S8x1024_3872_0 : ∀ a, (![3872, 0] : Fin 2 → Nat) a + S8x1024.size a ≤ S4096x1024.size a
  inb_S4096x1024_S8x1024_3880_0 : ∀ a, (![3880, 0] : Fin 2 → Nat) a + S8x1024.size a ≤ S4096x1024.size a
  inb_S4096x1024_S8x1024_3888_0 : ∀ a, (![3888, 0] : Fin 2 → Nat) a + S8x1024.size a ≤ S4096x1024.size a
  inb_S4096x1024_S8x1024_3896_0 : ∀ a, (![3896, 0] : Fin 2 → Nat) a + S8x1024.size a ≤ S4096x1024.size a
  inb_S4096x1024_S8x1024_3904_0 : ∀ a, (![3904, 0] : Fin 2 → Nat) a + S8x1024.size a ≤ S4096x1024.size a
  inb_S4096x1024_S8x1024_3912_0 : ∀ a, (![3912, 0] : Fin 2 → Nat) a + S8x1024.size a ≤ S4096x1024.size a
  inb_S4096x1024_S8x1024_3920_0 : ∀ a, (![3920, 0] : Fin 2 → Nat) a + S8x1024.size a ≤ S4096x1024.size a
  inb_S4096x1024_S8x1024_3928_0 : ∀ a, (![3928, 0] : Fin 2 → Nat) a + S8x1024.size a ≤ S4096x1024.size a
  inb_S4096x1024_S8x1024_3936_0 : ∀ a, (![3936, 0] : Fin 2 → Nat) a + S8x1024.size a ≤ S4096x1024.size a
  inb_S4096x1024_S8x1024_3944_0 : ∀ a, (![3944, 0] : Fin 2 → Nat) a + S8x1024.size a ≤ S4096x1024.size a
  inb_S4096x1024_S8x1024_3952_0 : ∀ a, (![3952, 0] : Fin 2 → Nat) a + S8x1024.size a ≤ S4096x1024.size a
  inb_S4096x1024_S8x1024_3960_0 : ∀ a, (![3960, 0] : Fin 2 → Nat) a + S8x1024.size a ≤ S4096x1024.size a
  inb_S4096x1024_S8x1024_3968_0 : ∀ a, (![3968, 0] : Fin 2 → Nat) a + S8x1024.size a ≤ S4096x1024.size a
  inb_S4096x1024_S8x1024_3976_0 : ∀ a, (![3976, 0] : Fin 2 → Nat) a + S8x1024.size a ≤ S4096x1024.size a
  inb_S4096x1024_S8x1024_3984_0 : ∀ a, (![3984, 0] : Fin 2 → Nat) a + S8x1024.size a ≤ S4096x1024.size a
  inb_S4096x1024_S8x1024_3992_0 : ∀ a, (![3992, 0] : Fin 2 → Nat) a + S8x1024.size a ≤ S4096x1024.size a
  inb_S4096x1024_S8x1024_4000_0 : ∀ a, (![4000, 0] : Fin 2 → Nat) a + S8x1024.size a ≤ S4096x1024.size a
  inb_S4096x1024_S8x1024_4008_0 : ∀ a, (![4008, 0] : Fin 2 → Nat) a + S8x1024.size a ≤ S4096x1024.size a
  inb_S4096x1024_S8x1024_4016_0 : ∀ a, (![4016, 0] : Fin 2 → Nat) a + S8x1024.size a ≤ S4096x1024.size a
  inb_S4096x1024_S8x1024_4024_0 : ∀ a, (![4024, 0] : Fin 2 → Nat) a + S8x1024.size a ≤ S4096x1024.size a
  inb_S4096x1024_S8x1024_4032_0 : ∀ a, (![4032, 0] : Fin 2 → Nat) a + S8x1024.size a ≤ S4096x1024.size a
  inb_S4096x1024_S8x1024_4040_0 : ∀ a, (![4040, 0] : Fin 2 → Nat) a + S8x1024.size a ≤ S4096x1024.size a
  inb_S4096x1024_S8x1024_4048_0 : ∀ a, (![4048, 0] : Fin 2 → Nat) a + S8x1024.size a ≤ S4096x1024.size a
  inb_S4096x1024_S8x1024_4056_0 : ∀ a, (![4056, 0] : Fin 2 → Nat) a + S8x1024.size a ≤ S4096x1024.size a
  inb_S4096x1024_S8x1024_4064_0 : ∀ a, (![4064, 0] : Fin 2 → Nat) a + S8x1024.size a ≤ S4096x1024.size a
  inb_S4096x1024_S8x1024_4072_0 : ∀ a, (![4072, 0] : Fin 2 → Nat) a + S8x1024.size a ≤ S4096x1024.size a
  inb_S4096x1024_S8x1024_4080_0 : ∀ a, (![4080, 0] : Fin 2 → Nat) a + S8x1024.size a ≤ S4096x1024.size a
  inb_S4096x1024_S8x1024_4088_0 : ∀ a, (![4088, 0] : Fin 2 → Nat) a + S8x1024.size a ≤ S4096x1024.size a
  reduces_S8x1024_S1024 : S8x1024.Reduces [0] S1024
  shapeCasts_S1x1024_S1x1024 : S1x1024.ShapeCasts S1x1024
  broadcasts_S1x1024_S8x1024 : S1x1024.Broadcasts S8x1024
  gathers_S100000x128_S32x128 : S100000x128.Gathers 0 S32x128
  iota_S16_d0_w32_scVector : S16.Iotas .scVector 32 [0]
  h_S1x16 : 0 < S1x16.numel
  shapeCasts_S1x16_S16 : S1x16.ShapeCasts S16
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  shapeCasts_S1024_S8x128 : S1024.ShapeCasts S8x128
  inb_S8x1024_S1x1024_0_0 : ∀ a, (![0, 0] : Fin 2 → Nat) a + S1x1024.size a ≤ S8x1024.size a
  h_S1x1024 : 0 < S1x1024.numel
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S1x8x128 : S8x128.ShapeCasts S1x8x128
  reduces_S1x8x128_S1 : S1x8x128.Reduces [1, 2] S1
  inb_S1x1_S1x1_0_0 : ∀ a, (![0, 0] : Fin 2 → Nat) a + S1x1.size a ≤ S1x1.size a
  numel1_S1x1 : S1x1.numel = 1
  transposes_S100000x1024_S1024x100000_1_0 : S100000x1024.Transposes [1, 0] S1024x100000
  shapeCasts_S1x1_S_ : S1x1.ShapeCasts S_
  dot_S64x4096_S64x1024_S4096x1024_0_0_1_1_n_n_wf : DotDims.WF S64x4096 S64x1024 S4096x1024 [0] [0] [1] [1] [] []
  hcc1_scratch3 : 6 + S_.numel ≤ 12
  hcc1_scoped0 : 7 + S_.numel ≤ 12
  hcc1_scoped1 : 8 + S_.numel ≤ 12
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x4096.size a < S64x100000.size a
  hwx0_1 : ∀ i : grid0.Coords, EltTy.bits .f32 = 32 ∨ (Rect.unit (s := S64x100000) (fun a => cc0_transform_1 i a * S64x4096.size a) (fun a => (Pipeline.Clip.of (cc0_transform_1 i a) (S64x4096.size a) (S64x100000.size a)).extent (S64x4096.size a)) fun a => Pipeline.Clip.inb (Pipeline.Clip.ok_of (hstart0_1 i a))).WholeWords (EltTy.packing .f32)
  hwxs0_1 : ∀ i : grid0.Coords, EltTy.bits .f32 = 32 ∨ (Rect.unit (s := S64x4096) (fun _ => 0) (fun a => (Pipeline.Clip.of (cc0_transform_1 i a) (S64x4096.size a) (S64x100000.size a)).extent (S64x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x1024.size a < S100000x1024.size a
  hwx0_2 : ∀ i : grid0.Coords, EltTy.bits .f32 = 32 ∨ (Rect.unit (s := S100000x1024) (fun a => cc0_transform_2 i a * S4096x1024.size a) (fun a => (Pipeline.Clip.of (cc0_transform_2 i a) (S4096x1024.size a) (S100000x1024.size a)).extent (S4096x1024.size a)) fun a => Pipeline.Clip.inb (Pipeline.Clip.ok_of (hstart0_2 i a))).WholeWords (EltTy.packing .f32)
  hwxs0_2 : ∀ i : grid0.Coords, EltTy.bits .f32 = 32 ∨ (Rect.unit (s := S4096x1024) (fun _ => 0) (fun a => (Pipeline.Clip.of (cc0_transform_2 i a) (S4096x1024.size a) (S100000x1024.size a)).extent (S4096x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .f32 = 32 ∨ (Rect.block (s := S8x1024) S8x1024.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S32.size a ≤ S1024.size a
  k1_off2_inb : ∀ i : grid1.Coords, ∀ a, (k1_off2 i) a + S100000x128.size a ≤ S100000x1024.size a
  k1_off3_inb : ∀ i : grid1.Coords, ∀ a, (k1_off3 i) a + S1x16.size a ≤ S32x128.size a
  k1_off4_inb : ∀ i : grid1.Coords, ∀ a, (k1_off4 i) a + S1x16.size a ≤ S32x128.size a
  k1_off5_inb : ∀ i : grid1.Coords, ∀ a, (k1_off5 i) a + S1x16.size a ≤ S32x128.size a
  k1_off6_inb : ∀ i : grid1.Coords, ∀ a, (k1_off6 i) a + S1x16.size a ≤ S32x128.size a
  k1_off7_inb : ∀ i : grid1.Coords, ∀ a, (k1_off7 i) a + S1x16.size a ≤ S32x128.size a
  k1_off8_inb : ∀ i : grid1.Coords, ∀ a, (k1_off8 i) a + S1x16.size a ≤ S32x128.size a
  k1_off9_inb : ∀ i : grid1.Coords, ∀ a, (k1_off9 i) a + S1x16.size a ≤ S32x128.size a
  k1_off10_inb : ∀ i : grid1.Coords, ∀ a, (k1_off10 i) a + S1x16.size a ≤ S32x128.size a
  k1_off11_inb : ∀ i : grid1.Coords, ∀ a, (k1_off11 i) a + S1x16.size a ≤ S32x128.size a
  k1_off12_inb : ∀ i : grid1.Coords, ∀ a, (k1_off12 i) a + S1x16.size a ≤ S32x128.size a
  k1_off13_inb : ∀ i : grid1.Coords, ∀ a, (k1_off13 i) a + S1x16.size a ≤ S32x128.size a
  k1_off14_inb : ∀ i : grid1.Coords, ∀ a, (k1_off14 i) a + S1x16.size a ≤ S32x128.size a
  k1_off15_inb : ∀ i : grid1.Coords, ∀ a, (k1_off15 i) a + S1x16.size a ≤ S32x128.size a
  k1_off16_inb : ∀ i : grid1.Coords, ∀ a, (k1_off16 i) a + S1x16.size a ≤ S32x128.size a
  k1_off17_inb : ∀ i : grid1.Coords, ∀ a, (k1_off17 i) a + S1x16.size a ≤ S32x128.size a
  k1_off18_inb : ∀ i : grid1.Coords, ∀ a, (k1_off18 i) a + S1x16.size a ≤ S32x128.size a
  k1_off19_inb : ∀ i : grid1.Coords, ∀ a, (k1_off19 i) a + S1x16.size a ≤ S32x128.size a
  k1_off20_inb : ∀ i : grid1.Coords, ∀ a, (k1_off20 i) a + S1x16.size a ≤ S32x128.size a
  k1_off21_inb : ∀ i : grid1.Coords, ∀ a, (k1_off21 i) a + S1x16.size a ≤ S32x128.size a
  k1_off22_inb : ∀ i : grid1.Coords, ∀ a, (k1_off22 i) a + S1x16.size a ≤ S32x128.size a
  k1_off23_inb : ∀ i : grid1.Coords, ∀ a, (k1_off23 i) a + S1x16.size a ≤ S32x128.size a
  k1_off24_inb : ∀ i : grid1.Coords, ∀ a, (k1_off24 i) a + S1x16.size a ≤ S32x128.size a
  k1_off25_inb : ∀ i : grid1.Coords, ∀ a, (k1_off25 i) a + S1x16.size a ≤ S32x128.size a
  k1_off26_inb : ∀ i : grid1.Coords, ∀ a, (k1_off26 i) a + S1x16.size a ≤ S32x128.size a
  k1_off27_inb : ∀ i : grid1.Coords, ∀ a, (k1_off27 i) a + S1x16.size a ≤ S32x128.size a
  k1_off28_inb : ∀ i : grid1.Coords, ∀ a, (k1_off28 i) a + S1x16.size a ≤ S32x128.size a
  k1_off29_inb : ∀ i : grid1.Coords, ∀ a, (k1_off29 i) a + S1x16.size a ≤ S32x128.size a
  k1_off30_inb : ∀ i : grid1.Coords, ∀ a, (k1_off30 i) a + S1x16.size a ≤ S32x128.size a
  k1_off31_inb : ∀ i : grid1.Coords, ∀ a, (k1_off31 i) a + S1x16.size a ≤ S32x128.size a
  k1_off32_inb : ∀ i : grid1.Coords, ∀ a, (k1_off32 i) a + S1x16.size a ≤ S32x128.size a
  k1_off33_inb : ∀ i : grid1.Coords, ∀ a, (k1_off33 i) a + S1x16.size a ≤ S32x128.size a
  k1_off34_inb : ∀ i : grid1.Coords, ∀ a, (k1_off34 i) a + S1x16.size a ≤ S32x128.size a
  hstage2_0 : ∀ j, (stage2_0 j).IsWhole
  hstage2_1 : ∀ j, (stage2_1 j).IsWhole
  hstage2_2 : ∀ j, (stage2_2 j).IsWhole

variable [Facts₀]

abbrev cc1_scratch3 : DmaSems sig S_ := SemArray.consecutive 6 S_ hcc1_scratch3
abbrev cc1_scoped0 : DmaSems sig S_ := SemArray.consecutive 7 S_ hcc1_scoped0
abbrev cc1_scoped1 : DmaSems sig S_ := SemArray.consecutive 8 S_ hcc1_scoped1
def dot_S64x4096_S64x1024_S4096x1024_0_0_1_1_n_n : DotDims S64x4096 S64x1024 S4096x1024 where
  lhsContracting := [0]
  rhsContracting := [0]
  lhsNonContracting := [1]
  rhsNonContracting := [1]
  lhsBatch := []
  rhsBatch := []
  wf := dot_S64x4096_S64x1024_S4096x1024_0_0_1_1_n_n_wf

abbrev win0_0 : Pipeline.Window sig grid0 :=
  Pipeline.Window.ofSpec (Memref.whole main_v0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S64x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2_0) S4096x1024.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2_1) S8x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win2_0 : Pipeline.Window sig grid2 :=
  Pipeline.Window.whole (Memref.whole main_v4) false false (stage2_0 0) (sem2_0 0) (Memref.isWhole_whole _) (hstage2_0 0)

abbrev win2_1 : Pipeline.Window sig grid2 :=
  Pipeline.Window.whole (Memref.whole main_v2_1) false false (stage2_1 0) (sem2_1 0) (Memref.isWhole_whole _) (hstage2_1 0)

abbrev win2_2 : Pipeline.Window sig grid2 :=
  Pipeline.Window.whole (Memref.whole main_v5) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S64x100000 : Shape := ⟨2, ![64, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x64, .f32⟩
  | .hbm, ⟨13, _⟩ => ⟨S1024x64, .f32⟩
  | .hbm, ⟨14, _⟩ => ⟨S64x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024x1, .f32⟩
  | .hbm, ⟨25, _⟩ => ⟨S1024x100000, .f32⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S1024x1, .f32⟩
  | .hbm, ⟨32, _⟩ => ⟨S1024x100000, .f32⟩
  | .hbm, ⟨33, _⟩ => ⟨S1024x100000, .f32⟩
  | .hbm, ⟨34, _⟩ => ⟨S1024x1, .i32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x1x1, .i32⟩
  | .hbm, ⟨43, _⟩ => ⟨S1, .i32⟩
  | .hbm, ⟨44, _⟩ => ⟨S_, .i32⟩
  | .hbm, ⟨45, _⟩ => ⟨S1024x1x1, .i32⟩
  | .hbm, ⟨46, _⟩ => ⟨S1024x1x1, .i1⟩
  | .hbm, ⟨47, _⟩ => ⟨S1x1x1, .i32⟩
  | .hbm, ⟨48, _⟩ => ⟨S1024x1x1, .i32⟩
  | .hbm, ⟨49, _⟩ => ⟨S1024x1x1, .i1⟩
  | .hbm, ⟨50, _⟩ => ⟨S1024x1x1, .i1⟩
  | .hbm, ⟨51, _⟩ => ⟨S_, .i1⟩
  | .hbm, ⟨52, _⟩ => ⟨S1024x1, .i1⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_call2_cst : Ref sig .tc := ⟨.hbm, 19, rfl⟩
abbrev main_call2_v0 : Ref sig .tc := ⟨.hbm, 20, rfl⟩
abbrev main_call2_cst_0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_cst_1 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_v8 : Ref sig .tc := ⟨.hbm, 33, rfl⟩
abbrev main_v9 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_cst : Ref sig .tc := ⟨.hbm, 54, rfl⟩
abbrev main_call3_v14 : Ref sig .tc := ⟨.hbm, 55, rfl⟩
abbrev main_v10 : Ref sig .tc := ⟨.hbm, 56, rfl⟩
abbrev main_v11 : Ref sig .tc := ⟨.hbm, 57, rfl⟩
abbrev main_cst_1 : Ref sig .tc := ⟨.hbm, 58, rfl⟩
abbrev main_v12 : Ref sig .tc := ⟨.hbm, 59, rfl⟩
abbrev main_cst_2 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_cst_3 : Ref sig .tc := ⟨.hbm, 64, rfl⟩
abbrev main_v16 : Ref sig .tc := ⟨.hbm, 65, rfl⟩

abbrev nD : Nat := 1
abbrev τ : Topo := Topo.v7x

variable {F : FTy → Type} [FloatOps F]

class Facts₀ : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  transposes_S100000x64_S64x100000_1_0 : S100000x64.Transposes [1, 0] S64x100000
  bcast_S_S1024x100000 : S_.BroadcastsInDim S1024x100000 (![] : Fin 0 → Fin S1024x100000.rank)
  reducesTo_S1024x100000_S1024_d1 : S1024x100000.ReducesTo [1] S1024
  bcast_S_S1024 : S_.BroadcastsInDim S1024 (![] : Fin 0 → Fin S1024.rank)
  bcast_S1024x1_S1024x100000_0_1 : S1024x1.BroadcastsInDim S1024x100000 (![0, 1] : Fin 2 → Fin S1024x100000.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  dot_S1024x64_S64x100000_S1024x100000_1_0_0_1_n_n_wf : DotDims.WF S1024x64 S64x100000 S1024x100000 [1] [0] [0] [1] [] []
  gather_S1024x100000_S1024x1x1_S1024x1_n_1_0_0_1_2_11_wf : GatherDims.WF S1024x100000 S1024x1x1 S1024x1 [] [1] [0] [1] [0] 2 ![1, 1]

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.LaunchSetup.lean ====
/-
  The program as the launch theorems see it, and the ghost state the proof runs over: the handshakes' rounds
  beside the TensorCore pipelines' rounds and the local transfers' counters.
-/
import proofs.«204472_g16080357556532_cont_week2b_336_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«204472_g16080357556532_cont_week2b_336_33_alg».proof.Proof.Gen.KernelIdeal
import proofs.«204472_g16080357556532_cont_week2b_336_33_alg».proof.Proof.Gen.KernelIdeal.Launch
import proofs.«204472_g16080357556532_cont_week2b_336_33_alg».proof.Proof.Gen.KernelIdeal.Points

noncomputable section

namespace Cert.KernelIdeal.LaunchSetup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The admissible contents of the two pipelines (neither has a prefetched table). -/
abbrev adm : (p : Fin 2) → (pcfgs (F := F) p).Adm := fun p => (cfgs p).toPCfg_adm

theorem pin_eq (p : Fin 2) : Pipeline.pin (pcfgs (F := F)) adm p = cfgs p := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL

/-- The pipelines' rounds: the left factor of the right factor. -/
def EP : Emb UP (MT nD τ sig (HIx 1) (Elt F) ℕ UU ℕ) :=
  (Emb.inl : Emb UP (UP × Counters)).trans embR

instance EP_landsIn : (EP : Emb UP 𝕄).LandsIn (upEmb : UEmb _ 𝕄) := by unfold EP; infer_instance

end Cert.KernelIdeal.LaunchSetup

end
-- ==== Proof.LaunchOps.lean ====
/-
  @main's host operations by name, and the TensorCore's unscoped arrays as one held set.
-/
import proofs.«204472_g16080357556532_cont_week2b_336_33_alg».proof.Proof.LaunchSetup

noncomputable section

namespace Cert.KernelIdeal.LaunchOps

open Cert.KernelIdeal Cert.KernelIdeal.Gen Cert.KernelIdeal.LaunchSetup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)

variable {F : FTy → Type} [FloatOps F] [Named F]

local notation "𝕄" => MT nD τ sig (HIx 1) (Elt F) ℕ UU ℕ

/-- The TensorCore's unscoped arrays (@main's values) as device references. -/
abbrev Sall : Finset (DevRef τ sig) :=
  (Finset.univ.filter fun b : Ref sig .tc => ¬ b.isScoped).map ⟨Proc.devRef .tc, Proc.devRef_injective _⟩

abbrev rf (b : Ref sig .tc) : DevRef τ sig := Proc.devRef .tc b

omit [FloatOps F] [Named F] in
/-- Held over that set, the arrays are the region library's unscoped buffers. -/
theorem held_Sall (d : Dev nD) (Vv : Valuation τ sig (Elt F)) :
    (held (T d) Sall Vv : sProp 𝕄) = unscopedBufs d (fun b => Vv (Proc.devRef .tc b)) := by
  unfold held unscopedBufs Sall
  rw [bigSep_map]
  rfl

abbrev opT0 : HloOp τ sig (Elt F) := (StableHlo.unary main_arg0 main_v0 ((transpose S64x1024 [1, 0] · transposes_S1024x64_S64x1024_1_0) : (⟨S1024x64, .f32⟩ : BufTy).Contents (Elt F) → (⟨S64x1024, .f32⟩ : BufTy).Contents (Elt F)))
abbrev opT1 : HloOp τ sig (Elt F) := (StableHlo.unary main_arg2 main_v1 ((transpose S64x100000 [1, 0] · transposes_S100000x64_S64x100000_1_0) : (⟨S100000x64, .f32⟩ : BufTy).Contents (Elt F) → (⟨S64x100000, .f32⟩ : BufTy).Contents (Elt F)))
abbrev opRs4 : HloOp τ sig (Elt F) := (StableHlo.reshape main_v3 main_v4 rfl shapeCasts_S1024_S8x128)
abbrev opT6 : HloOp τ sig (Elt F) := (StableHlo.unary main_v2_0 main_v6 ((transpose S1024x100000 [1, 0] · transposes_S100000x1024_S1024x100000_1_0) : (⟨S100000x1024, .f32⟩ : BufTy).Contents (Elt F) → (⟨S1024x100000, .f32⟩ : BufTy).Contents (Elt F)))
abbrev opRs7 : HloOp τ sig (Elt F) := (StableHlo.reshape main_v5 main_v7 rfl shapeCasts_S1x1_S_)
abbrev opCmp : HloOp τ sig (Elt F) := (StableHlo.binary main_v7 main_v7 main_v8 (cmpf .une : (⟨S_, .f32⟩ : BufTy).Contents (Elt F) → (⟨S_, .f32⟩ : BufTy).Contents (Elt F) → (⟨S_, .i1⟩ : BufTy).Contents (Elt F)))
abbrev opCst : HloOp τ sig (Elt F) := (StableHlo.nullary main_cst (constant S_ .f32 0x00000000#32))
abbrev opSel : HloOp τ sig (Elt F) := StableHlo.TRef.ternary (.of main_v8) (.of main_cst) (.of main_v7) main_call0.v0 select

theorem opT0_sub : (opT0 (F := F)).bufs ⊆ Sall := show ({rf main_arg0, rf main_v0} : Finset (DevRef τ sig)) ⊆ Sall by decide
theorem opT1_sub : (opT1 (F := F)).bufs ⊆ Sall := show ({rf main_arg2, rf main_v1} : Finset (DevRef τ sig)) ⊆ Sall by decide
theorem opRs4_sub : (opRs4 (F := F)).bufs ⊆ Sall := show ({rf main_v3, rf main_v4} : Finset (DevRef τ sig)) ⊆ Sall by decide
theorem opT6_sub : (opT6 (F := F)).bufs ⊆ Sall := show ({rf main_v2_0, rf main_v6} : Finset (DevRef τ sig)) ⊆ Sall by decide
theorem opRs7_sub : (opRs7 (F := F)).bufs ⊆ Sall := show ({rf main_v5, rf main_v7} : Finset (DevRef τ sig)) ⊆ Sall by decide
theorem opCmp_sub : (opCmp (F := F)).bufs ⊆ Sall := show ({rf main_v7, rf main_v7, rf main_v8} : Finset (DevRef τ sig)) ⊆ Sall by decide
theorem opCst_sub : (opCst (F := F)).bufs ⊆ Sall := show ({rf main_cst} : Finset (DevRef τ sig)) ⊆ Sall by decide
theorem opSel_sub : (opSel (F := F)).bufs ⊆ Sall := show ({rf main_v8, rf main_cst, rf main_v7, rf main_v9} : Finset (DevRef τ sig)) ⊆ Sall by decide

/-! ## The valuations @main passes through -/

variable (m : (ℓ : Loc nD τ sig) → Buf (Elt F) ℓ)

/-- The launch contents of device `d`'s buffers. -/
def V0 (d : Dev nD) : Valuation τ sig (Elt F) := fun b => m (d, b)
/-- After the two transposes. -/
def V2 (d : Dev nD) : Valuation τ sig (Elt F) := (opT1 (F := F)).result ((opT0 (F := F)).result (V0 m d))
/-- After the first kernel region, the logits at `ot` and the partition sums at `se`. -/
def V3 (d : Dev nD) (ot : (rf main_v2_0).ty.Contents (Elt F)) (se : (rf main_v2_1).ty.Contents (Elt F)) : Valuation τ sig (Elt F) :=
  Function.update (Function.update (V2 m d) (rf main_v2_0) ot) (rf main_v2_1) se
/-- After the SparseCore call, the picked logits at `pk`. -/
def V4 (d : Dev nD) (ot : (rf main_v2_0).ty.Contents (Elt F)) (se : (rf main_v2_1).ty.Contents (Elt F)) (pk : (rf main_v3).ty.Contents (Elt F)) :
    Valuation τ sig (Elt F) := Function.update (V3 m d ot se) (rf main_v3) pk
/-- After the reshape of the picked logits. -/
def V5 (d : Dev nD) (ot : (rf main_v2_0).ty.Contents (Elt F)) (se : (rf main_v2_1).ty.Contents (Elt F)) (pk : (rf main_v3).ty.Contents (Elt F)) :
    Valuation τ sig (Elt F) := (opRs4 (F := F)).result (V4 m d ot se pk)
/-- After the second kernel region, the loss at `ls`. -/
def V6 (d : Dev nD) (ot : (rf main_v2_0).ty.Contents (Elt F)) (se : (rf main_v2_1).ty.Contents (Elt F)) (pk : (rf main_v3).ty.Contents (Elt F))
    (ls : (rf main_v5).ty.Contents (Elt F)) : Valuation τ sig (Elt F) := Function.update (V5 m d ot se pk) (rf main_v5) ls
/-- At the end of @main. -/
def Vfin (d : Dev nD) (ot : (rf main_v2_0).ty.Contents (Elt F)) (se : (rf main_v2_1).ty.Contents (Elt F)) (pk : (rf main_v3).ty.Contents (Elt F))
    (ls : (rf main_v5).ty.Contents (Elt F)) : Valuation τ sig (Elt F) :=
  (opSel (F := F)).result ((opCst (F := F)).result ((opCmp (F := F)).result ((opRs7 (F := F)).result ((opT6 (F := F)).result (V6 m d ot se pk ls)))))

/-- The arrays of the first region at its entry, and of the second at its. -/
def A0of (d : Dev nD) : (w : Fin cfg0.W) → Buf (Elt F) ((cfg0.win w).arr.view.loc (d.tc : Thread nD τ)) :=
  fun w => V2 m d (rf (Pipeline.arrRef cfg0.spec w))
def A2of (d : Dev nD) (ot : (rf main_v2_0).ty.Contents (Elt F)) (se : (rf main_v2_1).ty.Contents (Elt F)) (pk : (rf main_v3).ty.Contents (Elt F)) :
    (w : Fin cfg2.W) → Buf (Elt F) ((cfg2.win w).arr.view.loc (d.tc : Thread nD τ)) :=
  fun w => V5 m d ot se pk (rf (Pipeline.arrRef cfg2.spec w))

/-- The two kernel regions' lines of @main. -/
abbrev callRegion (p : Fin 2) : Prog (TpuEff nD τ sig (Elt F) (SparseCore.Sig (ΛP (F := F)) 1) .tc) PUnit :=
  Prog.lift (.customCall (SparseCore.inner (Pipeline.entry p)) ())

end Cert.KernelIdeal.LaunchOps

end
-- ==== Proof.ScTile.lean ====
import proofs.«204472_g16080357556532_cont_week2b_336_33_alg».proof.Proof.Gen.KernelIdeal
import proofs.«204472_g16080357556532_cont_week2b_336_33_alg».proof.Proof.Gen.KernelIdeal.Skeleton
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.ValueLayout

/-!
# The vector-subcore task of the pick kernel

Tile `w = 2 s + c` (SparseCore `c`, vector subcore `s`) copies the 1024 target words into its own memory,
gathers the 32 rows `targets[32 w + r]`, `r < 32`, of the logits array, columns `[128 (w / 4), +128)`, reads
from gathered row `r` the sixteen lanes that hold column `32 (w % 4) + r`, keeps lane `r % 16` of them, and
writes the 32 words so picked to positions `[32 w, 32 w + 32)` of the result:
`picked[32 w + r] = logits[targets[32 w + r], 32 w + r]`. Pure data movement: no float operation but a select
between two loaded words.
-/

noncomputable section

namespace Cert.KernelIdeal.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F] [Named F]
variable {UU : Type} [URA UU] [CountersIn UU]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

local notation "𝕄" => MT nD τ sig (HIx 1) (Elt F) ℕ UU ℕ

/-! ## The arrays and the tile's scratch -/

/-- The targets, the logits and the picked words, as locations of device `d`. -/
abbrev tgLoc (d : Dev nD) : Loc nD τ sig := (SparseCore.T d).loc main_arg1
abbrev otLoc (d : Dev nD) : Loc nD τ sig := (SparseCore.T d).loc main_v2_0
abbrev pkLoc (d : Dev nD) : Loc nD τ sig := (SparseCore.T d).loc main_v3

abbrev tgM : Memref sig .scVector .hbm S1024 .i32 := Memref.whole main_arg1_scv
abbrev otM : Memref sig .scVector .hbm S100000x1024 .f32 := Memref.whole main_v2_0_scv
abbrev pkM : Memref sig .scVector .hbm S1024 .f32 := Memref.whole main_v3_scv
/-- A tile's scratch: the copied targets, the gathered rows, the picked words. -/
abbrev sT : Memref sig .scVector .vmem S1024 .i32 := Memref.whole cc1_scratch0
abbrev sR : Memref sig .scVector .vmem S32x128 .f32 := Memref.whole cc1_scratch1
abbrev sP : Memref sig .scVector .vmem S32 .f32 := Memref.whole cc1_scratch2

/-- What the kernel picks: at position `j` the logit of row `targets[j]`, column `j` (a target word out of range,
    which the precondition excludes, read modulo the row count so that the function is total). -/
def pickOf (tg : S1024.Idx → Elt F .i32) (ot : S100000x1024.Idx → Elt F .f32) : S1024.Idx → Elt F .f32 :=
  fun j => ot (ix2 ⟨(tg j).toNat % 100000, Nat.mod_lt _ (by decide)⟩ (j 0))

theorem pickOf_apply (tg : S1024.Idx → Elt F .i32) (ot : S100000x1024.Idx → Elt F .f32) (j : S1024.Idx) (h : (tg j).toNat < 100000) :
    pickOf tg ot j = ot (ix2 ⟨(tg j).toNat, h⟩ (j 0)) := by
  unfold pickOf; congr 2; exact Fin.ext (Nat.mod_eq_of_lt h)

/-! ### The offsets in closed form -/

/-- The gathered column block starts at `128 (w / 4)`. -/
theorem off2_eq : ∀ i : grid1.Coords, k1_off2 i = ![0, 128 * ((2 * (i 1).val + (i 0).val) / 4)] := by decide +kernel
theorem off3_eq : ∀ i : grid1.Coords, k1_off3 i = ![0, 32 * ((2 * (i 1).val + (i 0).val) % 4) + 0] := by decide +kernel
theorem off4_eq : ∀ i : grid1.Coords, k1_off4 i = ![1, 32 * ((2 * (i 1).val + (i 0).val) % 4) + 0] := by decide +kernel
theorem off5_eq : ∀ i : grid1.Coords, k1_off5 i = ![2, 32 * ((2 * (i 1).val + (i 0).val) % 4) + 0] := by decide +kernel
theorem off6_eq : ∀ i : grid1.Coords, k1_off6 i = ![3, 32 * ((2 * (i 1).val + (i 0).val) % 4) + 0] := by decide +kernel
theorem off7_eq : ∀ i : grid1.Coords, k1_off7 i = ![4, 32 * ((2 * (i 1).val + (i 0).val) % 4) + 0] := by decide +kernel
theorem off8_eq : ∀ i : grid1.Coords, k1_off8 i = ![5, 32 * ((2 * (i 1).val + (i 0).val) % 4) + 0] := by decide +kernel
theorem off9_eq : ∀ i : grid1.Coords, k1_off9 i = ![6, 32 * ((2 * (i 1).val + (i 0).val) % 4) + 0] := by decide +kernel
theorem off10_eq : ∀ i : grid1.Coords, k1_off10 i = ![7, 32 * ((2 * (i 1).val + (i 0).val) % 4) + 0] := by decide +kernel
theorem off11_eq : ∀ i : grid1.Coords, k1_off11 i = ![8, 32 * ((2 * (i 1).val + (i 0).val) % 4) + 0] := by decide +kernel
theorem off12_eq : ∀ i : grid1.Coords, k1_off12 i = ![9, 32 * ((2 * (i 1).val + (i 0).val) % 4) + 0] := by decide +kernel
theorem off13_eq : ∀ i : grid1.Coords, k1_off13 i = ![10, 32 * ((2 * (i 1).val + (i 0).val) % 4) + 0] := by decide +kernel
theorem off14_eq : ∀ i : grid1.Coords, k1_off14 i = ![11, 32 * ((2 * (i 1).val + (i 0).val) % 4) + 0] := by decide +kernel
theorem off15_eq : ∀ i : grid1.Coords, k1_off15 i = ![12, 32 * ((2 * (i 1).val + (i 0).val) % 4) + 0] := by decide +kernel
theorem off16_eq : ∀ i : grid1.Coords, k1_off16 i = ![13, 32 * ((2 * (i 1).val + (i 0).val) % 4) + 0] := by decide +kernel
theorem off17_eq : ∀ i : grid1.Coords, k1_off17 i = ![14, 32 * ((2 * (i 1).val + (i 0).val) % 4) + 0] := by decide +kernel
theorem off18_eq : ∀ i : grid1.Coords, k1_off18 i = ![15, 32 * ((2 * (i 1).val + (i 0).val) % 4) + 0] := by decide +kernel
theorem off19_eq : ∀ i : grid1.Coords, k1_off19 i = ![16, 32 * ((2 * (i 1).val + (i 0).val) % 4) + 16] := by decide +kernel
theorem off20_eq : ∀ i : grid1.Coords, k1_off20 i = ![17, 32 * ((2 * (i 1).val + (i 0).val) % 4) + 16] := by decide +kernel
theorem off21_eq : ∀ i : grid1.Coords, k1_off21 i = ![18, 32 * ((2 * (i 1).val + (i 0).val) % 4) + 16] := by decide +kernel
theorem off22_eq : ∀ i : grid1.Coords, k1_off22 i = ![19, 32 * ((2 * (i 1).val + (i 0).val) % 4) + 16] := by decide +kernel
theorem off23_eq : ∀ i : grid1.Coords, k1_off23 i = ![20, 32 * ((2 * (i 1).val + (i 0).val) % 4) + 16] := by decide +kernel
theorem off24_eq : ∀ i : grid1.Coords, k1_off24 i = ![21, 32 * ((2 * (i 1).val + (i 0).val) % 4) + 16] := by decide +kernel
theorem off25_eq : ∀ i : grid1.Coords, k1_off25 i = ![22, 32 * ((2 * (i 1).val + (i 0).val) % 4) + 16] := by decide +kernel
theorem off26_eq : ∀ i : grid1.Coords, k1_off26 i = ![23, 32 * ((2 * (i 1).val + (i 0).val) % 4) + 16] := by decide +kernel
theorem off27_eq : ∀ i : grid1.Coords, k1_off27 i = ![24, 32 * ((2 * (i 1).val + (i 0).val) % 4) + 16] := by decide +kernel
theorem off28_eq : ∀ i : grid1.Coords, k1_off28 i = ![25, 32 * ((2 * (i 1).val + (i 0).val) % 4) + 16] := by decide +kernel
theorem off29_eq : ∀ i : grid1.Coords, k1_off29 i = ![26, 32 * ((2 * (i 1).val + (i 0).val) % 4) + 16] := by decide +kernel
theorem off30_eq : ∀ i : grid1.Coords, k1_off30 i = ![27, 32 * ((2 * (i 1).val + (i 0).val) % 4) + 16] := by decide +kernel
theorem off31_eq : ∀ i : grid1.Coords, k1_off31 i = ![28, 32 * ((2 * (i 1).val + (i 0).val) % 4) + 16] := by decide +kernel
theorem off32_eq : ∀ i : grid1.Coords, k1_off32 i = ![29, 32 * ((2 * (i 1).val + (i 0).val) % 4) + 16] := by decide +kernel
theorem off33_eq : ∀ i : grid1.Coords, k1_off33 i = ![30, 32 * ((2 * (i 1).val + (i 0).val) % 4) + 16] := by decide +kernel
theorem off34_eq : ∀ i : grid1.Coords, k1_off34 i = ![31, 32 * ((2 * (i 1).val + (i 0).val) % 4) + 16] := by decide +kernel
instance closedOff_k1_off2 (i : grid1.Coords) : ClosedOff (k1_off2 i) := ⟨_, off2_eq i⟩
instance closedOff_k1_off3 (i : grid1.Coords) : ClosedOff (k1_off3 i) := ⟨_, off3_eq i⟩
instance closedOff_k1_off4 (i : grid1.Coords) : ClosedOff (k1_off4 i) := ⟨_, off4_eq i⟩
instance closedOff_k1_off5 (i : grid1.Coords) : ClosedOff (k1_off5 i) := ⟨_, off5_eq i⟩
instance closedOff_k1_off6 (i : grid1.Coords) : ClosedOff (k1_off6 i) := ⟨_, off6_eq i⟩
instance closedOff_k1_off7 (i : grid1.Coords) : ClosedOff (k1_off7 i) := ⟨_, off7_eq i⟩
instance closedOff_k1_off8 (i : grid1.Coords) : ClosedOff (k1_off8 i) := ⟨_, off8_eq i⟩
instance closedOff_k1_off9 (i : grid1.Coords) : ClosedOff (k1_off9 i) := ⟨_, off9_eq i⟩
instance closedOff_k1_off10 (i : grid1.Coords) : ClosedOff (k1_off10 i) := ⟨_, off10_eq i⟩
instance closedOff_k1_off11 (i : grid1.Coords) : ClosedOff (k1_off11 i) := ⟨_, off11_eq i⟩
instance closedOff_k1_off12 (i : grid1.Coords) : ClosedOff (k1_off12 i) := ⟨_, off12_eq i⟩
instance closedOff_k1_off13 (i : grid1.Coords) : ClosedOff (k1_off13 i) := ⟨_, off13_eq i⟩
instance closedOff_k1_off14 (i : grid1.Coords) : ClosedOff (k1_off14 i) := ⟨_, off14_eq i⟩
instance closedOff_k1_off15 (i : grid1.Coords) : ClosedOff (k1_off15 i) := ⟨_, off15_eq i⟩
instance closedOff_k1_off16 (i : grid1.Coords) : ClosedOff (k1_off16 i) := ⟨_, off16_eq i⟩
instance closedOff_k1_off17 (i : grid1.Coords) : ClosedOff (k1_off17 i) := ⟨_, off17_eq i⟩
instance closedOff_k1_off18 (i : grid1.Coords) : ClosedOff (k1_off18 i) := ⟨_, off18_eq i⟩
instance closedOff_k1_off19 (i : grid1.Coords) : ClosedOff (k1_off19 i) := ⟨_, off19_eq i⟩
instance closedOff_k1_off20 (i : grid1.Coords) : ClosedOff (k1_off20 i) := ⟨_, off20_eq i⟩
instance closedOff_k1_off21 (i : grid1.Coords) : ClosedOff (k1_off21 i) := ⟨_, off21_eq i⟩
instance closedOff_k1_off22 (i : grid1.Coords) : ClosedOff (k1_off22 i) := ⟨_, off22_eq i⟩
instance closedOff_k1_off23 (i : grid1.Coords) : ClosedOff (k1_off23 i) := ⟨_, off23_eq i⟩
instance closedOff_k1_off24 (i : grid1.Coords) : ClosedOff (k1_off24 i) := ⟨_, off24_eq i⟩
instance closedOff_k1_off25 (i : grid1.Coords) : ClosedOff (k1_off25 i) := ⟨_, off25_eq i⟩
instance closedOff_k1_off26 (i : grid1.Coords) : ClosedOff (k1_off26 i) := ⟨_, off26_eq i⟩
instance closedOff_k1_off27 (i : grid1.Coords) : ClosedOff (k1_off27 i) := ⟨_, off27_eq i⟩
instance closedOff_k1_off28 (i : grid1.Coords) : ClosedOff (k1_off28 i) := ⟨_, off28_eq i⟩
instance closedOff_k1_off29 (i : grid1.Coords) : ClosedOff (k1_off29 i) := ⟨_, off29_eq i⟩
instance closedOff_k1_off30 (i : grid1.Coords) : ClosedOff (k1_off30 i) := ⟨_, off30_eq i⟩
instance closedOff_k1_off31 (i : grid1.Coords) : ClosedOff (k1_off31 i) := ⟨_, off31_eq i⟩
instance closedOff_k1_off32 (i : grid1.Coords) : ClosedOff (k1_off32 i) := ⟨_, off32_eq i⟩
instance closedOff_k1_off33 (i : grid1.Coords) : ClosedOff (k1_off33 i) := ⟨_, off33_eq i⟩
instance closedOff_k1_off34 (i : grid1.Coords) : ClosedOff (k1_off34 i) := ⟨_, off34_eq i⟩

/-! ## The task -/

section Tile

variable (d : Dev nD) (L : grid1.Coords)

abbrev cV (L : grid1.Coords) : Fin τ.nSC := (L 0).castLE hcore1
abbrev jV (L : grid1.Coords) : Fin τ.nSub := (L 1).castLE hsub1

/-- The tile's number `w = 2 s + c`. -/
def wOf (L : grid1.Coords) : ℕ := 2 * (L 1).val + (L 0).val

/-- The tile's 32 positions of a 1024-word array, as the program slices them. -/
abbrev outR (L : grid1.Coords) : Rect S1024 := Rect.unit (s := S1024) (k1_off1 L) S32.size (k1_off1_inb L)
abbrev outM (L : grid1.Coords) : Memref sig .scVector .hbm S32 .f32 := (pkM).slice (outR L) (fun _ => rfl)
abbrev outSet (L : grid1.Coords) : Finset S1024.Idx := (outM L).view.set

end Tile

/-! ## The picked words, read off the program's values -/

section Value

omit [FloatOps F] [Named F] in
/-- A select on "the lane's number is `k`": lane `k` takes the first operand, every other lane the second. -/
theorem sel_apply {α : Type} (k : ℕ) (a b : S16.Idx → α) (x : S16.Idx) :
    select (cmpi .eq (iota .scVector S16 32 [0] iota_S16_d0_w32_scVector) (broadcast S16 (BitVec.ofNat 32 k))) a b x
      = if (x 0).val = k % 4294967296 then a x else b x := by
  have hx : (x 0).val < 16 := (x 0).isLt
  have key : (BitVec.ofNat 32 (0 * 16 + (x 0).val) == BitVec.ofNat 32 k) = decide ((x 0).val = k % 4294967296) := by
    rw [Bool.eq_iff_iff]; simp only [beq_iff_eq, decide_eq_true_eq]
    rw [← BitVec.toNat_inj, BitVec.toNat_ofNat, BitVec.toNat_ofNat]
    omega
  show Scalar.select (IntOp.cmpi .eq (BitVec.ofNat 32 (0 * 16 + (x 0).val)) (BitVec.ofNat 32 k)) (a x) (b x) = _
  unfold Scalar.select IntOp.cmpi
  simp only [key]
  by_cases h : (x 0).val = k % 4294967296
  · simp [h]
  · simp [h]

/-- The kernel's sixteen selects, one lane each, over a first vector `Z`: `n` of them. -/
def chainSel {α : Type} (A : ℕ → S16.Idx → α) (Z : S16.Idx → α) : ℕ → S16.Idx → α
  | 0 => Z
  | n + 1 => select (cmpi .eq (iota .scVector S16 32 [0] iota_S16_d0_w32_scVector) (broadcast S16 (BitVec.ofNat 32 n))) (A n) (chainSel A Z n)

omit [FloatOps F] [Named F] in
/-- Lane `l < n` of `n` selects holds the `l`-th operand's lane `l`. -/
theorem chainSel_apply {α : Type} (A : ℕ → S16.Idx → α) (Z : S16.Idx → α) (n : ℕ) (hn : n ≤ 16) (x : S16.Idx) (hx : (x 0).val < n) :
    chainSel A Z n x = A (x 0).val x := by
  induction n with
  | zero => omega
  | succ n ih =>
    show select (cmpi .eq (iota .scVector S16 32 [0] iota_S16_d0_w32_scVector) (broadcast S16 (BitVec.ofNat 32 n))) (A n) (chainSel A Z n) x = _
    rw [sel_apply, Nat.mod_eq_of_lt (by omega)]
    split_ifs with h
    · rw [h]
    · exact ih (by omega) (by omega)

omit [FloatOps F] [Named F] in
theorem ix2_congr {n0 n1 : ℕ} {a a' : Fin n0} {b b' : Fin n1} (ha : a.val = a'.val) (hb : b.val = b'.val) :
    (ix2 a b : (⟨2, ![n0, n1]⟩ : Shape).Idx) = ix2 a' b' := by
  rw [Fin.ext ha, Fin.ext hb]

/-- Sixteen lanes of a row of the gathered rows, as a vector of sixteen. -/
theorem load_apply (off : Fin 2 → ℕ) (hinb : ∀ a, off a + S1x16.size a ≤ S32x128.size a)
    (C : S32x128.Idx → Elt F .f32) (x : S16.Idx) :
    shapeCast S16 (View.readAt (Elt F) sR.view (Rect.unit (s := S32x128) off S1x16.size hinb).toLoadRect C) shapeCasts_S1x16_S16 x
      = C (ix2 ⟨off 0, by have := hinb 0; have h1 : S1x16.size 0 = 1 := rfl; have h2 : S32x128.size 0 = 32 := rfl; omega⟩
              ⟨off 1 + (x 0).val, by have := hinb 1; have := (x 0).isLt; have h1 : S1x16.size 1 = 16 := rfl; have h2 : S32x128.size 1 = 128 := rfl; have h3 : S16.size 0 = 16 := rfl; omega⟩) := by
  obtain ⟨i, rfl⟩ : ∃ i : Fin 16, x = ix1 i := ⟨x 0, Idealize.ShloMosaic.ValueIdx.eq_ix1 x⟩
  rw [Idealize.ShloMosaic.ValueIdx.shapeCast_1a_a_apply]
  show C ((Rect.unit (s := S32x128) off S1x16.size hinb).toLoadRect.idx (ix2 (0 : Fin 1) i)) = _
  congr 1
  funext a; apply Fin.ext
  match a with
  | ⟨0, _⟩ => show off 0 + 1 * 0 = off 0; omega
  | ⟨1, _⟩ => show off 1 + 1 * i.val = off 1 + i.val; omega

/-- A load depends on its offsets' values only. -/
theorem load_congr (C : S32x128.Idx → Elt F .f32) {off off' : Fin 2 → ℕ} (h : off = off')
    (p : ∀ a, off a + S1x16.size a ≤ S32x128.size a) (p' : ∀ a, off' a + S1x16.size a ≤ S32x128.size a) :
    View.readAt (Elt F) sR.view (Rect.unit (s := S32x128) off S1x16.size p).toLoadRect C
      = View.readAt (Elt F) sR.view (Rect.unit (s := S32x128) off' S1x16.size p').toLoadRect C := by
  subst h; rfl

variable (L : grid1.Coords)

/-- Where the load of gathered row `r` (of lane group `g`) starts: row `r`, column `32 (w % 4) + 16 g`. -/
abbrev offF (i : grid1.Coords) (r g : ℕ) : Fin 2 → ℕ := ![r, 32 * ((2 * (i 1).val + (i 0).val) % 4) + 16 * g]

omit [FloatOps F] [Named F] in
theorem offF_inb (i : grid1.Coords) (r g : ℕ) (hr : r < 32) (hg : g < 2) : ∀ a, offF i r g a + S1x16.size a ≤ S32x128.size a := by
  intro a
  match a with
  | ⟨0, _⟩ => show r + 1 ≤ 32; omega
  | ⟨1, _⟩ => show 32 * ((2 * (i 1).val + (i 0).val) % 4) + 16 * g + 16 ≤ 128; omega

/-- The vector loaded from gathered row `16 g + k`, as sixteen lanes. -/
abbrev laneVec (C : S32x128.Idx → Elt F .f32) (g : ℕ) (hg : g < 2) (k : ℕ) : S16.Idx → Elt F .f32 :=
  shapeCast S16 (View.readAt (Elt F) sR.view (Rect.unit (s := S32x128) (offF L ((16 * g + k) % 32) g) S1x16.size
    (offF_inb L _ g (Nat.mod_lt _ (by decide)) hg)).toLoadRect C) shapeCasts_S1x16_S16

/-- Lane `l` of the selects over the loads of rows `16 g + k` is word `32 (w % 4) + 16 g + l` of gathered row `16 g + l`. -/
theorem chain_value (C : S32x128.Idx → Elt F .f32) (Z : S16.Idx → Elt F .f32) (g : ℕ) (hg : g < 2) (x : S16.Idx) :
    chainSel (laneVec L C g hg) Z 16 x
      = C (ix2 ⟨16 * g + (x 0).val, by have := (x 0).isLt; have h3 : S16.size 0 = 16 := rfl; omega⟩
              ⟨32 * (wOf L % 4) + 16 * g + (x 0).val, by have := (x 0).isLt; have h3 : S16.size 0 = 16 := rfl; omega⟩) := by
  have hx : (x 0).val < 16 := (x 0).isLt
  rw [chainSel_apply _ _ 16 le_rfl x hx]
  refine (load_apply _ _ C x).trans (congrArg C (ix2_congr ?_ ?_))
  · show (16 * g + (x 0).val) % 32 = 16 * g + (x 0).val
    omega
  · show 32 * ((2 * (L 1).val + (L 0).val) % 4) + 16 * g + (x 0).val = 32 * (wOf L % 4) + 16 * g + (x 0).val
    rfl

/-- Rows `0 … 15`: lane `l` of the sixteen selects is word `32 (w % 4) + l` of gathered row `l`. -/
theorem group0 (C : S32x128.Idx → Elt F .f32) (x : S16.Idx) :
    k1_pay5 (k1_pay4 (iota .scVector S16 32 [0] iota_S16_d0_w32_scVector) (k1_pay3 (iota .scVector S16 32 [0] iota_S16_d0_w32_scVector) (k1_pay2
        (View.readAt (Elt F) sR.view (Rect.unit (s := S32x128) (k1_off3 L) S1x16.size (k1_off3_inb L)).toLoadRect C)
        (View.readAt (Elt F) sR.view (Rect.unit (s := S32x128) (k1_off4 L) S1x16.size (k1_off4_inb L)).toLoadRect C)
        (View.readAt (Elt F) sR.view (Rect.unit (s := S32x128) (k1_off5 L) S1x16.size (k1_off5_inb L)).toLoadRect C)
        (View.readAt (Elt F) sR.view (Rect.unit (s := S32x128) (k1_off6 L) S1x16.size (k1_off6_inb L)).toLoadRect C)
        (View.readAt (Elt F) sR.view (Rect.unit (s := S32x128) (k1_off7 L) S1x16.size (k1_off7_inb L)).toLoadRect C))
        (View.readAt (Elt F) sR.view (Rect.unit (s := S32x128) (k1_off8 L) S1x16.size (k1_off8_inb L)).toLoadRect C)
        (View.readAt (Elt F) sR.view (Rect.unit (s := S32x128) (k1_off9 L) S1x16.size (k1_off9_inb L)).toLoadRect C)
        (View.readAt (Elt F) sR.view (Rect.unit (s := S32x128) (k1_off10 L) S1x16.size (k1_off10_inb L)).toLoadRect C)
        (View.readAt (Elt F) sR.view (Rect.unit (s := S32x128) (k1_off11 L) S1x16.size (k1_off11_inb L)).toLoadRect C)
        (View.readAt (Elt F) sR.view (Rect.unit (s := S32x128) (k1_off12 L) S1x16.size (k1_off12_inb L)).toLoadRect C))
        (View.readAt (Elt F) sR.view (Rect.unit (s := S32x128) (k1_off13 L) S1x16.size (k1_off13_inb L)).toLoadRect C)
        (View.readAt (Elt F) sR.view (Rect.unit (s := S32x128) (k1_off14 L) S1x16.size (k1_off14_inb L)).toLoadRect C)
        (View.readAt (Elt F) sR.view (Rect.unit (s := S32x128) (k1_off15 L) S1x16.size (k1_off15_inb L)).toLoadRect C)
        (View.readAt (Elt F) sR.view (Rect.unit (s := S32x128) (k1_off16 L) S1x16.size (k1_off16_inb L)).toLoadRect C)
        (View.readAt (Elt F) sR.view (Rect.unit (s := S32x128) (k1_off17 L) S1x16.size (k1_off17_inb L)).toLoadRect C)
        (View.readAt (Elt F) sR.view (Rect.unit (s := S32x128) (k1_off18 L) S1x16.size (k1_off18_inb L)).toLoadRect C)) x
      = C (ix2 ⟨16 * 0 + (x 0).val, by have := (x 0).isLt; have h3 : S16.size 0 = 16 := rfl; omega⟩
              ⟨32 * (wOf L % 4) + 16 * 0 + (x 0).val, by have := (x 0).isLt; have h3 : S16.size 0 = 16 := rfl; omega⟩) := by
  rw [load_congr C (off3_eq L : k1_off3 L = offF L ((16 * 0 + 0) % 32) 0) (k1_off3_inb L) (offF_inb L ((16 * 0 + 0) % 32) 0 (Nat.mod_lt _ (by decide)) (by decide)),
    load_congr C (off4_eq L : k1_off4 L = offF L ((16 * 0 + 1) % 32) 0) (k1_off4_inb L) (offF_inb L ((16 * 0 + 1) % 32) 0 (Nat.mod_lt _ (by decide)) (by decide)),
    load_congr C (off5_eq L : k1_off5 L = offF L ((16 * 0 + 2) % 32) 0) (k1_off5_inb L) (offF_inb L ((16 * 0 + 2) % 32) 0 (Nat.mod_lt _ (by decide)) (by decide)),
    load_congr C (off6_eq L : k1_off6 L = offF L ((16 * 0 + 3) % 32) 0) (k1_off6_inb L) (offF_inb L ((16 * 0 + 3) % 32) 0 (Nat.mod_lt _ (by decide)) (by decide)),
    load_congr C (off7_eq L : k1_off7 L = offF L ((16 * 0 + 4) % 32) 0) (k1_off7_inb L) (offF_inb L ((16 * 0 + 4) % 32) 0 (Nat.mod_lt _ (by decide)) (by decide)),
    load_congr C (off8_eq L : k1_off8 L = offF L ((16 * 0 + 5) % 32) 0) (k1_off8_inb L) (offF_inb L ((16 * 0 + 5) % 32) 0 (Nat.mod_lt _ (by decide)) (by decide)),
    load_congr C (off9_eq L : k1_off9 L = offF L ((16 * 0 + 6) % 32) 0) (k1_off9_inb L) (offF_inb L ((16 * 0 + 6) % 32) 0 (Nat.mod_lt _ (by decide)) (by decide)),
    load_congr C (off10_eq L : k1_off10 L = offF L ((16 * 0 + 7) % 32) 0) (k1_off10_inb L) (offF_inb L ((16 * 0 + 7) % 32) 0 (Nat.mod_lt _ (by decide)) (by decide)),
    load_congr C (off11_eq L : k1_off11 L = offF L ((16 * 0 + 8) % 32) 0) (k1_off11_inb L) (offF_inb L ((16 * 0 + 8) % 32) 0 (Nat.mod_lt _ (by decide)) (by decide)),
    load_congr C (off12_eq L : k1_off12 L = offF L ((16 * 0 + 9) % 32) 0) (k1_off12_inb L) (offF_inb L ((16 * 0 + 9) % 32) 0 (Nat.mod_lt _ (by decide)) (by decide)),
    load_congr C (off13_eq L : k1_off13 L = offF L ((16 * 0 + 10) % 32) 0) (k1_off13_inb L) (offF_inb L ((16 * 0 + 10) % 32) 0 (Nat.mod_lt _ (by decide)) (by decide)),
    load_congr C (off14_eq L : k1_off14 L = offF L ((16 * 0 + 11) % 32) 0) (k1_off14_inb L) (offF_inb L ((16 * 0 + 11) % 32) 0 (Nat.mod_lt _ (by decide)) (by decide)),
    load_congr C (off15_eq L : k1_off15 L = offF L ((16 * 0 + 12) % 32) 0) (k1_off15_inb L) (offF_inb L ((16 * 0 + 12) % 32) 0 (Nat.mod_lt _ (by decide)) (by decide)),
    load_congr C (off16_eq L : k1_off16 L = offF L ((16 * 0 + 13) % 32) 0) (k1_off16_inb L) (offF_inb L ((16 * 0 + 13) % 32) 0 (Nat.mod_lt _ (by decide)) (by decide)),
    load_congr C (off17_eq L : k1_off17 L = offF L ((16 * 0 + 14) % 32) 0) (k1_off17_inb L) (offF_inb L ((16 * 0 + 14) % 32) 0 (Nat.mod_lt _ (by decide)) (by decide)),
    load_congr C (off18_eq L : k1_off18 L = offF L ((16 * 0 + 15) % 32) 0) (k1_off18_inb L) (offF_inb L ((16 * 0 + 15) % 32) 0 (Nat.mod_lt _ (by decide)) (by decide))]
  dsimp only [k1_pay5]
  rw [Idealize.ShloMosaic.shapeCast_self]
  exact chain_value L C (broadcast S16 (Scalar.ofBits .f32 0x00000000#32)) 0 (by decide) x

/-- Rows `16 … 31`: lane `l` of the sixteen selects is word `32 (w % 4) + 16 + l` of gathered row `16 + l`. -/
theorem group1 (C : S32x128.Idx → Elt F .f32) (x : S16.Idx) :
    k1_pay1 (iota .scVector S16 32 [0] iota_S16_d0_w32_scVector) (k1_pay10 (iota .scVector S16 32 [0] iota_S16_d0_w32_scVector) (k1_pay9 (iota .scVector S16 32 [0] iota_S16_d0_w32_scVector) (k1_pay6 (iota .scVector S16 32 [0] iota_S16_d0_w32_scVector)
        (View.readAt (Elt F) sR.view (Rect.unit (s := S32x128) (k1_off19 L) S1x16.size (k1_off19_inb L)).toLoadRect C)
        (View.readAt (Elt F) sR.view (Rect.unit (s := S32x128) (k1_off20 L) S1x16.size (k1_off20_inb L)).toLoadRect C)
        (View.readAt (Elt F) sR.view (Rect.unit (s := S32x128) (k1_off21 L) S1x16.size (k1_off21_inb L)).toLoadRect C)
        (View.readAt (Elt F) sR.view (Rect.unit (s := S32x128) (k1_off22 L) S1x16.size (k1_off22_inb L)).toLoadRect C))
        (k1_pay7 (View.readAt (Elt F) sR.view (Rect.unit (s := S32x128) (k1_off23 L) S1x16.size (k1_off23_inb L)).toLoadRect C)) k1_pay8
        (View.readAt (Elt F) sR.view (Rect.unit (s := S32x128) (k1_off24 L) S1x16.size (k1_off24_inb L)).toLoadRect C)
        (View.readAt (Elt F) sR.view (Rect.unit (s := S32x128) (k1_off25 L) S1x16.size (k1_off25_inb L)).toLoadRect C)
        (View.readAt (Elt F) sR.view (Rect.unit (s := S32x128) (k1_off26 L) S1x16.size (k1_off26_inb L)).toLoadRect C)
        (View.readAt (Elt F) sR.view (Rect.unit (s := S32x128) (k1_off27 L) S1x16.size (k1_off27_inb L)).toLoadRect C)
        (View.readAt (Elt F) sR.view (Rect.unit (s := S32x128) (k1_off28 L) S1x16.size (k1_off28_inb L)).toLoadRect C))
        (View.readAt (Elt F) sR.view (Rect.unit (s := S32x128) (k1_off29 L) S1x16.size (k1_off29_inb L)).toLoadRect C)
        (View.readAt (Elt F) sR.view (Rect.unit (s := S32x128) (k1_off30 L) S1x16.size (k1_off30_inb L)).toLoadRect C)
        (View.readAt (Elt F) sR.view (Rect.unit (s := S32x128) (k1_off31 L) S1x16.size (k1_off31_inb L)).toLoadRect C)
        (View.readAt (Elt F) sR.view (Rect.unit (s := S32x128) (k1_off32 L) S1x16.size (k1_off32_inb L)).toLoadRect C)
        (View.readAt (Elt F) sR.view (Rect.unit (s := S32x128) (k1_off33 L) S1x16.size (k1_off33_inb L)).toLoadRect C))
        (k1_pay11 (View.readAt (Elt F) sR.view (Rect.unit (s := S32x128) (k1_off34 L) S1x16.size (k1_off34_inb L)).toLoadRect C)) 15#32 x
      = C (ix2 ⟨16 * 1 + (x 0).val, by have := (x 0).isLt; have h3 : S16.size 0 = 16 := rfl; omega⟩
              ⟨32 * (wOf L % 4) + 16 * 1 + (x 0).val, by have := (x 0).isLt; have h3 : S16.size 0 = 16 := rfl; omega⟩) := by
  rw [load_congr C (off19_eq L : k1_off19 L = offF L ((16 * 1 + 0) % 32) 1) (k1_off19_inb L) (offF_inb L ((16 * 1 + 0) % 32) 1 (Nat.mod_lt _ (by decide)) (by decide)),
    load_congr C (off20_eq L : k1_off20 L = offF L ((16 * 1 + 1) % 32) 1) (k1_off20_inb L) (offF_inb L ((16 * 1 + 1) % 32) 1 (Nat.mod_lt _ (by decide)) (by decide)),
    load_congr C (off21_eq L : k1_off21 L = offF L ((16 * 1 + 2) % 32) 1) (k1_off21_inb L) (offF_inb L ((16 * 1 + 2) % 32) 1 (Nat.mod_lt _ (by decide)) (by decide)),
    load_congr C (off22_eq L : k1_off22 L = offF L ((16 * 1 + 3) % 32) 1) (k1_off22_inb L) (offF_inb L ((16 * 1 + 3) % 32) 1 (Nat.mod_lt _ (by decide)) (by decide)),
    load_congr C (off23_eq L : k1_off23 L = offF L ((16 * 1 + 4) % 32) 1) (k1_off23_inb L) (offF_inb L ((16 * 1 + 4) % 32) 1 (Nat.mod_lt _ (by decide)) (by decide)),
    load_congr C (off24_eq L : k1_off24 L = offF L ((16 * 1 + 5) % 32) 1) (k1_off24_inb L) (offF_inb L ((16 * 1 + 5) % 32) 1 (Nat.mod_lt _ (by decide)) (by decide)),
    load_congr C (off25_eq L : k1_off25 L = offF L ((16 * 1 + 6) % 32) 1) (k1_off25_inb L) (offF_inb L ((16 * 1 + 6) % 32) 1 (Nat.mod_lt _ (by decide)) (by decide)),
    load_congr C (off26_eq L : k1_off26 L = offF L ((16 * 1 + 7) % 32) 1) (k1_off26_inb L) (offF_inb L ((16 * 1 + 7) % 32) 1 (Nat.mod_lt _ (by decide)) (by decide)),
    load_congr C (off27_eq L : k1_off27 L = offF L ((16 * 1 + 8) % 32) 1) (k1_off27_inb L) (offF_inb L ((16 * 1 + 8) % 32) 1 (Nat.mod_lt _ (by decide)) (by decide)),
    load_congr C (off28_eq L : k1_off28 L = offF L ((16 * 1 + 9) % 32) 1) (k1_off28_inb L) (offF_inb L ((16 * 1 + 9) % 32) 1 (Nat.mod_lt _ (by decide)) (by decide)),
    load_congr C (off29_eq L : k1_off29 L = offF L ((16 * 1 + 10) % 32) 1) (k1_off29_inb L) (offF_inb L ((16 * 1 + 10) % 32) 1 (Nat.mod_lt _ (by decide)) (by decide)),
    load_congr C (off30_eq L : k1_off30 L = offF L ((16 * 1 + 11) % 32) 1) (k1_off30_inb L) (offF_inb L ((16 * 1 + 11) % 32) 1 (Nat.mod_lt _ (by decide)) (by decide)),
    load_congr C (off31_eq L : k1_off31 L = offF L ((16 * 1 + 12) % 32) 1) (k1_off31_inb L) (offF_inb L ((16 * 1 + 12) % 32) 1 (Nat.mod_lt _ (by decide)) (by decide)),
    load_congr C (off32_eq L : k1_off32 L = offF L ((16 * 1 + 13) % 32) 1) (k1_off32_inb L) (offF_inb L ((16 * 1 + 13) % 32) 1 (Nat.mod_lt _ (by decide)) (by decide)),
    load_congr C (off33_eq L : k1_off33 L = offF L ((16 * 1 + 14) % 32) 1) (k1_off33_inb L) (offF_inb L ((16 * 1 + 14) % 32) 1 (Nat.mod_lt _ (by decide)) (by decide)),
    load_congr C (off34_eq L : k1_off34 L = offF L ((16 * 1 + 15) % 32) 1) (k1_off34_inb L) (offF_inb L ((16 * 1 + 15) % 32) 1 (Nat.mod_lt _ (by decide)) (by decide))]
  dsimp only [k1_pay1]
  rw [Idealize.ShloMosaic.shapeCast_self]
  exact chain_value L C (broadcast S16 (Scalar.ofBits .f32 0x00000000#32)) 1 (by decide) x

end Value

/-! ## The gathered rows and the assembly -/

section Gathered

variable (L : grid1.Coords)

omit [FloatOps F] [Named F] in
theorem wOf_lt : wOf L < 32 := by
  have h0 : (L 0).val < 2 := (L 0).isLt
  have h1 : (L 1).val < 16 := (L 1).isLt
  unfold wOf; omega

omit [FloatOps F] [Named F] in
/-- The `k`-th index of a list of 32 in row-major order is `k`. -/
theorem rowMajor_symm_S32 (k : Fin S32.numel) : S32.rowMajor.symm k = ix1 (k.cast (by decide : S32.numel = 32)) :=
  (Equiv.symm_apply_eq _).mpr (Fin.ext (by rw [Shape.rowMajor_val_one]; rfl))

omit [FloatOps F] [Named F] in
/-- The tile's list: words `[32 w, +32)` of the buffer that holds the copied targets. -/
theorem list_read (fo : S1024.Idx → Elt F .i32) (y : S32.Idx) :
    View.read (Elt F) (sT.slice (outR L) (fun _ => rfl)).view fo y
      = fo (ix1 ⟨32 * wOf L + (y 0).val, by have := wOf_lt L; have : (y 0).val < 32 := (y 0).isLt; omega⟩) := by
  rw [View.read_apply, cast_eq]
  congr 1
  funext a; apply Fin.ext
  match a with
  | ⟨0, _⟩ =>
    show (k1_off1 L) 0 + 1 * (y 0).val = 32 * wOf L + (y 0).val
    rw [congrFun (k1_off1_eq L) 0]
    show 64 * (L 1).val + 32 * (L 0).val + 1 * (y 0).val = 32 * wOf L + (y 0).val
    unfold wOf; omega

omit [FloatOps F] [Named F] in
/-- The row the `k`-th entry of the list names. -/
theorem rows_val (fo : S1024.Idx → Elt F .i32)
    (hn : S32.numel = S32x128.size gathers_S100000x128_S32x128.axis')
    (hin : ∀ x, (View.read (Elt F) (sT.slice (outR L) (fun _ => rfl)).view fo x).toNat < S100000x128.size gathers_S100000x128_S32x128.axis)
    (k : Fin (S32x128.size gathers_S100000x128_S32x128.axis')) :
    (SparseCore.rows (View.read (Elt F) (sT.slice (outR L) (fun _ => rfl)).view fo) hn hin k).val
      = (fo (ix1 ⟨32 * wOf L + k.val, by have := wOf_lt L; have : k.val < 32 := k.isLt; omega⟩)).toNat := by
  unfold SparseCore.rows
  show (View.read (Elt F) (sT.slice (outR L) (fun _ => rfl)).view fo (S32.rowMajor.symm (k.cast hn.symm))).toNat = _
  rw [rowMajor_symm_S32, list_read]
  rfl

omit [FloatOps F] [Named F] in
/-- What the gather lands: at `(r, c)` the logit of row `list[32 w + r]`, column `128 (w / 4) + c`, for any contents
    `fo` of the list's buffer whose 32 words at `[32 w, +32)` are in range. -/
theorem gather_apply (ot : S100000x1024.Idx → Elt F .f32) (tg fo : S1024.Idx → Elt F .i32) (hfo : fo = tg)
    (hn : S32.numel = S32x128.size gathers_S100000x128_S32x128.axis')
    (hin : ∀ x, (View.read (Elt F) (sT.slice (outR L) (fun _ => rfl)).view fo x).toNat < S100000x128.size gathers_S100000x128_S32x128.axis)
    (z : S32x128.Idx) :
    SparseCore.gatherPayload gathers_S100000x128_S32x128
        (View.read (Elt F) (otM.slice (Rect.unit (s := S100000x1024) (k1_off2 L) S100000x128.size (k1_off2_inb L)) (fun _ => rfl)).view ot)
        (SparseCore.rows (View.read (Elt F) (sT.slice (outR L) (fun _ => rfl)).view fo) hn hin) z
      = ot (ix2 ⟨(tg (ix1 ⟨32 * wOf L + (z 0).val, by have := wOf_lt L; have : (z 0).val < 32 := (z 0).isLt; omega⟩)).toNat % 100000, Nat.mod_lt _ (by decide)⟩
              ⟨128 * (wOf L / 4) + (z 1).val, by have := wOf_lt L; have : (z 1).val < 128 := (z 1).isLt; omega⟩) := by
  subst hfo
  have hw := wOf_lt L
  have hz0 : (z 0).val < 32 := (z 0).isLt
  have hz1 : (z 1).val < 128 := (z 1).isLt
  unfold SparseCore.gatherPayload
  rw [View.read_apply, cast_eq]
  congr 1
  funext b; apply Fin.ext
  have e20 : (k1_off2 L) 0 = 0 := congrFun (off2_eq L) 0
  have e21 : (k1_off2 L) 1 = 128 * (wOf L / 4) := congrFun (off2_eq L) 1
  match b with
  | ⟨0, hb⟩ =>
    show (k1_off2 L) 0 + 1 * (gathers_S100000x128_S32x128.idx _ z ⟨0, hb⟩).val = _
    have e := Shape.Gathers.idx_axis gathers_S100000x128_S32x128
      (SparseCore.rows (View.read (Elt F) (sT.slice (outR L) (fun _ => rfl)).view fo) hn hin) z
    rw [show (⟨0, hb⟩ : Fin S100000x128.rank) = gathers_S100000x128_S32x128.axis from rfl, e, e20, rows_val]
    have hlt : (fo (ix1 ⟨32 * wOf L + (z 0).val, by omega⟩)).toNat < 100000 := by
      have := hin (ix1 ⟨(z 0).val, hz0⟩); rw [list_read] at this; exact this
    show 0 + 1 * (fo (ix1 ⟨32 * wOf L + (z 0).val, by omega⟩)).toNat = (fo (ix1 ⟨32 * wOf L + (z 0).val, by omega⟩)).toNat % 100000
    rw [Nat.mod_eq_of_lt hlt]; omega
  | ⟨1, hb⟩ =>
    show (k1_off2 L) 1 + 1 * (gathers_S100000x128_S32x128.idx _ z ⟨1, hb⟩).val = _
    rw [Shape.Gathers.idx_of_ne gathers_S100000x128_S32x128 _ z ⟨1, hb⟩ Nat.one_ne_zero, e21]
    show 128 * (wOf L / 4) + 1 * (z 1).val = 128 * (wOf L / 4) + (z 1).val
    omega

end Gathered

/-! ## From the program's values to `pickOf` -/

section Assembly

variable (L : grid1.Coords)

omit [FloatOps F] [Named F] in
/-- One write of a whole buffer leaves the written values. -/
theorem writes_whole_apply {κ : Kind} (b : Ref sig κ) (f : b.ty.Contents (Elt F)) (w : (Rect.whole b.ty.shape).shape.Idx → Elt F b.ty.elt) (z : b.ty.shape.Idx) :
    (View.whole b).writes (Elt F) f [⟨Rect.whole b.ty.shape, w⟩] z = w z := by
  have h := View.read_writes_cons_emb (View.whole b) f (Rect.whole b.ty.shape) w [] z
  rw [Rect.emb_whole_apply] at h
  exact h

omit [FloatOps F] [Named F] in
/-- The tile's `y`-th position of the result. -/
theorem out_emb (y : S32.Idx) :
    (outM L).view.emb y = ix1 ⟨32 * wOf L + (y 0).val, by have := wOf_lt L; have : (y 0).val < 32 := (y 0).isLt; omega⟩ := by
  funext a; apply Fin.ext
  match a with
  | ⟨0, _⟩ =>
    show (k1_off1 L) 0 + 1 * (y 0).val = 32 * wOf L + (y 0).val
    rw [congrFun (k1_off1_eq L) 0]
    show 64 * (L 1).val + 32 * (L 0).val + 1 * (y 0).val = 32 * wOf L + (y 0).val
    unfold wOf; omega

omit [FloatOps F] [Named F] in
/-- The write-out: the tile's positions hold the 32 words copied out. -/
theorem out_value (pk : S1024.Idx → Elt F .f32) (PAY : S32.Idx → Elt F .f32) (G : S1024.Idx → Elt F .f32)
    (h : ∀ y : S32.Idx, PAY y = G (ix1 ⟨32 * wOf L + (y 0).val, by have := wOf_lt L; have : (y 0).val < 32 := (y 0).isLt; omega⟩)) :
    ∀ i ∈ (outM L).view.set, (outM L).view.writes (Elt F) pk [⟨Rect.whole S32, PAY⟩] i = G i := by
  intro i hi
  obtain ⟨y, -, rfl⟩ := Finset.mem_map.mp hi
  have h1 := View.read_writes_cons_emb (outM L).view pk (Rect.whole S32) PAY [] y
  rw [Rect.emb_whole_apply, View.read_apply, cast_eq] at h1
  rw [h1, h y, out_emb]

omit [FloatOps F] [Named F] in
/-- The picked words' buffer after its two stores: lanes `[0, 16)` the first group's, `[16, 32)` the second's. -/
theorem halves_value (f2 : S32.Idx → Elt F .f32) (P1 P0 : S16.Idx → Elt F .f32) (G : S32.Idx → Elt F .f32)
    (h0 : ∀ x : S16.Idx, P0 x = G (ix1 ⟨(x 0).val, by have : (x 0).val < 16 := (x 0).isLt; omega⟩))
    (h1 : ∀ x : S16.Idx, P1 x = G (ix1 ⟨16 + (x 0).val, by have : (x 0).val < 16 := (x 0).isLt; omega⟩)) (y : S32.Idx) :
    View.read (Elt F) sP.view (sP.view.writes (Elt F) f2
      [⟨Rect.unit (s := S32) ![16] S16.size inb_S32_S16_16, P1⟩, ⟨Rect.unit (s := S32) ![0] S16.size inb_S32_S16_0, P0⟩]) y = G y := by
  have hy : (y 0).val < 32 := (y 0).isLt
  refine View.read_writes_apply_of_pieces sP.view f2 G _ ?_ y ?_
  · intro p hp x
    rcases List.mem_cons.mp hp with rfl | hp
    · show P1 x = G ((Rect.unit (s := S32) ![16] S16.size inb_S32_S16_16).emb x)
      rw [h1 x]; congr 1
      funext a; apply Fin.ext
      match a with
      | ⟨0, _⟩ => show 16 + (x 0).val = 16 + 1 * (x 0).val; omega
    · obtain rfl := List.mem_singleton.mp hp
      show P0 x = G ((Rect.unit (s := S32) ![0] S16.size inb_S32_S16_0).emb x)
      rw [h0 x]; congr 1
      funext a; apply Fin.ext
      match a with
      | ⟨0, _⟩ => show (x 0).val = 0 + 1 * (x 0).val; omega
  · by_cases hlt : (y 0).val < 16
    · refine ⟨_, List.mem_cons_of_mem _ (List.mem_singleton.mpr rfl), ?_⟩
      rw [Rect.mem_set_unit]
      intro a
      match a with
      | ⟨0, _⟩ => exact ⟨Nat.zero_le _, by show (y 0).val < 0 + 16; omega⟩
    · refine ⟨_, List.mem_cons_self, ?_⟩
      rw [Rect.mem_set_unit]
      intro a
      match a with
      | ⟨0, _⟩ => exact ⟨by show 16 ≤ (y 0).val; omega, by show (y 0).val < 16 + 16; omega⟩

variable (tg : S1024.Idx → Elt F .i32) (ot : S100000x1024.Idx → Elt F .f32)

omit [FloatOps F] [Named F] in
theorem pick_of_gathered (C : S32x128.Idx → Elt F .f32)
    (hC : ∀ z : S32x128.Idx, C z = ot (ix2 ⟨(tg (ix1 ⟨32 * wOf L + (z 0).val, by have := wOf_lt L; have : (z 0).val < 32 := (z 0).isLt; omega⟩)).toNat % 100000, Nat.mod_lt _ (by decide)⟩
              ⟨128 * (wOf L / 4) + (z 1).val, by have := wOf_lt L; have : (z 1).val < 128 := (z 1).isLt; omega⟩))
    (r : ℕ) (hr : r < 32) :
    C (ix2 ⟨r, hr⟩ ⟨32 * (wOf L % 4) + r, by omega⟩) = pickOf tg ot (ix1 ⟨32 * wOf L + r, by have := wOf_lt L; omega⟩) := by
  rw [hC]; unfold pickOf
  refine congrArg ot (ix2_congr rfl ?_)
  show 128 * (wOf L / 4) + (32 * (wOf L % 4) + r) = 32 * wOf L + r
  omega

/-- Lanes `[0, 16)` of the picked words. -/
theorem group0_pick (C : S32x128.Idx → Elt F .f32)
    (hC : ∀ z : S32x128.Idx, C z = ot (ix2 ⟨(tg (ix1 ⟨32 * wOf L + (z 0).val, by have := wOf_lt L; have : (z 0).val < 32 := (z 0).isLt; omega⟩)).toNat % 100000, Nat.mod_lt _ (by decide)⟩
              ⟨128 * (wOf L / 4) + (z 1).val, by have := wOf_lt L; have : (z 1).val < 128 := (z 1).isLt; omega⟩))
    (x : S16.Idx) :
    k1_pay5 (k1_pay4 (iota .scVector S16 32 [0] iota_S16_d0_w32_scVector) (k1_pay3 (iota .scVector S16 32 [0] iota_S16_d0_w32_scVector) (k1_pay2
        (View.readAt (Elt F) sR.view (Rect.unit (s := S32x128) (k1_off3 L) S1x16.size (k1_off3_inb L)).toLoadRect C)
        (View.readAt (Elt F) sR.view (Rect.unit (s := S32x128) (k1_off4 L) S1x16.size (k1_off4_inb L)).toLoadRect C)
        (View.readAt (Elt F) sR.view (Rect.unit (s := S32x128) (k1_off5 L) S1x16.size (k1_off5_inb L)).toLoadRect C)
        (View.readAt (Elt F) sR.view (Rect.unit (s := S32x128) (k1_off6 L) S1x16.size (k1_off6_inb L)).toLoadRect C)
        (View.readAt (Elt F) sR.view (Rect.unit (s := S32x128) (k1_off7 L) S1x16.size (k1_off7_inb L)).toLoadRect C))
        (View.readAt (Elt F) sR.view (Rect.unit (s := S32x128) (k1_off8 L) S1x16.size (k1_off8_inb L)).toLoadRect C)
        (View.readAt (Elt F) sR.view (Rect.unit (s := S32x128) (k1_off9 L) S1x16.size (k1_off9_inb L)).toLoadRect C)
        (View.readAt (Elt F) sR.view (Rect.unit (s := S32x128) (k1_off10 L) S1x16.size (k1_off10_inb L)).toLoadRect C)
        (View.readAt (Elt F) sR.view (Rect.unit (s := S32x128) (k1_off11 L) S1x16.size (k1_off11_inb L)).toLoadRect C)
        (View.readAt (Elt F) sR.view (Rect.unit (s := S32x128) (k1_off12 L) S1x16.size (k1_off12_inb L)).toLoadRect C))
        (View.readAt (Elt F) sR.view (Rect.unit (s := S32x128) (k1_off13 L) S1x16.size (k1_off13_inb L)).toLoadRect C)
        (View.readAt (Elt F) sR.view (Rect.unit (s := S32x128) (k1_off14 L) S1x16.size (k1_off14_inb L)).toLoadRect C)
        (View.readAt (Elt F) sR.view (Rect.unit (s := S32x128) (k1_off15 L) S1x16.size (k1_off15_inb L)).toLoadRect C)
        (View.readAt (Elt F) sR.view (Rect.unit (s := S32x128) (k1_off16 L) S1x16.size (k1_off16_inb L)).toLoadRect C)
        (View.readAt (Elt F) sR.view (Rect.unit (s := S32x128) (k1_off17 L) S1x16.size (k1_off17_inb L)).toLoadRect C)
        (View.readAt (Elt F) sR.view (Rect.unit (s := S32x128) (k1_off18 L) S1x16.size (k1_off18_inb L)).toLoadRect C)) x
      = pickOf tg ot (ix1 ⟨32 * wOf L + (x 0).val, by have := wOf_lt L; have : (x 0).val < 16 := (x 0).isLt; omega⟩) := by
  have hx : (x 0).val < 16 := (x 0).isLt
  rw [group0]
  have h := pick_of_gathered L tg ot C hC (x 0).val (by omega)
  refine Eq.trans (congrArg C (ix2_congr ?_ ?_)) h
  · show 16 * 0 + (x 0).val = (x 0).val; omega
  · show 32 * (wOf L % 4) + 16 * 0 + (x 0).val = 32 * (wOf L % 4) + (x 0).val; omega

/-- Lanes `[16, 32)` of the picked words. -/
theorem group1_pick (C : S32x128.Idx → Elt F .f32)
    (hC : ∀ z : S32x128.Idx, C z = ot (ix2 ⟨(tg (ix1 ⟨32 * wOf L + (z 0).val, by have := wOf_lt L; have : (z 0).val < 32 := (z 0).isLt; omega⟩)).toNat % 100000, Nat.mod_lt _ (by decide)⟩
              ⟨128 * (wOf L / 4) + (z 1).val, by have := wOf_lt L; have : (z 1).val < 128 := (z 1).isLt; omega⟩))
    (x : S16.Idx) :
    k1_pay1 (iota .scVector S16 32 [0] iota_S16_d0_w32_scVector) (k1_pay10 (iota .scVector S16 32 [0] iota_S16_d0_w32_scVector) (k1_pay9 (iota .scVector S16 32 [0] iota_S16_d0_w32_scVector) (k1_pay6 (iota .scVector S16 32 [0] iota_S16_d0_w32_scVector)
        (View.readAt (Elt F) sR.view (Rect.unit (s := S32x128) (k1_off19 L) S1x16.size (k1_off19_inb L)).toLoadRect C)
        (View.readAt (Elt F) sR.view (Rect.unit (s := S32x128) (k1_off20 L) S1x16.size (k1_off20_inb L)).toLoadRect C)
        (View.readAt (Elt F) sR.view (Rect.unit (s := S32x128) (k1_off21 L) S1x16.size (k1_off21_inb L)).toLoadRect C)
        (View.readAt (Elt F) sR.view (Rect.unit (s := S32x128) (k1_off22 L) S1x16.size (k1_off22_inb L)).toLoadRect C))
        (k1_pay7 (View.readAt (Elt F) sR.view (Rect.unit (s := S32x128) (k1_off23 L) S1x16.size (k1_off23_inb L)).toLoadRect C)) k1_pay8
        (View.readAt (Elt F) sR.view (Rect.unit (s := S32x128) (k1_off24 L) S1x16.size (k1_off24_inb L)).toLoadRect C)
        (View.readAt (Elt F) sR.view (Rect.unit (s := S32x128) (k1_off25 L) S1x16.size (k1_off25_inb L)).toLoadRect C)
        (View.readAt (Elt F) sR.view (Rect.unit (s := S32x128) (k1_off26 L) S1x16.size (k1_off26_inb L)).toLoadRect C)
        (View.readAt (Elt F) sR.view (Rect.unit (s := S32x128) (k1_off27 L) S1x16.size (k1_off27_inb L)).toLoadRect C)
        (View.readAt (Elt F) sR.view (Rect.unit (s := S32x128) (k1_off28 L) S1x16.size (k1_off28_inb L)).toLoadRect C))
        (View.readAt (Elt F) sR.view (Rect.unit (s := S32x128) (k1_off29 L) S1x16.size (k1_off29_inb L)).toLoadRect C)
        (View.readAt (Elt F) sR.view (Rect.unit (s := S32x128) (k1_off30 L) S1x16.size (k1_off30_inb L)).toLoadRect C)
        (View.readAt (Elt F) sR.view (Rect.unit (s := S32x128) (k1_off31 L) S1x16.size (k1_off31_inb L)).toLoadRect C)
        (View.readAt (Elt F) sR.view (Rect.unit (s := S32x128) (k1_off32 L) S1x16.size (k1_off32_inb L)).toLoadRect C)
        (View.readAt (Elt F) sR.view (Rect.unit (s := S32x128) (k1_off33 L) S1x16.size (k1_off33_inb L)).toLoadRect C))
        (k1_pay11 (View.readAt (Elt F) sR.view (Rect.unit (s := S32x128) (k1_off34 L) S1x16.size (k1_off34_inb L)).toLoadRect C)) 15#32 x
      = pickOf tg ot (ix1 ⟨32 * wOf L + (16 + (x 0).val), by have := wOf_lt L; have : (x 0).val < 16 := (x 0).isLt; omega⟩) := by
  have hx : (x 0).val < 16 := (x 0).isLt
  rw [group1]
  have h := pick_of_gathered L tg ot C hC (16 + (x 0).val) (by omega)
  refine Eq.trans (congrArg C (ix2_congr ?_ ?_)) h
  · show 16 * 1 + (x 0).val = 16 + (x 0).val; omega
  · show 32 * (wOf L % 4) + 16 * 1 + (x 0).val = 32 * (wOf L % 4) + (16 + (x 0).val); omega

end Assembly

/-! ## The task's run -/

section Tile

variable (d : Dev nD) (L : grid1.Coords)

/-! ### The tile's own cells and buffers -/

abbrev thrV (d : Dev nD) (L : grid1.Coords) : Thread nD τ := V d (cV L) (jV L)

/-- The three DMA cells of the task: the copy-in's, the gather's, the write-out's. -/
abbrev cell0 (d : Dev nD) (c : Fin τ.nSC) (i : Fin τ.nSub) : GSem nD τ sig := (V d c i, .dma cc1_scoped0.sem)
abbrev cellG (d : Dev nD) (c : Fin τ.nSC) (i : Fin τ.nSub) : GSem nD τ sig := (V d c i, .dma cc1_scratch3.sem)
abbrev cell1 (d : Dev nD) (c : Fin τ.nSC) (i : Fin τ.nSub) : GSem nD τ sig := (V d c i, .dma cc1_scoped1.sem)

omit [FloatOps F] [Named F] [CountersIn UU] in
theorem ownSems0_V :
    (ownSems0 (V d (cV L) (jV L)) : sProp 𝕄)
      = iprop(semVal (cell0 d (cV L) (jV L)) 0 ∗ semVal (cellG d (cV L) (jV L)) 0 ∗ semVal (cell1 d (cV L) (jV L)) 0
          ∗ bigSep ((((ownCells (V d (cV L) (jV L))).erase (cell0 d (cV L) (jV L))).erase (cellG d (cV L) (jV L))).erase (cell1 d (cV L) (jV L)))
              fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cellG]; decide, (mem_ownCells (g := cellG d (cV L) (jV L))).mpr ⟨rfl, by
      show (SemLoc.dma cc1_scratch3.sem : SemLoc sig).isScoped .scVector = true; decide⟩⟩),
    SparseCore.bigSep_erase' (Finset.mem_erase.mpr ⟨by simp [cellG, cell1]; decide, Finset.mem_erase.mpr ⟨by simp [cell0, cell1]; decide,
      (mem_ownCells (g := cell1 d (cV L) (jV L))).mpr ⟨rfl, by show (SemLoc.dma cc1_scoped1.sem : SemLoc sig).isScoped .scVector = true; decide⟩⟩⟩)]

omit [FloatOps F] [Named F] [CountersIn UU] in
/-- The task's three scratch buffers, each at some contents, split off the subcore's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ### The arrays as the tile's memrefs address them -/

omit [FloatOps F] [Named F] [CountersIn UU] in
theorem pts_tg (q : PosShare TreeShare) (f : Buf (Elt F) (tgLoc d)) :
    ((tgM).view.loc (V d (cV L) (jV L)) ↦{q} f : sProp 𝕄) = tgLoc d ↦{q} f := rfl
omit [FloatOps F] [Named F] [CountersIn UU] in
theorem pts_ot (q : PosShare TreeShare) (f : Buf (Elt F) (otLoc d)) :
    ((otM).view.loc (V d (cV L) (jV L)) ↦{q} f : sProp 𝕄) = otLoc d ↦{q} f := rfl
omit [FloatOps F] [Named F] [CountersIn UU] in
theorem pts_pk (f : Buf (Elt F) (pkLoc d)) :
    ((outM L).view.loc (V d (cV L) (jV L)) ↦[(outM L).view.set]{fullShare} f : sProp 𝕄) = pkLoc d ↦[outSet L]{fullShare} f := rfl
omit [FloatOps F] [Named F] [CountersIn UU] in
theorem pts_sT (f : Buf (Elt F) ((V d (cV L) (jV L)).loc cc1_scratch0)) :
    ((sT).view.loc (V d (cV L) (jV L)) ↦{fullShare} f : sProp 𝕄) = (V d (cV L) (jV L)).loc cc1_scratch0 ↦{fullShare} f := rfl
omit [FloatOps F] [Named F] [CountersIn UU] in
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl
omit [FloatOps F] [Named F] [CountersIn UU] in
theorem pts_sP (f : Buf (Elt F) ((V d (cV L) (jV L)).loc cc1_scratch2)) :
    ((sP).view.loc (V d (cV L) (jV L)) ↦{fullShare} f : sProp 𝕄) = (V d (cV L) (jV L)).loc cc1_scratch2 ↦{fullShare} f := rfl

/-- The task on vector subcore `(L 0, L 1)` of device `d`: the targets copied in, the 32 rows gathered, the 32 words
    picked, the write-out. From a read share of the targets and of the logits and the tile's 32 positions of the result,
    to the same shares and those positions holding `pickOf`. -/
theorem tile_body (hF : (K (F := F)).Facts) (q₁ q₂ : PosShare TreeShare)
    (tg : Buf (Elt F) (tgLoc d)) (ot : Buf (Elt F) (otLoc d)) (pk : Buf (Elt F) (pkLoc d))
    (hpre : ∀ j, (tg j).toNat < 100000)
    (O : CellTallies nD τ sig (HIx 1)) (W : Waits sig (HIx 1)) (hO : ∀ g, O g none = 0) :
    iprop(levAts (K (F := F)).L (K (F := F)).lev
        ∗ ((tgLoc d ↦{q₁} tg) ∗ (otLoc d ↦{q₂} ot) ∗ (pkLoc d ↦[outSet L]{fullShare} pk))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_pick_kernel L tgM (Memref.isWhole_whole _) otM (Memref.isWhole_whole _) pkM (Memref.isWhole_whole _)
            sT (Memref.isWhole_whole _) sR (Memref.isWhole_whole _) sP (Memref.isWhole_whole _) cc1_scratch3 cc1_scoped0 cc1_scoped1)
          fun _ => iprop(((tgLoc d ↦{q₁} tg) ∗ (otLoc d ↦{q₂} ot) ∗ (pkLoc d ↦[outSet L]{fullShare} pickOf tg ot))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__sc_pick_kernel_eq_skeleton]; unfold cc1__sc_pick_kernel_skel
  rw [(K (F := F)).scopedBufs_V hF d (cV L) (jV L), SparseCore.Cfg.scopedSems0_V (Val := Elt F) d (cV L) (jV L), ownSems0_V, ownBufs_V]
  iintro ⟨#Hlv, ⟨Htg, Hot, Hpk⟩, ⟨⟨%f0, Hs0⟩, ⟨%f1, Hs1⟩, ⟨%f2, Hs2⟩, Hbufs⟩, ⟨Hsem0, HsemG, Hsem1, Hsems⟩, HO⟩
  ihave Hmw := ((K (F := F)).mayWaits_none (thr := V d (cV L) (jV L)) hO) $$ Hlv
  ihave Htg' := (Entails.of_eq (pts_tg (F := F) (UU := UU) d L q₁ tg).symm) $$ Htg
  ihave Hot' := (Entails.of_eq (pts_ot (F := F) (UU := UU) d L q₂ ot).symm) $$ Hot
  ihave Hpk' := (Entails.of_eq (pts_pk (F := F) (UU := UU) d L pk).symm) $$ Hpk
  ihave Hs0' := (Entails.of_eq (pts_sT (F := F) (UU := UU) d L f0).symm) $$ Hs0
  ihave Hs1' := (Entails.of_eq (pts_sR (F := F) (UU := UU) d L f1).symm) $$ Hs1
  ihave Hs2' := (Entails.of_eq (pts_sP (F := F) (UU := UU) d L f2).symm) $$ Hs2
  -- the gather's list: the tile's 32 words of the copied targets, each a row of the logits array
  have hin : ∀ (g : Buf (Elt F) (sT.view.loc (V d (cV L) (jV L)))) (x : S32.Idx),
      ((sT.slice (outR L) (fun _ => rfl)).view.read (Elt F)
        (View.write (Elt F) sT.view g (ReadAs.same.apply (View.read (Elt F) tgM.view tg)) Finset.univ) x).toNat
        < S100000x128.size gathers_S100000x128_S32x128.axis := by
    intro g x
    have hw : View.write (Elt F) sT.view g (ReadAs.same.apply (View.read (Elt F) tgM.view tg)) Finset.univ = tg :=
      View.write_whole_univ (cc1_scratch0 : Ref sig .scVector) g tg
    rw [hw]
    exact hpre _
  sl_exec
  -- the value: the write-out's payload is the picked words
  ihave Hpk := (Entails.of_eq (pointsTo_congr (g := pickOf tg ot) ?hval)) $$ Hpk'
  case hval =>
    have hw : ∀ g : Buf (Elt F) (sT.view.loc (V d (cV L) (jV L))),
        View.write (Elt F) sT.view g (ReadAs.same.apply (View.read (Elt F) tgM.view tg)) Finset.univ = tg :=
      fun g => View.write_whole_univ (cc1_scratch0 : Ref sig .scVector) g tg
    refine out_value L pk _ (pickOf tg ot) ?_
    intro y
    refine halves_value f2 _ _ (fun y => pickOf tg ot (ix1 ⟨32 * wOf L + (y 0).val, by have := wOf_lt L; have : (y 0).val < 32 := (y 0).isLt; omega⟩)) ?_ ?_ y
    · intro x
      refine group0_pick L tg ot _ ?_ x
      intro z
      refine (writes_whole_apply (cc1_scratch1 : Ref sig .scVector) _ _ z).trans ?_
      exact gather_apply L ot tg _ (hw f0) _ _ z
    · intro x
      refine group1_pick L tg ot _ ?_ x
      intro z
      refine (writes_whole_apply (cc1_scratch1 : Ref sig .scVector) _ _ z).trans ?_
      exact gather_apply L ot tg _ (hw f0) _ _ z
  sl_step
  isplitl [Htg' Hot' Hpk]
  · isplitl [Htg']; · iapply (Entails.of_eq (pts_tg (F := F) (UU := UU) d L q₁ tg)); iexact Htg'
    isplitl [Hot']; · iapply (Entails.of_eq (pts_ot (F := F) (UU := UU) d L q₂ ot)); iexact Hot'
    iapply (Entails.of_eq (pts_pk (F := F) (UU := UU) d L (pickOf tg ot))); iexact Hpk
  isplitl [Hs0' Hs1' Hs2' Hbufs]
  · isplitl [Hs0']; · iexists _; iapply (Entails.of_eq (pts_sT (F := F) (UU := UU) d L _)); iexact Hs0'
    isplitl [Hs1']; · iexists _; iapply (Entails.of_eq (pts_sR (F := F) (UU := UU) d L _)); iexact Hs1'
    isplitl [Hs2']; · iexists _; iapply (Entails.of_eq (pts_sP (F := F) (UU := UU) d L _)); iexact Hs2'
    iexact Hbufs
  isplitl [Hsem0 HsemG Hsem1 Hsems]
  · isplitl [Hsem0]; · iexact Hsem0
    isplitl [HsemG]; · iexact HsemG
    isplitl [Hsem1]; · iexact Hsem1
    iexact Hsems
  iexists (insert (SemLoc.dma cc1_scoped1.sem, none) (insert (SemLoc.dma cc1_scratch3.sem, none) (insert (SemLoc.dma cc1_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

/-! ## The task as the launch theorem runs it -/

def coordsV (c : Fin (grid1.bound 0)) (s : Fin (grid1.bound 1)) : grid1.Coords :=
  fun | 0 => c | 1 => s | ⟨_ + 2, h⟩ => absurd h (Nat.not_lt.2 (Nat.le_add_left _ _))

/-- The grid place of task `i` of SparseCore `c` of the call. -/
def placeOf (c : Fin ((K (F := F)).nCore 0)) (i : Fin ((K (F := F)).nSub 0)) : grid1.Coords :=
  coordsV ⟨((K (F := F)).core 0 c).val, c.isLt⟩ ⟨((K (F := F)).sub 0 i).val, i.isLt⟩

theorem defs₀_vector (c : Fin τ.nSC) (s : Fin τ.nSub) :
    defs₀ (F := F) (.scVector c s) 1 ()
      = SparseCore.onTile hcore1 hsub1 (fun c s => cc1__sc_pick_kernel (coordsV c s)
          tgM (Memref.isWhole_whole _) otM (Memref.isWhole_whole _) pkM (Memref.isWhole_whole _)
          sT (Memref.isWhole_whole _) sR (Memref.isWhole_whole _) sP (Memref.isWhole_whole _) cc1_scratch3 cc1_scoped0 cc1_scoped1) ⟨⟩ c s := rfl

omit [FloatOps F] [Named F] [CountersIn UU] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task in the launch theorem's spelling of thread and program: task `i` of SparseCore `c` of call 0, the body the
    call's label names in the lifted table. -/
theorem tile_body_D (hF : (K (F := F)).Facts) (d : Dev nD) (c : Fin ((K (F := F)).nCore 0)) (i : Fin ((K (F := F)).nSub 0))
    (q₁ q₂ : PosShare TreeShare)
    (tg : Buf (Elt F) (tgLoc d)) (ot : Buf (Elt F) (otLoc d)) (pk : Buf (Elt F) (pkLoc d))
    (hpre : ∀ j, (tg j).toNat < 100000)
    (O : CellTallies nD τ sig (HIx 1)) (W : Waits sig (HIx 1)) (hO : ∀ g, O g none = 0) :
    iprop(levAts (K (F := F)).L (K (F := F)).lev
        ∗ ((tgLoc d ↦{q₁} tg) ∗ (otLoc d ↦{q₂} ot) ∗ (pkLoc d ↦[outSet (placeOf (F := F) c i)]{fullShare} pk))
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ (wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0))
          fun _ => iprop(((tgLoc d ↦{q₁} tg) ∗ (otLoc d ↦{q₂} ot) ∗ (pkLoc d ↦[outSet (placeOf (F := F) c i)]{fullShare} pickOf tg ot))
            ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W') : sProp 𝕄) := by
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) hF q₁ q₂ tg ot pk hpre O W hO).trans (wp_mono frame _ _ fun _ => obl_post)

/-! ## The tiles' positions of the result -/

omit [FloatOps F] [Named F] in
theorem outSet_eq (L : grid1.Coords) : outSet L = (outR L).set := by
  show ((View.whole (main_v3_scv : Ref sig .scVector)).slice (outR L)).set = _
  rw [View.set_slice]; exact Finset.map_refl

omit [FloatOps F] [Named F] in
/-- The tile's positions: `[64 s + 32 c, +32)`. -/
theorem mem_outSet (L : grid1.Coords) (j : S1024.Idx) :
    j ∈ outSet L ↔ 64 * (L 1).val + 32 * (L 0).val ≤ (j 0).val ∧ (j 0).val < 64 * (L 1).val + 32 * (L 0).val + 32 := by
  rw [outSet_eq, Rect.mem_set_unit, k1_off1_eq]
  constructor
  · intro h; have := h 0; exact this
  · intro h a; obtain rfl : a = 0 := Subsingleton.elim _ _; exact h

theorem placeOf_zero (c : Fin ((K (F := F)).nCore 0)) (i : Fin ((K (F := F)).nSub 0)) : ((placeOf (F := F) c i) 0).val = c.val := rfl
theorem placeOf_one (c : Fin ((K (F := F)).nCore 0)) (i : Fin ((K (F := F)).nSub 0)) : ((placeOf (F := F) c i) 1).val = i.val := rfl

theorem nCore_zero : (K (F := F)).nCore 0 = 2 := rfl
theorem nSub_zero : (K (F := F)).nSub 0 = 16 := rfl

/-- Task `i` of SparseCore `c` owns positions `[64 i + 32 c, +32)`. -/
theorem mem_outSet_placeOf (c : Fin ((K (F := F)).nCore 0)) (i : Fin ((K (F := F)).nSub 0)) (j : S1024.Idx) :
    j ∈ outSet (placeOf (F := F) c i) ↔ 64 * i.val + 32 * c.val ≤ (j 0).val ∧ (j 0).val < 64 * i.val + 32 * c.val + 32 := by
  rw [mem_outSet, placeOf_zero, placeOf_one]

/-- Two tasks' positions are disjoint. -/
theorem outSet_disjoint {c c' : Fin ((K (F := F)).nCore 0)} {i i' : Fin ((K (F := F)).nSub 0)} (h : c ≠ c' ∨ i ≠ i') :
    Disjoint (outSet (placeOf (F := F) c i)) (outSet (placeOf (F := F) c' i')) := by
  rw [Finset.disjoint_left]
  intro j hj hj'
  rw [mem_outSet_placeOf] at hj hj'
  have hc : c.val < 2 := c.isLt
  have hc' : c'.val < 2 := c'.isLt
  rcases h with h | h
  · exact h (Fin.ext (by omega))
  · exact h (Fin.ext (by omega))

/-- The 32 tasks' positions cover the array. -/
theorem outSet_cover (j : S1024.Idx) : ∃ (c : Fin ((K (F := F)).nCore 0)) (i : Fin ((K (F := F)).nSub 0)), j ∈ outSet (placeOf (F := F) c i) := by
  have hj : (j 0).val < 1024 := (j 0).isLt
  refine ⟨⟨((j 0).val / 32) % 2, Nat.mod_lt _ (by decide)⟩, ⟨(j 0).val / 64, by show _ < 16; omega⟩, ?_⟩
  rw [mem_outSet_placeOf]
  show 64 * ((j 0).val / 64) + 32 * (((j 0).val / 32) % 2) ≤ (j 0).val ∧ (j 0).val < 64 * ((j 0).val / 64) + 32 * (((j 0).val / 32) % 2) + 32
  omega

end Cert.KernelIdeal.ScTile

end
-- ==== Proof.LaunchPay.lean ====
/-
  What the launch's handshakes carry at the one SparseCore call: the targets and the logits as read shares, one
  token per SparseCore and per tile, and each tile's 32 entries of the picked vector.
-/
import proofs.«204472_g16080357556532_cont_week2b_336_33_alg».proof.Proof.LaunchSetup
import proofs.«204472_g16080357556532_cont_week2b_336_33_alg».proof.Proof.ScTile

noncomputable section

namespace Cert.KernelIdeal.LaunchPay

open Cert.KernelIdeal Cert.KernelIdeal.Gen Cert.KernelIdeal.LaunchSetup
open Cert.KernelIdeal.ScTile (tgLoc otLoc pkLoc outSet placeOf pickOf)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig (HIx 1) (Elt F) ℕ UU ℕ

variable (m : (ℓ : Loc nD τ sig) → Buf (Elt F) ℓ)
-- what is known of the logits when the call is made
variable (R : (d : Dev nD) → Buf (Elt F) (otLoc d) → Prop)

/-- The targets: an argument, at its launch contents. -/
abbrev tgOf (d : Dev nD) : Buf (Elt F) (tgLoc d) := m (tgLoc d)

/-- The read share of SparseCore `c`, and of its tile `i`. -/
abbrev shC (c : Fin ((K (F := F)).nCore 0)) : PosShare TreeShare := shareTok fullShare ((K (F := F)).nCore 0) c
abbrev shT (c : Fin ((K (F := F)).nCore 0)) (i : Fin ((K (F := F)).nSub 0)) : PosShare TreeShare :=
  shareTok (shC (F := F) c) ((K (F := F)).nSub 0) i

/-- The entries of the picked vector that SparseCore `c`'s tiles write. -/
def coreSet (c : Fin ((K (F := F)).nCore 0)) : Finset S1024.Idx :=
  Finset.univ.biUnion fun i : Fin ((K (F := F)).nSub 0) => outSet (placeOf (F := F) c i)

/-- The call hands each SparseCore its token of the targets and of the logits and its tiles' entries of the picked
    vector; each tile its token and its 32 entries; back come the same, the entries at the picked logits. -/
def P : (K (F := F)).Pay (nD := nD) (Val := Elt F) (Name := ℕ) (U := UU) where
  st := fun q d c => match q with
    | 0 => iprop((tgLoc d ↦{shC (F := F) c} tgOf m d) ∗ (∃ ot, ⌜R d ot⌝ ∗ otLoc d ↦{shC (F := F) c} ot)
        ∗ ∃ pk, pkLoc d ↦[coreSet (F := F) c]{fullShare} pk)
  dn := fun q d c => match q with
    | 0 => iprop((tgLoc d ↦{shC (F := F) c} tgOf m d) ∗ ∃ ot, ⌜R d ot⌝ ∗ (otLoc d ↦{shC (F := F) c} ot)
        ∗ pkLoc d ↦[coreSet (F := F) c]{fullShare} pickOf (tgOf m d) ot)
  go := fun q d c i => match q with
    | 0 => iprop((tgLoc d ↦{shT (F := F) c i} tgOf m d) ∗ (∃ ot, ⌜R d ot⌝ ∗ otLoc d ↦{shT (F := F) c i} ot)
        ∗ ∃ pk, pkLoc d ↦[outSet (placeOf (F := F) c i)]{fullShare} pk)
  td := fun q d c i => match q with
    | 0 => iprop((tgLoc d ↦{shT (F := F) c i} tgOf m d) ∗ ∃ ot, ⌜R d ot⌝ ∗ (otLoc d ↦{shT (F := F) c i} ot)
        ∗ pkLoc d ↦[outSet (placeOf (F := F) c i)]{fullShare} pickOf (tgOf m d) ot)
  x := fun _ _ => iprop(emp)

instance P_storable : (P (F := F) m R).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

end Cert.KernelIdeal.LaunchPay

end
-- ==== Proof.RegionGlue.lean ====
/-
  A kernel region of @main inside the SparseCore program: the pipeline library's region record assembled from a
  region's proof data, entered from the TensorCore's unscoped arrays and what it owes the launch.
-/
import proofs.«204472_g16080357556532_cont_week2b_336_33_alg».proof.Proof.LaunchSetup

noncomputable section

namespace Cert.KernelIdeal.RegionGlue

open Cert.KernelIdeal Cert.KernelIdeal.Gen Cert.KernelIdeal.LaunchSetup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig (HIx 1) (Elt F) ℕ UU ℕ

/-- The staging cells of the two pipelines are pairwise distinct (decided over the printed windows, at the pipelines as the
    region records spell them). -/
theorem phinj : Function.Injective (Pipeline.cellOf (nD := nD) (τ := τ) (Pipeline.pin (pcfgs (F := F)) adm)) :=
  cellOf_inj

variable (rdats : (p : Fin 2) → (c : Dev nD) → Pipeline.RDat τ (Elt F) (HIx 1) ℕ UU ℕ (Pipeline.pin (pcfgs (F := F)) adm p) c)

/-- The thread state a region is entered from: the TensorCore's unscoped arrays at `V`, what it owes at `O` with
    recorded pairs `W`. -/
def preOf (V : (c : Dev nD) → (b : Ref sig .tc) → Buf (Elt F) ((c.tc : Thread nD τ).loc b))
    (O : Dev nD → CellTallies nD τ sig (HIx 1)) (W : Dev nD → Waits sig (HIx 1)) (c : Dev nD) : sProp 𝕄 :=
  iprop(unscopedBufs c (V c) ∗ owes (c.tc : Thread nD τ) (O c) (W c))

/-- The thread state region `p` leaves: its arrays at contents they may hold after its write-backs, the other
    unscoped arrays untouched, the TensorCore owing as before with its recorded pairs bounded. -/
def postOf (p : Fin 2) (V : (c : Dev nD) → (b : Ref sig .tc) → Buf (Elt F) ((c.tc : Thread nD τ).loc b)) (c : Dev nD) : sProp 𝕄 :=
  iprop((rdats p c).arraysAt (Pipeline.pin (pcfgs (F := F)) adm p).N ∗ (rdats p c).owesAt none (Fin.last (Pipeline.pin (pcfgs (F := F)) adm p).N)
    ∗ Pipeline.unscopedRest (Pipeline.pin (pcfgs (F := F)) adm p).spec c (V c))

def segOf (p : Fin 2) (lf : Pipeline.LaunchFacts (nD := nD) (τ := τ) cfgs p) (V : (c : Dev nD) → (b : Ref sig .tc) → Buf (Elt F) ((c.tc : Thread nD τ).loc b))
    (O : Dev nD → CellTallies nD τ sig (HIx 1)) (W : Dev nD → Waits sig (HIx 1))
    (hbody : ∀ c, (rdats p c).BodyObligation (defs₀ (F := F)) 𝒱₀ none Set.univ)
    (hO : ∀ c g, O c g none = 0)
    (howed : ∀ c t, (rdats p c).owed t = O c)
    (hrec : ∀ c t, (rdats p c).recorded t = ((W c : Finset _) : Set (SemLoc sig × HIx 1)))
    (hshare : ∀ c w, (rdats p c).share w = fullShare)
    (hA : ∀ c w, (rdats p c).A w = V c (Pipeline.arrRef (Pipeline.pin (pcfgs (F := F)) adm p).spec w))
    (hin : ∀ c, iprop((BI.emp : sProp 𝕄) ∗ Pipeline.prefHeld ((pcfgs (F := F)) p).pre c (fun _ => fullShare) (adm (F := F) p).1 ∗ Pipeline.scopedRest (Pipeline.pin (pcfgs (F := F)) adm p).spec c) ⊢ (rdats p c).Φ 0)
    (hout : ∀ c, (rdats p c).Φ (Fin.last (Pipeline.pin (pcfgs (F := F)) adm p).N) ⊢ iprop((BI.emp : sProp 𝕄) ∗ Pipeline.ownSems0 (fun k : PEmpty => k.elim) c ∗ Pipeline.scopedRest (Pipeline.pin (pcfgs (F := F)) adm p).spec c)) :
    Pipeline.RDat.RegionSeg (pcfgs (F := F)) adm rdats none (defs₀ (F := F)) 𝒱₀ (K (F := F)).L (K (F := F)).lev p where
  win := lf.win.to₀
  block_pos := lf.block_pos
  stage_whole := lf.stage_whole
  K := PEmpty
  osem := fun k => k.elim
  ho := Pipeline.OwnSemFacts.none _
  hbody := hbody
  hwaits := fun c => Pipeline.RDat.cellsWaits_intro (Pipeline.pin (pcfgs (F := F)) adm) rdats none p c (R := levAts (K (F := F)).L (K (F := F)).lev)
      (fun w s t => by rw [howed c t]; exact (K (F := F)).mayWait_none _ (hO c))
  pre := preOf V O W
  post := postOf rdats p V
  X := fun _ => iprop(emp)
  Y := fun _ => iprop(emp)
  Z := fun c => Pipeline.unscopedRest (Pipeline.pin (pcfgs (F := F)) adm p).spec c (V c)
  hentry := fun c => by
    unfold preOf
    iintro ⟨⟨Hbufs, Howes⟩, -, -⟩
    ihave H := (Pipeline.RDat.arrays_of_unscopedBufs (pcfgs (F := F)) adm rdats (p := p) lf.win lf.arr_whole c (hshare c) (V c) (hA c)) $$ Hbufs
    icases H with ⟨Harr, Hrest⟩
    imodintro
    isplitl [Harr]; · iexact Harr
    isplitr; · unfold Pipeline.prefHeld; rw [Finset.univ_eq_empty, bigSep_empty]; iempintro
    isplitl [Howes]
    · iexists (W c); isplitr
      · ipureintro; unfold Pipeline.RDat.bound; rw [hrec c 0]; exact Set.subset_union_left
      rw [howed c 0]; iexact Howes
    isplitr; · iempintro
    iexact Hrest
  hin := hin
  hout := hout
  hexit := fun c => by
    unfold postOf
    iintro ⟨Harr, Ho, -, Hz⟩
    imodintro
    isplitl [Harr]; · iexact Harr
    isplitl [Ho]; · iexact Ho
    iexact Hz

/-- A region's line of @main in the extended signature: from the region boundary, the region's entry state, the level
    facts and its pipeline's ghost state, to the boundary and the region's exit state. -/
theorem seg_wp [∀ e, Nonempty (Elt F e)] {p : Fin 2}
    (R : Pipeline.RDat.RegionSeg (pcfgs (F := F)) adm rdats none (defs₀ (F := F)) 𝒱₀ (K (F := F)).L (K (F := F)).lev p)
    (d : Dev nD) (Ψ : PUnit → sProp 𝕄) :
    iprop((iprop(boundary (d.tc : Thread nD τ) ∗ R.post d) -∗ Ψ ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d.tc : Thread nD τ) none) Set.univ
          (Prog.lift (.customCall (SparseCore.inner (Pipeline.entry p)) ())) Ψ := by
  have h := Pipeline.RDat.RegionSeg.wp (pcfgs (F := F)) adm rdats none phinj EP (defs₀ (F := F)) 𝒱₀ (K (F := F)).L (K (F := F)).lev
    R d none (fun u hu => nomatch hu) Prog.ret Ψ
  have h2 := (K (F := F)).wp_liftProg (D (F := F)) 𝒱 (d.tc : Thread nD τ) Set.univ none
    (Prog.lift (.customCall (Pipeline.entry p) ())) Ψ
  refine BIBase.Entails.trans ?_ h2
  refine BIBase.Entails.trans ?_ h
  iintro ⟨Hk, Hrest⟩
  isplitl [Hk]
  · iintro H
    rw [wp_ret]
    imodintro
    iapply Hk
    iexact H
  iexact Hrest

end Cert.KernelIdeal.RegionGlue

end
-- ==== Proof.Tc2Dat.lean ====
/- The combine region (the second TensorCore call of the program): its proof data.
   One point, three whole windows: the picked logits [8,128] and the row sums [8,1024] come in,
   the scalar loss [1,1] goes out.  The body reads the two inputs and stores one scalar;
   it has no scratch, no semaphore of its own and reads no table, so the invariant between
   points is just the core's scoped buffers that the region does not stage, at any contents. -/
import proofs.«204472_g16080357556532_cont_week2b_336_33_alg».proof.Proof.Gen.KernelIdeal.Launch
import proofs.«204472_g16080357556532_cont_week2b_336_33_alg».proof.Proof.Gen.KernelIdeal.Skeleton
import proofs.«204472_g16080357556532_cont_week2b_336_33_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Tc2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable {Ix : Type} [DecidableEq Ix] {Name : Type} [DecidableEq Name] {U : Type} [URA U] {Lvl : Type}

local notation "𝕄" => MT nD τ sig Ix (Elt F) Name U Lvl

/-- The three windowed arrays' contents on core `c` when the region is entered. -/
abbrev Arrs (F : FTy → Type) (c : Dev nD) : Type :=
  (w : Fin cfg2.W) → Buf (Elt F) ((cfg2.win w).arr.view.loc (c.tc : Thread nD τ))

/-! ## The windows' blocks -/

/-- Window `w`'s block at point `t`, read off its array as the region finds it. -/
def iblk {c : Dev nD} (A : Arrs F c) (w : Fin cfg2.W) (t : Fin cfg2.N) :
    ((cfg2.win w).xblock (cfg2.grid.coords t)).Idx → Elt F (cfg2.win w).elt :=
  ((cfg2.win w).blk t).view.read (Elt F) (A w)

/-! ## The body's accesses -/

/-- Row 0 of the row sums: the 1×1024 rectangle at the origin of the 8×1024 buffer. -/
abbrev rSe : Rect S8x1024 := Rect.unit (s := S8x1024) ![0, 0] S1x1024.size inb_S8x1024_S1x1024_0_0
/-- All of the picked logits' 8×128 buffer. -/
abbrev rPk : Rect S8x128 := Rect.unit (s := S8x128) ![0, 0] S8x128.size inb_S8x128_S8x128_0_0
/-- The one word of the loss. -/
abbrev rLoss : Rect S1x1 := Rect.unit (s := S1x1) ![0, 0] S1x1.size inb_S1x1_S1x1_0_0

/-- What the body leaves in the loss's staging word, from the two input blocks: its one store, of the
    scalar the skeleton names `k2_pay1`, at every index of the one-word buffer. -/
def outLoss (pk : Vec F S8x128 .f32) (se : Vec F S8x1024 .f32) : Vec F S1x1 .f32 :=
  View.canon [⟨rLoss, fun _ => k2_pay1 (View.ld se rSe) (View.ld pk rPk)⟩]

/-- The one store covers the one-word buffer. -/
theorem coverLoss (p : Vec F S1x1 .f32) (y : S1x1.Idx) :
    ∃ pc ∈ ([⟨rLoss, p⟩] : List (View.Piece (Elt F) S1x1 .f32)), y ∈ pc.1.set :=
  View.cover_of_tiled [⟨rLoss, p⟩] S1x1.size (by rfl) y

/-! ## The proof data -/

/-- The proof data of the combine pipeline on core `c`: the arrays at entry `A`; after the body at the one
    point each input's buffer at its block and the loss's word at `outLoss` of the input blocks; the invariant
    the scoped buffers the region does not stage; the core owes `O` throughout, its recorded pairs within `B`
    (the body touches no semaphore); full shares. -/
def dat2 (c : Dev nD) (A : Arrs F c) (O : CellTallies nD τ sig Ix) (B : Set (SemLoc sig × Ix)) :
    Dat τ (Elt F) Ix Name U Lvl cfg2 c where
  A := A
  after w t := match w with
    | ⟨0, _⟩ => iblk A 0 t
    | ⟨1, _⟩ => iblk A 1 t
    | ⟨2, _⟩ => outLoss (iblk A 0 t) (iblk A 1 t)
  Φ _ := Pipeline.scopedRest (Ix := Ix) (Name := Name) (U := U) (Lvl := Lvl) (Val := Elt F) spec2 c
  q _ := fullShare
  owed _ := O
  recorded _ := B

section
variable (c : Dev nD) (A : Arrs F c) (O : CellTallies nD τ sig Ix) (B : Set (SemLoc sig × Ix))

theorem dat2_A (w : Fin cfg2.W) : (dat2 (Name := Name) (U := U) (Lvl := Lvl) c A O B).A w = A w := rfl
theorem dat2_Φ (t : Fin (cfg2.N + 1)) :
    (dat2 (Name := Name) (U := U) (Lvl := Lvl) c A O B).Φ t
      = Pipeline.scopedRest (Ix := Ix) (Name := Name) (U := U) (Lvl := Lvl) (Val := Elt F) spec2 c := rfl
theorem dat2_owed (t : Fin (cfg2.N + 1)) : (dat2 (Name := Name) (U := U) (Lvl := Lvl) c A O B).owed t = O := rfl
theorem dat2_recorded (t : Fin (cfg2.N + 1)) : (dat2 (Name := Name) (U := U) (Lvl := Lvl) c A O B).recorded t = B := rfl
theorem dat2_share (w : Fin cfg2.W) : (dat2 (Name := Name) (U := U) (Lvl := Lvl) c A O B).share w = fullShare :=
  (dat2 (Name := Name) (U := U) (Lvl := Lvl) c A O B).share_full (fun _ => rfl) w

theorem after2_0 (t : Fin cfg2.N) : (dat2 (Name := Name) (U := U) (Lvl := Lvl) c A O B).after 0 t = iblk A 0 t := by dsimp only [dat2]
theorem after2_1 (t : Fin cfg2.N) : (dat2 (Name := Name) (U := U) (Lvl := Lvl) c A O B).after 1 t = iblk A 1 t := by dsimp only [dat2]
theorem after2_2 (t : Fin cfg2.N) :
    (dat2 (Name := Name) (U := U) (Lvl := Lvl) c A O B).after 2 t = outLoss (iblk A 0 t) (iblk A 1 t) := by dsimp only [dat2]

/-- Each input's staging buffer holds its block when the body runs: both are fetched at the one point, uncut. -/
theorem before2_0 (t : Fin cfg2.N) (d) :
    (dat2 (Name := Name) (U := U) (Lvl := Lvl) c A O B).before 0 t d = iblk A 0 t := by
  unfold Dat.before; rw [if_pos (fetch2_0 t)]; rfl
theorem before2_1 (t : Fin cfg2.N) (d) :
    (dat2 (Name := Name) (U := U) (Lvl := Lvl) c A O B).before 1 t d = iblk A 1 t := by
  unfold Dat.before; rw [if_pos (fetch2_1 t)]; rfl

/-! ## Entering and leaving the invariant -/

/-- The invariant before the one point: the scoped buffers the region does not stage, as handed over (nothing of the
    caller's enters, and the region reads no table). -/
theorem hin2 (a : (cfg2.toPCfg (Val := Elt F)).Adm) :
    iprop((BI.emp : sProp 𝕄) ∗ Pipeline.prefHeld (cfg2.toPCfg (Val := Elt F)).pre c (fun _ => fullShare) a.1
        ∗ Pipeline.scopedRest spec2 c)
      ⊢ (dat2 (Name := Name) (U := U) (Lvl := Lvl) c A O B).Φ 0 := by
  rw [dat2_Φ]
  iintro ⟨-, -, H⟩; iexact H

/-- The invariant after it gives the same buffers back; the kernel has no semaphore of its own. -/
theorem hout2 :
    (dat2 (Name := Name) (U := U) (Lvl := Lvl) c A O B).Φ (Fin.last cfg2.N)
      ⊢ iprop((BI.emp : sProp 𝕄) ∗ Pipeline.ownSems0 (fun k : PEmpty => k.elim) c ∗ Pipeline.scopedRest spec2 c) := by
  rw [Pipeline.ownSems0_none, dat2_Φ]
  iintro H
  isplitr; · iempintro
  isplitr; · iempintro
  iexact H

end

end Cert.KernelIdeal.Tc2

end
-- ==== Proof.Tc2Body.lean ====
/- The combine region: the body obligation.  The kernel body loads row 0 of the row sums and all of the
   picked logits, reads the loss word (the value is not used) and stores one scalar into it; the two
   input buffers are left as found. -/
import proofs.«204472_g16080357556532_cont_week2b_336_33_alg».proof.Proof.Tc2Dat

set_option maxRecDepth 16384

noncomputable section

namespace Cert.KernelIdeal.Tc2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## The body's triple -/

set_option maxHeartbeats 1000000 in
/-- The kernel body on whole staging memrefs, the inputs' at contents `x0`, `x1` and the loss word at anything, runs to
    the continuation holding the inputs' as they were and the loss word at `outLoss x0 x1`. -/
theorem sound_kernel (c : Dev nD) (𝒱₀ : Variants) (E : Set Name)
    (arg0 : Memref sig .tc .vmem S8x128 .f32) (harg0 : arg0.IsWhole)
    (arg1 : Memref sig .tc .vmem S8x1024 .f32) (harg1 : arg1.IsWhole)
    (arg2 : Memref sig .tc .smem S1x1 .f32) (harg2 : arg2.IsWhole)
    (x0 : Vec F S8x128 .f32) (x1 : Vec F S8x1024 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (outLoss x0 x1)) -∗ K ⟨⟩))
      ⊢ wp frame (wpE (defs₀ (F := F)) 𝒱₀ c none) E (cc2__combine_kernel arg0 harg0 arg1 harg1 arg2 harg2) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverLoss _)

/-! ## The body obligation -/

section
variable (c : Dev nD) (A : Arrs F c) (O : CellTallies nD τ sig Ix) (B : Set (SemLoc sig × Ix)) (ι : Ix)

/-- What the body is called with at the point, -/
def bodyPre (t : Fin cfg2.N) : sProp 𝕄 :=
  iprop((dat2 (Name := Name) (U := U) (Lvl := Lvl) c A O B).Φ t.castSucc ∗ (dat2 (Name := Name) (U := U) (Lvl := Lvl) c A O B).owesAt ι t.castSucc
    ∗ (∃ d, owns (c : Thread nD τ) (st2_0 t) fullShare ((dat2 (Name := Name) (U := U) (Lvl := Lvl) c A O B).before 0 t d))
    ∗ (∃ d, owns (c : Thread nD τ) (st2_1 t) fullShare ((dat2 (Name := Name) (U := U) (Lvl := Lvl) c A O B).before 1 t d))
    ∗ (∃ d, owns (c : Thread nD τ) (st2_2 t) fullShare ((dat2 (Name := Name) (U := U) (Lvl := Lvl) c A O B).before 2 t d)))

/-- and what it returns. -/
def bodyPost (t : Fin cfg2.N) : sProp 𝕄 :=
  iprop((dat2 (Name := Name) (U := U) (Lvl := Lvl) c A O B).Φ t.succ ∗ (dat2 (Name := Name) (U := U) (Lvl := Lvl) c A O B).owesAt ι t.succ
    ∗ owns (c : Thread nD τ) (st2_0 t) fullShare ((dat2 (Name := Name) (U := U) (Lvl := Lvl) c A O B).after 0 t)
    ∗ owns (c : Thread nD τ) (st2_1 t) fullShare ((dat2 (Name := Name) (U := U) (Lvl := Lvl) c A O B).after 1 t)
    ∗ owns (c : Thread nD τ) (st2_2 t) fullShare ((dat2 (Name := Name) (U := U) (Lvl := Lvl) c A O B).after 2 t))

/-- The body at the point: the inputs' memrefs hold their blocks, so `sound_kernel` applies; the invariant and
    the core's dues pass through untouched. -/
theorem sound_body (𝒱₀ : Variants) (t : Fin cfg2.N) :
    (bodyPre (Name := Name) (U := U) (Lvl := Lvl) c A O B ι t : sProp 𝕄)
      ⊢ wp frame (wpE (defs₀ (F := F)) 𝒱₀ c none) Set.univ (bodyAt2 t)
          (fun _ => bodyPost (Name := Name) (U := U) (Lvl := Lvl) c A O B ι t) := by
  unfold bodyPre bodyPost bodyAt2
  simp only [before2_0, before2_1]
  rw [show (dat2 (Name := Name) (U := U) (Lvl := Lvl) c A O B).Φ t.succ = (dat2 (Name := Name) (U := U) (Lvl := Lvl) c A O B).Φ t.castSucc from rfl,
    show (dat2 (Name := Name) (U := U) (Lvl := Lvl) c A O B).owesAt ι t.succ = (dat2 (Name := Name) (U := U) (Lvl := Lvl) c A O B).owesAt ι t.castSucc from rfl,
    after2_0, after2_1, after2_2]
  iintro ⟨HΦ, Ho, ⟨%d0, H0⟩, ⟨%d1, H1⟩, ⟨%d2, H2⟩⟩
  iapply (sound_kernel c 𝒱₀ Set.univ _ _ _ _ _ _ (iblk A 0 t) (iblk A 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation at the region's one point, on core `c`. -/
theorem hbody2 (𝒱₀ : Variants) :
    BodyObligationLoose (dat2 (Name := Name) (U := U) (Lvl := Lvl) c A O B) (defs₀ (F := F)) 𝒱₀ ι Set.univ :=
  (show BodyObligation (dat2 (Name := Name) (U := U) (Lvl := Lvl) c A O B) (defs₀ (F := F)) 𝒱₀ ι Set.univ from fun t => by
    rw [bigSep_W2, bigSep_W2]
    exact sound_body c A O B ι 𝒱₀ t).loose

end

end Cert.KernelIdeal.Tc2

end
-- ==== Proof.Tc0Forms.lean ====
/- The closed forms of what the body of TensorCore region 0 leaves in its buffers at one grid point, over ARBITRARY
   contents of the buffers it reads: the normalised query block, the logits block, the running sums of exponentials
   and the final sublane sum. Generic in the float instance. Definitions only. -/
import proofs.«204472_g16080357556532_cont_week2b_336_33_alg».proof.Proof.Gen.KernelIdeal.Skeleton
import Idealize.ShloMosaic.Lib.Pipeline.FrameBody

noncomputable section

namespace Cert.KernelIdeal.Tc0

open Idealize.ShloMosaic Idealize.SL.Sem
open Cert.KernelIdeal.Gen

variable {F : FTy → Type} [FloatOps F] [Named F]

/-- Rows `[8k, 8k + 8)` of a block of 4096 rows, all 1024 columns: the k-th group of eight rows (k clamped to the
    last group, 511, so that the rectangle lies inside the block for every k). -/
abbrev rowRect (k : ℕ) : Rect S4096x1024 :=
  Rect.unit ![8 * min k 511, 0] S8x1024.size
    (Rect.inb₂ (by show 8 * min k 511 + 8 ≤ 4096; have := Nat.min_le_right k 511; omega) (by show 0 + 1024 ≤ 1024; omega))

/-- The k-th group of eight rows of a block `Y`: `rows Y k (r, col) = Y (8k + r, col)`. -/
def rows (Y : Vec F S4096x1024 .f32) (k : ℕ) : Vec F S8x1024 .f32 := fun x => Y ((rowRect k).idx x)

/-- The running sum: `a` plus the exponentials of the first `n` row groups `r 0, …, r (n - 1)`, added one group at
    a time in this order (the order matters at a float instance that rounds). -/
def expSum (a : FVec F S8x1024 .f32) (r : ℕ → Vec F S8x1024 .f32) (n : ℕ) : FVec F S8x1024 .f32 :=
  Nat.rec (motive := fun _ => FVec F S8x1024 .f32) a
    (fun k ih => addf ih (exp (shapeCast S8x1024 (r k) shapeCasts_S8x1024_S8x1024))) n

@[simp] theorem expSum_zero (a : FVec F S8x1024 .f32) (r : ℕ → Vec F S8x1024 .f32) : expSum a r 0 = a := rfl

@[simp] theorem expSum_succ (a : FVec F S8x1024 .f32) (r : ℕ → Vec F S8x1024 .f32) (n : ℕ) :
    expSum a r (n + 1) = addf (expSum a r n) (exp (shapeCast S8x1024 (r n) shapeCasts_S8x1024_S8x1024)) := rfl

/-- The running sum reads only the first `n` groups. -/
theorem expSum_congr (a : FVec F S8x1024 .f32) {r r' : ℕ → Vec F S8x1024 .f32} (n : ℕ) (h : ∀ k, k < n → r k = r' k) :
    expSum a r n = expSum a r' n := by
  induction n with
  | zero => rfl
  | succ n ih => rw [expSum_succ, expSum_succ, ih (fun k hk => h k (Nat.lt_succ_of_lt hk)), h n (Nat.lt_succ_self n)]

/-- The normalised, temperature-scaled query block the first grid point stores into the first scratch buffer,
    from the transposed query block `X0`. -/
def xsOf (X0 : Vec F S64x1024 .f32) : Vec F S64x1024 .f32 := k0_pay1 X0

/-- The logits block every grid point stores into the first result's buffer: the product of the transposed
    feature block `X1` (contracted over its 64 rows) with the scaled queries `S0`. -/
def outOf (X1 : Vec F S64x4096 .f32) (S0 : Vec F S64x1024 .f32) : Vec F S4096x1024 .f32 := k0_pay3 X1 S0

/-- The running sums a grid point before the last leaves in the second scratch buffer: the sums `S1` it found plus
    the exponentials of all 512 row groups of the logits block `Y`. -/
def accOf (S1 : Vec F S8x1024 .f32) (Y : Vec F S4096x1024 .f32) : Vec F S8x1024 .f32 :=
  shapeCast S8x1024 (expSum S1 (rows Y) 512) shapeCasts_S8x1024_S8x1024

/-- What the last grid point stores into the second result's buffer: the sums `S1` it found plus the exponentials
    of the first 212 row groups of its logits block `Y` (the rows inside the array), summed over the eight sublanes
    and broadcast back to eight rows. -/
def se8Of (S1 : Vec F S8x1024 .f32) (Y : Vec F S4096x1024 .f32) : Vec F S8x1024 .f32 :=
  broadcastTo S8x1024
    (shapeCast S1x1024
      (shapeCast S1x1024
        (multiReduction .add [0] S1024 (expSum S1 (rows Y) 212) 0x00000000#32 reduces_S8x1024_S1024 (.inl rfl) rfl)
        shapeCasts_S1024_S1x1024)
      shapeCasts_S1x1024_S1x1024)
    broadcasts_S1x1024_S8x1024

end Cert.KernelIdeal.Tc0

end
-- ==== Proof.Tc0Dat.lean ====
/-
  The proof data of TensorCore region 0 (the logits and the per-sublane sums of their exponentials), hand-written,
  untrusted. The region's grid has 25 points, point t taking the block of 4096 rows [4096 t, 4096 t + 4096) of the
  memory bank (the last block overhangs the bank: only its first 1696 rows exist). At every point the body writes the
  block of logits  out = ftᵀ · xs  (xs the normalised, temperature-scaled inputs, computed once at the first point and
  carried in a scratch buffer); at the points before the last it adds, into a second carried scratch buffer acc of
  eight sublanes, the exponentials of the block's 512 groups of eight rows; at the last point it adds the first 212
  groups only (the rows that exist) and writes the sum over the eight sublanes, broadcast back to eight rows.

  What the body leaves at one point, over arbitrary contents of what it reads, is written in closed form in the
  module of the forms (`xsOf`, `outOf`, `accOf`, `se8Of`); here they are composed along the grid.

  Two sets of data are defined. `datF` names nothing of the outputs (its invariant is the scoped buffers at contents
  not chosen): the product of a block whose tail holds words nothing names is not, for an arbitrary float instance, a
  function of the rows that exist, so a run generic in the float instance can only carry the frame. `datV` names the
  logits block, the accumulator after each point and the final sums as those closed forms of the entry contents; its
  body obligation needs the product to be row-wise (true of the ideal instance).
-/
import proofs.«204472_g16080357556532_cont_week2b_336_33_alg».proof.Proof.Gen.KernelIdeal.Launch
import proofs.«204472_g16080357556532_cont_week2b_336_33_alg».proof.Proof.Gen.KernelIdeal.Points
import proofs.«204472_g16080357556532_cont_week2b_336_33_alg».proof.Proof.Gen.KernelIdeal.Skeleton
import proofs.«204472_g16080357556532_cont_week2b_336_33_alg».proof.Proof.Tc0Forms
import Idealize.ShloMosaic.Lib.Pipeline.Kit
import Idealize.ShloMosaic.Lib.Pipeline.Value

noncomputable section

namespace Cert.KernelIdeal.Tc0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]
variable {Ix : Type} [DecidableEq Ix] {Name : Type} [DecidableEq Name] {U : Type} [URA U] {Lvl : Type}

local notation "𝕄" => MT nD τ sig Ix (Elt F) Name U Lvl

/-- The word nothing reads: the filler of a block's part past the array's end, and of contents the data do not name. -/
abbrev zeroW : Elt F .f32 := Scalar.ofBits .f32 0#32

/-! ## The blocks, the carried scratch and the outputs as terms of the region's entry contents -/

section Data

variable (c : Dev nD) (A : (w : Fin cfg0.W) → Buf (Elt F) ((cfg0.win w).arr.view.loc (c.tc : Thread nD τ)))

/-- Point `n` of the grid. -/
def pt (n : ℕ) (h : n < 25) : Fin cfg0.N := ⟨n, lt_of_lt_of_eq h N_0.symm⟩

/-- The inputs' block (window 0: the whole transposed array, at every point). -/
def xblk (t : Fin cfg0.N) : Vec F S64x1024 .f32 :=
  win0_0.fill (grid0.coords t) (fun _ => zeroW) ((win0_0.blk t).view.read (Elt F) (A 0))

/-- The memory bank's block at point `t` (window 1): columns `[4096 t, 4096 t + 4096)` of the transposed bank, the
    part inside the array; past its end (the last point's columns from 1696 on) the zero word. -/
def ftblk (t : Fin cfg0.N) : Vec F S64x4096 .f32 :=
  win0_1.fill (grid0.coords t) (fun _ => zeroW) ((win0_1.blk t).view.read (Elt F) (A 1))

/-- The normalised, scaled inputs the first point leaves in the first scratch buffer. -/
def xsV : Vec F S64x1024 .f32 := xsOf (xblk c A (pt 0 (by omega)))

/-- The block of logits the body writes at point `t`. -/
def outV (t : Fin cfg0.N) : Vec F S4096x1024 .f32 := outOf (ftblk c A t) (xsV c A)

/-- The accumulator (second scratch buffer) after `n` points: zero, then a whole block added at each of the points
    0 … 23; the last point leaves it as it was. -/
def accV : ℕ → Vec F S8x1024 .f32
  | 0 => k0_pay2
  | n + 1 => if h : n < 24 then accOf (accV n) (outV c A (pt n (by omega))) else accV n

/-- The sums the last point writes (window 3). -/
def se8V : Vec F S8x1024 .f32 := se8Of (accV c A 24) (outV c A (pt 24 (by omega)))

theorem accV_zero : accV c A 0 = k0_pay2 := rfl
theorem accV_succ_of_lt {n : ℕ} (h : n < 24) :
    accV c A (n + 1) = accOf (accV c A n) (outV c A (pt n (by omega))) := by
  rw [accV, dif_pos h]
theorem accV_succ_of_ge {n : ℕ} (h : 24 ≤ n) : accV c A (n + 1) = accV c A n := by
  rw [accV, dif_neg (by omega)]

variable (O : CellTallies nD τ sig Ix) (B : Set (SemLoc sig × Ix))

/-! ### The data that name nothing of the outputs (the frame, any float instance) -/

/-- Region 0's proof data for the frame: the arrays as the region finds them; the inputs' staging buffers at their
    blocks; the outputs' windows not named (the body obligation is stated with them forgotten, `fgtF`); the invariant
    the scoped buffers no window stages, each at contents not chosen; the tallies `O` owed throughout and the recorded
    pairs within `B`; full shares. -/
def datF : Dat τ (Elt F) Ix Name U Lvl cfg0 c where
  A := A
  after w t := match w with
    | ⟨0, _⟩ => xblk c A t
    | ⟨1, _⟩ => ftblk c A t
    | ⟨2, _⟩ => fun _ => zeroW
    | ⟨3, _⟩ => fun _ => zeroW
  Φ _ := Pipeline.scopedRest spec0 c
  q _ := fullShare
  owed _ := O
  recorded _ := B

/-- The windows `datF`'s body obligation forgets: the two outputs. -/
def fgtF : Fin cfg0.W → Bool := fun | ⟨0, _⟩ => false | ⟨1, _⟩ => false | ⟨2, _⟩ => true | ⟨3, _⟩ => true

theorem datF_hin : (Pipeline.scopedRest spec0 c : sProp 𝕄) ⊢ (datF (Name := Name) (U := U) (Lvl := Lvl) c A O B).Φ 0 := .rfl
theorem datF_hout : (datF (Name := Name) (U := U) (Lvl := Lvl) c A O B).Φ (Fin.last cfg0.N) ⊢ (Pipeline.scopedRest spec0 c : sProp 𝕄) := .rfl

/-! ### The data that name the outputs (the values) -/

/-- The invariant before point `n`: at the first point the scoped buffers no window stages at contents not chosen;
    after it the first scratch buffer at the scaled inputs, the second at the accumulator after `n` points, and the
    three staging buffers of the combining call at contents not chosen. -/
def PhiV : ℕ → sProp 𝕄
  | 0 => Pipeline.scopedRest spec0 c
  | n + 1 => iprop((((c : Thread nD τ).loc cc0_scratch0) ↦{fullShare} (xsV c A : Buf (Elt F) ((c : Thread nD τ).loc cc0_scratch0)))
      ∗ (((c : Thread nD τ).loc cc0_scratch1) ↦{fullShare} (accV c A (n + 1) : Buf (Elt F) ((c : Thread nD τ).loc cc0_scratch1)))
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f))

/-- Region 0's proof data with the outputs named: after the body at point `t` the inputs' staging buffers at their
    blocks, the logits' at `outV t` (at the last point on the rows inside the array), the sums' at `se8V` (consulted at
    the last point only: the window is idle elsewhere); the invariant `PhiV`; `O` owed throughout, the recorded pairs
    within `B`; full shares. -/
def datV : Dat τ (Elt F) Ix Name U Lvl cfg0 c where
  A := A
  after w t := match w with
    | ⟨0, _⟩ => xblk c A t
    | ⟨1, _⟩ => ftblk c A t
    | ⟨2, _⟩ => outV c A t
    | ⟨3, _⟩ => se8V c A
  Φ t := PhiV c A t.val
  q _ := fullShare
  owed _ := O
  recorded _ := B

local notation "DV" => datV (Name := Name) (U := U) (Lvl := Lvl) c A O B
local notation "DF" => datF (Name := Name) (U := U) (Lvl := Lvl) c A O B

theorem datV_A (w : Fin cfg0.W) : (DV).A w = A w := rfl
theorem datV_after0 (t : Fin cfg0.N) : (DV).after 0 t = xblk c A t := by dsimp only [datV]
theorem datV_after1 (t : Fin cfg0.N) : (DV).after 1 t = ftblk c A t := by dsimp only [datV]
theorem datV_after2 (t : Fin cfg0.N) : (DV).after 2 t = outV c A t := by dsimp only [datV]
theorem datV_after3 (t : Fin cfg0.N) : (DV).after 3 t = se8V c A := by dsimp only [datV]
theorem datF_after0 (t : Fin cfg0.N) : (DF).after 0 t = xblk c A t := by dsimp only [datF]
theorem datF_after1 (t : Fin cfg0.N) : (DF).after 1 t = ftblk c A t := by dsimp only [datF]
theorem datV_Φ (t : Fin (cfg0.N + 1)) : (DV).Φ t = PhiV c A t.val := rfl
theorem PhiV_zero : (PhiV c A 0 : sProp 𝕄) = Pipeline.scopedRest spec0 c := rfl

theorem datV_hin : (Pipeline.scopedRest spec0 c : sProp 𝕄) ⊢ (DV).Φ 0 := .rfl

theorem datV_hout : (DV).Φ (Fin.last cfg0.N) ⊢ (Pipeline.scopedRest spec0 c : sProp 𝕄) := by
  rw [scopedRest0_eq]
  have hN : (Fin.last cfg0.N).val = 24 + 1 := N_0
  rw [datV_Φ, hN]
  unfold PhiV
  iintro ⟨H0, H1, H2, H3, H4⟩
  isplitl [H0]; · iexists _; iexact H0
  isplitl [H1]; · iexists _; iexact H1
  isplitl [H2]; · iexact H2
  isplitl [H3]; · iexact H3
  iexact H4

end Data

end Cert.KernelIdeal.Tc0

end
-- ==== Proof.RegionInst.lean ====
/-
  The two TensorCore regions' proof data read as relational data over the launch's monoid, with the facts the
  region record asks of them: the body obligation, the entry contents, what is owed and recorded, the shares,
  the invariant's entry and exit, and what the arrays may hold after the write-backs.
-/
import proofs.«204472_g16080357556532_cont_week2b_336_33_alg».proof.Proof.RegionGlue
import proofs.«204472_g16080357556532_cont_week2b_336_33_alg».proof.Proof.Tc2Dat
import proofs.«204472_g16080357556532_cont_week2b_336_33_alg».proof.Proof.Tc2Body
import proofs.«204472_g16080357556532_cont_week2b_336_33_alg».proof.Proof.Tc0Dat

noncomputable section

namespace Cert.KernelIdeal.RegionInst

open Cert.KernelIdeal Cert.KernelIdeal.Gen Cert.KernelIdeal.LaunchSetup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig (HIx 1) (Elt F) ℕ UU ℕ

/-! ## Region 1 (the combine call): exact data, any float instance -/

section R2
variable (c : Dev nD) (A : Tc2.Arrs F c) (O : CellTallies nD τ sig (HIx 1)) (B : Set (SemLoc sig × HIx 1))

/-- The combine region's proof data, read relationally. -/
def rd2 : Pipeline.RDat τ (Elt F) (HIx 1) ℕ UU ℕ (Pipeline.pin (pcfgs (F := F)) adm 1) c :=
  (Tc2.dat2 (Name := ℕ) (U := UU) (Lvl := ℕ) c A O B).toR

theorem rd2_body : (rd2 c A O B).BodyObligation (defs₀ (F := F)) 𝒱₀ none Set.univ :=
  (Tc2.hbody2 (Name := ℕ) (U := UU) (Lvl := ℕ) c A O B none 𝒱₀).toR

theorem rd2_A (w : Fin (Pipeline.pin (pcfgs (F := F)) adm 1).W) : (rd2 c A O B).A w = A w := rfl
theorem rd2_owed (t : Fin ((Pipeline.pin (pcfgs (F := F)) adm 1).N + 1)) : (rd2 c A O B).owed t = O := rfl
theorem rd2_recorded (t : Fin ((Pipeline.pin (pcfgs (F := F)) adm 1).N + 1)) : (rd2 c A O B).recorded t = B := rfl
theorem rd2_share (w : Fin (Pipeline.pin (pcfgs (F := F)) adm 1).W) : (rd2 c A O B).share w = fullShare :=
  Tc2.dat2_share (Name := ℕ) (U := UU) (Lvl := ℕ) c A O B w

theorem rd2_hin :
    iprop((BI.emp : sProp 𝕄) ∗ Pipeline.prefHeld ((pcfgs (F := F)) 1).pre c (fun _ => fullShare) (adm (F := F) 1).1
        ∗ Pipeline.scopedRest (Pipeline.pin (pcfgs (F := F)) adm 1).spec c) ⊢ (rd2 c A O B).Φ 0 :=
  Tc2.hin2 (Name := ℕ) (U := UU) (Lvl := ℕ) c A O B (adm (F := F) 1)

theorem rd2_hout :
    (rd2 c A O B).Φ (Fin.last (Pipeline.pin (pcfgs (F := F)) adm 1).N)
      ⊢ iprop((BI.emp : sProp 𝕄) ∗ Pipeline.ownSems0 (fun k : PEmpty => k.elim) c
          ∗ Pipeline.scopedRest (Pipeline.pin (pcfgs (F := F)) adm 1).spec c) :=
  Tc2.hout2 (Name := ℕ) (U := UU) (Lvl := ℕ) c A O B

/-- What an array of the region may hold after the write-backs below `n` is what the exact data computes. -/
theorem rd2_ArrAt_eq (w : Fin (Pipeline.pin (pcfgs (F := F)) adm 1).W) (n : Nat)
    (G : Buf (Elt F) (((Pipeline.pin (pcfgs (F := F)) adm 1).win w).arr.view.loc (c.tc : Thread nD τ))) :
    (rd2 c A O B).ArrAt w n G → G = (Tc2.dat2 (Name := ℕ) (U := UU) (Lvl := ℕ) c A O B).arrAt w n :=
  (Tc2.dat2 (Name := ℕ) (U := UU) (Lvl := ℕ) c A O B).toR_arrAt w n G

theorem rd2_ArrAt [∀ e, Nonempty (Elt F e)] (w : Fin (Pipeline.pin (pcfgs (F := F)) adm 1).W) (n : Nat)
    (G : Buf (Elt F) (((Pipeline.pin (pcfgs (F := F)) adm 1).win w).arr.view.loc (c.tc : Thread nD τ))) :
    (rd2 c A O B).ArrAt w n G ↔ G = (Tc2.dat2 (Name := ℕ) (U := UU) (Lvl := ℕ) c A O B).arrAt w n :=
  (Tc2.dat2 (Name := ℕ) (U := UU) (Lvl := ℕ) c A O B).toR_arrAt_iff w n G

end R2

/-! ## Region 0 (the logits call): the outputs forgotten, any float instance -/

section R0F
variable (c : Dev nD) (A : (w : Fin cfg0.W) → Buf (Elt F) ((cfg0.win w).arr.view.loc (c.tc : Thread nD τ)))
  (O : CellTallies nD τ sig (HIx 1)) (B : Set (SemLoc sig × HIx 1))

/-- The logits region's proof data with the two output windows forgotten, read relationally. -/
def rd0F : Pipeline.RDat τ (Elt F) (HIx 1) ℕ UU ℕ (Pipeline.pin (pcfgs (F := F)) adm 0) c :=
  (Tc0.datF (Name := ℕ) (U := UU) (Lvl := ℕ) c A O B).toRForget Tc0.fgtF

theorem rd0F_body
    (hbodyF : BodyObligationLoose (Tc0.datF (Name := ℕ) (U := UU) (Lvl := ℕ) c A O B) (defs₀ (F := F)) 𝒱₀ none Set.univ Tc0.fgtF) :
    (rd0F c A O B).BodyObligation (defs₀ (F := F)) 𝒱₀ none Set.univ :=
  hbodyF.toRForget

theorem rd0F_A (w : Fin (Pipeline.pin (pcfgs (F := F)) adm 0).W) : (rd0F c A O B).A w = A w := rfl
theorem rd0F_owed (t : Fin ((Pipeline.pin (pcfgs (F := F)) adm 0).N + 1)) : (rd0F c A O B).owed t = O := rfl
theorem rd0F_recorded (t : Fin ((Pipeline.pin (pcfgs (F := F)) adm 0).N + 1)) : (rd0F c A O B).recorded t = B := rfl
theorem rd0F_share (w : Fin (Pipeline.pin (pcfgs (F := F)) adm 0).W) : (rd0F c A O B).share w = fullShare :=
  (Tc0.datF (Name := ℕ) (U := UU) (Lvl := ℕ) c A O B).share_full (fun _ => rfl) w

theorem rd0F_hin :
    iprop((BI.emp : sProp 𝕄) ∗ Pipeline.prefHeld ((pcfgs (F := F)) 0).pre c (fun _ => fullShare) (adm (F := F) 0).1
        ∗ Pipeline.scopedRest (Pipeline.pin (pcfgs (F := F)) adm 0).spec c) ⊢ (rd0F c A O B).Φ 0 := by
  show _ ⊢ (Pipeline.scopedRest spec0 c : sProp 𝕄)
  iintro ⟨-, -, H⟩; iexact H

theorem rd0F_hout :
    (rd0F c A O B).Φ (Fin.last (Pipeline.pin (pcfgs (F := F)) adm 0).N)
      ⊢ iprop((BI.emp : sProp 𝕄) ∗ Pipeline.ownSems0 (fun k : PEmpty => k.elim) c
          ∗ Pipeline.scopedRest (Pipeline.pin (pcfgs (F := F)) adm 0).spec c) := by
  rw [Pipeline.ownSems0_none]
  show (Pipeline.scopedRest spec0 c : sProp 𝕄) ⊢ _
  iintro H
  isplitr; · iempintro
  isplitr; · iempintro
  iexact H

/-- An input array of the region is never written: after any number of write-backs it is as at entry. -/
theorem rd0F_ArrAt_in (w : Fin (Pipeline.pin (pcfgs (F := F)) adm 0).W)
    (hw : ((Pipeline.pin (pcfgs (F := F)) adm 0).win w).isOut = false) (n : Nat)
    (G : Buf (Elt F) (((Pipeline.pin (pcfgs (F := F)) adm 0).win w).arr.view.loc (c.tc : Thread nD τ))) :
    (rd0F c A O B).ArrAt w n G ↔ G = A w := by
  rw [(rd0F c A O B).ArrAt_in w hw n]; exact Iff.rfl

theorem rd0F_ArrAt_in0 (n : Nat) (G) : (rd0F c A O B).ArrAt 0 n G → G = A 0 :=
  (rd0F_ArrAt_in c A O B 0 rfl n G).mp
theorem rd0F_ArrAt_in1 (n : Nat) (G) : (rd0F c A O B).ArrAt 1 n G → G = A 1 :=
  (rd0F_ArrAt_in c A O B 1 rfl n G).mp

end R0F

end Cert.KernelIdeal.RegionInst

end
-- ==== Proof.LaunchSpec.lean ====
/-
  What the program's run is stated over: the first region's proof data as a parameter (it names the region's outputs
  where the float instance lets it, and forgets them where it does not), the facts a run leaves of the values, and the
  TensorCore's final assertion.
-/
import proofs.«204472_g16080357556532_cont_week2b_336_33_alg».proof.Proof.LaunchOps
import proofs.«204472_g16080357556532_cont_week2b_336_33_alg».proof.Proof.LaunchPay
import proofs.«204472_g16080357556532_cont_week2b_336_33_alg».proof.Proof.RegionInst

noncomputable section

namespace Cert.KernelIdeal.LaunchSpec

open Cert.KernelIdeal Cert.KernelIdeal.Gen Cert.KernelIdeal.LaunchSetup Cert.KernelIdeal.LaunchOps Cert.KernelIdeal.LaunchPay
open Cert.KernelIdeal.ScTile (tgLoc otLoc pkLoc outSet placeOf pickOf)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F] [Named F]

local notation "𝕄" => MT nD τ sig (HIx 1) (Elt F) ℕ UU ℕ

/-- The first kernel region's proof data, for any entry contents of its arrays, tallies owed and bound on the
    recorded pairs, with what the region record asks of it. -/
structure Reg0 (F : FTy → Type) [FloatOps F] [Named F] where
  rd : (c : Dev nD) → (A : (w : Fin cfg0.W) → Buf (Elt F) ((cfg0.win w).arr.view.loc (c.tc : Thread nD τ))) →
    (O : CellTallies nD τ sig (HIx 1)) → (B : Set (SemLoc sig × HIx 1)) →
    Pipeline.RDat τ (Elt F) (HIx 1) ℕ UU ℕ (Pipeline.pin (pcfgs (F := F)) adm 0) c
  body : ∀ c A O B, (rd c A O B).BodyObligation (defs₀ (F := F)) 𝒱₀ none Set.univ
  A_eq : ∀ c A O B w, (rd c A O B).A w = A w
  owed_eq : ∀ c A O B t, (rd c A O B).owed t = O
  recorded_eq : ∀ c A O B t, (rd c A O B).recorded t = B
  share_eq : ∀ c A O B w, (rd c A O B).share w = fullShare
  hin : ∀ c A O B, iprop((BI.emp : sProp (MT nD τ sig (HIx 1) (Elt F) ℕ UU ℕ)) ∗ Pipeline.prefHeld ((pcfgs (F := F)) 0).pre c (fun _ => fullShare) (adm (F := F) 0).1
      ∗ Pipeline.scopedRest (Pipeline.pin (pcfgs (F := F)) adm 0).spec c) ⊢ (rd c A O B).Φ 0
  hout : ∀ c A O B, (rd c A O B).Φ (Fin.last (Pipeline.pin (pcfgs (F := F)) adm 0).N)
      ⊢ iprop((BI.emp : sProp (MT nD τ sig (HIx 1) (Elt F) ℕ UU ℕ)) ∗ Pipeline.ownSems0 (fun k : PEmpty => k.elim) c
        ∗ Pipeline.scopedRest (Pipeline.pin (pcfgs (F := F)) adm 0).spec c)
  in0 : ∀ c A O B n G, (rd c A O B).ArrAt 0 n G → G = A 0
  in1 : ∀ c A O B n G, (rd c A O B).ArrAt 1 n G → G = A 1

variable (X : Reg0 F) (m : (ℓ : Loc nD τ sig) → Buf (Elt F) ℓ)

/-- The picked logits, from the targets at launch and the logits `ot`. -/
abbrev pkOf (d : Dev nD) (ot : (rf main_v2_0).ty.Contents (Elt F)) : (rf main_v3).ty.Contents (Elt F) :=
  pickOf (m (tgLoc d)) ot

/-- What a run leaves known of the values on device `d`: the logits and the partition sums are contents the first
    region may leave, the loss one the second region may leave from them and the picked logits. -/
def Facts (d : Dev nD) (O0 O2 : CellTallies nD τ sig (HIx 1)) (B0 B2 : Set (SemLoc sig × HIx 1))
    (ot : (rf main_v2_0).ty.Contents (Elt F)) (se : (rf main_v2_1).ty.Contents (Elt F)) (ls : (rf main_v5).ty.Contents (Elt F)) : Prop :=
  (X.rd d (A0of m d) O0 B0).ArrAt 2 cfg0.N ot ∧ (X.rd d (A0of m d) O0 B0).ArrAt 3 cfg0.N se
    ∧ (RegionInst.rd2 d (A2of m d ot se (pkOf m d ot)) O2 B2).ArrAt 2 cfg2.N ls

/-- The TensorCore's final assertion: its unscoped arrays at the final valuation of some such values. -/
def FIN (d : Dev nD) : sProp 𝕄 :=
  iprop(∃ O0 O2 B0 B2 ot se ls, ⌜Facts X m d O0 O2 B0 B2 ot se ls⌝ ∗ held (T d) Sall (Vfin m d ot se (pkOf m d ot) ls))

/-- What the final memory says on device `d`. -/
def fq (d : Dev nD) (s' : Phys nD τ sig (Elt F)) : Prop :=
  ∃ O0 O2 B0 B2 ot se ls, Facts X m d O0 O2 B0 B2 ot se ls
    ∧ ∀ b : Ref sig .tc, ¬ b.isScoped → s'.mem.mem ((d.tc : Thread nD τ).loc b) = Vfin m d ot se (pkOf m d ot) ls (rf b)

/-- The run's post: on every device the final memory is such. -/
def QC : PUnit × MemSt nD τ sig (Elt F) → Prop := fun r =>
  ∀ d : Dev nD, ∃ O0 O2 B0 B2 ot se ls, Facts X m d O0 O2 B0 B2 ot se ls
    ∧ ∀ b : Ref sig .tc, ¬ b.isScoped → r.2.mem ((d.tc : Thread nD τ).loc b) = Vfin m d ot se (pkOf m d ot) ls (rf b)

end Cert.KernelIdeal.LaunchSpec

end
-- ==== Proof.LaunchA.lean ====
/-
  The launch element: the handshakes' rounds, the two pipelines' staging cells funded for every device, and nothing of
  the kernels' own (the tiles' local transfers run on the counters).
-/
import proofs.«204472_g16080357556532_cont_week2b_336_33_alg».proof.Proof.LaunchPay
import proofs.«204472_g16080357556532_cont_week2b_336_33_alg».proof.Proof.RegionGlue

noncomputable section

namespace Cert.KernelIdeal.LaunchA

open Cert.KernelIdeal Cert.KernelIdeal.Gen Cert.KernelIdeal.LaunchSetup Cert.KernelIdeal.LaunchPay Cert.KernelIdeal.RegionGlue
open Cert.KernelIdeal.ScTile (tgLoc otLoc pkLoc outSet placeOf pickOf)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (R : (d : Dev nD) → Buf (Elt F) (otLoc d) → Prop)

/-- What @main's proof starts from on device `d` besides the launch's deal: both pipelines' cells' ghost state and
    duty tokens. -/
def Gd (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m R).x q thr) := by
  unfold u₀
  iintro Hu
  ihave H := (ownU_pair _ _) $$ Hu
  icases H with ⟨HH, HR⟩
  ihave H2 := (own_pair_emb embR _ _) $$ HR
  icases H2 with ⟨HP, -⟩
  have hfg : (BI.own (((Emb.inl : Emb UP (UP × Counters)).trans embR) _) : sProp 𝕄) ⊢ _ :=
    Pipeline.fund_ghost (Pipeline.pin (pcfgs (F := F)) adm) (EP (F := F)) phinj
  imod hfg $$ HP with ⟨Hg, Ht⟩
  imodintro
  isplitl [HH]; · iexact HH
  isplitl [Hg Ht]
  · unfold Gd
    have e : (fun d : Dev nD => bigSep Finset.univ fun p : Fin 2 =>
          (iprop(Pipeline.cellsGhost (Pipeline.pin (pcfgs (F := F)) adm) EP p d ∗ Pipeline.toksInit (Pipeline.pin (pcfgs (F := F)) adm) EP p d) : sProp 𝕄))
        = fun d => iprop((bigSep Finset.univ fun p : Fin 2 => Pipeline.cellsGhost (Pipeline.pin (pcfgs (F := F)) adm) EP p d)
            ∗ bigSep Finset.univ fun p : Fin 2 => Pipeline.toksInit (Pipeline.pin (pcfgs (F := F)) adm) EP p d) :=
      funext fun d => bigSep_sep' _ _ _
    rw [e, bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.LaunchA

end
-- ==== Proof.LaunchRegs.lean ====
/-
  The two kernel regions' data and records as @main meets them: the first entered from the arrays after the two
  transposes, the second from the arrays after the SparseCore call and the reshape.
-/
import proofs.«204472_g16080357556532_cont_week2b_336_33_alg».proof.Proof.LaunchSpec
import proofs.«204472_g16080357556532_cont_week2b_336_33_alg».proof.Proof.RegionGlue

noncomputable section

namespace Cert.KernelIdeal.LaunchRegs

open Cert.KernelIdeal Cert.KernelIdeal.Gen Cert.KernelIdeal.LaunchSetup Cert.KernelIdeal.LaunchOps Cert.KernelIdeal.LaunchPay
open Cert.KernelIdeal.LaunchSpec Cert.KernelIdeal.RegionGlue

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (X : Reg0 F) (m : (ℓ : Loc nD τ sig) → Buf (Elt F) ℓ)

/-- Two families of region data as one. -/
def fam (r0 : (c : Dev nD) → Pipeline.RDat τ (Elt F) (HIx 1) ℕ UU ℕ (Pipeline.pin (pcfgs (F := F)) adm 0) c)
    (r1 : (c : Dev nD) → Pipeline.RDat τ (Elt F) (HIx 1) ℕ UU ℕ (Pipeline.pin (pcfgs (F := F)) adm 1) c) :
    (p : Fin 2) → (c : Dev nD) → Pipeline.RDat τ (Elt F) (HIx 1) ℕ UU ℕ (Pipeline.pin (pcfgs (F := F)) adm p) c
  | ⟨0, _⟩ => r0
  | ⟨1, _⟩ => r1

omit [FloatOps F] [Named F] in
/-- The TensorCore owes nothing at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The unscoped arrays' contents after the two transposes, as the region library reads them. -/
def Vb0 (c : Dev nD) (b : Ref sig .tc) : Buf (Elt F) ((c.tc : Thread nD τ).loc b) := V2 m c (rf b)

/-- The two regions' data as the first region is entered: the TensorCore owing `O`, its recorded pairs within `B`. -/
def rdA (O : Dev nD → CellTallies nD τ sig (HIx 1)) (B : Set (SemLoc sig × HIx 1)) :
    (p : Fin 2) → (c : Dev nD) → Pipeline.RDat τ (Elt F) (HIx 1) ℕ UU ℕ (Pipeline.pin (pcfgs (F := F)) adm p) c :=
  fam (fun c => X.rd c (A0of m c) (O c) B) (fun c => RegionInst.rd2 c (fun w => V2 m c (rf (Pipeline.arrRef cfg2.spec w))) (O c) B)

/-- The first region's record. -/
def R0 (O : Dev nD → CellTallies nD τ sig (HIx 1)) (hO : ∀ c g, O c g none = 0) (W : Waits sig (HIx 1)) :
    Pipeline.RDat.RegionSeg (pcfgs (F := F)) adm (rdA X m O (↑W : Set (SemLoc sig × HIx 1))) none (defs₀ (F := F)) 𝒱₀ (K (F := F)).L (K (F := F)).lev 0 :=
  segOf (rdA X m O (↑W : Set (SemLoc sig × HIx 1))) 0 launch0 (Vb0 m) O (fun _ => W)
    (fun c => X.body c _ _ _) hO (fun c t => X.owed_eq c _ _ _ t) (fun c t => X.recorded_eq c _ _ _ t)
    (fun c w => X.share_eq c _ _ _ w) (fun c w => X.A_eq c _ _ _ w) (fun c => X.hin c _ _ _) (fun c => X.hout c _ _ _)

variable (ot : (rf main_v2_0).ty.Contents (Elt F)) (se : (rf main_v2_1).ty.Contents (Elt F)) (pk : (rf main_v3).ty.Contents (Elt F))

/-- The unscoped arrays' contents after the SparseCore call and the reshape. -/
def Vb5 (c : Dev nD) (b : Ref sig .tc) : Buf (Elt F) ((c.tc : Thread nD τ).loc b) := V5 m c ot se pk (rf b)

/-- The two regions' data as the second region is entered. -/
def rdB (O : Dev nD → CellTallies nD τ sig (HIx 1)) (B : Set (SemLoc sig × HIx 1)) :
    (p : Fin 2) → (c : Dev nD) → Pipeline.RDat τ (Elt F) (HIx 1) ℕ UU ℕ (Pipeline.pin (pcfgs (F := F)) adm p) c :=
  fam (fun c => X.rd c (A0of m c) (O c) B) (fun c => RegionInst.rd2 c (A2of m c ot se pk) (O c) B)

/-- The second region's record. -/
def R1 (O : Dev nD → CellTallies nD τ sig (HIx 1)) (hO : ∀ c g, O c g none = 0) (W : Waits sig (HIx 1)) :
    Pipeline.RDat.RegionSeg (pcfgs (F := F)) adm (rdB X m ot se pk O (↑W : Set (SemLoc sig × HIx 1))) none (defs₀ (F := F)) 𝒱₀ (K (F := F)).L (K (F := F)).lev 1 :=
  segOf (rdB X m ot se pk O (↑W : Set (SemLoc sig × HIx 1))) 1 launch2 (Vb5 m ot se pk) O (fun _ => W)
    (fun c => RegionInst.rd2_body c _ _ _) hO (fun c t => RegionInst.rd2_owed c _ _ _ t) (fun c t => RegionInst.rd2_recorded c _ _ _ t)
    (fun c w => RegionInst.rd2_share c _ _ _ w) (fun c w => RegionInst.rd2_A c _ _ _ w) (fun c => RegionInst.rd2_hin c _ _ _) (fun c => RegionInst.rd2_hout c _ _ _)

end Cert.KernelIdeal.LaunchRegs

end
-- ==== Proof.RegionPost.lean ====
/-
  Leaving a kernel region: its exit state opened into the arrays' contents, and the arrays with the untouched
  unscoped rest put back together as the TensorCore's unscoped buffers.
-/
import proofs.«204472_g16080357556532_cont_week2b_336_33_alg».proof.Proof.RegionGlue
import Idealize.SL.ProofMode.BigOp

noncomputable section

namespace Cert.KernelIdeal.RegionPost

open Cert.KernelIdeal Cert.KernelIdeal.Gen Cert.KernelIdeal.LaunchSetup Cert.KernelIdeal.RegionGlue

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig (HIx 1) (Elt F) ℕ UU ℕ

variable (rdats : (p : Fin 2) → (c : Dev nD) → Pipeline.RDat τ (Elt F) (HIx 1) ℕ UU ℕ (Pipeline.pin (pcfgs (F := F)) adm p) c)

/-- A region's exit state: some contents `G` the arrays may hold after its write-backs, the arrays whole at them,
    what the TensorCore owes, and the unscoped rest as it was. -/
theorem post_elim [∀ e, Nonempty (Elt F e)] (p : Fin 2) (lf : Pipeline.LaunchFacts (nD := nD) (τ := τ) cfgs p)
    (V : (c : Dev nD) → (b : Ref sig .tc) → Buf (Elt F) ((c.tc : Thread nD τ).loc b)) (c : Dev nD)
    (hshare : ∀ w, (rdats p c).share w = fullShare) :
    postOf rdats p V c ⊢ iprop(∃ G : (w : Fin (Pipeline.pin (pcfgs (F := F)) adm p).W) →
        Buf (Elt F) (((Pipeline.pin (pcfgs (F := F)) adm p).win w).arr.view.loc (c.tc : Thread nD τ)),
      ⌜∀ w, (rdats p c).ArrAt w (Pipeline.pin (pcfgs (F := F)) adm p).N (G w)⌝
        ∗ (bigSep Finset.univ fun w => (((c.tc : Thread nD τ).loc (Pipeline.arrRef (Pipeline.pin (pcfgs (F := F)) adm p).spec w)) ↦{fullShare} G w : sProp 𝕄))
        ∗ (rdats p c).owesAt none (Fin.last (Pipeline.pin (pcfgs (F := F)) adm p).N)
        ∗ Pipeline.unscopedRest (Pipeline.pin (pcfgs (F := F)) adm p).spec c (V c)) := by
  unfold postOf Pipeline.RDat.arraysAt
  iintro ⟨Harr, Ho, Hz⟩
  ihave H := (bigSep_exists_pi (Finset.univ : Finset (Fin (Pipeline.pin (pcfgs (F := F)) adm p).W))
    (fun w G => iprop(⌜(rdats p c).ArrAt w (Pipeline.pin (pcfgs (F := F)) adm p).N G⌝
      ∗ (((Pipeline.pin (pcfgs (F := F)) adm p).win w).arr.view.loc (c.tc : Thread nD τ) ↦[((Pipeline.pin (pcfgs (F := F)) adm p).win w).arr.view.set]{(rdats p c).share w} G : sProp 𝕄)))) $$ Harr
  icases H with ⟨%G, HG⟩
  ihave H2 := (bigSep_pure_sep (Finset.univ : Finset (Fin (Pipeline.pin (pcfgs (F := F)) adm p).W)) _ _) $$ HG
  icases H2 with ⟨%hG, HA⟩
  iexists G
  isplitr; · ipureintro; exact fun w => hG w (Finset.mem_univ w)
  isplitl [HA]
  · have e := Pipeline.RDat.arrays_eq (pcfgs (F := F)) adm rdats p c lf.arr_whole hshare G
    unfold Pipeline.RDat.arrays at e
    ihave HA' := (Entails.of_eq e) $$ HA
    iexact HA'
  isplitl [Ho]; · iexact Ho
  iexact Hz

omit [Named F] in
/-- The windows' arrays whole at `V'` beside the unscoped rest at `V` are the unscoped buffers at `V'`, when `V'` is `V`
    off the windows' arrays. -/
theorem unscoped_of_arrays (p : Fin 2) (lf : Pipeline.LaunchFacts (nD := nD) (τ := τ) cfgs p) (c : Dev nD)
    (Vc V' : (b : Ref sig .tc) → Buf (Elt F) ((c.tc : Thread nD τ).loc b))
    (hrest : ∀ b, (∀ w, b ≠ Pipeline.arrRef (cfgs p).spec w) → V' b = Vc b) :
    iprop((bigSep Finset.univ fun w => (((c.tc : Thread nD τ).loc (Pipeline.arrRef (cfgs p).spec w)) ↦{fullShare} V' (Pipeline.arrRef (cfgs p).spec w) : sProp 𝕄))
        ∗ Pipeline.unscopedRest (cfgs p).spec c Vc)
      ⊢ (unscopedBufs c V' : sProp 𝕄) := by
  rw [Pipeline.unscopedBufs_split cfgs p lf.win.arr_unscoped lf.win.arr_inj c V']
  refine sep_mono .rfl (Entails.of_eq ?_)
  unfold Pipeline.unscopedRest
  refine bigSep_congr fun b hb => ?_
  rw [hrest b fun w e => (Finset.mem_sdiff.mp hb).2 (Finset.mem_image.mpr ⟨w, Finset.mem_univ w, e.symm⟩)]

end Cert.KernelIdeal.RegionPost

end
-- ==== Proof.ScSplit.lean ====
/-
  The one SparseCore call's operands, dealt out and gathered back.

  The TensorCore holds the targets, the logits and the picked vector whole. Each of the two SparseCores gets a read
  token of the targets and of the logits and the 512 entries of the picked vector its tiles write; each of its
  sixteen tiles a token of its SparseCore's token and its own 32 entries. What is not dealt out of a read share stays
  with the dealer, and coming back pins every tile's copy of the logits to the dealer's: two holders of one array
  agree on its contents. The 32 entry sets are pairwise disjoint and cover the vector, so the pieces written join at
  the one function `pickOf`.
-/
import proofs.«204472_g16080357556532_cont_week2b_336_33_alg».proof.Proof.LaunchPay

noncomputable section

namespace Cert.KernelIdeal.ScSplit

open Cert.KernelIdeal Cert.KernelIdeal.Gen Cert.KernelIdeal.LaunchSetup Cert.KernelIdeal.LaunchPay
open Cert.KernelIdeal.ScTile (tgLoc otLoc pkLoc outSet placeOf pickOf)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig (HIx 1) (Elt F) ℕ UU ℕ

variable (m : (ℓ : Loc nD τ sig) → Buf (Elt F) ℓ)
variable (R : (d : Dev nD) → Buf (Elt F) (otLoc d) → Prop)

/-! ## Three general steps -/

section General
variable {ι : Type} [DecidableEq ι]

/-- A sum of four-fold products is the product of the four sums. -/
theorem bigSep_sep4 (S : Finset ι) (A B C D : ι → sProp 𝕄) :
    bigSep S (fun i => iprop(A i ∗ B i ∗ C i ∗ D i)) = iprop(bigSep S A ∗ bigSep S B ∗ bigSep S C ∗ bigSep S D) := by
  rw [bigSep_sep', bigSep_sep', bigSep_sep']

/-- Each summand of a family comes with a witness of its own, and one assertion beside the family pins every
    witness to one value: then the family holds at that value, the assertion kept. -/
theorem bigSep_pin {Y : Type} (S : Finset ι) (A : sProp 𝕄) (Φ : ι → Y → sProp 𝕄) (y₀ : Y)
    (h : ∀ i ∈ S, ∀ y, iprop(A ∗ Φ i y) ⊢ (⌜y = y₀⌝ : sProp 𝕄)) :
    iprop(A ∗ bigSep S fun i => iprop(∃ y, Φ i y)) ⊢ iprop(A ∗ bigSep S fun i => Φ i y₀) := by
  induction S using Finset.induction_on with
  | empty => rw [bigSep_empty, bigSep_empty]
  | insert c S hc ih =>
    have e : bigSep (insert c S) (fun i => iprop(∃ y, Φ i y))
        = iprop((∃ y, Φ c y) ∗ bigSep S fun i => iprop(∃ y, Φ i y)) := bigSep_insert hc
    have e' : bigSep (insert c S) (fun i => Φ i y₀) = iprop(Φ c y₀ ∗ bigSep S fun i => Φ i y₀) := bigSep_insert hc
    rw [e, e']
    iintro ⟨HA, ⟨%y, Hc⟩, HS⟩
    ihave H1 := (persistent_entails_right (h c (Finset.mem_insert_self c S) y)) $$ [HA Hc]
    · isplitl [HA]; · iexact HA
      iexact Hc
    icases H1 with ⟨%hy, HA, Hc⟩
    subst hy
    ihave H2 := (ih fun i hi => h i (Finset.mem_insert_of_mem hi)) $$ [HA HS]
    · isplitl [HA]; · iexact HA
      iexact HS
    icases H2 with ⟨HA, HS⟩
    isplitl [HA]; · iexact HA
    isplitl [Hc]; · iexact Hc
    iexact HS

/-- Two holders of one whole array hold the same contents. -/
theorem agree_whole {ℓ : Loc nD τ sig} {q₁ q₂ : PosShare TreeShare} {f g : Buf (Elt F) ℓ} :
    (iprop((ℓ ↦{q₁} f) ∗ ℓ ↦{q₂} g) : sProp 𝕄) ⊢ (⌜g = f⌝ : sProp 𝕄) :=
  pointsTo_agree.trans (BI.pure_mono fun h => funext fun j =>
    ((h j (Finset.mem_inter.mpr ⟨Finset.mem_univ j, Finset.mem_univ j⟩)).1).symm)

end General

/-! ## Dealing the three arrays to `n` holders, and collecting them

The targets and the logits are read: holder `i` gets the `i`-th token of the share `q`, the dealer keeps what is left
of it. The picked vector is written: holder `i` gets the entries `Ks i` of the dealer's entries `U`, the sets `Ks i`
pairwise disjoint with union `U`. -/

section DealCollect
variable (d : Dev nD) (tg : Buf (Elt F) (tgLoc d)) (Rd : Buf (Elt F) (otLoc d) → Prop)
variable (n : ℕ) (q : PosShare TreeShare) (Ks : Fin n → Finset S1024.Idx) (U : Finset S1024.Idx)
variable (hU : Finset.univ.biUnion Ks = U)
variable (hdisj : ∀ i ∈ (Finset.univ : Finset (Fin n)), ∀ i' ∈ (Finset.univ : Finset (Fin n)), i ≠ i' → Disjoint (Ks i) (Ks i'))

include hU hdisj in
/-- The dealer's entries of the picked vector are the holders' entries together. -/
theorem pk_pieces (g : Buf (Elt F) (pkLoc d)) :
    (pkLoc d ↦[U]{fullShare} g : sProp 𝕄) = bigSep Finset.univ fun i : Fin n => pkLoc d ↦[Ks i]{fullShare} g := by
  rw [← hU]
  exact pointsTo_biUnion Finset.univ (ℓ := pkLoc d) Ks hdisj

/-- The three families of pieces, holder by holder. -/
theorem deal_sum (ot : Buf (Elt F) (otLoc d)) (hR : Rd ot) (pk : Buf (Elt F) (pkLoc d)) :
    (iprop((bigSep Finset.univ fun i : Fin n => tgLoc d ↦{shareTok q n i} tg)
      ∗ (bigSep Finset.univ fun i : Fin n => otLoc d ↦{shareTok q n i} ot)
      ∗ (bigSep Finset.univ fun i : Fin n => pkLoc d ↦[Ks i]{fullShare} pk)) : sProp 𝕄)
    ⊢ bigSep Finset.univ fun i : Fin n => iprop((tgLoc d ↦{shareTok q n i} tg)
        ∗ (∃ ot, ⌜Rd ot⌝ ∗ otLoc d ↦{shareTok q n i} ot) ∗ ∃ pk, pkLoc d ↦[Ks i]{fullShare} pk) := by
  have hstep : ∀ i : Fin n,
      (iprop((tgLoc d ↦{shareTok q n i} tg) ∗ (otLoc d ↦{shareTok q n i} ot) ∗ (pkLoc d ↦[Ks i]{fullShare} pk)) : sProp 𝕄)
        ⊢ iprop((tgLoc d ↦{shareTok q n i} tg)
          ∗ (∃ ot, ⌜Rd ot⌝ ∗ otLoc d ↦{shareTok q n i} ot) ∗ ∃ pk, pkLoc d ↦[Ks i]{fullShare} pk) := by
    intro i
    iintro ⟨HA, HB, HC⟩
    isplitl [HA]; · iexact HA
    isplitl [HB]
    · iexists ot; isplitr; · ipureintro; exact hR
      iexact HB
    · iexists pk; iexact HC
  rw [← bigSep_sep', ← bigSep_sep']
  exact bigSep_mono fun i _ => hstep i

include hU hdisj in
/-- Dealing. -/
theorem deal (ot : Buf (Elt F) (otLoc d)) (hR : Rd ot) (pk : Buf (Elt F) (pkLoc d)) :
    (iprop((tgLoc d ↦{q} tg) ∗ (otLoc d ↦{q} ot) ∗ (pkLoc d ↦[U]{fullShare} pk)) : sProp 𝕄)
      ⊢ iprop(((tgLoc d ↦{shareDrop q n} tg) ∗ (otLoc d ↦{shareDrop q n} ot))
          ∗ bigSep Finset.univ fun i : Fin n => iprop((tgLoc d ↦{shareTok q n i} tg)
              ∗ (∃ ot, ⌜Rd ot⌝ ∗ otLoc d ↦{shareTok q n i} ot) ∗ ∃ pk, pkLoc d ↦[Ks i]{fullShare} pk)) := by
  iintro ⟨Htg, Hot, Hpk⟩
  ihave Htg' := (Transfers.pointsTo_toks_split q n) $$ Htg
  icases Htg' with ⟨Htg0, HtgT⟩
  ihave Hot' := (Transfers.pointsTo_toks_split q n) $$ Hot
  icases Hot' with ⟨Hot0, HotT⟩
  ihave HpkT := (Entails.of_eq (pk_pieces (F := F) d n Ks U hU hdisj pk)) $$ Hpk
  isplitl [Htg0 Hot0]
  · isplitl [Htg0]; · iexact Htg0
    iexact Hot0
  iapply (deal_sum (F := F) d tg Rd n q Ks ot hR pk)
  isplitl [HtgT]; · iexact HtgT
  isplitl [HotT]; · iexact HotT
  iexact HpkT

include hU hdisj in
/-- Collecting: each holder returns its token of the logits at contents of its own, which the dealer's remainder
    pins to the dealer's; the entries written join at the one function. -/
theorem collect (ot : Buf (Elt F) (otLoc d)) :
    (iprop(((tgLoc d ↦{shareDrop q n} tg) ∗ (otLoc d ↦{shareDrop q n} ot))
        ∗ bigSep Finset.univ fun i : Fin n => iprop((tgLoc d ↦{shareTok q n i} tg)
            ∗ ∃ ot', ⌜Rd ot'⌝ ∗ (otLoc d ↦{shareTok q n i} ot') ∗ pkLoc d ↦[Ks i]{fullShare} pickOf tg ot')) : sProp 𝕄)
      ⊢ iprop((tgLoc d ↦{q} tg) ∗ (otLoc d ↦{q} ot) ∗ (pkLoc d ↦[U]{fullShare} pickOf tg ot)) := by
  have hpin := bigSep_pin (F := F) (Finset.univ : Finset (Fin n)) (otLoc d ↦{shareDrop q n} ot : sProp 𝕄)
    (fun i y => iprop((tgLoc d ↦{shareTok q n i} tg) ∗ ⌜Rd y⌝ ∗ (otLoc d ↦{shareTok q n i} y)
      ∗ pkLoc d ↦[Ks i]{fullShare} pickOf tg y))
    ot (fun i _ y => by
      iintro ⟨H0, Ht, %hr, Hy, Hp⟩
      iapply (agree_whole (F := F))
      isplitl [H0]; · iexact H0
      iexact Hy)
  have hout : (bigSep Finset.univ fun i : Fin n => iprop((tgLoc d ↦{shareTok q n i} tg)
        ∗ ∃ ot', ⌜Rd ot'⌝ ∗ (otLoc d ↦{shareTok q n i} ot') ∗ pkLoc d ↦[Ks i]{fullShare} pickOf tg ot') : sProp 𝕄)
      ⊢ bigSep Finset.univ fun i : Fin n => iprop(∃ y, (tgLoc d ↦{shareTok q n i} tg) ∗ ⌜Rd y⌝
        ∗ (otLoc d ↦{shareTok q n i} y) ∗ pkLoc d ↦[Ks i]{fullShare} pickOf tg y) := by
    have hstep : ∀ i : Fin n, (iprop((tgLoc d ↦{shareTok q n i} tg)
          ∗ ∃ ot', ⌜Rd ot'⌝ ∗ (otLoc d ↦{shareTok q n i} ot') ∗ pkLoc d ↦[Ks i]{fullShare} pickOf tg ot') : sProp 𝕄)
        ⊢ iprop(∃ y, (tgLoc d ↦{shareTok q n i} tg) ∗ ⌜Rd y⌝
          ∗ (otLoc d ↦{shareTok q n i} y) ∗ pkLoc d ↦[Ks i]{fullShare} pickOf tg y) := by
      intro i
      iintro ⟨HA, %y, HB⟩
      iexists y
      isplitl [HA]; · iexact HA
      iexact HB
    exact bigSep_mono fun i _ => hstep i
  iintro ⟨⟨Htg0, Hot0⟩, Htd⟩
  ihave Htd1 := hout $$ Htd
  ihave H := hpin $$ [Hot0 Htd1]
  · isplitl [Hot0]; · iexact Hot0
    iexact Htd1
  icases H with ⟨Hot0, H⟩
  ihave H' := (Entails.of_eq (bigSep_sep4 (F := F) (Finset.univ : Finset (Fin n))
    (fun i => (tgLoc d ↦{shareTok q n i} tg : sProp 𝕄)) (fun _ => (iprop(⌜Rd ot⌝) : sProp 𝕄))
    (fun i => (otLoc d ↦{shareTok q n i} ot : sProp 𝕄))
    (fun i => (pkLoc d ↦[Ks i]{fullShare} pickOf tg ot : sProp 𝕄)))) $$ H
  icases H' with ⟨HtgT, Hr, HotT, HpkT⟩
  isplitl [Htg0 HtgT]
  · iapply (Transfers.pointsTo_toks_join q n)
    isplitl [Htg0]; · iexact Htg0
    iexact HtgT
  isplitl [Hot0 HotT]
  · iapply (Transfers.pointsTo_toks_join q n)
    isplitl [Hot0]; · iexact Hot0
    iexact HotT
  · iapply (Entails.of_eq (pk_pieces (F := F) d n Ks U hU hdisj (pickOf tg ot)).symm)
    iexact HpkT

end DealCollect

/-! ## The sets: a SparseCore's tiles, and the two SparseCores -/

theorem tiles_disjoint (c : Fin ((K (F := F)).nCore 0)) :
    ∀ i ∈ (Finset.univ : Finset (Fin ((K (F := F)).nSub 0))), ∀ i' ∈ (Finset.univ : Finset (Fin ((K (F := F)).nSub 0))),
      i ≠ i' → Disjoint (outSet (placeOf (F := F) c i)) (outSet (placeOf (F := F) c i')) :=
  fun _ _ _ _ h => ScTile.outSet_disjoint (F := F) (Or.inr h)

theorem cores_disjoint :
    ∀ c ∈ (Finset.univ : Finset (Fin ((K (F := F)).nCore 0))), ∀ c' ∈ (Finset.univ : Finset (Fin ((K (F := F)).nCore 0))),
      c ≠ c' → Disjoint (coreSet (F := F) c) (coreSet (F := F) c') := by
  intro c _ c' _ h
  unfold coreSet
  rw [Finset.disjoint_biUnion_left]
  intro i _
  rw [Finset.disjoint_biUnion_right]
  intro i' _
  exact ScTile.outSet_disjoint (F := F) (Or.inl h)

theorem cores_cover : (Finset.univ : Finset (Fin ((K (F := F)).nCore 0))).biUnion (coreSet (F := F)) = Finset.univ := by
  ext j
  simp only [Finset.mem_biUnion, Finset.mem_univ, true_and, iff_true]
  obtain ⟨c, i, h⟩ := ScTile.outSet_cover (F := F) j
  exact ⟨c, by unfold coreSet; exact Finset.mem_biUnion.mpr ⟨i, Finset.mem_univ i, h⟩⟩

/-- A SparseCore's operands split into its tiles' and its results gather from theirs. -/
theorem vecSplit : (K (F := F)).VecSplit' (P m R) 0 := by
  intro d c
  unfold P
  dsimp only
  iintro ⟨Htg, ⟨%ot, %hR, Hot⟩, ⟨%pk, Hpk⟩⟩
  ihave H := (deal (F := F) d (tgOf m d) (R d) ((K (F := F)).nSub 0) (shC (F := F) c)
    (fun i => outSet (placeOf (F := F) c i)) (coreSet (F := F) c) rfl (tiles_disjoint (F := F) c) ot hR pk) $$ [Htg Hot Hpk]
  · isplitl [Htg]; · iexact Htg
    isplitl [Hot]; · iexact Hot
    iexact Hpk
  icases H with ⟨Hkeep, Hgo⟩
  imodintro
  isplitl [Hgo]; · iexact Hgo
  iintro Htd
  ihave H := (collect (F := F) d (tgOf m d) (R d) ((K (F := F)).nSub 0) (shC (F := F) c)
    (fun i => outSet (placeOf (F := F) c i)) (coreSet (F := F) c) rfl (tiles_disjoint (F := F) c) ot) $$ [Hkeep Htd]
  · isplitl [Hkeep]; · iexact Hkeep
    iexact Htd
  icases H with ⟨Htg, Hot, Hpk⟩
  isplitl [Htg]; · iexact Htg
  iexists ot
  isplitr; · ipureintro; exact hR
  isplitl [Hot]; · iexact Hot
  iexact Hpk

/-- The TensorCore deals the three arrays to the two SparseCores, keeping what is left of the read shares. -/
theorem st_intro (d : Dev nD) (ot : Buf (Elt F) (otLoc d)) (hR : R d ot) (pk : Buf (Elt F) (pkLoc d)) :
    (iprop((tgLoc d ↦{fullShare} tgOf m d) ∗ (otLoc d ↦{fullShare} ot) ∗ (pkLoc d ↦{fullShare} pk)) : sProp 𝕄)
      ⊢ iprop(((tgLoc d ↦{shareDrop fullShare 2} tgOf m d) ∗ (otLoc d ↦{shareDrop fullShare 2} ot))
          ∗ bigSep Finset.univ fun c : Fin ((K (F := F)).nCore 0) => (P m R).st 0 d c) :=
  deal (F := F) d (tgOf m d) (R d) ((K (F := F)).nCore 0) fullShare (coreSet (F := F)) Finset.univ
    (cores_cover (F := F)) (cores_disjoint (F := F)) ot hR pk

/-- and takes them back, the picked vector at the picked logits. -/
theorem dn_elim (d : Dev nD) (ot : Buf (Elt F) (otLoc d)) :
    (iprop(((tgLoc d ↦{shareDrop fullShare 2} tgOf m d) ∗ (otLoc d ↦{shareDrop fullShare 2} ot))
          ∗ bigSep Finset.univ fun c : Fin ((K (F := F)).nCore 0) => (P m R).dn 0 d c) : sProp 𝕄)
      ⊢ iprop((tgLoc d ↦{fullShare} tgOf m d) ∗ (otLoc d ↦{fullShare} ot) ∗ (pkLoc d ↦{fullShare} pickOf (tgOf m d) ot)) :=
  collect (F := F) d (tgOf m d) (R d) ((K (F := F)).nCore 0) fullShare (coreSet (F := F)) Finset.univ
    (cores_cover (F := F)) (cores_disjoint (F := F)) ot

end Cert.KernelIdeal.ScSplit

end
-- ==== Proof.ScObl.lean ====
/-
  The vector-subcore task's obligation of the launch theorem, at the record the call's handshakes carry: the task's run
  from a tile's token of the targets and of the logits and its 32 positions of the picked vector.
-/
import proofs.«204472_g16080357556532_cont_week2b_336_33_alg».proof.Proof.LaunchPay

noncomputable section

namespace Cert.KernelIdeal.ScObl

open Cert.KernelIdeal Cert.KernelIdeal.Gen Cert.KernelIdeal.LaunchSetup Cert.KernelIdeal.LaunchPay
open Cert.KernelIdeal.ScTile (tgLoc otLoc pkLoc outSet placeOf pickOf)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig (HIx 1) (Elt F) ℕ UU ℕ

variable (m : (ℓ : Loc nD τ sig) → Buf (Elt F) ℓ)
variable (R : (d : Dev nD) → Buf (Elt F) (otLoc d) → Prop)

/-- A task's results as the handshake carries them: the logits it read are the call's (`R`), its positions hold the
    picked words. -/
theorem td_intro (d : Dev nD) (c : Fin ((K (F := F)).nCore 0)) (i : Fin ((K (F := F)).nSub 0))
    (ot : Buf (Elt F) (otLoc d)) (hR : R d ot) {A B C : sProp 𝕄} :
    iprop(((tgLoc d ↦{shT (F := F) c i} tgOf m d) ∗ (otLoc d ↦{shT (F := F) c i} ot)
        ∗ (pkLoc d ↦[outSet (placeOf (F := F) c i)]{fullShare} pickOf (tgOf m d) ot)) ∗ A ∗ B ∗ C)
      ⊢ iprop((P (F := F) m R).td 0 d c i ∗ A ∗ B ∗ C) := by
  show _ ⊢ iprop(((tgLoc d ↦{shT (F := F) c i} tgOf m d) ∗ ∃ ot, ⌜R d ot⌝ ∗ (otLoc d ↦{shT (F := F) c i} ot)
        ∗ pkLoc d ↦[outSet (placeOf (F := F) c i)]{fullShare} pickOf (tgOf m d) ot) ∗ A ∗ B ∗ C)
  iintro ⟨⟨Htg, Hot, Hpk⟩, HA, HB, HC⟩
  isplitl [Htg Hot Hpk]
  · isplitl [Htg]; · iexact Htg
    iexists ot
    isplitr; · ipureintro; exact hR
    isplitl [Hot]; · iexact Hot
    iexact Hpk
  isplitl [HA]; · iexact HA
  isplitl [HB]; · iexact HB
  iexact HC

/-- The launch theorem's obligation for the task of vector subcore `i` of SparseCore `c`: the tile's run, the logits
    and the prior contents of its positions whichever the handshake carries. -/
theorem tileObl (hF : (K (F := F)).Facts) (hpre : ∀ d j, (tgOf m d j).toNat < 100000) :
    (K (F := F)).TileObl (D (F := F)) 𝒱 (P m R) v₀ 0 := by
  intro d c i O W hO _ _
  -- this kernel owes nothing for a protocol of its own
  simp only [show (P (F := F) m R).ox = fun _ _ => 0 from rfl, add_zero]
  show iprop(levAts (K (F := F)).L (K (F := F)).lev ∗ emp
      ∗ ((tgLoc d ↦{shT (F := F) c i} tgOf m d) ∗ (∃ ot, ⌜R d ot⌝ ∗ otLoc d ↦{shT (F := F) c i} ot)
          ∗ ∃ pk, pkLoc d ↦[outSet (placeOf (F := F) c i)]{fullShare} pk)
      ∗ scopedBufs (V d ((K (F := F)).core 0 c) ((K (F := F)).sub 0 i)) ∗ scopedSems0 (V d ((K (F := F)).core 0 c) ((K (F := F)).sub 0 i))
      ∗ owes (V d ((K (F := F)).core 0 c) ((K (F := F)).sub 0 i)) O W) ⊢ _
  iintro ⟨#Hlv, -, ⟨Htg, ⟨%ot, %hR, Hot⟩, ⟨%pk, Hpk⟩⟩, Hsb, Hss, HO⟩
  iapply (wp_mono frame _ _ (fun _ => td_intro m R d c i ot hR))
  iapply (ScTile.tile_body_D hF d c i _ _ (tgOf m d) ot pk (hpre d) O W hO)
  isplitr; · iexact Hlv
  isplitl [Htg Hot Hpk]
  · isplitl [Htg]; · iexact Htg
    isplitl [Hot]; · iexact Hot
    iexact Hpk
  isplitl [Hsb]; · iexact Hsb
  isplitl [Hss]; · iexact Hss
  iexact HO

end Cert.KernelIdeal.ScObl

end
-- ==== Proof.LaunchCall.lean ====
/-
  Around the SparseCore call: the TensorCore takes the targets, the logits and the picked-logits array out of its held
  set, and puts them back with the picked logits at whatever the call left.
-/
import proofs.«204472_g16080357556532_cont_week2b_336_33_alg».proof.Proof.LaunchSpec

noncomputable section

namespace Cert.KernelIdeal.LaunchCall

open Cert.KernelIdeal Cert.KernelIdeal.Gen Cert.KernelIdeal.LaunchSetup Cert.KernelIdeal.LaunchOps Cert.KernelIdeal.LaunchPay
open Cert.KernelIdeal.ScTile (tgLoc otLoc pkLoc)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {F : FTy → Type} [FloatOps F] [Named F]

local notation "𝕄" => MT nD τ sig (HIx 1) (Elt F) ℕ UU ℕ

variable (m : (ℓ : Loc nD τ sig) → Buf (Elt F) ℓ)

/-- The three arrays the SparseCore call works on: the targets, the logits, the picked logits. -/
abbrev T3 : Finset (DevRef τ sig) := {rf main_arg1, rf main_v2_0, rf main_v3}

theorem T3_sub : (T3 : Finset (DevRef τ sig)) ⊆ Sall := by decide

omit [FloatOps F] [Named F] in
/-- Held over the three, they are three whole-array points-to. -/
theorem held_T3 (d : Dev nD) (W : Valuation τ sig (Elt F)) :
    (held (T d) T3 W : sProp 𝕄)
      = iprop((tgLoc d ↦{fullShare} W (rf main_arg1)) ∗ (otLoc d ↦{fullShare} W (rf main_v2_0)) ∗ (pkLoc d ↦{fullShare} W (rf main_v3))) := by
  unfold held T3
  rw [SparseCore.bigSep_insert' (by decide), SparseCore.bigSep_insert' (by decide), bigSep_singleton]

section Reads

variable (d : Dev nD) (ot : (rf main_v2_0).ty.Contents (Elt F)) (se : (rf main_v2_1).ty.Contents (Elt F))

/-- Before the call the targets are as launched: the transposes and the first region write other arrays. -/
theorem V3_tg : V3 m d ot se (rf main_arg1) = m (tgLoc d) := by
  unfold V3 V2 V0
  simp (disch := decide) only [rf, StableHlo.unary_result_ne', Function.update_of_ne] <;> rfl

/-- … and the logits are the first region's. -/
theorem V3_ot : V3 m d ot se (rf main_v2_0) = ot := by
  unfold V3
  rw [Function.update_of_ne (show rf main_v2_0 ≠ rf main_v2_1 by decide), Function.update_self]

variable (pk : (rf main_v3).ty.Contents (Elt F))

theorem V4_tg : V4 m d ot se pk (rf main_arg1) = m (tgLoc d) := by
  unfold V4
  rw [Function.update_of_ne (show rf main_arg1 ≠ rf main_v3 by decide), V3_tg]

theorem V4_ot : V4 m d ot se pk (rf main_v2_0) = ot := by
  unfold V4
  rw [Function.update_of_ne (show rf main_v2_0 ≠ rf main_v3 by decide), V3_ot]

theorem V4_pk : V4 m d ot se pk (rf main_v3) = pk := by
  unfold V4
  rw [Function.update_self]

/-- Off the three arrays the call changes nothing. -/
theorem V4_rest : ∀ b ∈ (Sall \ T3 : Finset (DevRef τ sig)), V4 m d ot se pk b = V3 m d ot se b := by
  intro b hb
  unfold V4
  refine Function.update_of_ne ?_ _ _
  rintro rfl
  exact (Finset.mem_sdiff.mp hb).2 (by decide)

/-- Taking the three out: what the call is given, and the rest of the held set. -/
theorem sc_take :
    (held (T d) Sall (V3 m d ot se) : sProp 𝕄)
      ⊢ iprop(((tgLoc d ↦{fullShare} m (tgLoc d)) ∗ (otLoc d ↦{fullShare} ot) ∗ ∃ pk0, pkLoc d ↦{fullShare} pk0)
          ∗ held (T d) (Sall \ T3) (V3 m d ot se)) := by
  rw [held_sub_split (T d) T3_sub, held_T3, V3_tg, V3_ot]
  iintro ⟨⟨Ht, Ho, Hp⟩, HR⟩
  isplitr [HR]
  · isplitl [Ht]; · iexact Ht
    isplitl [Ho]; · iexact Ho
    iexists _; iexact Hp
  · iexact HR

/-- Putting them back, the picked logits at `pk`: the held set at the valuation after the call. -/
theorem sc_give :
    iprop(((tgLoc d ↦{fullShare} m (tgLoc d)) ∗ (otLoc d ↦{fullShare} ot) ∗ (pkLoc d ↦{fullShare} pk))
        ∗ held (T d) (Sall \ T3) (V3 m d ot se))
      ⊢ (held (T d) Sall (V4 m d ot se pk) : sProp 𝕄) := by
  rw [held_sub_split (T d) T3_sub (V4 m d ot se pk), held_T3, V4_tg, V4_ot, V4_pk,
    held_congr (T d) (V4_rest m d ot se pk)]

end Reads

/-- Both directions as one: the three arrays out, and for any picked logits the held set back at the valuation after
    the call. -/
theorem sc_split (d : Dev nD) (ot : (rf main_v2_0).ty.Contents (Elt F)) (se : (rf main_v2_1).ty.Contents (Elt F)) :
    (held (T d) Sall (V3 m d ot se) : sProp 𝕄)
      ⊢ iprop(((tgLoc d ↦{fullShare} m (tgLoc d)) ∗ (otLoc d ↦{fullShare} ot) ∗ ∃ pk0, pkLoc d ↦{fullShare} pk0)
          ∗ ∀ pk, (iprop((tgLoc d ↦{fullShare} m (tgLoc d)) ∗ (otLoc d ↦{fullShare} ot) ∗ (pkLoc d ↦{fullShare} pk))
              -∗ held (T d) Sall (V4 m d ot se pk))) := by
  iintro H
  ihave H' := (sc_take m d ot se) $$ H
  icases H' with ⟨H3, HR⟩
  isplitl [H3]; · iexact H3
  iintro %pk Hp
  iapply (sc_give m d ot se pk)
  isplitl [Hp]; · iexact Hp
  iexact HR

end Cert.KernelIdeal.LaunchCall

end
-- ==== Proof.LaunchFin.lean ====
/-
  The launch's final read-off: the TensorCore's final assertion read against the state interpretation, the run's post
  from it, the arguments untouched by @main, and the two posts the claims are stated with.
-/
import proofs.«204472_g16080357556532_cont_week2b_336_33_alg».proof.Proof.LaunchSpec

noncomputable section

namespace Cert.KernelIdeal.LaunchFin

open Cert.KernelIdeal Cert.KernelIdeal.Gen Cert.KernelIdeal.LaunchSetup Cert.KernelIdeal.LaunchOps Cert.KernelIdeal.LaunchPay
open Cert.KernelIdeal.LaunchSpec (Reg0 pkOf FIN fq QC)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F] [Named F]

local notation "𝕄" => MT nD τ sig (HIx 1) (Elt F) ℕ UU ℕ

variable (X : Reg0 F) (m : (ℓ : Loc nD τ sig) → Buf (Elt F) ℓ)

/-- An unscoped TensorCore reference is in the held set. -/
theorem rf_mem_Sall {b : Ref sig .tc} (hb : ¬ b.isScoped) : rf b ∈ (Sall : Finset (DevRef τ sig)) :=
  Finset.mem_map.mpr ⟨b, Finset.mem_filter.mpr ⟨Finset.mem_univ _, hb⟩, rfl⟩

/-- The final assertion against the state interpretation: the physical contents of every unscoped array. The
    assertion holds each array of the set whole at the full share, and whole-buffer points-to under the state
    interpretation pin the physical contents, array by array. -/
theorem hfin (d : Dev nD) (s' : Phys nD τ sig (Elt F)) : iprop(FIN X m d ∗ SI s') ⊢ (⌜fq X m d s'⌝ : sProp 𝕄) := by
  unfold FIN held
  iintro ⟨⟨%O0, %O2, %B0, %B2, %ot, %se, %ls, %hF, H⟩, HSI⟩
  ihave %h := (SI_pointsTo_bufs_agree (st := s') (c := d) (qs := fun _ => fullShare)
      (F := Vfin m d ot se (pkOf m d ot) ls) Sall) $$ [HSI H]
  · isplitl [HSI]; · iexact HSI
    iexact H
  ipureintro
  exact ⟨O0, O2, B0, B2, ot, se, ls, hF, fun b hb => h (rf b) (rf_mem_Sall hb)⟩

/-- The devices' read-offs together are the run's post. -/
theorem hQ : ∀ s' : Phys nD τ sig (Elt F), (∀ d, fq X m d s') → QC X m (⟨⟩, s'.mem) :=
  fun _ h => h

/- @main writes none of its arguments: each host operation rewrites its own result only, and each region's update is
   at one of its output arrays, so the final valuation at an argument is the launch contents. -/
theorem Vfin_arg0 (d : Dev nD) (ot : (rf main_v2_0).ty.Contents (Elt F)) (se : (rf main_v2_1).ty.Contents (Elt F))
    (pk : (rf main_v3).ty.Contents (Elt F)) (ls : (rf main_v5).ty.Contents (Elt F)) :
    Vfin m d ot se pk ls (rf main_arg0) = m ((d.tc : Thread nD τ).loc main_arg0) := by
  unfold Vfin V6 V5 V4 V3 V2 V0
  simp (disch := decide) only [rf, StableHlo.ternary_result_ne', StableHlo.nullary_result_ne', StableHlo.binary_result_ne',
    StableHlo.reshape_result_ne', StableHlo.unary_result_ne', Function.update_of_ne]
theorem Vfin_arg1 (d : Dev nD) (ot : (rf main_v2_0).ty.Contents (Elt F)) (se : (rf main_v2_1).ty.Contents (Elt F))
    (pk : (rf main_v3).ty.Contents (Elt F)) (ls : (rf main_v5).ty.Contents (Elt F)) :
    Vfin m d ot se pk ls (rf main_arg1) = m ((d.tc : Thread nD τ).loc main_arg1) := by
  unfold Vfin V6 V5 V4 V3 V2 V0
  simp (disch := decide) only [rf, StableHlo.ternary_result_ne', StableHlo.nullary_result_ne', StableHlo.binary_result_ne',
    StableHlo.reshape_result_ne', StableHlo.unary_result_ne', Function.update_of_ne]
theorem Vfin_arg2 (d : Dev nD) (ot : (rf main_v2_0).ty.Contents (Elt F)) (se : (rf main_v2_1).ty.Contents (Elt F))
    (pk : (rf main_v3).ty.Contents (Elt F)) (ls : (rf main_v5).ty.Contents (Elt F)) :
    Vfin m d ot se pk ls (rf main_arg2) = m ((d.tc : Thread nD τ).loc main_arg2) := by
  unfold Vfin V6 V5 V4 V3 V2 V0
  simp (disch := decide) only [rf, StableHlo.ternary_result_ne', StableHlo.nullary_result_ne', StableHlo.binary_result_ne',
    StableHlo.reshape_result_ne', StableHlo.unary_result_ne', Function.update_of_ne]

/-- The run's post gives the frame claim's: the three arguments end as launched. -/
theorem frame_post (r : PUnit × MemSt nD τ sig (Elt F)) (h : QC X m r) : ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  intro c
  obtain ⟨O0, O2, B0, B2, ot, se, ls, -, hb⟩ := h c
  exact ⟨(hb main_arg0 (by decide)).trans (Vfin_arg0 m c ot se (pkOf m c ot) ls),
    (hb main_arg1 (by decide)).trans (Vfin_arg1 m c ot se (pkOf m c ot) ls),
    (hb main_arg2 (by decide)).trans (Vfin_arg2 m c ot se (pkOf m c ot) ls)⟩

/-- The run's post at the two results: the final valuation of some values the regions may leave. -/
theorem results_post (r : PUnit × MemSt nD τ sig (Elt F)) (h : QC X m r) (c : Dev nD) :
    ∃ O0 O2 B0 B2 ot se ls, LaunchSpec.Facts X m c O0 O2 B0 B2 ot se ls
      ∧ r.2.mem ((c.tc : Thread nD τ).loc main_v9) = Vfin m c ot se (pkOf m c ot) ls (rf main_v9)
      ∧ r.2.mem ((c.tc : Thread nD τ).loc main_v6) = Vfin m c ot se (pkOf m c ot) ls (rf main_v6) := by
  obtain ⟨O0, O2, B0, B2, ot, se, ls, hF, hb⟩ := h c
  exact ⟨O0, O2, B0, B2, ot, se, ls, hF, hb main_v9 (by decide), hb main_v6 (by decide)⟩

end Cert.KernelIdeal.LaunchFin

end
-- ==== Proof.LaunchAfter.lean ====
/-
  After a kernel region of @main: the region's exit state, opened, is the TensorCore's unscoped arrays held at the
  valuation with the region's output arrays updated to contents the region's data allow, beside what the TensorCore
  owes; the recorded pairs have grown by pairs at the kernels' own index only.
-/
import proofs.«204472_g16080357556532_cont_week2b_336_33_alg».proof.Proof.LaunchRegs
import proofs.«204472_g16080357556532_cont_week2b_336_33_alg».proof.Proof.RegionPost

noncomputable section

namespace Cert.KernelIdeal.LaunchAfter

open Cert.KernelIdeal Cert.KernelIdeal.Gen Cert.KernelIdeal.LaunchSetup Cert.KernelIdeal.LaunchOps Cert.KernelIdeal.LaunchPay
open Cert.KernelIdeal.LaunchSpec Cert.KernelIdeal.RegionGlue Cert.KernelIdeal.LaunchRegs Cert.KernelIdeal.RegionPost

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F] [Named F]

local notation "𝕄" => MT nD τ sig (HIx 1) (Elt F) ℕ UU ℕ

variable (X : Reg0 F) (m : (ℓ : Loc nD τ sig) → Buf (Elt F) ℓ)

/-- A pair recorded within `W` or among a pipeline's own waits at the kernels' index is in `W` or at that index. -/
theorem mem_of_bound {cfg : Pipeline.Cfg sig Λ₀} (W W1 : Waits sig (HIx 1))
    (h : (↑W1 : Set (SemLoc sig × HIx 1)) ⊆ (↑W : Set (SemLoc sig × HIx 1)) ∪ cfg.waitPairs none) :
    ∀ p ∈ W1, p ∈ W ∨ p.2 = none := fun p hp => by
  rcases h (Finset.mem_coe.mpr hp) with h1 | ⟨w, s, rfl⟩
  · exact Or.inl (Finset.mem_coe.mp h1)
  · exact Or.inr rfl

/-! ## The valuations at and off the regions' output arrays -/

section Vals
variable (d : Dev nD) (ot : (rf main_v2_0).ty.Contents (Elt F)) (se : (rf main_v2_1).ty.Contents (Elt F))
  (pk : (rf main_v3).ty.Contents (Elt F)) (ls : (rf main_v5).ty.Contents (Elt F))

theorem V3_at_ot : V3 m d ot se (rf main_v2_0) = ot := by
  unfold V3
  rw [Function.update_of_ne (StableHlo.devRef_ne_of_ne (by decide : main_v2_0 ≠ main_v2_1)), Function.update_self]
theorem V3_at_se : V3 m d ot se (rf main_v2_1) = se := by
  unfold V3; rw [Function.update_self]
theorem V3_of_ne (b : Ref sig .tc) (h0 : b ≠ main_v2_0) (h1 : b ≠ main_v2_1) : V3 m d ot se (rf b) = V2 m d (rf b) := by
  unfold V3
  rw [Function.update_of_ne (StableHlo.devRef_ne_of_ne h1), Function.update_of_ne (StableHlo.devRef_ne_of_ne h0)]
theorem V6_at_ls : V6 m d ot se pk ls (rf main_v5) = ls := by
  unfold V6; rw [Function.update_self]
theorem V6_of_ne (b : Ref sig .tc) (h : b ≠ main_v5) : V6 m d ot se pk ls (rf b) = V5 m d ot se pk (rf b) := by
  unfold V6; rw [Function.update_of_ne (StableHlo.devRef_ne_of_ne h)]

end Vals

/-- AFTER THE LOGITS REGION. -/
theorem after_region0 [∀ e, Nonempty (Elt F e)] (d : Dev nD) (O : Dev nD → CellTallies nD τ sig (HIx 1)) (W : Waits sig (HIx 1)) :
    RegionGlue.postOf (rdA X m O (↑W : Set (SemLoc sig × HIx 1))) 0 (Vb0 m) d
      ⊢ (iprop(∃ ot se W1, ⌜(X.rd d (A0of m d) (O d) ↑W).ArrAt 2 cfg0.N ot ∧ (X.rd d (A0of m d) (O d) ↑W).ArrAt 3 cfg0.N se
            ∧ ∀ p ∈ W1, p ∈ W ∨ p.2 = none⌝
          ∗ held (SparseCore.T d) Sall (V3 m d ot se) ∗ owes (SparseCore.T d) (O d) W1) : sProp 𝕄) := by
  refine (post_elim (rdA X m O (↑W : Set (SemLoc sig × HIx 1))) 0 launch0 (Vb0 m) d (fun w => X.share_eq d _ _ _ w)).trans ?_
  iintro ⟨%G, %hG, HA, Ho, Hz⟩
  icases Ho with ⟨%W1, %hW1, Ho⟩
  have hG0 : G 0 = A0of m d 0 := X.in0 d _ _ _ _ _ (hG 0)
  have hG1 : G 1 = A0of m d 1 := X.in1 d _ _ _ _ _ (hG 1)
  have eo := X.owed_eq d (A0of m d) (O d) (↑W : Set (SemLoc sig × HIx 1)) (Fin.last (Pipeline.pin (pcfgs (F := F)) adm 0).N)
  have er := X.recorded_eq d (A0of m d) (O d) (↑W : Set (SemLoc sig × HIx 1)) (Fin.last (Pipeline.pin (pcfgs (F := F)) adm 0).N)
  have hW : ∀ p ∈ W1, p ∈ W ∨ p.2 = none := mem_of_bound (cfg := Pipeline.pin (pcfgs (F := F)) adm 0) W W1 (by
    have h : (↑W1 : Set (SemLoc sig × HIx 1)) ⊆ (X.rd d (A0of m d) (O d) (↑W : Set (SemLoc sig × HIx 1))).recorded (Fin.last (Pipeline.pin (pcfgs (F := F)) adm 0).N)
        ∪ (Pipeline.pin (pcfgs (F := F)) adm 0).waitPairs none := hW1
    rw [er] at h; exact h)
  let V' : (b : Ref sig .tc) → Buf (Elt F) ((d.tc : Thread nD τ).loc b) := fun b => V3 m d (G 2) (G 3) (rf b)
  have hrest : ∀ b : Ref sig .tc, (∀ w, b ≠ Pipeline.arrRef (cfgs 0).spec w) → V' b = Vb0 m d b :=
    fun b hb => V3_of_ne m d _ _ b (hb 2) (hb 3)
  have hcong : ∀ w : Fin 4, G w = V' (Pipeline.arrRef (cfgs 0).spec w) := fun w => match w with
    | ⟨0, _⟩ => hG0.trans (V3_of_ne m d _ _ main_v0 (by decide) (by decide)).symm
    | ⟨1, _⟩ => hG1.trans (V3_of_ne m d _ _ main_v1 (by decide) (by decide)).symm
    | ⟨2, _⟩ => (V3_at_ot m d _ _).symm
    | ⟨3, _⟩ => (V3_at_se m d _ _).symm
  have h1 : (bigSep Finset.univ fun w : Fin (cfgs 0).W => (((d.tc : Thread nD τ).loc (Pipeline.arrRef (cfgs 0).spec w)) ↦{fullShare} G w : sProp 𝕄))
      = bigSep Finset.univ fun w : Fin (cfgs 0).W => (((d.tc : Thread nD τ).loc (Pipeline.arrRef (cfgs 0).spec w)) ↦{fullShare} V' (Pipeline.arrRef (cfgs 0).spec w) : sProp 𝕄) :=
    bigSep_congr fun w _ => by rw [hcong w]
  have harr : iprop((bigSep Finset.univ fun w : Fin (cfgs 0).W => (((d.tc : Thread nD τ).loc (Pipeline.arrRef (cfgs 0).spec w)) ↦{fullShare} G w : sProp 𝕄))
        ∗ Pipeline.unscopedRest (cfgs 0).spec d (Vb0 m d))
      ⊢ (held (SparseCore.T d) Sall (V3 m d (G 2) (G 3)) : sProp 𝕄) := by
    rw [held_Sall, h1]
    exact unscoped_of_arrays 0 launch0 d (Vb0 m d) V' hrest
  iexists (G 2), (G 3), W1
  isplitr
  · ipureintro; exact ⟨hG 2, hG 3, hW⟩
  isplitl [HA Hz]
  · iapply harr
    isplitl [HA]; · iexact HA
    iexact Hz
  · have hoE : (owes (d.tc : Thread nD τ) ((rdA X m O (↑W : Set (SemLoc sig × HIx 1)) 0 d).owed (Fin.last (Pipeline.pin (pcfgs (F := F)) adm 0).N)) W1 : sProp 𝕄)
        ⊢ owes (SparseCore.T d) (O d) W1 := Entails.of_eq (by
      show owes (SparseCore.T d) ((X.rd d (A0of m d) (O d) (↑W : Set (SemLoc sig × HIx 1))).owed (Fin.last (Pipeline.pin (pcfgs (F := F)) adm 0).N)) W1 = _
      rw [eo])
    ihave Ho' := hoE $$ Ho
    iexact Ho'

/-- AFTER THE COMBINE REGION. -/
theorem after_region1 [∀ e, Nonempty (Elt F e)] (d : Dev nD)
    (ot : (rf main_v2_0).ty.Contents (Elt F)) (se : (rf main_v2_1).ty.Contents (Elt F)) (pk : (rf main_v3).ty.Contents (Elt F))
    (O : Dev nD → CellTallies nD τ sig (HIx 1)) (W : Waits sig (HIx 1)) :
    RegionGlue.postOf (rdB X m ot se pk O (↑W : Set (SemLoc sig × HIx 1))) 1 (Vb5 m ot se pk) d
      ⊢ (iprop(∃ ls W1, ⌜(RegionInst.rd2 d (A2of m d ot se pk) (O d) ↑W).ArrAt 2 cfg2.N ls ∧ ∀ p ∈ W1, p ∈ W ∨ p.2 = none⌝
          ∗ held (SparseCore.T d) Sall (V6 m d ot se pk ls) ∗ owes (SparseCore.T d) (O d) W1) : sProp 𝕄) := by
  refine (post_elim (rdB X m ot se pk O (↑W : Set (SemLoc sig × HIx 1))) 1 launch2 (Vb5 m ot se pk) d
    (fun w => RegionInst.rd2_share d _ _ _ w)).trans ?_
  iintro ⟨%G, %hG, HA, Ho, Hz⟩
  icases Ho with ⟨%W1, %hW1, Ho⟩
  have hG0 : G 0 = A2of m d ot se pk 0 := by
    have h : (RegionInst.rd2 d (A2of m d ot se pk) (O d) (↑W : Set (SemLoc sig × HIx 1))).ArrAt 0 (Pipeline.pin (pcfgs (F := F)) adm 1).N (G 0) := hG 0
    rw [Pipeline.RDat.ArrAt_in _ 0 rfl] at h; exact h
  have hG1 : G 1 = A2of m d ot se pk 1 := by
    have h : (RegionInst.rd2 d (A2of m d ot se pk) (O d) (↑W : Set (SemLoc sig × HIx 1))).ArrAt 1 (Pipeline.pin (pcfgs (F := F)) adm 1).N (G 1) := hG 1
    rw [Pipeline.RDat.ArrAt_in _ 1 rfl] at h; exact h
  have eo := RegionInst.rd2_owed d (A2of m d ot se pk) (O d) (↑W : Set (SemLoc sig × HIx 1)) (Fin.last (Pipeline.pin (pcfgs (F := F)) adm 1).N)
  have er := RegionInst.rd2_recorded d (A2of m d ot se pk) (O d) (↑W : Set (SemLoc sig × HIx 1)) (Fin.last (Pipeline.pin (pcfgs (F := F)) adm 1).N)
  have hW : ∀ p ∈ W1, p ∈ W ∨ p.2 = none := mem_of_bound (cfg := Pipeline.pin (pcfgs (F := F)) adm 1) W W1 (by
    have h : (↑W1 : Set (SemLoc sig × HIx 1)) ⊆ (RegionInst.rd2 d (A2of m d ot se pk) (O d) (↑W : Set (SemLoc sig × HIx 1))).recorded (Fin.last (Pipeline.pin (pcfgs (F := F)) adm 1).N)
        ∪ (Pipeline.pin (pcfgs (F := F)) adm 1).waitPairs none := hW1
    rw [er] at h; exact h)
  let V' : (b : Ref sig .tc) → Buf (Elt F) ((d.tc : Thread nD τ).loc b) := fun b => V6 m d ot se pk (G 2) (rf b)
  have hrest : ∀ b : Ref sig .tc, (∀ w, b ≠ Pipeline.arrRef (cfgs 1).spec w) → V' b = Vb5 m ot se pk d b :=
    fun b hb => V6_of_ne m d _ _ _ _ b (hb 2)
  have hcong : ∀ w : Fin 3, G w = V' (Pipeline.arrRef (cfgs 1).spec w) := fun w => match w with
    | ⟨0, _⟩ => hG0.trans (V6_of_ne m d _ _ _ _ main_v4 (by decide)).symm
    | ⟨1, _⟩ => hG1.trans (V6_of_ne m d _ _ _ _ main_v2_1 (by decide)).symm
    | ⟨2, _⟩ => (V6_at_ls m d _ _ _ _).symm
  have h1 : (bigSep Finset.univ fun w : Fin (cfgs 1).W => (((d.tc : Thread nD τ).loc (Pipeline.arrRef (cfgs 1).spec w)) ↦{fullShare} G w : sProp 𝕄))
      = bigSep Finset.univ fun w : Fin (cfgs 1).W => (((d.tc : Thread nD τ).loc (Pipeline.arrRef (cfgs 1).spec w)) ↦{fullShare} V' (Pipeline.arrRef (cfgs 1).spec w) : sProp 𝕄) :=
    bigSep_congr fun w _ => by rw [hcong w]
  have harr : iprop((bigSep Finset.univ fun w : Fin (cfgs 1).W => (((d.tc : Thread nD τ).loc (Pipeline.arrRef (cfgs 1).spec w)) ↦{fullShare} G w : sProp 𝕄))
        ∗ Pipeline.unscopedRest (cfgs 1).spec d (Vb5 m ot se pk d))
      ⊢ (held (SparseCore.T d) Sall (V6 m d ot se pk (G 2)) : sProp 𝕄) := by
    rw [held_Sall, h1]
    exact unscoped_of_arrays 1 launch2 d (Vb5 m ot se pk d) V' hrest
  iexists (G 2), W1
  isplitr
  · ipureintro; exact ⟨hG 2, hW⟩
  isplitl [HA Hz]
  · iapply harr
    isplitl [HA]; · iexact HA
    iexact Hz
  · have hoE : (owes (d.tc : Thread nD τ) ((rdB X m ot se pk O (↑W : Set (SemLoc sig × HIx 1)) 1 d).owed (Fin.last (Pipeline.pin (pcfgs (F := F)) adm 1).N)) W1 : sProp 𝕄)
        ⊢ owes (SparseCore.T d) (O d) W1 := Entails.of_eq (by
      show owes (SparseCore.T d) ((RegionInst.rd2 d (A2of m d ot se pk) (O d) (↑W : Set (SemLoc sig × HIx 1))).owed (Fin.last (Pipeline.pin (pcfgs (F := F)) adm 1).N)) W1 = _
      rw [eo])
    ihave Ho' := hoE $$ Ho
    iexact Ho'

end Cert.KernelIdeal.LaunchAfter

end
-- ==== Proof.LaunchMain.lean ====
/-
  @main on the TensorCore: the two transposes, the first kernel region, the SparseCore call, the reshape, the second
  kernel region and the host tail, from what the launch deals the TensorCore to its final assertion; and the run
  of the whole program.
-/
import proofs.«204472_g16080357556532_cont_week2b_336_33_alg».proof.Proof.LaunchSpec
import proofs.«204472_g16080357556532_cont_week2b_336_33_alg».proof.Proof.LaunchA
import proofs.«204472_g16080357556532_cont_week2b_336_33_alg».proof.Proof.LaunchRegs
import proofs.«204472_g16080357556532_cont_week2b_336_33_alg».proof.Proof.RegionPost
import proofs.«204472_g16080357556532_cont_week2b_336_33_alg».proof.Proof.ScSplit
import proofs.«204472_g16080357556532_cont_week2b_336_33_alg».proof.Proof.ScObl
import proofs.«204472_g16080357556532_cont_week2b_336_33_alg».proof.Proof.LaunchCall
import proofs.«204472_g16080357556532_cont_week2b_336_33_alg».proof.Proof.LaunchFin
import proofs.«204472_g16080357556532_cont_week2b_336_33_alg».proof.Proof.LaunchAfter

noncomputable section

namespace Cert.KernelIdeal.LaunchMain

open Cert.KernelIdeal Cert.KernelIdeal.Gen Cert.KernelIdeal.LaunchSetup Cert.KernelIdeal.LaunchOps Cert.KernelIdeal.LaunchPay
open Cert.KernelIdeal.LaunchSpec Cert.KernelIdeal.LaunchA Cert.KernelIdeal.RegionGlue Cert.KernelIdeal.LaunchRegs
open Cert.KernelIdeal.ScTile (tgLoc otLoc pkLoc outSet placeOf pickOf)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F]

local notation "𝕄" => MT nD τ sig (HIx 1) (Elt F) ℕ UU ℕ

variable (X : Reg0 F) (m : (ℓ : Loc nD τ sig) → Buf (Elt F) ℓ) (ρ : Dev nD → PrngReg)

/-- Nothing is asked of the logits at the call: the tiles' read shares are gathered back at the contents handed out. -/
abbrev RT : (d : Dev nD) → Buf (Elt F) (otLoc d) → Prop := fun _ _ => True

theorem launch_unscoped (d : Dev nD) :
    (unscopedBufs d (fun b => m ((SparseCore.T d).loc b)) : sProp 𝕄) = held (SparseCore.T d) Sall (V0 m d) := by
  rw [held_Sall]; rfl

theorem Gd_eq (d : Dev nD) : (Gd (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold Gd
  rw [show (Finset.univ : Finset (Fin 2)) = {0, 1} by decide, SparseCore.bigSep_insert' (by decide), bigSep_singleton]

/-- The TensorCore's handshake state before call `n` without what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] [Named F] in
theorem tcSt_split (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest (F := F) d n) := rfl

omit [FloatOps F] [Named F] in
/-- Waits recorded at the kernels' own index sit at level zero: the bound on the recorded pairs survives a region. -/
theorem WBelow_of (d : Dev nD) {W W1 : Waits sig (HIx 1)} {b : ℕ} (hW : (K (F := F)).WBelow (SparseCore.T d) W b)
    (h : ∀ p ∈ W1, p ∈ W ∨ p.2 = none) : (K (F := F)).WBelow (SparseCore.T d) W1 b := fun p hp => by
  rcases h p hp with h1 | h1
  · exact hW p h1
  · obtain ⟨a, ι⟩ := p
    simp only at h1
    subst h1
    exact Nat.zero_le _

theorem pre0_eq (d : Dev nD) :
    (held (SparseCore.T d) Sall ((opT1 (F := F)).result ((opT0 (F := F)).result (V0 m d))) : sProp 𝕄) = unscopedBufs d (Vb0 m d) := by
  rw [held_Sall]; rfl

theorem pre1_eq (d : Dev nD) (ot : (rf main_v2_0).ty.Contents (Elt F)) (se : (rf main_v2_1).ty.Contents (Elt F)) (pk : (rf main_v3).ty.Contents (Elt F)) :
    (held (SparseCore.T d) Sall ((opRs4 (F := F)).result (V4 m d ot se pk)) : sProp 𝕄) = unscopedBufs d (Vb5 m ot se pk d) := by
  rw [held_Sall]; rfl

theorem fin_eq (d : Dev nD) (ot : (rf main_v2_0).ty.Contents (Elt F)) (se : (rf main_v2_1).ty.Contents (Elt F)) (pk : (rf main_v3).ty.Contents (Elt F))
    (ls : (rf main_v5).ty.Contents (Elt F)) :
    (held (SparseCore.T d) Sall ((opSel (F := F)).result ((opCst (F := F)).result ((opCmp (F := F)).result ((opRs7 (F := F)).result
      ((opT6 (F := F)).result (V6 m d ot se pk ls)))))) : sProp 𝕄) = held (SparseCore.T d) Sall (Vfin m d ot se pk ls) := rfl

theorem R0_post (O : Dev nD → CellTallies nD τ sig (HIx 1)) (hO : ∀ c g, O c g none = 0) (W : Waits sig (HIx 1)) (d : Dev nD) :
    ((R0 X m O hO W).post d : sProp 𝕄) = postOf (rdA X m O (↑W : Set (SemLoc sig × HIx 1))) 0 (Vb0 m) d := rfl

theorem R1_post (ot : (rf main_v2_0).ty.Contents (Elt F)) (se : (rf main_v2_1).ty.Contents (Elt F)) (pk : (rf main_v3).ty.Contents (Elt F))
    (O : Dev nD → CellTallies nD τ sig (HIx 1)) (hO : ∀ c g, O c g none = 0) (W : Waits sig (HIx 1)) (d : Dev nD) :
    ((R1 X m ot se pk O hO W).post d : sProp 𝕄) = postOf (rdB X m ot se pk O (↑W : Set (SemLoc sig × HIx 1))) 1 (Vb5 m ot se pk) d := rfl

set_option maxHeartbeats 3200000 in
/-- @main on device `d`'s TensorCore. -/
theorem hmain [∀ e, Nonempty (Elt F e)] (κ : GSem nD τ sig → ℕ) (d : Dev nD) :
    iprop((K (F := F)).ctx EH (P m RT) κ ∗ (K (F := F)).tcSt EH d 0 ∗ (K (F := F)).tcRes m ρ d ∗ Gd (F := F) d)
      ⊢ wp frame (wpE ((K (F := F)).defs (D (F := F))) 𝒱 (T d) none) Set.univ (main d)
          fun _ => iprop((K (F := F)).tcSt EH d 1 ∗ FIN X m d) := by
  unfold SparseCore.Cfg.tcRes
  rw [launch_unscoped]
  simp only [main, fn_where.body, wp_bind, wp_pure]
  iintro ⟨#Hctx, Hst, ⟨Hb, Hheld, -, -⟩, HG⟩
  -- the two transposes
  iapply (wp_hlo_within 𝒱 (T d) none Set.univ (op := opT0) (S := Sall) opT0_sub (V := V0 m d)) $$ [Hb Hheld]
  · isplitl [Hb]; · iexact Hb
    iexact Hheld
  iintro ⟨Hb, Hheld⟩
  rw [wp_ret]; imodintro
  iapply (wp_hlo_within 𝒱 (T d) none Set.univ (op := opT1) (S := Sall) opT1_sub (V := (opT0 (F := F)).result (V0 m d))) $$ [Hb Hheld]
  · isplitl [Hb]; · iexact Hb
    iexact Hheld
  iintro ⟨Hb, Hheld⟩
  rw [wp_ret]; imodintro
  -- the TensorCore's owes, out of its handshake state; the level facts; the pipelines' ghost state
  ihave Hst := (Entails.of_eq (tcSt_split (F := F) d 0)) $$ Hst
  icases Hst with ⟨⟨%W, %hW, HO⟩, Hrest⟩
  ihave Hlev := (SparseCore.Cfg.ctx_levAts κ) $$ Hctx
  ihave HG' := (Entails.of_eq (Gd_eq (F := F) d)) $$ HG
  icases HG' with ⟨⟨Hcg0, Hti0⟩, Hcg1, Hti1⟩
  -- the first kernel region
  iapply (seg_wp (rdA X m (fun c => (K (F := F)).Otc c 0) (↑W : Set (SemLoc sig × HIx 1)))
    (R0 X m (fun c => (K (F := F)).Otc c 0) (fun c g => Otc_none c 0 g) W) d _)
  isplitl [Hrest Hcg1 Hti1]
  swap
  · isplitl [Hb]; · iexact Hb
    isplitl [Hheld HO]
    · unfold R0 segOf preOf; dsimp only
      isplitl [Hheld]
      · ihave H := (Entails.of_eq (pre0_eq m d)) $$ Hheld
        iexact H
      iexact HO
    isplitr; · iexact Hlev
    isplitl [Hcg0]; · iexact Hcg0
    iexact Hti0
  iintro ⟨Hb, Hpost⟩
  ihave Hpost := (Entails.of_eq (R0_post X m (fun c => (K (F := F)).Otc c 0) (fun c g => Otc_none c 0 g) W d)) $$ Hpost
  ihave Hp := (LaunchAfter.after_region0 X m d (fun c => (K (F := F)).Otc c 0) W) $$ Hpost
  icases Hp with ⟨%ot, %se, %W1, %hf, Hheld, HO⟩
  obtain ⟨h2, h3, hW1⟩ := hf
  -- the SparseCore call
  ihave Hs := (LaunchCall.sc_split m d ot se) $$ Hheld
  icases Hs with ⟨⟨Htg, Hot, %pk0, Hpk⟩, Hback⟩
  ihave Hst0 := (ScSplit.st_intro m RT d ot trivial pk0) $$ [Htg Hot Hpk]
  · isplitl [Htg]; · iexact Htg
    isplitl [Hot]; · iexact Hot
    iexact Hpk
  icases Hst0 with ⟨Hkept, Hst0⟩
  ihave Hst := (Entails.of_eq (tcSt_split (F := F) d 0).symm) $$ [HO Hrest]
  · isplitl [HO]
    · iexists W1
      isplitr; · ipureintro; exact WBelow_of d hW hW1
      iexact HO
    iexact Hrest
  iapply ((K (F := F)).wp_run (D (F := F)) 𝒱 (EH := EH) (P := P m RT) κ d 0)
  isplitr; · iexact Hctx
  isplitl [Hst]; · iexact Hst
  isplitl [Hst0]; · iexact Hst0
  iintro ⟨Hst, Hdn⟩
  ihave Hst := (Entails.of_eq (show ((K (F := F)).tcSt EH d ((0 : Fin 1).val + 1) : sProp 𝕄) = (K (F := F)).tcSt EH d 1 from rfl)) $$ Hst
  ihave Hd := (ScSplit.dn_elim m RT d ot) $$ [Hkept Hdn]
  · isplitl [Hkept]; · iexact Hkept
    iexact Hdn
  ihave Hheld := Hback $$ %(pkOf m d ot) Hd
  -- the reshape of the picked logits
  iapply (wp_hlo_within 𝒱 (T d) none Set.univ (op := opRs4) (S := Sall) opRs4_sub (V := V4 m d ot se (pkOf m d ot))) $$ [Hb Hheld]
  · isplitl [Hb]; · iexact Hb
    iexact Hheld
  iintro ⟨Hb, Hheld⟩
  rw [wp_ret]; imodintro
  -- the second kernel region
  ihave Hst := (Entails.of_eq (tcSt_split (F := F) d 1)) $$ Hst
  icases Hst with ⟨⟨%W2, %hW2, HO⟩, Hrest⟩
  iapply (seg_wp (rdB X m ot se (pkOf m d ot) (fun c => (K (F := F)).Otc c 1) (↑W2 : Set (SemLoc sig × HIx 1)))
    (R1 X m ot se (pkOf m d ot) (fun c => (K (F := F)).Otc c 1) (fun c g => Otc_none c 1 g) W2) d _)
  isplitl [Hrest]
  swap
  · isplitl [Hb]; · iexact Hb
    isplitl [Hheld HO]
    · unfold R1 segOf preOf; dsimp only
      isplitl [Hheld]
      · ihave H := (Entails.of_eq (pre1_eq m d ot se (pkOf m d ot))) $$ Hheld
        iexact H
      iexact HO
    isplitr; · iexact Hlev
    isplitl [Hcg1]; · iexact Hcg1
    iexact Hti1
  iintro ⟨Hb, Hpost⟩
  ihave Hpost := (Entails.of_eq (R1_post X m ot se (pkOf m d ot) (fun c => (K (F := F)).Otc c 1) (fun c g => Otc_none c 1 g) W2 d)) $$ Hpost
  ihave Hp := (LaunchAfter.after_region1 X m d ot se (pkOf m d ot) (fun c => (K (F := F)).Otc c 1) W2) $$ Hpost
  icases Hp with ⟨%ls, %W3, %hf, Hheld, HO⟩
  obtain ⟨hl, hW3⟩ := hf
  -- the host tail
  iapply (wp_hlo_within 𝒱 (T d) none Set.univ (op := opT6) (S := Sall) opT6_sub (V := V6 m d ot se (pkOf m d ot) ls)) $$ [Hb Hheld]
  · isplitl [Hb]; · iexact Hb
    iexact Hheld
  iintro ⟨Hb, Hheld⟩
  rw [wp_ret]; imodintro
  iapply (wp_hlo_within 𝒱 (T d) none Set.univ (op := opRs7) (S := Sall) opRs7_sub) $$ [Hb Hheld]
  · isplitl [Hb]; · iexact Hb
    iexact Hheld
  iintro ⟨Hb, Hheld⟩
  rw [wp_ret]; imodintro
  iapply (wp_hlo_within 𝒱 (T d) none Set.univ (op := opCmp) (S := Sall) opCmp_sub) $$ [Hb Hheld]
  · isplitl [Hb]; · iexact Hb
    iexact Hheld
  iintro ⟨Hb, Hheld⟩
  rw [wp_ret]; imodintro
  iapply (wp_hlo_within 𝒱 (T d) none Set.univ (op := opCst) (S := Sall) opCst_sub) $$ [Hb Hheld]
  · isplitl [Hb]; · iexact Hb
    iexact Hheld
  iintro ⟨Hb, Hheld⟩
  rw [wp_ret]; imodintro
  iapply (wp_hlo_within 𝒱 (T d) none Set.univ (op := opSel) (S := Sall) opSel_sub) $$ [Hb Hheld]
  · isplitl [Hb]; · iexact Hb
    iexact Hheld
  iintro ⟨Hb, Hheld⟩
  rw [wp_ret]; imodintro; imodintro
  isplitl [HO Hrest]
  · ihave Hst := (Entails.of_eq (tcSt_split (F := F) d 1).symm) $$ [HO Hrest]
    · isplitl [HO]
      · iexists W3
        isplitr; · ipureintro; exact WBelow_of d hW2 hW3
        iexact HO
      iexact Hrest
    iexact Hst
  unfold FIN
  iexists ((K (F := F)).Otc d 0), ((K (F := F)).Otc d 1), (↑W : Set (SemLoc sig × HIx 1)), (↑W2 : Set (SemLoc sig × HIx 1)), ot, se, ls
  isplitr; · ipureintro; exact ⟨h2, h3, hl⟩
  ihave H := (Entails.of_eq (fin_eq m d ot se (pkOf m d ot) ls)) $$ Hheld
  iexact H

/-- The program's run: every weakly fair execution of the device's threads terminates, nothing faulting, in a memory
    whose unscoped arrays are at the final valuation of values the two regions may leave. -/
theorem run_main [∀ e, Nonempty (Elt F e)] (hpre : ∀ d j, (m (tgLoc d) j).toNat < 100000) :
    θ_run (Cert.KernelIdeal.defs (F := F)) (Cert.KernelIdeal.threads (F := F)) ⟨m, fun _ => 0, ρ⟩ (QC X m) :=
  SparseCore.Cfg.θ_run_sc (K := K (F := F)) (D := D (F := F)) (𝒱 := 𝒱) (EH := EH) (P := P m RT) facts v₀
    (fun q hq => match q with | 0 => nomatch hq)
    (fun q _ => match q with | 0 => ScObl.tileObl m RT facts hpre)
    (fun q _ => match q with | 0 => SparseCore.Cfg.VecSplit.of_plain (ScSplit.vecSplit m RT))
    m ρ main (fun d => Gd (F := F) d) (FIN X m) (u₀ (F := F)) (sep_elim_left.trans (hu₀ m RT)) (hmain X m ρ) (fq X m) (LaunchFin.hfin X m)
    (QC X m) (LaunchFin.hQ X m)

end Cert.KernelIdeal.LaunchMain

end
-- ==== Proof.RegionInstV.lean ====
/-
  The logits region's exact proof data at the ideal values, read as relational data over the launch's monoid, with
  the facts the region record asks of it.
-/
import proofs.«204472_g16080357556532_cont_week2b_336_33_alg».proof.Proof.RegionGlue
import proofs.«204472_g16080357556532_cont_week2b_336_33_alg».proof.Proof.Tc0Dat

noncomputable section

namespace Cert.KernelIdeal.RegionInstV

open Cert.KernelIdeal Cert.KernelIdeal.Gen Cert.KernelIdeal.LaunchSetup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

local notation "𝕄" => MT nD τ sig (HIx 1) (Elt Ideal) ℕ UU ℕ

variable (c : Dev nD) (A : (w : Fin cfg0.W) → Buf (Elt Ideal) ((cfg0.win w).arr.view.loc (c.tc : Thread nD τ)))
  (O : CellTallies nD τ sig (HIx 1)) (B : Set (SemLoc sig × HIx 1))

/-- The logits region's exact proof data at the ideal values, read relationally. -/
def rd0V : Pipeline.RDat τ (Elt Ideal) (HIx 1) ℕ UU ℕ (Pipeline.pin (pcfgs (F := Ideal)) adm 0) c :=
  (Tc0.datV (F := Ideal) (Name := ℕ) (U := UU) (Lvl := ℕ) c A O B).toR

theorem rd0V_body
    (hbodyV : BodyObligationLoose (Tc0.datV (F := Ideal) (Name := ℕ) (U := UU) (Lvl := ℕ) c A O B) (defs₀ (F := Ideal)) 𝒱₀ none Set.univ) :
    (rd0V c A O B).BodyObligation (defs₀ (F := Ideal)) 𝒱₀ none Set.univ :=
  hbodyV.toR

theorem rd0V_A (w : Fin (Pipeline.pin (pcfgs (F := Ideal)) adm 0).W) : (rd0V c A O B).A w = A w := rfl
theorem rd0V_owed (t : Fin ((Pipeline.pin (pcfgs (F := Ideal)) adm 0).N + 1)) : (rd0V c A O B).owed t = O := rfl
theorem rd0V_recorded (t : Fin ((Pipeline.pin (pcfgs (F := Ideal)) adm 0).N + 1)) : (rd0V c A O B).recorded t = B := rfl
theorem rd0V_share (w : Fin (Pipeline.pin (pcfgs (F := Ideal)) adm 0).W) : (rd0V c A O B).share w = fullShare :=
  (Tc0.datV (F := Ideal) (Name := ℕ) (U := UU) (Lvl := ℕ) c A O B).share_full (fun _ => rfl) w

theorem rd0V_hin :
    iprop((BI.emp : sProp 𝕄) ∗ Pipeline.prefHeld ((pcfgs (F := Ideal)) 0).pre c (fun _ => fullShare) (adm (F := Ideal) 0).1
        ∗ Pipeline.scopedRest (Pipeline.pin (pcfgs (F := Ideal)) adm 0).spec c) ⊢ (rd0V c A O B).Φ 0 := by
  show _ ⊢ (Pipeline.scopedRest spec0 c : sProp 𝕄)
  iintro ⟨-, -, H⟩; iexact H

theorem rd0V_hout :
    (rd0V c A O B).Φ (Fin.last (Pipeline.pin (pcfgs (F := Ideal)) adm 0).N)
      ⊢ iprop((BI.emp : sProp 𝕄) ∗ Pipeline.ownSems0 (fun k : PEmpty => k.elim) c
          ∗ Pipeline.scopedRest (Pipeline.pin (pcfgs (F := Ideal)) adm 0).spec c) := by
  rw [Pipeline.ownSems0_none]
  refine BIBase.Entails.trans (Tc0.datV_hout (F := Ideal) (Name := ℕ) (U := UU) (Lvl := ℕ) c A O B) ?_
  iintro H
  isplitr; · iempintro
  isplitr; · iempintro
  iexact H

/-- What an array of the region may hold after the write-backs below `n` is what the exact data computes. -/
theorem rd0V_ArrAt (w : Fin (Pipeline.pin (pcfgs (F := Ideal)) adm 0).W) (n : Nat)
    (G : Buf (Elt Ideal) (((Pipeline.pin (pcfgs (F := Ideal)) adm 0).win w).arr.view.loc (c.tc : Thread nD τ))) :
    (rd0V c A O B).ArrAt w n G ↔ G = (Tc0.datV (F := Ideal) (Name := ℕ) (U := UU) (Lvl := ℕ) c A O B).arrAt w n :=
  (Tc0.datV (F := Ideal) (Name := ℕ) (U := UU) (Lvl := ℕ) c A O B).toR_arrAt_iff w n G

end Cert.KernelIdeal.RegionInstV

end
-- ==== Proof.Tc0Body.lean ====
/- The body of TensorCore region 0 run once per control case at a symbolic grid point, on symbolic whole memrefs at
   arbitrary contents, generic in the float instance: three triples (first point, a middle point, last point) whose
   posts are the closed forms of the forms module. Each case is run once to the lists of writes it leaves (the
   witnesses the run finds); those lists are then read back in closed form. -/
import proofs.«204472_g16080357556532_cont_week2b_336_33_alg».proof.Proof.Gen.KernelIdeal.Launch
import proofs.«204472_g16080357556532_cont_week2b_336_33_alg».proof.Proof.Gen.KernelIdeal.Skeleton
import proofs.«204472_g16080357556532_cont_week2b_336_33_alg».proof.Proof.Gen.KernelIdeal.Points
import proofs.«204472_g16080357556532_cont_week2b_336_33_alg».proof.Proof.Tc0Forms
import Idealize.ShloMosaic.Lib.Pipeline.FrameBody
import Idealize.ShloMosaic.Lib.Tactic

set_option maxRecDepth 16384

noncomputable section

namespace Cert.KernelIdeal.Tc0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## Reading through the rectangle that is a whole rank-two shape -/

section Full

variable {Val : EltTy → Type} {e : EltTy} {d : Fin 2 → ℕ}

/-- The rectangle at offsets zero with the shape's own sizes places each index at itself. -/
theorem idx_full2 (h : ∀ a, (![0, 0] : Fin 2 → ℕ) a + (⟨2, d⟩ : Shape).size a ≤ (⟨2, d⟩ : Shape).size a)
    (x : (Rect.unit (s := ⟨2, d⟩) ![0, 0] (⟨2, d⟩ : Shape).size h).shape.Idx) :
    (Rect.unit (s := ⟨2, d⟩) ![0, 0] (⟨2, d⟩ : Shape).size h).idx x = x := by
  funext a; apply Fin.ext
  show (![0, 0] : Fin 2 → ℕ) a + 1 * (x a : ℕ) = x a
  fin_cases a <;> simp

/-- A last write of the whole shape, over any earlier writes, reads back as its payload. -/
theorem canon_full2 [∀ e, Nonempty (Val e)] (h : ∀ a, (![0, 0] : Fin 2 → ℕ) a + (⟨2, d⟩ : Shape).size a ≤ (⟨2, d⟩ : Shape).size a)
    (P : (Rect.unit (s := ⟨2, d⟩) ![0, 0] (⟨2, d⟩ : Shape).size h).shape.Idx → Val e)
    (L : List (View.Piece Val ⟨2, d⟩ e)) :
    View.canon ((⟨Rect.unit (s := ⟨2, d⟩) ![0, 0] (⟨2, d⟩ : Shape).size h, P⟩ : View.Piece Val ⟨2, d⟩ e) :: L) = P := by
  funext y
  have := View.canon_cons_emb (Rect.unit (s := ⟨2, d⟩) ![0, 0] (⟨2, d⟩ : Shape).size h) P L y
  rwa [show (Rect.unit (s := ⟨2, d⟩) ![0, 0] (⟨2, d⟩ : Shape).size h).emb y = y from idx_full2 h y] at this

/-- Contents read whole through the whole-shape rectangle are the contents. -/
theorem ld_full2 (h : ∀ a, (![0, 0] : Fin 2 → ℕ) a + (⟨2, d⟩ : Shape).size a ≤ (⟨2, d⟩ : Shape).size a)
    (X : (⟨2, d⟩ : Shape).Idx → Val e) :
    View.ld X (Rect.unit (s := ⟨2, d⟩) ![0, 0] (⟨2, d⟩ : Shape).size h) = X :=
  funext fun x => congrArg X (idx_full2 h x)

end Full

/-- A whole memref held at the contents that read `X`, loaded whole, gives `X`. -/
theorem readAt_unread_full {d : Fin 2 → ℕ} {e : EltTy} {sp : Space} (M : Memref sig .tc sp ⟨2, d⟩ e) (hM : M.IsWhole)
    (h : ∀ a, (![0, 0] : Fin 2 → ℕ) a + (⟨2, d⟩ : Shape).size a ≤ (⟨2, d⟩ : Shape).size a)
    (X : (⟨2, d⟩ : Shape).Idx → Elt F e) :
    View.readAt (Elt F) M.view (Rect.unit (s := ⟨2, d⟩) ![0, 0] (⟨2, d⟩ : Shape).size h).toLoadRect (hM.unread X) = X := by
  show View.ld (M.view.read (Elt F) (hM.unread X)) (Rect.unit (s := ⟨2, d⟩) ![0, 0] (⟨2, d⟩ : Shape).size h) = X
  rw [hM.read_unread]; exact ld_full2 h X

/-- A load through any box, after a last write of the whole shape, reads that write's payload at the box. -/
theorem readCov_full2 {d : Fin 2 → ℕ} {e : EltTy} {sp : Space} (v : View sig .tc sp ⟨2, d⟩ e)
    (h : ∀ a, (![0, 0] : Fin 2 → ℕ) a + (⟨2, d⟩ : Shape).size a ≤ (⟨2, d⟩ : Shape).size a)
    (P : (Rect.unit (s := ⟨2, d⟩) ![0, 0] (⟨2, d⟩ : Shape).size h).shape.Idx → Elt F e) (L : List (View.Piece (Elt F) ⟨2, d⟩ e)) (B : LoadRect ⟨2, d⟩) :
    v.readCov ((⟨Rect.unit (s := ⟨2, d⟩) ![0, 0] (⟨2, d⟩ : Shape).size h, P⟩ : View.Piece (Elt F) ⟨2, d⟩ e) :: L) B = fun j => P (B.idx j) := by
  rw [View.readCov_eq_canon', canon_full2]

/-- The three branch conditions of the body, over the grid coordinates: the first point, a point before the last,
    the last point. -/
abbrev cond1 (i : grid0.Coords) : Prop := (Scalar.cmpi .ne (Scalar.extui (Scalar.cmpi .eq (BitVec.ofNat 32 (i 0).val) 0#32)) 0#32) = 1#1
abbrev cond2 (i : grid0.Coords) : Prop := (Scalar.cmpi .ne (Scalar.extui (Scalar.cmpi .slt (BitVec.ofNat 32 (i 0).val) 24#32)) 0#32) = 1#1
abbrev cond3 (i : grid0.Coords) : Prop := k0_cond3 i = 1#1

/-- A whole load after writes whose reading is `P` gives `P`. -/
theorem readCov_whole_of_canon {d : Fin 2 → ℕ} {e : EltTy} {sp : Space} (v : View sig .tc sp ⟨2, d⟩ e)
    (L : List (View.Piece (Elt F) ⟨2, d⟩ e))
    (h : ∀ a, (![0, 0] : Fin 2 → ℕ) a + (⟨2, d⟩ : Shape).size a ≤ (⟨2, d⟩ : Shape).size a)
    (P : (⟨2, d⟩ : Shape).Idx → Elt F e) (hL : View.canon L = P) :
    v.readCov L (Rect.unit (s := ⟨2, d⟩) ![0, 0] (⟨2, d⟩ : Shape).size h).toLoadRect = P := by
  rw [View.readCov_eq_canon', hL]; exact ld_full2 h P

/-- The first condition holds at the first point only — decided over the grid. -/
theorem hcond1 : ∀ t : Fin cfg0.N, cond1 (grid0.coords t) ↔ t.val = 0 :=
  (by decide +kernel : ∀ t : Fin grid0.N, cond1 (grid0.coords t) ↔ t.val = 0)
/-- The second holds at every point but the last. -/
theorem hcond2 : ∀ t : Fin cfg0.N, cond2 (grid0.coords t) ↔ t.val < 24 :=
  (by decide +kernel : ∀ t : Fin grid0.N, cond2 (grid0.coords t) ↔ t.val < 24)
/-- The third holds at the last point only. -/
theorem hcond3 : ∀ t : Fin cfg0.N, cond3 (grid0.coords t) ↔ t.val = 24 :=
  (by decide +kernel : ∀ t : Fin grid0.N, cond3 (grid0.coords t) ↔ t.val = 24)

/-! ## The last point (j = 24) -/

set_option maxHeartbeats 4000000 in
/-- The body at the last grid point, on any whole memrefs at any contents: it runs to its return leaving the logits
    block written whole into the first result's buffer and one whole write in the second result's buffer (the
    witnesses: the lists of writes the run finds), everything else as it was. -/
noncomputable def runC (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) :
    { W : List (View.Piece (Elt F) S4096x1024 .f32) × List (View.Piece (Elt F) S8x1024 .f32) //
      ∀ (𝒱₀ : Variants) (i : grid0.Coords) (hc1 : ¬cond1 i) (hc2 : ¬cond2 i) (hc3 : cond3 i)
        (X0 : Vec F S64x1024 .f32) (X2 : Vec F S4096x1024 .f32) (X3 : Vec F S8x1024 .f32) (E : Set Name) (K : PUnit → sProp 𝕄),
        iprop(owns (c : Thread nD τ) M1 fullShare X0 ∗ owns (c : Thread nD τ) M2 fullShare X1 ∗ owns (c : Thread nD τ) M3 fullShare X2
            ∗ owns (c : Thread nD τ) M4 fullShare X3 ∗ owns (c : Thread nD τ) M5 fullShare S0 ∗ owns (c : Thread nD τ) M6 fullShare S1
            ∗ (iprop(owns (c : Thread nD τ) M1 fullShare X0 ∗ owns (c : Thread nD τ) M2 fullShare X1
                ∗ (M3.view.loc (c : Thread nD τ) ↦[M3.view.set]{fullShare} M3.view.writes (Elt F) M3.view.junk W.1)
                ∗ (M4.view.loc (c : Thread nD τ) ↦[M4.view.set]{fullShare} M4.view.writes (Elt F) M4.view.junk W.2)
                ∗ owns (c : Thread nD τ) M5 fullShare S0 ∗ owns (c : Thread nD τ) M6 fullShare S1) -∗ K ⟨⟩))
          ⊢ wp frame (wpE (defs₀ (F := F)) 𝒱₀ c none) E (cc0__tc_kernel i M1 h1 M2 h2 M3 h3 M4 h4 M5 h5 M6 h6) K } := by
  refine ⟨(?_, ?_), fun 𝒱₀ i hc1 hc2 hc3 X0 X2 X3 E K => ?run⟩
  case run =>
    simp only [cc0__tc_kernel_eq_skeleton]; unfold cc0__tc_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_exec_parts! (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]; · iexact H3
    isplitl [H4]; · iexact H4
    isplitl [H5]
    · iexists _; isplitr; · ipureintro; exact h5.read_unread _
      iexact H5
    iexists _; isplitr; · ipureintro; exact h6.read_unread _
    iexact H6

/-- What the last point's run leaves in the first result's buffer is the logits block. -/
theorem runC_out (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) :
    View.canon (runC (Ix := Ix) (Name := Name) (U := U) (Lvl := Lvl) c M1 h1 M2 h2 M3 h3 M4 h4 M5 h5 M6 h6 X1 S0 S1).1.1 = outOf X1 S0 := by
  refine Eq.trans (?h : _ = View.canon [(⟨Rect.unit (s := S4096x1024) ![0, 0] S4096x1024.size inb_S4096x1024_S4096x1024_0_0,
      k0_pay3 (View.readAt (Elt F) M2.view (Rect.unit (s := S64x4096) ![0, 0] S64x4096.size inb_S64x4096_S64x4096_0_0).toLoadRect (h2.unread X1))
        (View.readAt (Elt F) M5.view (Rect.unit (s := S64x1024) ![0, 0] S64x1024.size inb_S64x1024_S64x1024_0_0).toLoadRect (h5.unread S0))⟩ :
        View.Piece (Elt F) S4096x1024 .f32)]) ?_
  case h => sl_kernel_rfl
  rw [canon_full2, readAt_unread_full, readAt_unread_full]; rfl

/-- A row group loaded from the first result's buffer after the last point's store is that group of the logits block. -/
theorem runC_rows (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) (k : ℕ) :
    (M3.view.readCov (runC (Ix := Ix) (Name := Name) (U := U) (Lvl := Lvl) c M1 h1 M2 h2 M3 h3 M4 h4 M5 h5 M6 h6 X1 S0 S1).1.1 (rowRect k).toLoadRect : Vec F S8x1024 .f32)
      = rows (outOf X1 S0) k := by
  rw [View.readCov_eq_canon', runC_out]; rfl

/-- What the last point's run leaves in the second result's buffer is the broadcast sublane sum of the running sums
    found plus the exponentials of the first 212 row groups of the logits block. -/
theorem runC_se8 (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) :
    View.canon (runC (Ix := Ix) (Name := Name) (U := U) (Lvl := Lvl) c M1 h1 M2 h2 M3 h3 M4 h4 M5 h5 M6 h6 X1 S0 S1).1.2 = se8Of S1 (outOf X1 S0) := by
  refine Eq.trans (?h : _ = View.canon [(⟨Rect.unit (s := S8x1024) ![0, 0] S8x1024.size inb_S8x1024_S8x1024_0_0,
      broadcastTo S8x1024
        (shapeCast S1x1024
          (shapeCast S1x1024
            (multiReduction .add [0] S1024
              (expSum (View.readAt (Elt F) M6.view (Rect.unit (s := S8x1024) ![0, 0] S8x1024.size inb_S8x1024_S8x1024_0_0).toLoadRect (h6.unread S1))
                (fun k => (M3.view.readCov (runC (Ix := Ix) (Name := Name) (U := U) (Lvl := Lvl) c M1 h1 M2 h2 M3 h3 M4 h4 M5 h5 M6 h6 X1 S0 S1).1.1 (rowRect k).toLoadRect : Vec F S8x1024 .f32)) 212)
              0x00000000#32 reduces_S8x1024_S1024 (.inl rfl) rfl)
            shapeCasts_S1024_S1x1024)
          shapeCasts_S1x1024_S1x1024)
        broadcasts_S1x1024_S8x1024⟩ : View.Piece (Elt F) S8x1024 .f32)]) ?_
  case h => sl_kernel_rfl
  rw [canon_full2, readAt_unread_full]
  unfold se8Of
  rw [expSum_congr S1 212 (fun k _ => runC_rows c M1 h1 M2 h2 M3 h3 M4 h4 M5 h5 M6 h6 X1 S0 S1 k)]

/-! ## A point after the first and before the last (0 < j < 24) -/

set_option maxHeartbeats 4000000 in
/-- The body at a grid point that is neither the first nor the last, on any whole memrefs at any contents: it runs to
    its return leaving the logits block written whole into the first result's buffer and one whole write in the
    second scratch buffer (the witnesses: the lists of writes the run finds), everything else as it was. -/
noncomputable def runB (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) :
    { W : List (View.Piece (Elt F) S4096x1024 .f32) × List (View.Piece (Elt F) S8x1024 .f32) //
      ∀ (𝒱₀ : Variants) (i : grid0.Coords) (hc1 : ¬cond1 i) (hc2 : cond2 i) (hc3 : ¬cond3 i)
        (X0 : Vec F S64x1024 .f32) (X2 : Vec F S4096x1024 .f32) (X3 : Vec F S8x1024 .f32) (E : Set Name) (K : PUnit → sProp 𝕄),
        iprop(owns (c : Thread nD τ) M1 fullShare X0 ∗ owns (c : Thread nD τ) M2 fullShare X1 ∗ owns (c : Thread nD τ) M3 fullShare X2
            ∗ owns (c : Thread nD τ) M4 fullShare X3 ∗ owns (c : Thread nD τ) M5 fullShare S0 ∗ owns (c : Thread nD τ) M6 fullShare S1
            ∗ (iprop(owns (c : Thread nD τ) M1 fullShare X0 ∗ owns (c : Thread nD τ) M2 fullShare X1
                ∗ (M3.view.loc (c : Thread nD τ) ↦[M3.view.set]{fullShare} M3.view.writes (Elt F) M3.view.junk W.1)
                ∗ owns (c : Thread nD τ) M4 fullShare X3 ∗ owns (c : Thread nD τ) M5 fullShare S0
                ∗ (M6.view.loc (c : Thread nD τ) ↦[M6.view.set]{fullShare} M6.view.writes (Elt F) M6.view.junk W.2)) -∗ K ⟨⟩))
          ⊢ wp frame (wpE (defs₀ (F := F)) 𝒱₀ c none) E (cc0__tc_kernel i M1 h1 M2 h2 M3 h3 M4 h4 M5 h5 M6 h6) K } := by
  refine ⟨(?_, ?_), fun 𝒱₀ i hc1 hc2 hc3 X0 X2 X3 E K => ?run⟩
  case run =>
    simp only [cc0__tc_kernel_eq_skeleton]; unfold cc0__tc_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_exec_parts! (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]; · iexact H3
    isplitl [H4]
    · iexists _; isplitr; · ipureintro; exact h4.read_unread _
      iexact H4
    isplitl [H5]
    · iexists _; isplitr; · ipureintro; exact h5.read_unread _
      iexact H5
    iexact H6

/-- What that run leaves in the first result's buffer is the logits block. -/
theorem runB_out (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) :
    View.canon (runB (Ix := Ix) (Name := Name) (U := U) (Lvl := Lvl) c M1 h1 M2 h2 M3 h3 M4 h4 M5 h5 M6 h6 X1 S0 S1).1.1 = outOf X1 S0 := by
  refine Eq.trans (?h : _ = View.canon [(⟨Rect.unit (s := S4096x1024) ![0, 0] S4096x1024.size inb_S4096x1024_S4096x1024_0_0,
      k0_pay3 (View.readAt (Elt F) M2.view (Rect.unit (s := S64x4096) ![0, 0] S64x4096.size inb_S64x4096_S64x4096_0_0).toLoadRect (h2.unread X1))
        (View.readAt (Elt F) M5.view (Rect.unit (s := S64x1024) ![0, 0] S64x1024.size inb_S64x1024_S64x1024_0_0).toLoadRect (h5.unread S0))⟩ :
        View.Piece (Elt F) S4096x1024 .f32)]) ?_
  case h => sl_kernel_rfl
  rw [canon_full2, readAt_unread_full, readAt_unread_full]; rfl

/-- A row group loaded from the first result's buffer after that store is that group of the logits block. -/
theorem runB_rows (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) (k : ℕ) :
    (M3.view.readCov (runB (Ix := Ix) (Name := Name) (U := U) (Lvl := Lvl) c M1 h1 M2 h2 M3 h3 M4 h4 M5 h5 M6 h6 X1 S0 S1).1.1 (rowRect k).toLoadRect : Vec F S8x1024 .f32)
      = rows (outOf X1 S0) k := by
  rw [View.readCov_eq_canon', runB_out]; rfl

/-- What that run leaves in the second scratch buffer is the running sums found plus the exponentials of all 512 row
    groups of the logits block. -/
theorem runB_acc (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X1 : Vec F S64x4096 .f32) (S0 : Vec F S64x1024 .f32) (S1 : Vec F S8x1024 .f32) :
    View.canon (runB (Ix := Ix) (Name := Name) (U := U) (Lvl := Lvl) c M1 h1 M2 h2 M3 h3 M4 h4 M5 h5 M6 h6 X1 S0 S1).1.2 = accOf S1 (outOf X1 S0) := by
  refine Eq.trans (?h : _ = View.canon [(⟨Rect.unit (s := S8x1024) ![0, 0] S8x1024.size inb_S8x1024_S8x1024_0_0,
      shapeCast S8x1024
        (expSum (View.readAt (Elt F) M6.view (Rect.unit (s := S8x1024) ![0, 0] S8x1024.size inb_S8x1024_S8x1024_0_0).toLoadRect (h6.unread S1))
          (fun k => (M3.view.readCov (runB (Ix := Ix) (Name := Name) (U := U) (Lvl := Lvl) c M1 h1 M2 h2 M3 h3 M4 h4 M5 h5 M6 h6 X1 S0 S1).1.1 (rowRect k).toLoadRect : Vec F S8x1024 .f32)) 512)
        shapeCasts_S8x1024_S8x1024⟩ : View.Piece (Elt F) S8x1024 .f32)]) ?_
  case h => sl_kernel_rfl
  rw [canon_full2, readAt_unread_full]
  unfold accOf
  rw [expSum_congr S1 512 (fun k _ => runB_rows c M1 h1 M2 h2 M3 h3 M4 h4 M5 h5 M6 h6 X1 S0 S1 k)]

/-! ## The first point (j = 0) -/

set_option maxHeartbeats 4000000 in
/-- The body at the first grid point, on any whole memrefs at any contents: it runs to its return leaving one whole
    write in the first scratch buffer, the logits block written whole into the first result's buffer and two whole
    writes in the second scratch buffer (the witnesses: the lists of writes the run finds, last first), everything
    else as it was. -/
noncomputable def runA (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X0 : Vec F S64x1024 .f32) (X1 : Vec F S64x4096 .f32) :
    { W : List (View.Piece (Elt F) S64x1024 .f32) × List (View.Piece (Elt F) S4096x1024 .f32) × List (View.Piece (Elt F) S8x1024 .f32) //
      ∀ (𝒱₀ : Variants) (i : grid0.Coords) (hc1 : cond1 i) (hc2 : cond2 i) (hc3 : ¬cond3 i)
        (X2 : Vec F S4096x1024 .f32) (X3 : Vec F S8x1024 .f32) (S0 : Vec F S64x1024 .f32) (S1 : Vec F S8x1024 .f32)
        (E : Set Name) (K : PUnit → sProp 𝕄),
        iprop(owns (c : Thread nD τ) M1 fullShare X0 ∗ owns (c : Thread nD τ) M2 fullShare X1 ∗ owns (c : Thread nD τ) M3 fullShare X2
            ∗ owns (c : Thread nD τ) M4 fullShare X3 ∗ owns (c : Thread nD τ) M5 fullShare S0 ∗ owns (c : Thread nD τ) M6 fullShare S1
            ∗ (iprop(owns (c : Thread nD τ) M1 fullShare X0 ∗ owns (c : Thread nD τ) M2 fullShare X1
                ∗ (M3.view.loc (c : Thread nD τ) ↦[M3.view.set]{fullShare} M3.view.writes (Elt F) M3.view.junk W.2.1)
                ∗ owns (c : Thread nD τ) M4 fullShare X3
                ∗ (M5.view.loc (c : Thread nD τ) ↦[M5.view.set]{fullShare} M5.view.writes (Elt F) M5.view.junk W.1)
                ∗ (M6.view.loc (c : Thread nD τ) ↦[M6.view.set]{fullShare} M6.view.writes (Elt F) M6.view.junk W.2.2)) -∗ K ⟨⟩))
          ⊢ wp frame (wpE (defs₀ (F := F)) 𝒱₀ c none) E (cc0__tc_kernel i M1 h1 M2 h2 M3 h3 M4 h4 M5 h5 M6 h6) K } := by
  refine ⟨(?_, ?_, ?_), fun 𝒱₀ i hc1 hc2 hc3 X2 X3 S0 S1 E K => ?run⟩
  case run =>
    simp only [cc0__tc_kernel_eq_skeleton]; unfold cc0__tc_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_exec_parts! (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]; · iexact H3
    isplitl [H4]
    · iexists _; isplitr; · ipureintro; exact h4.read_unread _
      iexact H4
    isplitl [H5]; · iexact H5
    iexact H6

/-- What the first point's run leaves in the first scratch buffer is the scaled query block. -/
theorem runA_xs (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X0 : Vec F S64x1024 .f32) (X1 : Vec F S64x4096 .f32) :
    View.canon (runA (Ix := Ix) (Name := Name) (U := U) (Lvl := Lvl) c M1 h1 M2 h2 M3 h3 M4 h4 M5 h5 M6 h6 X0 X1).1.1 = xsOf X0 := by
  refine Eq.trans (?h : _ = View.canon [(⟨Rect.unit (s := S64x1024) ![0, 0] S64x1024.size inb_S64x1024_S64x1024_0_0,
      k0_pay1 (View.readAt (Elt F) M1.view (Rect.unit (s := S64x1024) ![0, 0] S64x1024.size inb_S64x1024_S64x1024_0_0).toLoadRect (h1.unread X0))⟩ :
        View.Piece (Elt F) S64x1024 .f32)]) ?_
  case h => sl_kernel_rfl
  rw [canon_full2, readAt_unread_full]; rfl

/-- What it leaves in the first result's buffer is the logits block over that query block. -/
theorem runA_out (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X0 : Vec F S64x1024 .f32) (X1 : Vec F S64x4096 .f32) :
    View.canon (runA (Ix := Ix) (Name := Name) (U := U) (Lvl := Lvl) c M1 h1 M2 h2 M3 h3 M4 h4 M5 h5 M6 h6 X0 X1).1.2.1 = outOf X1 (xsOf X0) := by
  refine Eq.trans (?h : _ = View.canon [(⟨Rect.unit (s := S4096x1024) ![0, 0] S4096x1024.size inb_S4096x1024_S4096x1024_0_0,
      k0_pay3 (View.readAt (Elt F) M2.view (Rect.unit (s := S64x4096) ![0, 0] S64x4096.size inb_S64x4096_S64x4096_0_0).toLoadRect (h2.unread X1))
        (M5.view.readCov (runA (Ix := Ix) (Name := Name) (U := U) (Lvl := Lvl) c M1 h1 M2 h2 M3 h3 M4 h4 M5 h5 M6 h6 X0 X1).1.1 (Rect.unit (s := S64x1024) ![0, 0] S64x1024.size inb_S64x1024_S64x1024_0_0).toLoadRect)⟩ :
        View.Piece (Elt F) S4096x1024 .f32)]) ?_
  case h => sl_kernel_rfl
  rw [canon_full2, readAt_unread_full, readCov_whole_of_canon _ _ _ _ (runA_xs c M1 h1 M2 h2 M3 h3 M4 h4 M5 h5 M6 h6 X0 X1)]; rfl

/-- A row group loaded from the first result's buffer after that store is that group of the logits block. -/
theorem runA_rows (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X0 : Vec F S64x1024 .f32) (X1 : Vec F S64x4096 .f32) (k : ℕ) :
    (M3.view.readCov (runA (Ix := Ix) (Name := Name) (U := U) (Lvl := Lvl) c M1 h1 M2 h2 M3 h3 M4 h4 M5 h5 M6 h6 X0 X1).1.2.1 (rowRect k).toLoadRect : Vec F S8x1024 .f32)
      = rows (outOf X1 (xsOf X0)) k := by
  rw [View.readCov_eq_canon', runA_out]; rfl

/-- What it leaves in the second scratch buffer is the exponentials of all 512 row groups of the logits block
    added to the zero sums it had stored there. -/
theorem runA_acc (c : Dev nD)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (X0 : Vec F S64x1024 .f32) (X1 : Vec F S64x4096 .f32) :
    View.canon (runA (Ix := Ix) (Name := Name) (U := U) (Lvl := Lvl) c M1 h1 M2 h2 M3 h3 M4 h4 M5 h5 M6 h6 X0 X1).1.2.2 = accOf k0_pay2 (outOf X1 (xsOf X0)) := by
  refine Eq.trans (?h : _ = View.canon [(⟨Rect.unit (s := S8x1024) ![0, 0] S8x1024.size inb_S8x1024_S8x1024_0_0,
      shapeCast S8x1024
        (expSum (M6.view.readCov [(⟨Rect.unit (s := S8x1024) ![0, 0] S8x1024.size inb_S8x1024_S8x1024_0_0, k0_pay2 (F := F)⟩ : View.Piece (Elt F) S8x1024 .f32)] (Rect.unit (s := S8x1024) ![0, 0] S8x1024.size inb_S8x1024_S8x1024_0_0).toLoadRect)
          (fun k => (M3.view.readCov (runA (Ix := Ix) (Name := Name) (U := U) (Lvl := Lvl) c M1 h1 M2 h2 M3 h3 M4 h4 M5 h5 M6 h6 X0 X1).1.2.1 (rowRect k).toLoadRect : Vec F S8x1024 .f32)) 512)
        shapeCasts_S8x1024_S8x1024⟩ : View.Piece (Elt F) S8x1024 .f32),
      (⟨Rect.unit (s := S8x1024) ![0, 0] S8x1024.size inb_S8x1024_S8x1024_0_0, k0_pay2 (F := F)⟩ : View.Piece (Elt F) S8x1024 .f32)]) ?_
  case h => sl_kernel_rfl
  rw [canon_full2, readCov_whole_of_canon _ _ _ _ (canon_full2 _ _ _)]
  unfold accOf
  rw [expSum_congr _ 512 (fun k _ => runA_rows c M1 h1 M2 h2 M3 h3 M4 h4 M5 h5 M6 h6 X0 X1 k)]

/-! ## The three triples over the closed forms -/

/-- THE BODY AT THE FIRST POINT (j = 0), on any whole memrefs at any contents: the first scratch buffer is left at the
    scaled queries of the query block, the first result's buffer at the logits block over them, the second scratch
    buffer at the exponentials of that block's 512 row groups added to zero; the other three buffers as they were. -/
theorem bodyA (c : Dev nD) (𝒱₀ : Variants) (i : grid0.Coords)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (hc1 : cond1 i) (hc2 : cond2 i) (hc3 : ¬cond3 i)
    (X0 : Vec F S64x1024 .f32) (X1 : Vec F S64x4096 .f32) (X2 : Vec F S4096x1024 .f32) (X3 : Vec F S8x1024 .f32)
    (S0 : Vec F S64x1024 .f32) (S1 : Vec F S8x1024 .f32) (E : Set Name) (K : PUnit → sProp 𝕄) :
    iprop(owns (c : Thread nD τ) M1 fullShare X0 ∗ owns (c : Thread nD τ) M2 fullShare X1 ∗ owns (c : Thread nD τ) M3 fullShare X2
        ∗ owns (c : Thread nD τ) M4 fullShare X3 ∗ owns (c : Thread nD τ) M5 fullShare S0 ∗ owns (c : Thread nD τ) M6 fullShare S1
        ∗ (iprop(owns (c : Thread nD τ) M1 fullShare X0 ∗ owns (c : Thread nD τ) M2 fullShare X1
            ∗ owns (c : Thread nD τ) M3 fullShare (outOf X1 (xsOf X0)) ∗ owns (c : Thread nD τ) M4 fullShare X3
            ∗ owns (c : Thread nD τ) M5 fullShare (xsOf X0)
            ∗ owns (c : Thread nD τ) M6 fullShare (accOf k0_pay2 (outOf X1 (xsOf X0)))) -∗ K ⟨⟩))
      ⊢ wp frame (wpE (defs₀ (F := F)) 𝒱₀ c none) E (cc0__tc_kernel i M1 h1 M2 h2 M3 h3 M4 h4 M5 h5 M6 h6) K := by
  iintro ⟨H1, H2, H3, H4, H5, H6, Hk⟩
  iapply ((runA (Ix := Ix) (Name := Name) (U := U) (Lvl := Lvl) c M1 h1 M2 h2 M3 h3 M4 h4 M5 h5 M6 h6 X0 X1).2 𝒱₀ i hc1 hc2 hc3 X2 X3 S0 S1 E K)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]; · iexact H1
  isplitl [H2]; · iexact H2
  isplitl [H3]
  · unfold owns; iexists _; isplitr
    swap; · iexact H3
    ipureintro; rw [View.read_writes_junk_eq_canon]; exact runA_out c M1 h1 M2 h2 M3 h3 M4 h4 M5 h5 M6 h6 X0 X1
  isplitl [H4]; · iexact H4
  isplitl [H5]
  · unfold owns; iexists _; isplitr
    swap; · iexact H5
    ipureintro; rw [View.read_writes_junk_eq_canon]; exact runA_xs c M1 h1 M2 h2 M3 h3 M4 h4 M5 h5 M6 h6 X0 X1
  unfold owns; iexists _; isplitr
  swap; · iexact H6
  ipureintro; rw [View.read_writes_junk_eq_canon]; exact runA_acc c M1 h1 M2 h2 M3 h3 M4 h4 M5 h5 M6 h6 X0 X1

/-- THE BODY AT A POINT AFTER THE FIRST AND BEFORE THE LAST (0 < j < 24): the first result's buffer is left at the
    logits block over the scaled queries found in the first scratch buffer, the second scratch buffer at the running
    sums found plus the exponentials of that block's 512 row groups; the other four buffers as they were. -/
theorem bodyB (c : Dev nD) (𝒱₀ : Variants) (i : grid0.Coords)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (hc1 : ¬cond1 i) (hc2 : cond2 i) (hc3 : ¬cond3 i)
    (X0 : Vec F S64x1024 .f32) (X1 : Vec F S64x4096 .f32) (X2 : Vec F S4096x1024 .f32) (X3 : Vec F S8x1024 .f32)
    (S0 : Vec F S64x1024 .f32) (S1 : Vec F S8x1024 .f32) (E : Set Name) (K : PUnit → sProp 𝕄) :
    iprop(owns (c : Thread nD τ) M1 fullShare X0 ∗ owns (c : Thread nD τ) M2 fullShare X1 ∗ owns (c : Thread nD τ) M3 fullShare X2
        ∗ owns (c : Thread nD τ) M4 fullShare X3 ∗ owns (c : Thread nD τ) M5 fullShare S0 ∗ owns (c : Thread nD τ) M6 fullShare S1
        ∗ (iprop(owns (c : Thread nD τ) M1 fullShare X0 ∗ owns (c : Thread nD τ) M2 fullShare X1
            ∗ owns (c : Thread nD τ) M3 fullShare (outOf X1 S0) ∗ owns (c : Thread nD τ) M4 fullShare X3
            ∗ owns (c : Thread nD τ) M5 fullShare S0
            ∗ owns (c : Thread nD τ) M6 fullShare (accOf S1 (outOf X1 S0))) -∗ K ⟨⟩))
      ⊢ wp frame (wpE (defs₀ (F := F)) 𝒱₀ c none) E (cc0__tc_kernel i M1 h1 M2 h2 M3 h3 M4 h4 M5 h5 M6 h6) K := by
  iintro ⟨H1, H2, H3, H4, H5, H6, Hk⟩
  iapply ((runB (Ix := Ix) (Name := Name) (U := U) (Lvl := Lvl) c M1 h1 M2 h2 M3 h3 M4 h4 M5 h5 M6 h6 X1 S0 S1).2 𝒱₀ i hc1 hc2 hc3 X0 X2 X3 E K)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]; · iexact H1
  isplitl [H2]; · iexact H2
  isplitl [H3]
  · unfold owns; iexists _; isplitr
    swap; · iexact H3
    ipureintro; rw [View.read_writes_junk_eq_canon]; exact runB_out c M1 h1 M2 h2 M3 h3 M4 h4 M5 h5 M6 h6 X1 S0 S1
  isplitl [H4]; · iexact H4
  isplitl [H5]; · iexact H5
  unfold owns; iexists _; isplitr
  swap; · iexact H6
  ipureintro; rw [View.read_writes_junk_eq_canon]; exact runB_acc c M1 h1 M2 h2 M3 h3 M4 h4 M5 h5 M6 h6 X1 S0 S1

/-- THE BODY AT THE LAST POINT (j = 24): the first result's buffer is left at the logits block over the scaled queries
    found in the first scratch buffer, the second result's buffer at the broadcast sublane sum of the running sums found
    plus the exponentials of that block's first 212 row groups; the other four buffers (both scratch buffers among
    them) as they were. -/
theorem bodyC (c : Dev nD) (𝒱₀ : Variants) (i : grid0.Coords)
    (M1 : Memref sig .tc .vmem S64x1024 .f32) (h1 : M1.IsWhole) (M2 : Memref sig .tc .vmem S64x4096 .f32) (h2 : M2.IsWhole)
    (M3 : Memref sig .tc .vmem S4096x1024 .f32) (h3 : M3.IsWhole) (M4 : Memref sig .tc .vmem S8x1024 .f32) (h4 : M4.IsWhole)
    (M5 : Memref sig .tc .vmem S64x1024 .f32) (h5 : M5.IsWhole) (M6 : Memref sig .tc .vmem S8x1024 .f32) (h6 : M6.IsWhole)
    (hc1 : ¬cond1 i) (hc2 : ¬cond2 i) (hc3 : cond3 i)
    (X0 : Vec F S64x1024 .f32) (X1 : Vec F S64x4096 .f32) (X2 : Vec F S4096x1024 .f32) (X3 : Vec F S8x1024 .f32)
    (S0 : Vec F S64x1024 .f32) (S1 : Vec F S8x1024 .f32) (E : Set Name) (K : PUnit → sProp 𝕄) :
    iprop(owns (c : Thread nD τ) M1 fullShare X0 ∗ owns (c : Thread nD τ) M2 fullShare X1 ∗ owns (c : Thread nD τ) M3 fullShare X2
        ∗ owns (c : Thread nD τ) M4 fullShare X3 ∗ owns (c : Thread nD τ) M5 fullShare S0 ∗ owns (c : Thread nD τ) M6 fullShare S1
        ∗ (iprop(owns (c : Thread nD τ) M1 fullShare X0 ∗ owns (c : Thread nD τ) M2 fullShare X1
            ∗ owns (c : Thread nD τ) M3 fullShare (outOf X1 S0) ∗ owns (c : Thread nD τ) M4 fullShare (se8Of S1 (outOf X1 S0))
            ∗ owns (c : Thread nD τ) M5 fullShare S0 ∗ owns (c : Thread nD τ) M6 fullShare S1) -∗ K ⟨⟩))
      ⊢ wp frame (wpE (defs₀ (F := F)) 𝒱₀ c none) E (cc0__tc_kernel i M1 h1 M2 h2 M3 h3 M4 h4 M5 h5 M6 h6) K := by
  iintro ⟨H1, H2, H3, H4, H5, H6, Hk⟩
  iapply ((runC (Ix := Ix) (Name := Name) (U := U) (Lvl := Lvl) c M1 h1 M2 h2 M3 h3 M4 h4 M5 h5 M6 h6 X1 S0 S1).2 𝒱₀ i hc1 hc2 hc3 X0 X2 X3 E K)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]; · iexact H1
  isplitl [H2]; · iexact H2
  isplitl [H3]
  · unfold owns; iexists _; isplitr
    swap; · iexact H3
    ipureintro; rw [View.read_writes_junk_eq_canon]; exact runC_out c M1 h1 M2 h2 M3 h3 M4 h4 M5 h5 M6 h6 X1 S0 S1
  isplitl [H4]
  · unfold owns; iexists _; isplitr
    swap; · iexact H4
    ipureintro; rw [View.read_writes_junk_eq_canon]; exact runC_se8 c M1 h1 M2 h2 M3 h3 M4 h4 M5 h5 M6 h6 X1 S0 S1
  isplitl [H5]; · iexact H5
  iexact H6

end Cert.KernelIdeal.Tc0

end
-- ==== Proof.Tc0BodyF.lean ====
/- The body obligation of TensorCore region 0 for the proof data that name nothing of the two outputs, at any float
   instance: at each grid point the case's triple of the body module, with the two inputs' staging buffers at their
   blocks and everything else at contents nothing names. -/
import proofs.«204472_g16080357556532_cont_week2b_336_33_alg».proof.Proof.Gen.KernelIdeal.Launch
import proofs.«204472_g16080357556532_cont_week2b_336_33_alg».proof.Proof.Gen.KernelIdeal.Skeleton
import proofs.«204472_g16080357556532_cont_week2b_336_33_alg».proof.Proof.Gen.KernelIdeal.Points
import proofs.«204472_g16080357556532_cont_week2b_336_33_alg».proof.Proof.Tc0Forms
import proofs.«204472_g16080357556532_cont_week2b_336_33_alg».proof.Proof.Tc0Dat
import proofs.«204472_g16080357556532_cont_week2b_336_33_alg».proof.Proof.Tc0Body
import Idealize.ShloMosaic.Lib.Pipeline.FrameBody
import Idealize.ShloMosaic.Lib.Tactic

set_option maxRecDepth 16384

noncomputable section

namespace Cert.KernelIdeal.Tc0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

section GlueF

variable (c : Dev nD) (A : (w : Fin cfg0.W) → Buf (Elt F) ((cfg0.win w).arr.view.loc (c.tc : Thread nD τ)))
variable (O : CellTallies nD τ sig Ix) (B : Set (SemLoc sig × Ix))

local notation "DF" => datF (Name := Name) (U := U) (Lvl := Lvl) c A O B

/-- The query window's buffer holds the query block at every point, fetched there (the first point) or not: the body
    only reads it and the window is never cut. -/
theorem before0F (t : Fin cfg0.N) (d) : (DF).before 0 t d = xblk c A t := by
  rw [(DF).before_in_eq_fetched 0 rfl (fun _ => rfl) (fun _ _ _ => rfl)
    (fun t => by rw [datF_after0]; exact Window.cut_fill _ _ _ _) t d]
  unfold Dat.fetched Dat.blockOf xblk
  exact Pipeline.fill_of_clip_none (cfg := cfg0) 0 _ (fun _ => rfl) _ _ _

/-- The feature window is fetched at every point: its buffer holds the block's part inside the array, and past it
    whatever the buffer held. -/
theorem before1F (t : Fin cfg0.N) (d) :
    (DF).before 1 t d = win0_1.fill (grid0.coords t) d ((win0_1.blk t).view.read (Elt F) (A 1)) := by
  rw [(DF).before_fetched 1 t (fetch0_1 t) d]; rfl

/-- The part of the feature block the transfers move is the array's block. -/
theorem after1F_cut (t : Fin cfg0.N) :
    (cfg0.win 1).cut (cfg0.grid.coords t) ((DF).after 1 t) = (win0_1.blk t).view.read (Elt F) (A 1) := by
  rw [datF_after1]; exact Window.cut_fill _ _ _ _

set_option maxHeartbeats 1000000 in
/-- The body at any point, for the data that name nothing of the outputs: the two inputs' buffers hold their blocks
    and are only read; the grid coordinate says which of the three cases the point is in; that case's triple runs the
    body from the buffers' contents, whatever they are; the outputs' buffers and the two scratch buffers are handed
    back at contents nothing names; what the core owes passes through untouched. -/
theorem sound_bodyF (ι : Ix) (𝒱₀ : Variants) (t : Fin cfg0.N) :
    iprop((DF).Φ t.castSucc ∗ (DF).owesAt ι t.castSucc
        ∗ (∃ d, owns (c : Thread nD τ) (st0_0 t) fullShare ((DF).before 0 t d))
        ∗ (∃ d, owns (c : Thread nD τ) (st0_1 t) fullShare ((DF).before 1 t d))
        ∗ (∃ X, owns (c : Thread nD τ) (st0_2 t) fullShare X)
        ∗ (∃ X, owns (c : Thread nD τ) (st0_3 t) fullShare X))
      ⊢ wp frame (wpE (defs₀ (F := F)) 𝒱₀ c none) Set.univ (bodyAt0 t) fun _ =>
          iprop((DF).Φ t.succ ∗ (DF).owesAt ι t.succ
            ∗ owns (c : Thread nD τ) (st0_0 t) fullShare ((DF).after 0 t)
            ∗ (∃ d, owns (c : Thread nD τ) (st0_1 t) fullShare
                ((cfg0.win 1).fill (cfg0.grid.coords t) d ((cfg0.win 1).cut (cfg0.grid.coords t) ((DF).after 1 t))))
            ∗ (∃ X, owns (c : Thread nD τ) (st0_2 t) fullShare X)
            ∗ (∃ X, owns (c : Thread nD τ) (st0_3 t) fullShare X)) := by
  rw [show (DF).Φ t.succ = Pipeline.scopedRest spec0 c from rfl, show (DF).Φ t.castSucc = Pipeline.scopedRest spec0 c from rfl,
    show (DF).owesAt ι t.succ = (DF).owesAt ι t.castSucc from rfl, datF_after0, after1F_cut]
  simp only [before0F, before1F]
  rw [scopedRest0_eq]
  unfold bodyAt0
  have hN : t.val < 25 := lt_of_lt_of_eq t.isLt (show cfg0.N = 25 from N_0)
  by_cases h0 : t.val = 0
  · -- the first point
    iintro ⟨⟨⟨%f5, H5⟩, ⟨%f6, H6⟩, Hr⟩, Ho, ⟨%d0, H0⟩, ⟨%d1, H1⟩, ⟨%X2, H2⟩, ⟨%X3, H3⟩⟩
    ihave H5' := (Entails.of_eq (owns_whole (c : Thread nD τ) cc0_scratch0 fullShare f5).symm) $$ H5
    ihave H6' := (Entails.of_eq (owns_whole (c : Thread nD τ) cc0_scratch1 fullShare f6).symm) $$ H6
    iapply (bodyA c 𝒱₀ (grid0.coords t) _ _ _ _ _ _ _ _ _ _ _ _ ((hcond1 t).mpr h0) ((hcond2 t).mpr (by omega)) (fun h => by have := (hcond3 t).mp h; omega)
      (xblk c A t) (win0_1.fill (grid0.coords t) d1 ((win0_1.blk t).view.read (Elt F) (A 1))) X2 X3 f5 f6 Set.univ _)
    isplitl [H0]; · iexact H0
    isplitl [H1]; · iexact H1
    isplitl [H2]; · iexact H2
    isplitl [H3]; · iexact H3
    isplitl [H5']; · iexact H5'
    isplitl [H6']; · iexact H6'
    iintro ⟨H0, H1, H2, H3, H5, H6⟩
    isplitl [H5 H6 Hr]
    · isplitl [H5]
      · iexists _; ihave H := (Entails.of_eq (owns_whole (c : Thread nD τ) cc0_scratch0 fullShare _)) $$ H5; iexact H
      isplitl [H6]
      · iexists _; ihave H := (Entails.of_eq (owns_whole (c : Thread nD τ) cc0_scratch1 fullShare _)) $$ H6; iexact H
      iexact Hr
    isplitl [Ho]; · iexact Ho
    isplitl [H0]; · iexact H0
    isplitl [H1]; · iexists d1; iexact H1
    isplitl [H2]; · iexists _; iexact H2
    iexists _; iexact H3
  by_cases h24 : t.val = 24
  · -- the last point
    iintro ⟨⟨⟨%f5, H5⟩, ⟨%f6, H6⟩, Hr⟩, Ho, ⟨%d0, H0⟩, ⟨%d1, H1⟩, ⟨%X2, H2⟩, ⟨%X3, H3⟩⟩
    ihave H5' := (Entails.of_eq (owns_whole (c : Thread nD τ) cc0_scratch0 fullShare f5).symm) $$ H5
    ihave H6' := (Entails.of_eq (owns_whole (c : Thread nD τ) cc0_scratch1 fullShare f6).symm) $$ H6
    iapply (bodyC c 𝒱₀ (grid0.coords t) _ _ _ _ _ _ _ _ _ _ _ _ (fun h => by have := (hcond1 t).mp h; omega) (fun h => by have := (hcond2 t).mp h; omega) ((hcond3 t).mpr h24)
      (xblk c A t) (win0_1.fill (grid0.coords t) d1 ((win0_1.blk t).view.read (Elt F) (A 1))) X2 X3 f5 f6 Set.univ _)
    isplitl [H0]; · iexact H0
    isplitl [H1]; · iexact H1
    isplitl [H2]; · iexact H2
    isplitl [H3]; · iexact H3
    isplitl [H5']; · iexact H5'
    isplitl [H6']; · iexact H6'
    iintro ⟨H0, H1, H2, H3, H5, H6⟩
    isplitl [H5 H6 Hr]
    · isplitl [H5]
      · iexists _; ihave H := (Entails.of_eq (owns_whole (c : Thread nD τ) cc0_scratch0 fullShare _)) $$ H5; iexact H
      isplitl [H6]
      · iexists _; ihave H := (Entails.of_eq (owns_whole (c : Thread nD τ) cc0_scratch1 fullShare _)) $$ H6; iexact H
      iexact Hr
    isplitl [Ho]; · iexact Ho
    isplitl [H0]; · iexact H0
    isplitl [H1]; · iexists d1; iexact H1
    isplitl [H2]; · iexists _; iexact H2
    iexists _; iexact H3
  · -- a point between
    iintro ⟨⟨⟨%f5, H5⟩, ⟨%f6, H6⟩, Hr⟩, Ho, ⟨%d0, H0⟩, ⟨%d1, H1⟩, ⟨%X2, H2⟩, ⟨%X3, H3⟩⟩
    ihave H5' := (Entails.of_eq (owns_whole (c : Thread nD τ) cc0_scratch0 fullShare f5).symm) $$ H5
    ihave H6' := (Entails.of_eq (owns_whole (c : Thread nD τ) cc0_scratch1 fullShare f6).symm) $$ H6
    iapply (bodyB c 𝒱₀ (grid0.coords t) _ _ _ _ _ _ _ _ _ _ _ _ (fun h => h0 ((hcond1 t).mp h)) ((hcond2 t).mpr (by omega)) (fun h => h24 ((hcond3 t).mp h))
      (xblk c A t) (win0_1.fill (grid0.coords t) d1 ((win0_1.blk t).view.read (Elt F) (A 1))) X2 X3 f5 f6 Set.univ _)
    isplitl [H0]; · iexact H0
    isplitl [H1]; · iexact H1
    isplitl [H2]; · iexact H2
    isplitl [H3]; · iexact H3
    isplitl [H5']; · iexact H5'
    isplitl [H6']; · iexact H6'
    iintro ⟨H0, H1, H2, H3, H5, H6⟩
    isplitl [H5 H6 Hr]
    · isplitl [H5]
      · iexists _; ihave H := (Entails.of_eq (owns_whole (c : Thread nD τ) cc0_scratch0 fullShare _)) $$ H5; iexact H
      isplitl [H6]
      · iexists _; ihave H := (Entails.of_eq (owns_whole (c : Thread nD τ) cc0_scratch1 fullShare _)) $$ H6; iexact H
      iexact Hr
    isplitl [Ho]; · iexact Ho
    isplitl [H0]; · iexact H0
    isplitl [H1]; · iexists d1; iexact H1
    isplitl [H2]; · iexists _; iexact H2
    iexists _; iexact H3

/-- THE BODY OBLIGATION of region 0 for the data that name nothing of the outputs, any float instance. -/
theorem hbodyF (ι : Ix) (𝒱₀ : Variants) :
    BodyObligationLoose (DF) (defs₀ (F := F)) 𝒱₀ ι Set.univ fgtF := fun t => by
  rw [bigSep_W0, bigSep_W0]
  exact sound_bodyF c A O B ι 𝒱₀ t

end GlueF

end Cert.KernelIdeal.Tc0

end
-- ==== Proof.Spec.lean ====
/-
  The function both programs compute, written once over the extended reals.

  For a batch row `b` of the inputs `x` (1024 × 64) and a row `n` of the memory bank `f` (100000 × 64):
  `nrm x b` is the row's Euclidean norm, kept at least `eps`; `logit x f n b` is the scaled similarity
  `∑ d, f n d · (x b d · (kappa / nrm x b))` with `kappa` the reciprocal of the temperature;
  `sumExp x f b = ∑ n, exp (logit x f n b)`; the loss is the mean over the batch of
  `log (sumExp x f b) − logit x f (t b) b`, the cross-entropy of row `b` against its target `t b`.
-/
import Idealize.ShloMosaic.PureOps.Ideal
import Idealize.ShloMosaic.Lib.ValueIdx

noncomputable section

namespace Cert.Spec

open Idealize.ShloMosaic Idealize.ShloMosaic.ValueIdx

/-- The inputs, the memory bank and the targets as index functions. -/
abbrev Xs : Type := (⟨2, ![1024, 64]⟩ : Shape).Idx → EReal
abbrev Fs : Type := (⟨2, ![100000, 64]⟩ : Shape).Idx → EReal
abbrev Ts : Type := (⟨1, ![1024]⟩ : Shape).Idx → BitVec 32

/-- The floor of the norm (the single-precision word both programs carry). -/
def eps : EReal := Ideal.ofBits .f32 0x2B8CBCCC#32

/-- The reciprocal of the temperature, `1 / (13421773 / 268435456)`. -/
def kappa : EReal := ((268435456 / 13421773 : ℝ) : EReal)

/-- The norm of row `b`, at least `eps`. -/
def nrm (x : Xs) (b : Fin 1024) : EReal :=
  max (Ideal.sqrt (∑ d : Fin 64, x (ix2 b d) * x (ix2 b d))) eps

/-- Row `b` of the inputs, normalised and divided by the temperature, at feature `d`. -/
def xs (x : Xs) (d : Fin 64) (b : Fin 1024) : EReal := x (ix2 b d) * Ideal.div kappa (nrm x b)

/-- The scaled similarity of batch row `b` with bank row `n`. -/
def logit (x : Xs) (f : Fs) (n : Fin 100000) (b : Fin 1024) : EReal := ∑ d : Fin 64, f (ix2 n d) * xs x d b

/-- The partition sum of batch row `b`. -/
def sumExp (x : Xs) (f : Fs) (b : Fin 1024) : EReal := ∑ n : Fin 100000, Ideal.exp (logit x f n b)

/-- The logit of row `b` at its target (zero when the target names no bank row). -/
def picked (x : Xs) (t : Ts) (f : Fs) (b : Fin 1024) : EReal :=
  if h : (t (ix1 b)).toNat < 100000 then logit x f ⟨(t (ix1 b)).toNat, h⟩ b else 0

/-- The loss: the batch mean of `log (sumExp b) − picked b`. -/
def loss (x : Xs) (t : Ts) (f : Fs) : EReal :=
  Ideal.div ((∑ b : Fin 1024, Ideal.log (sumExp x f b)) - ∑ b : Fin 1024, picked x t f b) ((1024 : ℝ) : EReal)

/-- The logits as the program returns them, batch-major. -/
def outputs (x : Xs) (f : Fs) : (⟨2, ![1024, 100000]⟩ : Shape).Idx → EReal := fun i => logit x f (i 1) (i 0)

/-- The logits bank-major, as the first kernel region writes them. -/
def outT (x : Xs) (f : Fs) : (⟨2, ![100000, 1024]⟩ : Shape).Idx → EReal := fun i => logit x f (i 0) (i 1)

end Cert.Spec

end
-- ==== Proof.Tc0Ideal.lean ====
/-
  TensorCore region 0 at the ideal instance, the elements: the body's closed forms read at an index (the running sum of
  exponentials, the product as a sum over the features, the normalised and scaled inputs), the windows' blocks on the
  grid, the blocks of the region's first two arrays read at an index, the fact that a row of the product depends only
  on the matching column of the memory bank's block (so that what fills that block past the array's end is not read by
  the rows written back, nor by the sums), and the block of logits of a point as rows of `logit x f`.
-/
import proofs.«204472_g16080357556532_cont_week2b_336_33_alg».proof.Proof.Tc0Dat
import proofs.«204472_g16080357556532_cont_week2b_336_33_alg».proof.Proof.Spec
import Idealize.ShloMosaic.PureOps.Ideal.Laws
import Idealize.ShloMosaic.Lib.ValueIdxCoords

noncomputable section

namespace Cert.KernelIdeal.Tc0V

open Cert.KernelIdeal Cert.KernelIdeal.Gen Cert.KernelIdeal.Tc0 Cert.Spec
open Idealize.ShloMosaic Idealize.ShloMosaic.TcCoe Idealize.ShloMosaic.ValueIdx
open Idealize.SL Idealize.SL.RA Idealize.SL.Sem
open Idealize.ShloMosaic.Pipeline (Dat Cfg Window)
open scoped BigOperators

variable {Ix : Type} [DecidableEq Ix] {Name : Type} [DecidableEq Name] {U : Type} [URA U] {Lvl : Type}

/-! ## The payloads at an index, at the ideal instance -/

/-- The accumulation of `n` groups at an index: the start plus the groups' exponentials. -/
theorem expSum_apply (a : FVec Ideal S8x1024 .f32) (r : ℕ → Vec Ideal S8x1024 .f32) (n : ℕ) (i : S8x1024.Idx) :
    expSum a r n i = a i + ∑ k ∈ Finset.range n, Ideal.exp (r k i) := by
  induction n with
  | zero => simp
  | succ n ih =>
    rw [expSum_succ, Finset.sum_range_succ, ← add_assoc, ← ih, shapeCast_self]
    rfl

abbrev D0 : DotDims S64x4096 S64x1024 S4096x1024 := dot_S64x4096_S64x1024_S4096x1024_0_0_1_1_n_n

theorem lhs_0 (j : S4096x1024.Idx) (k : D0.contr.Idx) : (D0.lhsIdx j k 0 : ℕ) = k ⟨0, by decide⟩ := by
  simp [DotDims.lhsIdx, D0, dot_S64x4096_S64x1024_S4096x1024_0_0_1_1_n_n]; rfl
theorem lhs_1 (j : S4096x1024.Idx) (k : D0.contr.Idx) : (D0.lhsIdx j k 1 : ℕ) = j 0 := by
  simp [DotDims.lhsIdx, D0, dot_S64x4096_S64x1024_S4096x1024_0_0_1_1_n_n]; rfl
theorem rhs_0 (j : S4096x1024.Idx) (k : D0.contr.Idx) : (D0.rhsIdx j k 0 : ℕ) = k ⟨0, by decide⟩ := by
  simp [DotDims.rhsIdx, D0, dot_S64x4096_S64x1024_S4096x1024_0_0_1_1_n_n]; rfl
theorem rhs_1 (j : S4096x1024.Idx) (k : D0.contr.Idx) : (D0.rhsIdx j k 1 : ℕ) = j 1 := by
  simp [DotDims.rhsIdx, D0, dot_S64x4096_S64x1024_S4096x1024_0_0_1_1_n_n]; rfl

/-- The contraction index is the feature. -/
def cE : D0.contr.Idx ≃ Fin 64 := contrEquiv1 D0 64 (by decide) (by decide)

/-- The block of logits at an index: the sum over the features of the products. -/
theorem outOf_apply (X1 : Vec Ideal S64x4096 .f32) (S0 : Vec Ideal S64x1024 .f32) (r : Fin 4096) (b : Fin 1024) :
    outOf X1 S0 (ix2 r b) = ∑ d : Fin 64, X1 (ix2 d r) * S0 (ix2 d b) := by
  unfold outOf k0_pay3
  simp only [shapeCast_self, matmul]
  rw [Ideal.matmul_constant_zero_apply, ← Equiv.sum_comp cE.symm]
  refine Finset.sum_congr rfl fun d _ => ?_
  rw [show D0.lhsIdx (ix2 r b) (cE.symm d) = ix2 d r from
      Shape.idx_ext₂ ((lhs_0 _ _).trans (contrEquiv1_symm_val D0 64 _ _ d)) (lhs_1 _ _),
    show D0.rhsIdx (ix2 r b) (cE.symm d) = ix2 d b from
      Shape.idx_ext₂ ((rhs_0 _ _).trans (contrEquiv1_symm_val D0 64 _ _ d)) (rhs_1 _ _)]

/-- The named constant is the reciprocal of the temperature. -/
theorem named_inv_temp : (Named.named (F := Ideal) κ "inv_temp" (φ := .f32) 0x41A00000#32 : Ideal .f32) = kappa := rfl

/-- The scaled inputs at an index. -/
theorem xsOf_apply (X0 : Vec Ideal S64x1024 .f32) (d : Fin 64) (b : Fin 1024) :
    xsOf X0 (ix2 d b)
      = X0 (ix2 d b) * Ideal.div kappa (max (Ideal.sqrt (∑ k : Fin 64, X0 (ix2 k b) * X0 (ix2 k b))) eps) := by
  unfold xsOf k0_pay1
  simp only [shapeCast_self, multiReduction]
  rw [mulf_apply, broadcastTo_apply _ _ (ix2 d b) (ix2 u0 b) (fun a => by match a with | ⟨0, _⟩ => rfl | ⟨1, _⟩ => rfl)]
  rw [divf_apply, maximumf_apply]
  congr 1
  show Ideal.div kappa (max (Ideal.sqrt (shapeCast S1x1024 _ _ (ix2 u0 b))) eps) = _
  rw [shapeCast_addUnit_apply]
  refine congrArg (fun z => Ideal.div kappa (max (Ideal.sqrt z) eps)) ?_
  refine (Ideal.reduceAdd_single reduces_S64x1024_S1024 (fun i => X0 i * X0 i) _).trans
    (Finset.sum_congr rfl fun k _ => ?_)
  have e : reduces_S64x1024_S1024.lift (fun a => ix2 u0 b a.succ) k = ix2 k b := Shape.idx_ext₂ rfl rfl
  show X0 _ * X0 _ = _
  rw [e]
  rfl

/-! ## The windows on the grid -/

theorem geo0 : ∀ t : Fin cfg0.N, win0_0.index t 0 = 0 ∧ win0_0.index t 1 = 0 :=
  (by decide +kernel : ∀ t : Fin grid0.N, win0_0.index t 0 = 0 ∧ win0_0.index t 1 = 0)
theorem geo1 : ∀ t : Fin cfg0.N, win0_1.index t 0 = 0 ∧ win0_1.index t 1 = t.val
    ∧ win0_1.xsize (grid0.coords t) 0 = 64 ∧ win0_1.xsize (grid0.coords t) 1 = (if t.val = 24 then 1696 else 4096) :=
  (by decide +kernel : ∀ t : Fin grid0.N, win0_1.index t 0 = 0 ∧ win0_1.index t 1 = t.val
    ∧ win0_1.xsize (grid0.coords t) 0 = 64 ∧ win0_1.xsize (grid0.coords t) 1 = (if t.val = 24 then 1696 else 4096))
theorem geo2 : ∀ t : Fin cfg0.N, win0_2.index t 0 = t.val ∧ win0_2.index t 1 = 0
    ∧ win0_2.xsize (grid0.coords t) 0 = (if t.val = 24 then 1696 else 4096) ∧ win0_2.xsize (grid0.coords t) 1 = 1024 :=
  (by decide +kernel : ∀ t : Fin grid0.N, win0_2.index t 0 = t.val ∧ win0_2.index t 1 = 0
    ∧ win0_2.xsize (grid0.coords t) 0 = (if t.val = 24 then 1696 else 4096) ∧ win0_2.xsize (grid0.coords t) 1 = 1024)
theorem geo3 : ∀ t : Fin cfg0.N, win0_3.index t 0 = 0 ∧ win0_3.index t 1 = 0 :=
  (by decide +kernel : ∀ t : Fin grid0.N, win0_3.index t 0 = 0 ∧ win0_3.index t 1 = 0)

section Values

variable (c : Dev nD) (A : (w : Fin cfg0.W) → Buf (Elt Ideal) ((cfg0.win w).arr.view.loc (c.tc : Thread nD τ)))

/-- The inputs' block is the whole first array. -/
theorem xblk_apply (t : Fin cfg0.N) (d : Fin 64) (b : Fin 1024) : xblk c A t (ix2 d b) = A 0 (ix2 d b) := by
  unfold xblk Window.fill
  rw [dif_pos ((win0_0.moved_iff _ _).mpr fun a => (ix2 d b a).isLt), View.read_apply]
  show A 0 ((win0_0.rect t).emb _) = A 0 (ix2 d b)
  congr 1
  refine Shape.idx_ext₂ ?_ ?_
  · rw [Window.rect_emb_val, (geo0 t).1]; exact Nat.zero_add _ |>.trans (by simp)
  · rw [Window.rect_emb_val, (geo0 t).2]; exact Nat.zero_add _ |>.trans (by simp)

/-- The memory bank's block at point `t`, on a column inside the array: the second array's column `4096 t + r`. -/
theorem ftblk_apply (t : Fin cfg0.N) (d : Fin 64) (r : Fin 4096) (n : Fin 100000) (hn : n.val = 4096 * t.val + r.val) :
    ftblk c A t (ix2 d r) = A 1 (ix2 d n) := by
  have ht : t.val < 25 := lt_of_lt_of_eq t.isLt N_0
  have hm : win0_1.moved (grid0.coords t) (ix2 d r) = true := (win0_1.moved_iff _ _).mpr fun a => by
    match a with
    | ⟨0, _⟩ => rw [show win0_1.xsize (grid0.coords t) ⟨0, _⟩ = 64 from (geo1 t).2.2.1]; exact d.isLt
    | ⟨1, _⟩ =>
      rw [show win0_1.xsize (grid0.coords t) ⟨1, _⟩ = _ from (geo1 t).2.2.2]
      show r.val < _
      have := n.isLt
      split <;> omega
  unfold ftblk Window.fill
  rw [dif_pos hm, View.read_apply]
  show A 1 ((win0_1.rect t).emb _) = A 1 (ix2 d n)
  congr 1
  refine Shape.idx_ext₂ ?_ ?_
  · rw [Window.rect_emb_val, (geo1 t).1]; exact Nat.zero_add _ |>.trans (by simp)
  · rw [Window.rect_emb_val, (geo1 t).2.1]
    show t.val * 4096 + r.val = n.val
    omega

end Values

/-! ## The product is row-wise: what the last point's body obligation needs -/

/-- A filled block at an element the transfer moves does not read the filler. -/
theorem fill_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- A row of the logits' block that the transfer of the memory bank's block moves (a column of that block inside the
    array) does not depend on what fills the block past the array's end. -/
theorem outOf_fill_row (t : Fin cfg0.N) (d d' : Vec Ideal S64x4096 .f32)
    (g : (win0_1.xblock (grid0.coords t)).Idx → Ideal .f32) (S0 : Vec Ideal S64x1024 .f32) (r : Fin 4096) (b : Fin 1024)
    (hr : r.val < (if t.val = 24 then 1696 else 4096)) :
    outOf (win0_1.fill (grid0.coords t) d g) S0 (ix2 r b) = outOf (win0_1.fill (grid0.coords t) d' g) S0 (ix2 r b) := by
  rw [outOf_apply, outOf_apply]
  refine Finset.sum_congr rfl fun k _ => ?_
  rw [fill_of_moved win0_1 _ d d' g ((win0_1.moved_iff _ _).mpr fun a => by
    match a with
    | ⟨0, _⟩ => rw [show win0_1.xsize (grid0.coords t) ⟨0, _⟩ = 64 from (geo1 t).2.2.1]; exact k.isLt
    | ⟨1, _⟩ => rw [show win0_1.xsize (grid0.coords t) ⟨1, _⟩ = _ from (geo1 t).2.2.2]; exact hr)]

/-- So the part of the logits' block that is written back (window 2's cut) is the same whatever fills the memory
    bank's block past the array's end. -/
theorem cut_outOf_fill (t : Fin cfg0.N) (d d' : Vec Ideal S64x4096 .f32)
    (g : (win0_1.xblock (grid0.coords t)).Idx → Ideal .f32) (S0 : Vec Ideal S64x1024 .f32) :
    win0_2.cut (grid0.coords t) (outOf (win0_1.fill (grid0.coords t) d g) S0)
      = win0_2.cut (grid0.coords t) (outOf (win0_1.fill (grid0.coords t) d' g) S0) := by
  funext y
  have h0 : (y 0).val < (if t.val = 24 then 1696 else 4096) := lt_of_lt_of_eq (y 0).isLt (geo2 t).2.2.1
  have h1 : (y 1).val < 1024 := lt_of_lt_of_eq (y 1).isLt (geo2 t).2.2.2
  have e : win0_2.xinj (grid0.coords t) y = ix2 (⟨(y 0).val, by split at h0 <;> omega⟩ : Fin 4096) ⟨(y 1).val, h1⟩ :=
    Shape.idx_ext₂ rfl rfl
  show outOf _ S0 (win0_2.xinj _ y) = outOf _ S0 (win0_2.xinj _ y)
  rw [e]
  exact outOf_fill_row t d d' g S0 _ _ h0

/-- The first 212 groups of eight rows of the last point's block of logits likewise, -/
theorem rows_outOf_fill (t : Fin cfg0.N) (ht : t.val = 24) (d d' : Vec Ideal S64x4096 .f32)
    (g : (win0_1.xblock (grid0.coords t)).Idx → Ideal .f32) (S0 : Vec Ideal S64x1024 .f32) (k : ℕ) (hk : k < 212) :
    rows (outOf (win0_1.fill (grid0.coords t) d g) S0) k = rows (outOf (win0_1.fill (grid0.coords t) d' g) S0) k := by
  funext i
  have h0 : (i 0).val < 8 := (i 0).isLt
  have h1 : (i 1).val < 1024 := (i 1).isLt
  have e : (rowRect k).idx i = ix2 (⟨8 * k + (i 0).val, by omega⟩ : Fin 4096) ⟨(i 1).val, h1⟩ :=
    Shape.idx_ext₂ (by show 8 * min k 511 + 1 * (i 0).val = 8 * k + (i 0).val; omega)
      (by show 0 + 1 * (i 1).val = (i 1).val; omega)
  show outOf _ S0 ((rowRect k).idx i) = outOf _ S0 ((rowRect k).idx i)
  rw [e]
  exact outOf_fill_row t d d' g S0 _ _ (by rw [if_pos ht]; show 8 * k + (i 0).val < 1696; omega)

/-- and so the sums the last point writes. -/
theorem se8Of_outOf_fill (t : Fin cfg0.N) (ht : t.val = 24) (d d' : Vec Ideal S64x4096 .f32)
    (g : (win0_1.xblock (grid0.coords t)).Idx → Ideal .f32) (S0 : Vec Ideal S64x1024 .f32) (S1 : Vec Ideal S8x1024 .f32) :
    se8Of S1 (outOf (win0_1.fill (grid0.coords t) d g) S0) = se8Of S1 (outOf (win0_1.fill (grid0.coords t) d' g) S0) := by
  unfold se8Of
  rw [expSum_congr S1 212 fun k hk => rows_outOf_fill t ht d d' g S0 k hk]

/-! ## The logits -/

section Logits

variable (c : Dev nD) (A : (w : Fin cfg0.W) → Buf (Elt Ideal) ((cfg0.win w).arr.view.loc (c.tc : Thread nD τ)))
variable (x : Xs) (f : Fs)
variable (hA0 : ∀ (d : Fin 64) (b : Fin 1024), A 0 (ix2 d b) = x (ix2 b d))
variable (hA1 : ∀ (d : Fin 64) (n : Fin 100000), A 1 (ix2 d n) = f (ix2 n d))

include hA0 in
/-- The first scratch buffer holds the normalised, scaled inputs. -/
theorem xsV_apply (d : Fin 64) (b : Fin 1024) : xsV c A (ix2 d b) = xs x d b := by
  unfold xsV
  rw [xsOf_apply, xblk_apply, hA0]
  unfold xs nrm
  congr 3
  refine congrArg Ideal.sqrt (Finset.sum_congr rfl fun k _ => ?_)
  rw [xblk_apply, hA0]

include hA0 hA1 in
/-- The block of logits of point `t` at a row inside the array: the logit of bank row `4096 t + r`. -/
theorem outV_apply (t : Fin cfg0.N) (r : Fin 4096) (b : Fin 1024) (n : Fin 100000) (hn : n.val = 4096 * t.val + r.val) :
    outV c A t (ix2 r b) = logit x f n b := by
  unfold outV logit
  rw [outOf_apply]
  refine Finset.sum_congr rfl fun d _ => ?_
  rw [ftblk_apply c A t d r n hn, hA1, xsV_apply c A x hA0]

end Logits

end Cert.KernelIdeal.Tc0V

end
-- ==== Proof.Tc0BodyV.lean ====
/- The body obligation of TensorCore region 0 for the proof data that name the outputs, at the ideal instance: at each
   grid point the case's triple of the body module; what fills the feature block past the array's end at the last
   point is not read by the rows written back nor by the sums (the product is row-wise at the ideal instance). -/
import proofs.«204472_g16080357556532_cont_week2b_336_33_alg».proof.Proof.Gen.KernelIdeal.Launch
import proofs.«204472_g16080357556532_cont_week2b_336_33_alg».proof.Proof.Gen.KernelIdeal.Skeleton
import proofs.«204472_g16080357556532_cont_week2b_336_33_alg».proof.Proof.Gen.KernelIdeal.Points
import proofs.«204472_g16080357556532_cont_week2b_336_33_alg».proof.Proof.Tc0Forms
import proofs.«204472_g16080357556532_cont_week2b_336_33_alg».proof.Proof.Tc0Dat
import proofs.«204472_g16080357556532_cont_week2b_336_33_alg».proof.Proof.Tc0Ideal
import proofs.«204472_g16080357556532_cont_week2b_336_33_alg».proof.Proof.Tc0Body
import Idealize.ShloMosaic.Lib.Pipeline.FrameBody
import Idealize.ShloMosaic.Lib.Tactic

set_option maxRecDepth 16384

noncomputable section

namespace Cert.KernelIdeal.Tc0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

section GlueV

variable (c : Dev nD) (A : (w : Fin cfg0.W) → Buf (Elt Ideal) ((cfg0.win w).arr.view.loc (c.tc : Thread nD τ)))
variable (O : CellTallies nD τ sig Ix) (B : Set (SemLoc sig × Ix))

local notation "DV" => datV (F := Ideal) (Name := Name) (U := U) (Lvl := Lvl) c A O B
local notation "𝕄V" => MT nD τ sig Ix (Elt Ideal) Name U Lvl

/-- The query window's buffer holds the query block at every point: the body only reads it and the window is never cut. -/
theorem before0V (t : Fin cfg0.N) (d) : (DV).before 0 t d = xblk c A t := by
  rw [(DV).before_in_eq_fetched 0 rfl (fun _ => rfl) (fun _ _ _ => rfl)
    (fun t => by rw [datV_after0]; exact Window.cut_fill _ _ _ _) t d]
  unfold Dat.fetched Dat.blockOf xblk
  exact Pipeline.fill_of_clip_none (cfg := cfg0) 0 _ (fun _ => rfl) _ _ _

/-- The feature window is fetched at every point: its buffer holds the block's part inside the array, and past it
    whatever the buffer held. -/
theorem before1V (t : Fin cfg0.N) (d) :
    (DV).before 1 t d = win0_1.fill (grid0.coords t) d ((win0_1.blk t).view.read (Elt Ideal) (A 1)) := by
  rw [(DV).before_fetched 1 t (fetch0_1 t) d]; rfl

/-- The part of the feature block the transfers move is the array's block. -/
theorem after1V_cut (t : Fin cfg0.N) :
    (cfg0.win 1).cut (cfg0.grid.coords t) ((DV).after 1 t) = (win0_1.blk t).view.read (Elt Ideal) (A 1) := by
  rw [datV_after1]; exact Window.cut_fill _ _ _ _

/-- Before the last point the feature block lies inside the array: its fill takes nothing from the prior contents. -/
theorem fill1_eq (t : Fin cfg0.N) (h24 : t.val ≠ 24) (d d' : Vec Ideal S64x4096 .f32)
    (g : (win0_1.xblock (grid0.coords t)).Idx → Ideal .f32) :
    win0_1.fill (grid0.coords t) d g = win0_1.fill (grid0.coords t) d' g :=
  funext fun j => Tc0V.fill_of_moved win0_1 _ d d' g ((win0_1.moved_iff _ _).mpr fun a => by
    match a with
    | ⟨0, _⟩ => rw [show win0_1.xsize (grid0.coords t) ⟨0, _⟩ = 64 from (Tc0V.geo1 t).2.2.1]; exact (j ⟨0, _⟩).isLt
    | ⟨1, _⟩ => rw [show win0_1.xsize (grid0.coords t) ⟨1, _⟩ = _ from (Tc0V.geo1 t).2.2.2, if_neg h24]; exact (j ⟨1, _⟩).isLt)

/-- The second result's window is idle at every point but the last, and not written back there. -/
theorem idle3_of_ne (t : Fin cfg0.N) (h : t.val ≠ 24) : cfg0.idle 3 (cfg0.grid.coords t) = true :=
  (by decide +kernel : ∀ t : Fin grid0.N, t.val ≠ 24 → idle0 3 (grid0.coords t) = true) t h
theorem idle3_of_eq (t : Fin cfg0.N) (h : t.val = 24) : cfg0.idle 3 (cfg0.grid.coords t) = false :=
  (by decide +kernel : ∀ t : Fin grid0.N, t.val = 24 → idle0 3 (grid0.coords t) = false) t h
theorem flush3_of_ne (t : Fin cfg0.N) (h : t.val ≠ 24) : (cfg0.win 3).flush t = false := by
  have hN : t.val < 25 := lt_of_lt_of_eq t.isLt (show cfg0.N = 25 from N_0)
  exact Bool.eq_false_iff.mpr fun hf => by have := (flush0_3 t).mp hf; omega

/-- The invariant after the first point: the two scratch buffers at the given contents, the combining call's three
    staging buffers at contents not chosen. -/
def scrV (xs : Vec Ideal S64x1024 .f32) (acc : Vec Ideal S8x1024 .f32) : sProp 𝕄V :=
  iprop((((c : Thread nD τ).loc cc0_scratch0) ↦{fullShare} (xs : Buf (Elt Ideal) ((c : Thread nD τ).loc cc0_scratch0)))
      ∗ (((c : Thread nD τ).loc cc0_scratch1) ↦{fullShare} (acc : Buf (Elt Ideal) ((c : Thread nD τ).loc cc0_scratch1)))
      ∗ (∃ f : Buf (Elt Ideal) ((c : Thread nD τ).loc cc2_stg0_0), ((c : Thread nD τ).loc cc2_stg0_0) ↦{fullShare} f)
      ∗ (∃ f : Buf (Elt Ideal) ((c : Thread nD τ).loc cc2_stg1_0), ((c : Thread nD τ).loc cc2_stg1_0) ↦{fullShare} f)
      ∗ (∃ f : Buf (Elt Ideal) ((c : Thread nD τ).loc cc2_stg2_0), ((c : Thread nD τ).loc cc2_stg2_0) ↦{fullShare} f))

theorem PhiV_succ_eq (n : ℕ) :
    (PhiV c A (n + 1) : sProp 𝕄V) = scrV (Ix := Ix) (Name := Name) (U := U) (Lvl := Lvl) c (xsV c A) (accV c A (n + 1)) := rfl

/-- The running sums after a point before the last, from those before it. -/
theorem accV_step (t : Fin cfg0.N) (hlt : t.val < 24) :
    accOf (accV c A t.val) (outOf (ftblk c A t) (xsV c A)) = accV c A (t.val + 1) := by
  rw [accV_succ_of_lt c A hlt]; rfl

set_option maxHeartbeats 1000000 in
/-- The body at a point before the last, for the data that name the outputs. -/
theorem sound_bodyV_ne (ι : Ix) (𝒱₀ : Variants) (t : Fin cfg0.N) (h24 : t.val ≠ 24) :
    iprop((DV).Φ t.castSucc ∗ (DV).owesAt ι t.castSucc
        ∗ (∃ d, owns (c : Thread nD τ) (st0_0 t) fullShare ((DV).before 0 t d))
        ∗ (∃ d, owns (c : Thread nD τ) (st0_1 t) fullShare ((DV).before 1 t d))
        ∗ (∃ d, owns (c : Thread nD τ) (st0_2 t) fullShare ((DV).before 2 t d))
        ∗ (∃ d, owns (c : Thread nD τ) (st0_3 t) fullShare ((DV).before 3 t d)))
      ⊢ wp frame (wpE (defs₀ (F := Ideal)) 𝒱₀ c none) Set.univ (bodyAt0 t) fun _ =>
          iprop((DV).Φ t.succ ∗ (DV).owesAt ι t.succ
            ∗ owns (c : Thread nD τ) (st0_0 t) fullShare ((DV).after 0 t)
            ∗ (∃ d, owns (c : Thread nD τ) (st0_1 t) fullShare
                ((cfg0.win 1).fill (cfg0.grid.coords t) d ((cfg0.win 1).cut (cfg0.grid.coords t) ((DV).after 1 t))))
            ∗ (∃ d, owns (c : Thread nD τ) (st0_2 t) fullShare
                ((cfg0.win 2).fill (cfg0.grid.coords t) d ((cfg0.win 2).cut (cfg0.grid.coords t) ((DV).after 2 t))))
            ∗ (∃ d, owns (c : Thread nD τ) (st0_3 t) fullShare ((DV).before 3 t d))) := by
  rw [show (DV).Φ t.succ = PhiV c A (t.val + 1) from rfl, show (DV).Φ t.castSucc = PhiV c A t.val from rfl,
    show (DV).owesAt ι t.succ = (DV).owesAt ι t.castSucc from rfl, datV_after0, after1V_cut, PhiV_succ_eq]
  simp only [before0V, before1V]
  unfold bodyAt0
  have hN : t.val < 25 := lt_of_lt_of_eq t.isLt (show cfg0.N = 25 from N_0)
  have hlt : t.val < 24 := by omega
  by_cases h0 : t.val = 0
  · -- the first point
    have ht : t = pt 0 (by omega) := Fin.ext h0
    have eX : xsOf (xblk c A t) = xsV c A := by rw [ht]; rfl
    rw [show (PhiV c A t.val : sProp 𝕄V) = Pipeline.scopedRest spec0 c from by rw [h0]; rfl, scopedRest0_eq]
    unfold scrV
    iintro ⟨⟨⟨%f5, H5⟩, ⟨%f6, H6⟩, Hr⟩, Ho, ⟨%d0, H0⟩, ⟨%d1, H1⟩, ⟨%d2, H2⟩, ⟨%d3, H3⟩⟩
    ihave H5' := (Entails.of_eq (owns_whole (c : Thread nD τ) cc0_scratch0 fullShare f5).symm) $$ H5
    ihave H6' := (Entails.of_eq (owns_whole (c : Thread nD τ) cc0_scratch1 fullShare f6).symm) $$ H6
    have e1 := fill1_eq t h24 d1 (fun _ => zeroW) ((win0_1.blk t).view.read (Elt Ideal) (A 1))
    have eAcc : accOf k0_pay2 (outOf (win0_1.fill (grid0.coords t) d1 ((win0_1.blk t).view.read (Elt Ideal) (A 1))) (xsOf (xblk c A t)))
        = accV c A (t.val + 1) := by
      rw [e1, eX, ← accV_step c A t hlt, h0]; rfl
    have e2 : (cfg0.win 2).cut (cfg0.grid.coords t)
        (outOf (win0_1.fill (grid0.coords t) d1 ((win0_1.blk t).view.read (Elt Ideal) (A 1))) (xsOf (xblk c A t)))
        = (cfg0.win 2).cut (cfg0.grid.coords t) (outV c A t) := by
      rw [eX]; exact Tc0V.cut_outOf_fill t d1 (fun _ => zeroW) _ (xsV c A)
    iapply (bodyA c 𝒱₀ (grid0.coords t) _ _ _ _ _ _ _ _ _ _ _ _ ((hcond1 t).mpr h0) ((hcond2 t).mpr hlt) (fun h => h24 ((hcond3 t).mp h))
      (xblk c A t) (win0_1.fill (grid0.coords t) d1 ((win0_1.blk t).view.read (Elt Ideal) (A 1)))
      ((DV).before 2 t d2) ((DV).before 3 t d3) f5 f6 Set.univ _)
    isplitl [H0]; · iexact H0
    isplitl [H1]; · iexact H1
    isplitl [H2]; · iexact H2
    isplitl [H3]; · iexact H3
    isplitl [H5']; · iexact H5'
    isplitl [H6']; · iexact H6'
    iintro ⟨H0, H1, H2, H3, H5, H6⟩
    isplitl [H5 H6 Hr]
    · isplitl [H5]
      · rw [← eX]; ihave H := (Entails.of_eq (owns_whole (c : Thread nD τ) cc0_scratch0 fullShare _)) $$ H5; iexact H
      isplitl [H6]
      · rw [← eAcc]; ihave H := (Entails.of_eq (owns_whole (c : Thread nD τ) cc0_scratch1 fullShare _)) $$ H6; iexact H
      iexact Hr
    isplitl [Ho]; · iexact Ho
    isplitl [H0]; · iexact H0
    isplitl [H1]; · iexists d1; iexact H1
    isplitl [H2]
    · iexists _; rw [datV_after2, Window.fill_congr_cut _ _ e2]; iexact H2
    iexists d3; iexact H3
  · -- a point between
    obtain ⟨n, hn⟩ : ∃ n, t.val = n + 1 := ⟨t.val - 1, by omega⟩
    rw [show (PhiV c A t.val : sProp 𝕄V) = scrV (Ix := Ix) (Name := Name) (U := U) (Lvl := Lvl) c (xsV c A) (accV c A t.val) from by
      rw [hn]; rfl]
    unfold scrV
    iintro ⟨⟨H5, H6, Hr⟩, Ho, ⟨%d0, H0⟩, ⟨%d1, H1⟩, ⟨%d2, H2⟩, ⟨%d3, H3⟩⟩
    ihave H5' := (Entails.of_eq (owns_whole (c : Thread nD τ) cc0_scratch0 fullShare (xsV c A)).symm) $$ H5
    ihave H6' := (Entails.of_eq (owns_whole (c : Thread nD τ) cc0_scratch1 fullShare (accV c A t.val)).symm) $$ H6
    have e1 := fill1_eq t h24 d1 (fun _ => zeroW) ((win0_1.blk t).view.read (Elt Ideal) (A 1))
    have eAcc : accOf (accV c A t.val) (outOf (win0_1.fill (grid0.coords t) d1 ((win0_1.blk t).view.read (Elt Ideal) (A 1))) (xsV c A))
        = accV c A (t.val + 1) := by
      rw [e1]; exact accV_step c A t hlt
    have e2 : (cfg0.win 2).cut (cfg0.grid.coords t)
        (outOf (win0_1.fill (grid0.coords t) d1 ((win0_1.blk t).view.read (Elt Ideal) (A 1))) (xsV c A))
        = (cfg0.win 2).cut (cfg0.grid.coords t) (outV c A t) :=
      Tc0V.cut_outOf_fill t d1 (fun _ => zeroW) _ (xsV c A)
    iapply (bodyB c 𝒱₀ (grid0.coords t) _ _ _ _ _ _ _ _ _ _ _ _ (fun h => h0 ((hcond1 t).mp h)) ((hcond2 t).mpr hlt) (fun h => h24 ((hcond3 t).mp h))
      (xblk c A t) (win0_1.fill (grid0.coords t) d1 ((win0_1.blk t).view.read (Elt Ideal) (A 1)))
      ((DV).before 2 t d2) ((DV).before 3 t d3) (xsV c A) (accV c A t.val) Set.univ _)
    isplitl [H0]; · iexact H0
    isplitl [H1]; · iexact H1
    isplitl [H2]; · iexact H2
    isplitl [H3]; · iexact H3
    isplitl [H5']; · iexact H5'
    isplitl [H6']; · iexact H6'
    iintro ⟨H0, H1, H2, H3, H5, H6⟩
    isplitl [H5 H6 Hr]
    · isplitl [H5]
      · ihave H := (Entails.of_eq (owns_whole (c : Thread nD τ) cc0_scratch0 fullShare _)) $$ H5; iexact H
      isplitl [H6]
      · rw [← eAcc]; ihave H := (Entails.of_eq (owns_whole (c : Thread nD τ) cc0_scratch1 fullShare _)) $$ H6; iexact H
      iexact Hr
    isplitl [Ho]; · iexact Ho
    isplitl [H0]; · iexact H0
    isplitl [H1]; · iexists d1; iexact H1
    isplitl [H2]
    · iexists _; rw [datV_after2, Window.fill_congr_cut _ _ e2]; iexact H2
    iexists d3; iexact H3

set_option maxHeartbeats 1000000 in
/-- The body at the last point, for the data that name the outputs. -/
theorem sound_bodyV_eq (ι : Ix) (𝒱₀ : Variants) (t : Fin cfg0.N) (h24 : t.val = 24) :
  iprop((DV).Φ t.castSucc ∗ (DV).owesAt ι t.castSucc
        ∗ (∃ d, owns (c : Thread nD τ) (st0_0 t) fullShare ((DV).before 0 t d))
        ∗ (∃ d, owns (c : Thread nD τ) (st0_1 t) fullShare ((DV).before 1 t d))
        ∗ (∃ d, owns (c : Thread nD τ) (st0_2 t) fullShare ((DV).before 2 t d))
        ∗ (∃ d, owns (c : Thread nD τ) (st0_3 t) fullShare ((DV).before 3 t d)))
      ⊢ wp frame (wpE (defs₀ (F := Ideal)) 𝒱₀ c none) Set.univ (bodyAt0 t) fun _ =>
          iprop((DV).Φ t.succ ∗ (DV).owesAt ι t.succ
            ∗ owns (c : Thread nD τ) (st0_0 t) fullShare ((DV).after 0 t)
            ∗ (∃ d, owns (c : Thread nD τ) (st0_1 t) fullShare
                ((cfg0.win 1).fill (cfg0.grid.coords t) d ((cfg0.win 1).cut (cfg0.grid.coords t) ((DV).after 1 t))))
            ∗ (∃ d, owns (c : Thread nD τ) (st0_2 t) fullShare
                ((cfg0.win 2).fill (cfg0.grid.coords t) d ((cfg0.win 2).cut (cfg0.grid.coords t) ((DV).after 2 t))))
            ∗ owns (c : Thread nD τ) (st0_3 t) fullShare ((DV).after 3 t)) := by
  rw [show (DV).Φ t.succ = PhiV c A (t.val + 1) from rfl, show (DV).Φ t.castSucc = PhiV c A t.val from rfl,
    show (DV).owesAt ι t.succ = (DV).owesAt ι t.castSucc from rfl, datV_after0, after1V_cut, PhiV_succ_eq, datV_after3]
  simp only [before0V, before1V]
  unfold bodyAt0
  have ht : t = pt 24 (by omega) := Fin.ext h24
  have eAcc : accV c A t.val = accV c A (t.val + 1) := by rw [h24]; exact (accV_succ_of_ge c A (le_refl 24)).symm
  have eSe : se8V c A = se8Of (accV c A t.val) (outOf (ftblk c A t) (xsV c A)) := by rw [ht]; rfl
  rw [show (PhiV c A t.val : sProp 𝕄V) = scrV (Ix := Ix) (Name := Name) (U := U) (Lvl := Lvl) c (xsV c A) (accV c A t.val) from by
    rw [h24]; rfl]
  unfold scrV
  iintro ⟨⟨H5, H6, Hr⟩, Ho, ⟨%d0, H0⟩, ⟨%d1, H1⟩, ⟨%d2, H2⟩, ⟨%d3, H3⟩⟩
  ihave H5' := (Entails.of_eq (owns_whole (c : Thread nD τ) cc0_scratch0 fullShare (xsV c A)).symm) $$ H5
  ihave H6' := (Entails.of_eq (owns_whole (c : Thread nD τ) cc0_scratch1 fullShare (accV c A t.val)).symm) $$ H6
  have e2 : (cfg0.win 2).cut (cfg0.grid.coords t)
    (outOf (win0_1.fill (grid0.coords t) d1 ((win0_1.blk t).view.read (Elt Ideal) (A 1))) (xsV c A))
    = (cfg0.win 2).cut (cfg0.grid.coords t) (outV c A t) :=
    Tc0V.cut_outOf_fill t d1 (fun _ => zeroW) _ (xsV c A)
  have e3 : se8Of (accV c A t.val) (outOf (win0_1.fill (grid0.coords t) d1 ((win0_1.blk t).view.read (Elt Ideal) (A 1))) (xsV c A))
    = se8V c A := by
    rw [eSe]; exact Tc0V.se8Of_outOf_fill t h24 d1 (fun _ => zeroW) _ (xsV c A) (accV c A t.val)
  iapply (bodyC c 𝒱₀ (grid0.coords t) _ _ _ _ _ _ _ _ _ _ _ _ (fun h => by have := (hcond1 t).mp h; omega) (fun h => by have := (hcond2 t).mp h; omega) ((hcond3 t).mpr h24)
    (xblk c A t) (win0_1.fill (grid0.coords t) d1 ((win0_1.blk t).view.read (Elt Ideal) (A 1)))
    ((DV).before 2 t d2) ((DV).before 3 t d3) (xsV c A) (accV c A t.val) Set.univ _)
  isplitl [H0]; · iexact H0
  isplitl [H1]; · iexact H1
  isplitl [H2]; · iexact H2
  isplitl [H3]; · iexact H3
  isplitl [H5']; · iexact H5'
  isplitl [H6']; · iexact H6'
  iintro ⟨H0, H1, H2, H3, H5, H6⟩
  isplitl [H5 H6 Hr]
  · isplitl [H5]
    · ihave H := (Entails.of_eq (owns_whole (c : Thread nD τ) cc0_scratch0 fullShare _)) $$ H5; iexact H
    isplitl [H6]
    · rw [← eAcc]; ihave H := (Entails.of_eq (owns_whole (c : Thread nD τ) cc0_scratch1 fullShare _)) $$ H6; iexact H
    iexact Hr
  isplitl [Ho]; · iexact Ho
  isplitl [H0]; · iexact H0
  isplitl [H1]; · iexists d1; iexact H1
  isplitl [H2]
  · iexists _; rw [datV_after2, Window.fill_congr_cut _ _ e2]; iexact H2
  rw [← e3]; iexact H3

set_option maxHeartbeats 1000000 in
/-- The body at any point, for the data that name the outputs: the second result's window is handed back as found at
    the points before the last (it is idle there and not written back) and at the final sums at the last. -/
theorem sound_bodyV (ι : Ix) (𝒱₀ : Variants) (t : Fin cfg0.N) :
    iprop((DV).Φ t.castSucc ∗ (DV).owesAt ι t.castSucc
        ∗ (∃ d, owns (c : Thread nD τ) (st0_0 t) fullShare ((DV).before 0 t d))
        ∗ (∃ d, owns (c : Thread nD τ) (st0_1 t) fullShare ((DV).before 1 t d))
        ∗ (∃ d, owns (c : Thread nD τ) (st0_2 t) fullShare ((DV).before 2 t d))
        ∗ (∃ d, owns (c : Thread nD τ) (st0_3 t) fullShare ((DV).before 3 t d)))
      ⊢ wp frame (wpE (defs₀ (F := Ideal)) 𝒱₀ c none) Set.univ (bodyAt0 t) fun _ =>
          iprop((DV).Φ t.succ ∗ (DV).owesAt ι t.succ
            ∗ owns (c : Thread nD τ) (st0_0 t) fullShare ((DV).after 0 t)
            ∗ (∃ d, owns (c : Thread nD τ) (st0_1 t) fullShare
                ((cfg0.win 1).fill (cfg0.grid.coords t) d ((cfg0.win 1).cut (cfg0.grid.coords t) ((DV).after 1 t))))
            ∗ (∃ d, owns (c : Thread nD τ) (st0_2 t) fullShare
                ((cfg0.win 2).fill (cfg0.grid.coords t) d ((cfg0.win 2).cut (cfg0.grid.coords t) ((DV).after 2 t))))
            ∗ (match cfg0.idle 3 (cfg0.grid.coords t) with
                | true =>
                  (match (cfg0.win 3).flush t with
                    | false => iprop(∃ d, owns (c : Thread nD τ) (st0_3 t) fullShare ((DV).before 3 t d))
                    | true => owns (c : Thread nD τ) (st0_3 t) fullShare ((DV).after 3 t))
                | false => owns (c : Thread nD τ) (st0_3 t) fullShare ((DV).after 3 t))) := by
  by_cases h24 : t.val = 24
  · rw [idle3_of_eq t h24]
    exact sound_bodyV_eq c A O B ι 𝒱₀ t h24
  · rw [idle3_of_ne t h24, flush3_of_ne t h24]
    exact sound_bodyV_ne c A O B ι 𝒱₀ t h24

/-- THE BODY OBLIGATION of region 0 for the data that name the outputs, at the ideal instance. -/
theorem hbodyV (ι : Ix) (𝒱₀ : Variants) :
    BodyObligationLoose (DV) (defs₀ (F := Ideal)) 𝒱₀ ι Set.univ := fun t => by
  rw [bigSep_W0, bigSep_W0]
  exact sound_bodyV c A O B ι 𝒱₀ t

end GlueV

end Cert.KernelIdeal.Tc0

end
-- ==== Proof.Tc0Value.lean ====
/-
  The values of TensorCore region 0 at the ideal instance: with the region's first two arrays the transposes of the
  inputs `x` and of the memory bank `f`, the block of logits written at point `t` is rows `[4096 t, 4096 t + 4096)`
  of `logit x f`, so the first output array ends as `outT x f`; the accumulator after `t` points holds, in sublane
  `r` and column `b`, the sum of `exp (logit x f n b)` over the rows `n < 4096 t` with `n % 8 = r`, and the sums the
  last point writes are, in every one of the eight rows, `sumExp x f b`. Sums of extended reals are commutative and
  associative, so the regrouping by sublane and by block needs no finiteness.
-/
import proofs.«204472_g16080357556532_cont_week2b_336_33_alg».proof.Proof.Tc0Ideal
import proofs.«204472_g16080357556532_cont_week2b_336_33_alg».proof.Proof.Spec
import Idealize.ShloMosaic.PureOps.Ideal.Laws
import Idealize.ShloMosaic.Lib.ValueIdxCoords

noncomputable section

namespace Cert.KernelIdeal.Tc0V

open Cert.KernelIdeal Cert.KernelIdeal.Gen Cert.KernelIdeal.Tc0 Cert.Spec
open Idealize.ShloMosaic Idealize.ShloMosaic.TcCoe Idealize.ShloMosaic.ValueIdx
open Idealize.SL Idealize.SL.RA Idealize.SL.Sem
open Idealize.ShloMosaic.Pipeline (Dat Cfg Window)
open scoped BigOperators

variable {Ix : Type} [DecidableEq Ix] {Name : Type} [DecidableEq Name] {U : Type} [URA U] {Lvl : Type}

/-! ## The first output array: the logits, bank-major -/

/-- The rows of the first output that point `t`'s block covers. -/
theorem mem_blk2 (t : Fin cfg0.N) (i : (⟨2, ![100000, 1024]⟩ : Shape).Idx) :
    i ∈ (win0_2.blk t).view.set
      ↔ t.val * 4096 ≤ (i 0).val ∧ (i 0).val < t.val * 4096 + (if t.val = 24 then 1696 else 4096) := by
  show i ∈ ((View.whole main_v2_0).slice (win0_2.rect t)).set ↔ _
  rw [View.set_slice_whole, Rect.mem_set_unit]
  have h1 : (i 1).val < 1024 := (i 1).isLt
  constructor
  · intro h
    have := h 0
    rw [show win0_2.index t 0 = t.val from (geo2 t).1, show win0_2.xsize (grid0.coords t) 0 = _ from (geo2 t).2.2.1] at this
    exact this
  · intro h a
    match a with
    | ⟨0, _⟩ =>
      show win0_2.index t 0 * 4096 ≤ (i 0).val ∧ (i 0).val < win0_2.index t 0 * 4096 + win0_2.xsize (grid0.coords t) 0
      rw [(geo2 t).1, (geo2 t).2.2.1]; exact h
    | ⟨1, _⟩ =>
      show win0_2.index t 1 * 1024 ≤ (i 1).val ∧ (i 1).val < win0_2.index t 1 * 1024 + win0_2.xsize (grid0.coords t) 1
      rw [(geo2 t).2.1, (geo2 t).2.2.2]
      exact ⟨(Nat.zero_mul 1024).le.trans (Nat.zero_le _), by rw [Nat.zero_mul, Nat.zero_add]; exact h1⟩

section Out

variable (c : Dev nD) (A : (w : Fin cfg0.W) → Buf (Elt Ideal) ((cfg0.win w).arr.view.loc (c.tc : Thread nD τ)))
variable (x : Xs) (f : Fs)
variable (hA0 : ∀ (d : Fin 64) (b : Fin 1024), A 0 (ix2 d b) = x (ix2 b d))
variable (hA1 : ∀ (d : Fin 64) (n : Fin 100000), A 1 (ix2 d n) = f (ix2 n d))
variable (O : CellTallies nD τ sig Ix) (B : Set (SemLoc sig × Ix))

local notation "DV" => datV (Name := Name) (U := U) (Lvl := Lvl) c A O B

include hA0 hA1 in
/-- Every row `n` of the first output is written once, by point `n / 4096`, as row `n % 4096` of that point's block:
    after the region the array is `outT x f`. -/
theorem arrAt_out : (DV).arrAt 2 cfg0.N = outT x f := by
  refine (DV).arrAt_eq_of_cover 2 (outT x f) (fun t _ => ?_) (fun i => ?_)
  · funext y
    have h0 : (y 0).val < (if t.val = 24 then 1696 else 4096) := lt_of_lt_of_eq (y 0).isLt (geo2 t).2.2.1
    have h1 : (y 1).val < 1024 := lt_of_lt_of_eq (y 1).isLt (geo2 t).2.2.2
    have ht : t.val < 25 := lt_of_lt_of_eq t.isLt N_0
    rw [View.read_apply]
    show (DV).after 2 t (win0_2.xinj (grid0.coords t) y) = outT x f ((win0_2.rect t).emb y)
    rw [datV_after2]
    have e : win0_2.xinj (grid0.coords t) y = ix2 (⟨(y 0).val, by split at h0 <;> omega⟩ : Fin 4096) ⟨(y 1).val, h1⟩ :=
      Shape.idx_ext₂ rfl rfl
    rw [e]
    have hn : ((win0_2.rect t).emb y 0).val = 4096 * t.val + (y 0).val := by
      rw [Window.rect_emb_val, (geo2 t).1]; show t.val * 4096 + _ = _; omega
    have hb : (win0_2.rect t).emb y 1 = ⟨(y 1).val, h1⟩ :=
      Fin.ext (by rw [Window.rect_emb_val, (geo2 t).2.1]; show 0 * 1024 + (y 1).val = (y 1).val; omega)
    unfold outT
    rw [outV_apply c A x f hA0 hA1 t _ _ ((win0_2.rect t).emb y 0) hn, hb]
    rfl
  · have hi0 : (i 0).val < 100000 := (i 0).isLt
    have hi1 : (i 1).val < 1024 := (i 1).isLt
    refine ⟨pt ((i 0).val / 4096) (by omega), flush0_2 _, (mem_blk2 _ i).mpr ?_⟩
    show (i 0).val / 4096 * 4096 ≤ (i 0).val ∧ (i 0).val < (i 0).val / 4096 * 4096 + (if (i 0).val / 4096 = 24 then 1696 else 4096)
    split <;> omega

end Out

/-! ## The accumulator and the sums -/

section Sums

open Finset

/-- A sum over `a · b` consecutive naturals, by blocks of `b`. -/
theorem sum_range_mul' {M : Type*} [AddCommMonoid M] (g : ℕ → M) (n a b : ℕ) (h : n = a * b) :
    ∑ m ∈ range n, g m = ∑ i ∈ range a, ∑ j ∈ range b, g (i * b + j) := by
  subst h
  induction a with
  | zero => simp
  | succ a ih => rw [Nat.succ_mul, sum_range_add, ih, sum_range_succ]

/-- A sum over `a + b` consecutive naturals, split at `a`. -/
theorem sum_range_add' {M : Type*} [AddCommMonoid M] (g : ℕ → M) (n a b : ℕ) (h : n = a + b) :
    ∑ m ∈ range n, g m = ∑ m ∈ range a, g m + ∑ m ∈ range b, g (a + m) := by
  subst h; exact sum_range_add g a b

/-- The bank's 100000 rows, by sublane, then by block of 4096 rows, then by group of eight: 24 whole blocks of 512
    groups and a last block of 212. -/
theorem regroup {M : Type*} [AddCommMonoid M] (g : ℕ → M) :
    ∑ m ∈ range 100000, g m
      = ∑ r ∈ range 8, (∑ t ∈ range 24, ∑ k ∈ range 512, g (4096 * t + 8 * k + r) + ∑ k ∈ range 212, g (98304 + 8 * k + r)) := by
  calc ∑ m ∈ range 100000, g m
      = ∑ m ∈ range 98304, g m + ∑ m ∈ range 1696, g (98304 + m) := sum_range_add' g 100000 98304 1696 (by norm_num)
    _ = ∑ t ∈ range 24, ∑ j ∈ range 4096, g (t * 4096 + j)
          + ∑ k ∈ range 212, ∑ r ∈ range 8, g (98304 + (k * 8 + r)) := by
        rw [sum_range_mul' g 98304 24 4096 (by norm_num), sum_range_mul' (fun m => g (98304 + m)) 1696 212 8 (by norm_num)]
    _ = ∑ t ∈ range 24, ∑ k ∈ range 512, ∑ r ∈ range 8, g (t * 4096 + (k * 8 + r))
          + ∑ k ∈ range 212, ∑ r ∈ range 8, g (98304 + (k * 8 + r)) :=
        congrArg (· + ∑ k ∈ range 212, ∑ r ∈ range 8, g (98304 + (k * 8 + r)))
          (sum_congr rfl fun t _ => sum_range_mul' (fun j => g (t * 4096 + j)) 4096 512 8 (by norm_num))
    _ = ∑ r ∈ range 8, ∑ t ∈ range 24, ∑ k ∈ range 512, g (t * 4096 + (k * 8 + r))
          + ∑ r ∈ range 8, ∑ k ∈ range 212, g (98304 + (k * 8 + r)) :=
        congrArg₂ (· + ·) ((sum_congr rfl fun t _ => sum_comm).trans sum_comm) sum_comm
    _ = ∑ r ∈ range 8, (∑ t ∈ range 24, ∑ k ∈ range 512, g (t * 4096 + (k * 8 + r))
          + ∑ k ∈ range 212, g (98304 + (k * 8 + r))) := sum_add_distrib.symm
    _ = ∑ r ∈ range 8, (∑ t ∈ range 24, ∑ k ∈ range 512, g (4096 * t + 8 * k + r) + ∑ k ∈ range 212, g (98304 + 8 * k + r)) :=
        sum_congr rfl fun r _ => congrArg₂ (· + ·)
          (sum_congr rfl fun t _ => sum_congr rfl fun k _ => congrArg g (by ring))
          (sum_congr rfl fun k _ => congrArg g (by ring))

variable (c : Dev nD) (A : (w : Fin cfg0.W) → Buf (Elt Ideal) ((cfg0.win w).arr.view.loc (c.tc : Thread nD τ)))
variable (x : Xs) (f : Fs)
variable (hA0 : ∀ (d : Fin 64) (b : Fin 1024), A 0 (ix2 d b) = x (ix2 b d))
variable (hA1 : ∀ (d : Fin 64) (n : Fin 100000), A 1 (ix2 d n) = f (ix2 n d))

/-- The exponential of the logit of bank row `m` (zero past the bank's end, never reached). -/
def L (m : ℕ) (b : Fin 1024) : EReal := if h : m < 100000 then Ideal.exp (logit x f ⟨m, h⟩ b) else 0

/-- The partition sum over the naturals below 100000. -/
theorem sumExp_eq (b : Fin 1024) : sumExp x f b = ∑ m ∈ range 100000, L x f m b := by
  unfold sumExp
  rw [← Fin.sum_univ_eq_sum_range (fun m => L x f m b) 100000]
  refine sum_congr rfl fun n _ => ?_
  unfold L; rw [dif_pos n.isLt]

/-- The zero accumulator. -/
theorem k0_pay2_apply (i : S8x1024.Idx) : (k0_pay2 (F := Ideal)) i = 0 := by
  unfold k0_pay2; rw [shapeCast_self]; exact Ideal.ofBits_zero_f32

/-- Group `k` of eight rows of a block, at an index. -/
theorem rows_apply (Y : Vec Ideal S4096x1024 .f32) (k : ℕ) (hk : k < 512) (r : Fin 8) (b : Fin 1024) :
    rows Y k (ix2 r b) = Y (ix2 (⟨8 * k + r.val, by omega⟩ : Fin 4096) b) := by
  show Y ((rowRect k).idx (ix2 r b)) = _
  congr 1
  exact Shape.idx_ext₂ (by show 8 * min k 511 + 1 * r.val = 8 * k + r.val; omega) (by show 0 + 1 * b.val = b.val; omega)

include hA0 hA1 in
/-- A group of a point's block of logits, exponentiated: the bank rows `4096 t + 8 k + r`. -/
theorem exp_rows_outV (t : Fin cfg0.N) (k : ℕ) (r : Fin 8) (b : Fin 1024) (hk : k < 512)
    (hm : 4096 * t.val + 8 * k + r.val < 100000) :
    Ideal.exp (rows (outV c A t) k (ix2 r b)) = L x f (4096 * t.val + 8 * k + r.val) b := by
  rw [rows_apply _ k hk, outV_apply c A x f hA0 hA1 t _ b ⟨_, hm⟩ (by show 4096 * t.val + 8 * k + r.val = 4096 * t.val + (8 * k + r.val); omega)]
  unfold L; rw [dif_pos hm]

include hA0 hA1 in
/-- THE ACCUMULATOR'S INVARIANT: after `n ≤ 24` points sublane `r`, column `b` holds the exponentials of the logits of
    the bank rows below `4096 n` that are `r` modulo eight. -/
theorem accV_apply : ∀ n, n ≤ 24 → ∀ (r : Fin 8) (b : Fin 1024),
    accV c A n (ix2 r b) = ∑ t ∈ range n, ∑ k ∈ range 512, L x f (4096 * t + 8 * k + r.val) b
  | 0, _, r, b => by rw [accV_zero, k0_pay2_apply]; simp
  | n + 1, hn, r, b => by
    rw [accV_succ_of_lt c A (by omega), sum_range_succ, ← accV_apply n (by omega) r b]
    unfold accOf
    rw [shapeCast_self, expSum_apply]
    congr 1
    refine sum_congr rfl fun k hk => ?_
    have hk' : k < 512 := mem_range.mp hk
    have hr := r.isLt
    exact exp_rows_outV c A x f hA0 hA1 (pt n (by omega)) k r b hk' (by show 4096 * n + 8 * k + r.val < 100000; omega)

include hA0 hA1 in
/-- The sums the last point writes: in every row, the partition sum of the column. -/
theorem se8V_apply (r : Fin 8) (b : Fin 1024) : se8V c A (ix2 r b) = sumExp x f b := by
  rw [sumExp_eq, regroup, ← Fin.sum_univ_eq_sum_range
    (fun r' => ∑ t ∈ range 24, ∑ k ∈ range 512, L x f (4096 * t + 8 * k + r') b + ∑ k ∈ range 212, L x f (98304 + 8 * k + r') b) 8]
  unfold se8V se8Of
  simp only [shapeCast_self]
  rw [broadcastTo_apply _ _ (ix2 r b) (ix2 u0 b) (fun a => by match a with | ⟨0, _⟩ => rfl | ⟨1, _⟩ => rfl),
    shapeCast_addUnit_apply]
  refine (Ideal.reduceAdd_single reduces_S8x1024_S1024 _ _).trans (sum_congr rfl fun (r' : Fin 8) _ => ?_)
  have e : reduces_S8x1024_S1024.lift (fun a => ix2 u0 b a.succ) r' = ix2 r' b := Shape.idx_ext₂ rfl rfl
  show expSum _ _ 212 (reduces_S8x1024_S1024.lift _ r') = _
  rw [e]
  refine (expSum_apply _ _ 212 (ix2 r' b)).trans ?_
  rw [accV_apply c A x f hA0 hA1 24 le_rfl r' b]
  congr 1
  refine sum_congr rfl fun k hk => ?_
  have hk' : k < 212 := mem_range.mp hk
  have hr := r'.isLt
  exact exp_rows_outV c A x f hA0 hA1 (pt 24 (by omega)) k r' b (by omega) (by show 4096 * 24 + 8 * k + r'.val < 100000; omega)

end Sums

/-! ## The second output array: the partition sums, in each of its eight rows -/

/-- The one point that writes the sums back covers the whole array. -/
theorem mem_blk3 (t : Fin cfg0.N) (i : (⟨2, ![8, 1024]⟩ : Shape).Idx) : i ∈ (win0_3.blk t).view.set := by
  show i ∈ ((View.whole main_v2_1).slice (win0_3.rect t)).set
  rw [View.set_slice_whole, Rect.mem_set_unit]
  have h0 : (i 0).val < 8 := (i 0).isLt
  have h1 : (i 1).val < 1024 := (i 1).isLt
  intro a
  match a with
  | ⟨0, _⟩ =>
    show win0_3.index t 0 * 8 ≤ (i 0).val ∧ (i 0).val < win0_3.index t 0 * 8 + 8
    rw [(geo3 t).1]
    exact ⟨(Nat.zero_mul 8).le.trans (Nat.zero_le _), by rw [Nat.zero_mul, Nat.zero_add]; exact h0⟩
  | ⟨1, _⟩ =>
    show win0_3.index t 1 * 1024 ≤ (i 1).val ∧ (i 1).val < win0_3.index t 1 * 1024 + 1024
    rw [(geo3 t).2]
    exact ⟨(Nat.zero_mul 1024).le.trans (Nat.zero_le _), by rw [Nat.zero_mul, Nat.zero_add]; exact h1⟩

section Se8

variable (c : Dev nD) (A : (w : Fin cfg0.W) → Buf (Elt Ideal) ((cfg0.win w).arr.view.loc (c.tc : Thread nD τ)))
variable (x : Xs) (f : Fs)
variable (hA0 : ∀ (d : Fin 64) (b : Fin 1024), A 0 (ix2 d b) = x (ix2 b d))
variable (hA1 : ∀ (d : Fin 64) (n : Fin 100000), A 1 (ix2 d n) = f (ix2 n d))
variable (O : CellTallies nD τ sig Ix) (B : Set (SemLoc sig × Ix))

local notation "DV" => datV (Name := Name) (U := U) (Lvl := Lvl) c A O B

/-- If the sums the last point writes are, in every row, `G` of the column, the second output ends so. -/
theorem arrAt3_of (G : Fin 1024 → EReal) (hG : ∀ (r : Fin 8) (b : Fin 1024), se8V c A (ix2 r b) = G b) :
    (DV).arrAt 3 cfg0.N = fun i : (⟨2, ![8, 1024]⟩ : Shape).Idx => G (i 1) := by
  refine (DV).arrAt_eq_of_cover 3 (fun i : (⟨2, ![8, 1024]⟩ : Shape).Idx => G (i 1)) (fun t _ => ?_)
    (fun i => ⟨pt 24 (by omega), (flush0_3 _).mpr rfl, mem_blk3 _ i⟩)
  funext y
  have h0 : (y 0).val < 8 := (y 0).isLt
  have h1 : (y 1).val < 1024 := (y 1).isLt
  rw [View.read_apply]
  show (DV).after 3 t (win0_3.xinj (grid0.coords t) y) = G ((win0_3.rect t).emb y 1)
  rw [datV_after3]
  have e : win0_3.xinj (grid0.coords t) y = ix2 (⟨(y 0).val, h0⟩ : Fin 8) ⟨(y 1).val, h1⟩ := Shape.idx_ext₂ rfl rfl
  have hb : (win0_3.rect t).emb y 1 = ⟨(y 1).val, h1⟩ :=
    Fin.ext (by rw [Window.rect_emb_val, (geo3 t).2]; show 0 * 1024 + (y 1).val = (y 1).val; omega)
  rw [e, hG, hb]
  rfl

include hA0 hA1 in
/-- After the region the second output holds, in every row, the partition sum of its column. -/
theorem arrAt_se8_fun :
    (DV).arrAt 3 cfg0.N = fun i : (⟨2, ![8, 1024]⟩ : Shape).Idx => sumExp x f (i 1) :=
  arrAt3_of c A O B (sumExp x f) fun r b => se8V_apply c A x f hA0 hA1 r b

include hA0 hA1 in
/-- The same at an index. -/
theorem arrAt_se8 (r : Fin 8) (b : Fin 1024) : (DV).arrAt 3 cfg0.N (ix2 r b) = sumExp x f b := by
  rw [arrAt_se8_fun c A x f hA0 hA1 O B]

end Se8

/-! ### Axioms -/

/-- info: 'Cert.KernelIdeal.Tc0V.arrAt_out' depends on axioms: [propext, Classical.choice, Quot.sound] -/
#guard_msgs in #print axioms arrAt_out
/-- info: 'Cert.KernelIdeal.Tc0V.arrAt_se8' depends on axioms: [propext, Classical.choice, Quot.sound] -/
#guard_msgs in #print axioms arrAt_se8
/-- info: 'Cert.KernelIdeal.Tc0V.se8Of_outOf_fill' depends on axioms: [propext, Classical.choice, Quot.sound] -/
#guard_msgs in #print axioms se8Of_outOf_fill
/-- info: 'Cert.KernelIdeal.Tc0V.cut_outOf_fill' depends on axioms: [propext, Classical.choice, Quot.sound] -/
#guard_msgs in #print axioms cut_outOf_fill

end Cert.KernelIdeal.Tc0V

end
-- ==== Proof.Tc2Value.lean ====
/- The combine region at the ideal values: what the loss word holds after the region, as a formula of the two
   input arrays — the sum over the 1024 columns of the logarithm of row 0 of the row sums, minus the sum of all
   1024 picked logits, divided by 1024. -/
import proofs.«204472_g16080357556532_cont_week2b_336_33_alg».proof.Proof.Tc2Dat
import proofs.«204472_g16080357556532_cont_week2b_336_33_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Tc2

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! ## Sums through a change of shape -/

/-- A shape cast only re-indexes: the sum of all its elements is the sum of all the operand's. -/
theorem sum_shapeCast {s t : Shape} (x : s.Idx → EReal) (h : s.ShapeCasts t) :
    ∑ j : t.Idx, shapeCast t x h j = ∑ k : s.Idx, x k :=
  Equiv.sum_comp (Shape.reshapeEquiv h) x

/-- A rank-1 index set is its one coordinate's range, -/
def idxEquiv1 {n : Nat} : (⟨1, ![n]⟩ : Shape).Idx ≃ Fin n where
  toFun i := i 0
  invFun := ix1
  left_inv i := (eq_ix1 i).symm
  right_inv _ := rfl

/-- so a sum over it is the sum over the coordinate. -/
theorem sum_idx1 {n : Nat} (f : (⟨1, ![n]⟩ : Shape).Idx → EReal) : ∑ i, f i = ∑ b : Fin n, f (ix1 b) := by
  rw [← Equiv.sum_comp (idxEquiv1 (n := n)).symm f]; rfl

/-! ## The payload -/

/-- The first reduction: every element of the logarithm of the loaded row, whatever the reduced index. -/
theorem red_se (v0 : Vec Ideal S1x1024 .f32) (hφ : FKind.Formats .f32)
    (hacc : (0x00000000#32 : BitVec 32) = FKind.add.neutral .f32 hφ) (j : S1.Idx) :
    multiReduction (F := Ideal) (φ := .f32) .add [1, 2] S1
        (shapeCast S1x1x1024 (log v0) shapeCasts_S1x1024_S1x1x1024) 0x00000000#32 reduces_S1x1x1024_S1 hφ hacc j
      = ∑ i : S1x1024.Idx, Ideal.log (v0 i) :=
  (Ideal.multiReduction_add_total _ _ reduces_S1x1x1024_S1 (by decide) hφ hacc j).trans (sum_shapeCast _ _)

/-- The second: every element of the loaded picked logits. -/
theorem red_pk (v7 : Vec Ideal S8x128 .f32) (hφ : FKind.Formats .f32)
    (hacc : (0x00000000#32 : BitVec 32) = FKind.add.neutral .f32 hφ) (j : S1.Idx) :
    multiReduction (F := Ideal) (φ := .f32) .add [1, 2] S1
        (shapeCast S1x8x128 v7 shapeCasts_S8x128_S1x8x128) 0x00000000#32 reduces_S1x8x128_S1 hφ hacc j
      = ∑ i : S8x128.Idx, v7 i :=
  (Ideal.multiReduction_add_total _ _ reduces_S1x8x128_S1 (by decide) hφ hacc j).trans (sum_shapeCast _ _)

/-- The scalar the body stores: both reductions run over every element of their operand (the kept axis has
    extent one), the shape casts only re-index, and the extraction reads the one element. -/
theorem pay_eq (v0 : Vec Ideal S1x1024 .f32) (v7 : Vec Ideal S8x128 .f32) :
    k2_pay1 (F := Ideal) v0 v7
      = Ideal.div ((∑ i : S1x1024.Idx, Ideal.log (v0 i)) - ∑ i : S8x128.Idx, v7 i)
          (Ideal.ofBits .f32 0x44800000#32) := by
  unfold k2_pay1
  simp only [extractAt, shapeCast_self]
  exact congrArg₂ (fun a b : EReal => Ideal.div (a - b) (Ideal.ofBits .f32 0x44800000#32))
    (red_se v0 _ _ _) (red_pk v7 _ _ _)

/-- The divisor: the float constant 1024.0 is the real number 1024. -/
theorem ofBits_1024 : Ideal.ofBits .f32 0x44800000#32 = ((1024 : ℝ) : EReal) := by
  simp [Ideal.ofBits, Ideal.ieee, -EReal.coe_mul]; norm_num

/-! ## The loss word after the region -/

section
variable {Ix : Type} [DecidableEq Ix] {Name : Type} [DecidableEq Name] {U : Type} [URA U] {Lvl : Type}
variable (c : Dev nD) (A : Arrs Ideal c) (O : CellTallies nD τ sig Ix) (B : Set (SemLoc sig × Ix))

/-- The picked logits [8,128] and the row sums [8,1024] as the region finds them, as functions of an index. -/
abbrev pkOf {c : Dev nD} (A : Arrs Ideal c) : S8x128.Idx → EReal := A 0
abbrev seOf {c : Dev nD} (A : Arrs Ideal c) : S8x1024.Idx → EReal := A 1

/-- The loss as a formula of the two input arrays as the region finds them. -/
def lossOf {c : Dev nD} (A : Arrs Ideal c) : EReal :=
  Ideal.div ((∑ b : Fin 1024, Ideal.log (seOf A (ix2 0 b))) - ∑ i : S8x128.Idx, pkOf A i) ((1024 : ℝ) : EReal)

/-- The window of the picked logits is the whole array: its block is the array. -/
theorem iblk2_0 (t : Fin cfg2.N) (j : S8x128.Idx) : iblk A 0 t j = pkOf A j := by
  show pkOf A (((cfg2.win 0).blk t).view.emb j) = _
  congr 1
  funext a; apply Fin.ext
  match a with
  | ⟨0, _⟩ => show 0 * 8 + 1 * (j 0).val = (j 0).val; omega
  | ⟨1, _⟩ => show 0 * 128 + 1 * (j 1).val = (j 1).val; omega

/-- The window of the row sums is the whole array likewise. -/
theorem iblk2_1 (t : Fin cfg2.N) (j : S8x1024.Idx) : iblk A 1 t j = seOf A j := by
  show seOf A (((cfg2.win 1).blk t).view.emb j) = _
  congr 1
  funext a; apply Fin.ext
  match a with
  | ⟨0, _⟩ => show 0 * 8 + 1 * (j 0).val = (j 0).val; omega
  | ⟨1, _⟩ => show 0 * 1024 + 1 * (j 1).val = (j 1).val; omega

theorem hz2 : (![0, 0] : Fin 2 → Nat) = fun _ => 0 := funext fun a => by fin_cases a <;> rfl

/-- What the one point writes back is the loss formula, at the word's one index. -/
theorem flushed2_eq (t : Fin cfg2.N) :
    (dat2 (Name := Name) (U := U) (Lvl := Lvl) c A O B).flushed 2 t
      = ((cfg2.win 2).blk t).view.read (Elt Ideal) (fun _ => lossOf A) := by
  show (cfg2.win 2).cut (grid2.coords t) ((dat2 (Name := Name) (U := U) (Lvl := Lvl) c A O B).after 2 t) = _
  rw [after2_2]
  unfold outLoss
  rw [View.canon_unit_zero hz2]
  funext j
  show k2_pay1 (F := Ideal) (View.ld (iblk A 1 t) rSe) (View.ld (iblk A 0 t) rPk) = lossOf A
  rw [pay_eq, ofBits_1024]
  unfold lossOf
  have e1 : ∑ i : S1x1024.Idx, Ideal.log (View.ld (iblk A 1 t) rSe i) = ∑ b : Fin 1024, Ideal.log (seOf A (ix2 0 b)) := by
    rw [sum_idx2, Fin.sum_univ_one]
    refine Finset.sum_congr rfl fun b _ => ?_
    show Ideal.log (iblk A 1 t (rSe.emb (ix2 0 b))) = _
    rw [iblk2_1]
    congr 2
    funext a; apply Fin.ext
    match a with
    | ⟨0, _⟩ => show 0 + 1 * 0 = 0; rfl
    | ⟨1, _⟩ => show 0 + 1 * b.val = b.val; omega
  rw [e1, View.ld_unit_zero (S := S8x128) hz2]
  simp only [iblk2_0]

/-- THE LOSS WORD after the region: the loss formula of the two input arrays. -/
theorem arrAt2_loss :
    (dat2 (Name := Name) (U := U) (Lvl := Lvl) c A O B).arrAt 2 cfg2.N = fun _ => lossOf A :=
  (dat2 (Name := Name) (U := U) (Lvl := Lvl) c A O B).arrAt_eq_of_cover 2 _ (fun t _ => flushed2_eq c A O B t) (fun i => by
    refine ⟨t2_0, flush2_2 t2_0, ?_⟩
    show i ∈ ((View.whole main_v5).slice (win2_2.rect t2_0)).set
    rw [View.set_slice_whole, Rect.mem_set_unit]
    intro a
    match a with
    | ⟨0, _⟩ =>
      have h0 : (i 0).val < 1 := (i 0).isLt
      show 0 * 1 ≤ (i 0).val ∧ (i 0).val < 0 * 1 + 1
      omega
    | ⟨1, _⟩ =>
      have h1 : (i 1).val < 1 := (i 1).isLt
      show 0 * 1 ≤ (i 1).val ∧ (i 1).val < 0 * 1 + 1
      omega)

/-- The input arrays are as the region found them: neither window writes back. -/
theorem arrAt2_pk (n : Nat) : (dat2 (Name := Name) (U := U) (Lvl := Lvl) c A O B).arrAt 0 n = A 0 :=
  ((dat2 (Name := Name) (U := U) (Lvl := Lvl) c A O B).arrAt_in 0 rfl n).trans rfl
theorem arrAt2_se (n : Nat) : (dat2 (Name := Name) (U := U) (Lvl := Lvl) c A O B).arrAt 1 n = A 1 :=
  ((dat2 (Name := Name) (U := U) (Lvl := Lvl) c A O B).arrAt_in 1 rfl n).trans rfl

end

/-! ## The picked logits arrive reshaped -/

/-- The reshape [1024] → [8,128] read at row `r`, lane `l`: element `128 r + l` of the operand. -/
theorem reshape_picked_apply {α : Type} (p : S1024.Idx → α) (h : S1024.ShapeCasts S8x128) (r : Fin 8) (l : Fin 128) :
    shapeCast S8x128 p h (ix2 r l) = p (ix1 ⟨r.val * 128 + l.val, by omega⟩) :=
  shapeCast_apply p h _ _ (by rw [Shape.rowMajor_val_one, Shape.rowMajor_val_two]; rfl)

/-- So the sum of all 1024 entries of the reshaped array is the sum over the 1024 batch rows. -/
theorem sum_reshape_picked (p : S1024.Idx → EReal) (h : S1024.ShapeCasts S8x128) :
    ∑ i : S8x128.Idx, shapeCast S8x128 p h i = ∑ b : Fin 1024, p (ix1 b) :=
  (sum_shapeCast p h).trans (sum_idx1 p)

/-- THE LOSS against the specification: when row 0 of the row sums holds the partition sums and the picked logits are
    the reshaped targets' logits, the region's loss formula is the specification's loss. -/
theorem lossOf_eq_spec {c : Dev nD} (A : Arrs Ideal c) (x : Cert.Spec.Xs) (tg : Cert.Spec.Ts) (f : Cert.Spec.Fs)
    (h : S1024.ShapeCasts S8x128) (p : S1024.Idx → EReal)
    (hse : ∀ b : Fin 1024, seOf A (ix2 0 b) = Cert.Spec.sumExp x f b)
    (hp : ∀ b : Fin 1024, p (ix1 b) = Cert.Spec.picked x tg f b)
    (hpk : pkOf A = shapeCast S8x128 p h) :
    lossOf A = Cert.Spec.loss x tg f := by
  unfold lossOf Cert.Spec.loss
  rw [hpk, sum_reshape_picked]
  simp only [hse, hp]

end Cert.KernelIdeal.Tc2

end
-- ==== Proof.HostTail.lean ====
/- The host operations after the combine region, read as pure functions at an index:
   the transpose of the logits [100000,1024] → [1024,100000], the reshape of the loss [1,1] → [],
   the comparison of the loss with itself and the select that replaces a NaN by zero. At the ideal
   values a number differs from itself never, so the select returns the loss. -/
import proofs.«204472_g16080357556532_cont_week2b_336_33_alg».proof.KernelIdeal
import Idealize.ShloMosaic.Lib.Pipeline.Value
import Idealize.ShloMosaic.Lib.ValueIdx

noncomputable section

namespace Cert.KernelIdeal.HostTail

open Cert.KernelIdeal
open Idealize.ShloMosaic Idealize.ShloMosaic.ValueIdx

/-! ## The transpose of the logits -/

/-- `%6 = stablehlo.transpose %2#0, dims = [1, 0]` read at row `b`, column `n`: the operand at row `n`, column `b`. -/
theorem transpose_outT {α : Type} (h : S100000x1024.Transposes [1, 0] S1024x100000) (x : S100000x1024.Idx → α)
    (b : Fin 1024) (n : Fin 100000) :
    transpose S1024x100000 [1, 0] x h (ix2 b n) = x (ix2 n b) :=
  transpose_apply [1, 0] x h (ix2 b n) (ix2 n b)
    (fun a => match a with | ⟨0, _⟩ => rfl | ⟨1, _⟩ => rfl)

/-- The same at any index of the result. -/
theorem transpose_outT_apply {α : Type} (h : S100000x1024.Transposes [1, 0] S1024x100000) (x : S100000x1024.Idx → α)
    (i : S1024x100000.Idx) :
    transpose S1024x100000 [1, 0] x h i = x (ix2 (i 1) (i 0)) := by
  conv_lhs => rw [eq_ix2 i]
  exact transpose_outT h x (i 0) (i 1)

/-! ## The reshape of the loss -/

/-- The 1×1 shape has one index. -/
theorem idx_S1x1 (k : S1x1.Idx) : k = ix2 0 0 := by
  funext a; apply Fin.ext
  match a with
  | ⟨0, _⟩ => have := idx2_lt0 k; show (k 0).val = 0; omega
  | ⟨1, _⟩ => have := idx2_lt1 k; show (k 1).val = 0; omega

/-- `%7 = stablehlo.reshape %5 : (tensor<1x1xf32>) -> tensor<f32>` read at the scalar's one index: the one word. -/
theorem reshape_loss {α : Type} (h : S1x1.ShapeCasts S_) (x : S1x1.Idx → α) (i : S_.Idx) :
    shapeCast S_ x h i = x (ix2 0 0) :=
  congrArg x (idx_S1x1 _)

/-! ## The NaN guard -/

/-- At the ideal values the comparison `NE` of a value with itself is the bit `0`. -/
theorem cmp_une_self (v : EReal) : Ideal.cmp .une v v = 0#1 := by
  unfold Ideal.cmp; simp

/-- `%8 = stablehlo.compare NE, %7, %7` then `%9 = stablehlo.select %8, %cst, %7`: the select returns `%7`,
    whatever extended real it is. -/
theorem where_self (v : FVec Ideal S_ .f32) :
    select (cmpf (F := Ideal) .une v v) (constant (F := Ideal) S_ .f32 0x00000000#32) v = v := by
  funext i
  show Scalar.select (Ideal.cmp .une (v i) (v i)) _ (v i) = v i
  rw [cmp_une_self, select_zero]

/-- The whole tail of the loss: reshape, compare with itself, select. Its one element is the loss word. -/
theorem tail_loss (h : S1x1.ShapeCasts S_) (x : FVec Ideal S1x1 .f32) (i : S_.Idx) :
    select (cmpf (F := Ideal) .une (shapeCast S_ x h) (shapeCast S_ x h))
      (constant (F := Ideal) S_ .f32 0x00000000#32) (shapeCast S_ x h) i = x (ix2 0 0) := by
  rw [where_self]; exact reshape_loss h x i

end Cert.KernelIdeal.HostTail

end
-- ==== Proof.RefPre.lean ====
/-
  The precondition, decoded: every entry of the inputs and of the memory bank is a real number (neither
  infinity nor a junk value), and every target names a row of the bank.
-/
import proofs.«204472_g16080357556532_cont_week2b_336_33_alg».proof.Defs
import proofs.«204472_g16080357556532_cont_week2b_336_33_alg».proof.Proof.Gen.Pre_input_domain
import proofs.«204472_g16080357556532_cont_week2b_336_33_alg».proof.Proof.Spec
import Idealize.ShloMosaic.Lib.ReduceAll
import Idealize.ShloMosaic.Lib.StableHlo.Predicate
import Idealize.ShloMosaic.PureOps.Ideal.Laws

noncomputable section

namespace Cert.RefPre

open Idealize.ShloMosaic Idealize.SL.Sem Idealize.ShloMosaic.ValueIdx

/-- The rank-zero result of the predicate has one index. -/
instance : Subsingleton Cert.Pre_input_domain.S_.Idx := ⟨fun _ _ => funext fun d => d.elim0⟩

/-- The integer conjunct of the precondition, at any float instance: every target, read signed, is at least
    `0` and at most `99999`, so read unsigned it names a row of the bank. -/
theorem t_range_of_pre {F : FTy → Type} [FloatOps F] (x : FVec F Cert.Pre_input_domain.S1024x64 .f32)
    (t : IVec Cert.Pre_input_domain.S1024 32) (f : FVec F Cert.Pre_input_domain.S100000x64 .f32)
    (h : Cert.Pre_input_domain.fn (F := F) x t f = fun _ => 1#1) :
    ∀ i, 0 ≤ (t i).toInt ∧ (t i).toNat < 100000 := by
  intro i
  have h0 := congrFun h ix0
  dsimp only [Cert.Pre_input_domain.fn] at h0
  obtain ⟨-, h14⟩ := IntOp.andi_eq_one.1 h0
  have h13 := Host.reduce_andi_all _ _ _ _ _ h14 i
  obtain ⟨hge, hle⟩ := IntOp.andi_eq_one.1 h13
  have hge' : (0#32 : BitVec 32).toInt ≤ (t i).toInt := IntOp.cmpi_sge.1 hge
  have hle' : (t i).toInt ≤ (99999#32 : BitVec 32).toInt := IntOp.cmpi_sle.1 hle
  have e0 : (0#32 : BitVec 32).toInt = 0 := by decide
  have e1 : (99999#32 : BitVec 32).toInt = 99999 := by decide
  rw [e0] at hge'
  rw [e1] at hle'
  refine ⟨hge', ?_⟩
  have hc := BitVec.toInt_eq_toNat_cond (t i)
  have hlt := (t i).isLt
  split at hc <;> omega

/-- An extended real whose absolute value compares below `+∞` is a real number. -/
theorem real_of_abs_lt_inf {a : EReal}
    (h : FloatOps.cmpf (F := Ideal) (φ := .f32) .olt (FloatOps.hostAbsf a) (FloatOps.ofBits .f32 0x7F800000#32) = 1#1) :
    ∃ r : ℝ, a = (r : EReal) := by
  have htop : Ideal.ofBits .f32 0x7F800000#32 = ⊤ := by simp [Ideal.ofBits, Ideal.ieee]
  have h1 : max a (-a) < ⊤ := by
    rw [Ideal.cmpf_def, Ideal.hostAbsf_def, Ideal.absf_def, Ideal.ofBits_def, htop] at h
    exact of_decide_eq_true ((StableHlo.Predicate.ofBool_eq_one_iff _).1 h)
  obtain ⟨h2, h3⟩ := max_lt_iff.1 h1
  induction a using EReal.rec with
  | bot => exact absurd h3 (by simp)
  | coe r => exact ⟨r, rfl⟩
  | top => exact absurd h2 (lt_irrefl _)

/-- What the precondition says of the three argument arrays: the floats are real numbers, the targets lie in
    `[0, 100000)`. -/
structure Admitted (x : Cert.Spec.Xs) (t : Cert.Spec.Ts) (f : Cert.Spec.Fs) : Prop where
  x_real : ∀ i, ∃ r : ℝ, x i = (r : EReal)
  f_real : ∀ i, ∃ r : ℝ, f i = (r : EReal)
  t_range : ∀ i, 0 ≤ (t i).toInt ∧ (t i).toNat < 100000

/-- The printed predicate, all ones, says exactly that. -/
theorem decode (x : Cert.Spec.Xs) (t : Cert.Spec.Ts) (f : Cert.Spec.Fs)
    (h : Cert.Pre_input_domain.fn (F := Ideal) x t f = fun _ => 1#1) : Admitted x t f := by
  refine ⟨fun i => ?_, fun i => ?_, t_range_of_pre (F := Ideal) x t f h⟩
  · have h0 := congrFun h ix0
    dsimp only [Cert.Pre_input_domain.fn] at h0
    obtain ⟨h8, -⟩ := IntOp.andi_eq_one.1 h0
    obtain ⟨h3, -⟩ := IntOp.andi_eq_one.1 h8
    have h3' := Host.reduce_andi_all _ _ _ _ _ h3 i
    have h3'' : FloatOps.cmpf (F := Ideal) (φ := .f32) .olt (FloatOps.hostAbsf (x i))
        (FloatOps.ofBits .f32 0x7F800000#32) = 1#1 := h3'
    exact real_of_abs_lt_inf h3''
  · have h0 := congrFun h ix0
    dsimp only [Cert.Pre_input_domain.fn] at h0
    obtain ⟨h8, -⟩ := IntOp.andi_eq_one.1 h0
    obtain ⟨-, h7⟩ := IntOp.andi_eq_one.1 h8
    have h7' := Host.reduce_andi_all _ _ _ _ _ h7 i
    have h7'' : FloatOps.cmpf (F := Ideal) (φ := .f32) .olt (FloatOps.hostAbsf (f i))
        (FloatOps.ofBits .f32 0x7F800000#32) = 1#1 := h7'
    exact real_of_abs_lt_inf h7''

/-- The reference's precondition, decoded on each device. -/
theorem of_pre_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Admitted (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2)) :=
  decode _ _ _ (h c)

/-- The kernel's precondition at the ideal instance, decoded on each device. -/
theorem of_pre_kernel (m : (ℓ : Loc Cert.KernelIdeal.nD Cert.KernelIdeal.τ Cert.KernelIdeal.sig) → Buf (Elt Ideal) ℓ)
    (h : Cert.Pre_KernelIdeal m) (c : Dev Cert.KernelIdeal.nD) :
    Admitted (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
  decode _ _ _ (h c)

/-- The kernel's precondition at the bit-exact instance: the targets' range, on each device. -/
theorem of_pre_kernel_bits (m : (ℓ : Loc Cert.Kernel.nD Cert.Kernel.τ Cert.Kernel.sig) → Buf (Elt Bits) ℓ)
    (h : Cert.Pre_Kernel m) (c : Dev Cert.Kernel.nD) :
    ∀ i, 0 ≤ ((m ((c.tc : Thread Cert.Kernel.nD Cert.Kernel.τ).loc Cert.Kernel.main_arg1) :
        (⟨1, ![1024]⟩ : Shape).Idx → BitVec 32) i).toInt
      ∧ ((m ((c.tc : Thread Cert.Kernel.nD Cert.Kernel.τ).loc Cert.Kernel.main_arg1) :
        (⟨1, ![1024]⟩ : Shape).Idx → BitVec 32) i).toNat < 100000 :=
  t_range_of_pre (F := Bits) _ _ _ (h c)

end Cert.RefPre

end
-- ==== Proof.ValueChain.lean ====
/-
  From what the launch delivers at the end of @main to the specification's values, at the ideal instance.
  The program's arrays pass through these contents: the two transposes of the inputs and of the memory bank; the
  logits region writes the logits bank-major and eight copies of the partition sums; the picking kernel reads, at
  position j, the logit of row targets[j], column j; the reshape lays the 1024 picked logits out as 8 × 128; the
  combine region writes the loss; the host tail transposes the logits and guards the loss against a NaN.
  Read index by index, the loss is the specification's loss and the transposed logits are its outputs.
-/
import proofs.«204472_g16080357556532_cont_week2b_336_33_alg».proof.Proof.LaunchOps
import proofs.«204472_g16080357556532_cont_week2b_336_33_alg».proof.Proof.RegionInst
import proofs.«204472_g16080357556532_cont_week2b_336_33_alg».proof.Proof.RegionInstV
import proofs.«204472_g16080357556532_cont_week2b_336_33_alg».proof.Proof.Tc2Value
import proofs.«204472_g16080357556532_cont_week2b_336_33_alg».proof.Proof.HostTail
import proofs.«204472_g16080357556532_cont_week2b_336_33_alg».proof.Proof.Spec
import proofs.«204472_g16080357556532_cont_week2b_336_33_alg».proof.Proof.RefPre
import proofs.«204472_g16080357556532_cont_week2b_336_33_alg».proof.Proof.ScTile
import proofs.«204472_g16080357556532_cont_week2b_336_33_alg».proof.Proof.Tc0Value
import Idealize.ShloMosaic.Lib.StableHlo.Run

noncomputable section

namespace Cert.KernelIdeal.ValueChain

open Cert.KernelIdeal Cert.KernelIdeal.Gen Cert.KernelIdeal.LaunchSetup Cert.KernelIdeal.LaunchOps
open Cert.KernelIdeal.ScTile (pickOf pickOf_apply tgLoc)

open Idealize.ShloMosaic Idealize.ShloMosaic.ValueIdx
open Idealize.ShloMosaic.SparseCore.Cfg (HIx)
open Idealize.SL Idealize.SL.RA Idealize.SL.Sem
open Idealize.ShloMosaic.Pipeline (Dat)
open scoped BigOperators

variable (m : (ℓ : Loc nD τ sig) → Buf (Elt Ideal) ℓ) (d : Dev nD)

/-- The three arguments on device `d`, as the specification's index functions. -/
abbrev xOf : Cert.Spec.Xs := m ((d.tc : Thread nD τ).loc main_arg0)
abbrev tOf : Cert.Spec.Ts := m ((d.tc : Thread nD τ).loc main_arg1)
abbrev fOf : Cert.Spec.Fs := m ((d.tc : Thread nD τ).loc main_arg2)

/-! ## The logits region's entry arrays are the two transposes -/

/-- Window 0 of the logits region holds the inputs transposed. -/
theorem A0of_x (dd : Fin 64) (b : Fin 1024) : A0of m d 0 (ix2 dd b) = xOf m d (ix2 b dd) := by
  show V2 m d (rf main_v0) (ix2 dd b) = _
  unfold V2
  rw [StableHlo.unary_result_ne (h := (by decide : main_v0 ≠ main_v1)), StableHlo.unary_result]
  exact transpose_apply [1, 0] _ _ (ix2 dd b) (ix2 b dd) (fun a => match a with | ⟨0, _⟩ => rfl | ⟨1, _⟩ => rfl)

/-- Window 1 holds the memory bank transposed. -/
theorem A0of_f (dd : Fin 64) (n : Fin 100000) : A0of m d 1 (ix2 dd n) = fOf m d (ix2 n dd) := by
  show V2 m d (rf main_v1) (ix2 dd n) = _
  unfold V2
  rw [StableHlo.unary_result]
  refine (transpose_apply [1, 0] _ _ (ix2 dd n) (ix2 n dd) (fun a => match a with | ⟨0, _⟩ => rfl | ⟨1, _⟩ => rfl)).trans ?_
  rw [StableHlo.unary_result_ne (h := (by decide : main_arg2 ≠ main_v0))]
  rfl

/-! ## The valuations at the references the chain reads -/

section Vals
variable (ot : (rf main_v2_0).ty.Contents (Elt Ideal)) (se : (rf main_v2_1).ty.Contents (Elt Ideal))
  (pk : (rf main_v3).ty.Contents (Elt Ideal)) (ls : (rf main_v5).ty.Contents (Elt Ideal))

theorem V3_ot : V3 m d ot se (rf main_v2_0) = ot := by
  unfold V3
  rw [Function.update_of_ne (StableHlo.devRef_ne_of_ne (by decide : main_v2_0 ≠ main_v2_1)), Function.update_self]
theorem V3_se : V3 m d ot se (rf main_v2_1) = se := by
  unfold V3; rw [Function.update_self]
theorem V4_ot : V4 m d ot se pk (rf main_v2_0) = ot := by
  unfold V4; rw [Function.update_of_ne (StableHlo.devRef_ne_of_ne (by decide : main_v2_0 ≠ main_v3)), V3_ot]
theorem V4_se : V4 m d ot se pk (rf main_v2_1) = se := by
  unfold V4; rw [Function.update_of_ne (StableHlo.devRef_ne_of_ne (by decide : main_v2_1 ≠ main_v3)), V3_se]
theorem V4_pk : V4 m d ot se pk (rf main_v3) = pk := by
  unfold V4; rw [Function.update_self]
theorem V5_ot : V5 m d ot se pk (rf main_v2_0) = ot := by
  unfold V5; rw [StableHlo.reshape_result_ne (h := (by decide : main_v2_0 ≠ main_v4)), V4_ot]
theorem V5_se : V5 m d ot se pk (rf main_v2_1) = se := by
  unfold V5; rw [StableHlo.reshape_result_ne (h := (by decide : main_v2_1 ≠ main_v4)), V4_se]
theorem V5_pk : V5 m d ot se pk (rf main_v4) = shapeCast S8x128 pk shapeCasts_S1024_S8x128 := by
  unfold V5; rw [StableHlo.reshape_result, V4_pk]; rfl
theorem V6_ot : V6 m d ot se pk ls (rf main_v2_0) = ot := by
  unfold V6; rw [Function.update_of_ne (StableHlo.devRef_ne_of_ne (by decide : main_v2_0 ≠ main_v5)), V5_ot]
theorem V6_ls : V6 m d ot se pk ls (rf main_v5) = ls := by
  unfold V6; rw [Function.update_self]

end Vals

/-! ## The chain -/

/-- THE VALUES at the end of @main, from what the two regions' relational data allow of their output arrays:
    the loss word is the specification's loss and the transposed logits are its outputs. The logits region's values
    (the first output is the logits bank-major, every row of the second the partition sums) enter as `hOut`, `hSum`. -/
theorem value_chain
    (hadm : Cert.RefPre.Admitted (xOf m d) (tOf m d) (fOf m d))
    (O0 O2 : CellTallies nD τ sig (HIx 1)) (B0 B2 : Set (SemLoc sig × HIx 1))
    (ot : (rf main_v2_0).ty.Contents (Elt Ideal)) (se : (rf main_v2_1).ty.Contents (Elt Ideal))
    (ls : (rf main_v5).ty.Contents (Elt Ideal))
    (hOut : (Tc0.datV (F := Ideal) (Name := ℕ) (U := UU) (Lvl := ℕ) d (A0of m d) O0 B0).arrAt 2 cfg0.N
      = Cert.Spec.outT (xOf m d) (fOf m d))
    (hSum : ∀ (r : Fin 8) (b : Fin 1024),
      (Tc0.datV (F := Ideal) (Name := ℕ) (U := UU) (Lvl := ℕ) d (A0of m d) O0 B0).arrAt 3 cfg0.N (ix2 r b)
        = Cert.Spec.sumExp (xOf m d) (fOf m d) b)
    (h2 : (RegionInstV.rd0V d (A0of m d) O0 B0).ArrAt 2 cfg0.N ot)
    (h3 : (RegionInstV.rd0V d (A0of m d) O0 B0).ArrAt 3 cfg0.N se)
    (hl : (RegionInst.rd2 d (A2of m d ot se (pickOf (m (tgLoc d)) ot)) O2 B2).ArrAt 2 cfg2.N ls) :
    Vfin m d ot se (pickOf (m (tgLoc d)) ot) ls (rf main_v9) = (fun _ => Cert.Spec.loss (xOf m d) (tOf m d) (fOf m d))
      ∧ Vfin m d ot se (pickOf (m (tgLoc d)) ot) ls (rf main_v6) = Cert.Spec.outputs (xOf m d) (fOf m d) := by
  -- the logits region's outputs
  have hot : ot = Cert.Spec.outT (xOf m d) (fOf m d) :=
    ((RegionInstV.rd0V_ArrAt d (A0of m d) O0 B0 2 cfg0.N ot).mp h2).trans hOut
  have hse : ∀ (r : Fin 8) (b : Fin 1024), (se : S8x1024.Idx → EReal) (ix2 r b) = Cert.Spec.sumExp (xOf m d) (fOf m d) b :=
    fun r b => by rw [(RegionInstV.rd0V_ArrAt d (A0of m d) O0 B0 3 cfg0.N se).mp h3]; exact hSum r b
  subst hot
  -- the picked logits
  have hpk : ∀ b : Fin 1024, pickOf (F := Ideal) (m (tgLoc d)) (Cert.Spec.outT (xOf m d) (fOf m d)) (ix1 b)
      = Cert.Spec.picked (xOf m d) (tOf m d) (fOf m d) b := fun b => by
    have hr : ((tOf m d) (ix1 b)).toNat < 100000 := (hadm.t_range (ix1 b)).2
    rw [pickOf_apply _ _ _ hr]
    unfold Cert.Spec.picked
    rw [dif_pos hr]
    rfl
  -- the combine region's arrays and the loss
  have hA2pk : Tc2.pkOf (A2of m d (Cert.Spec.outT (xOf m d) (fOf m d)) se (pickOf (m (tgLoc d)) (Cert.Spec.outT (xOf m d) (fOf m d))))
      = shapeCast S8x128 (pickOf (F := Ideal) (m (tgLoc d)) (Cert.Spec.outT (xOf m d) (fOf m d))) shapeCasts_S1024_S8x128 :=
    V5_pk m d _ se _
  have hA2se : ∀ b : Fin 1024, Tc2.seOf (A2of m d (Cert.Spec.outT (xOf m d) (fOf m d)) se (pickOf (m (tgLoc d)) (Cert.Spec.outT (xOf m d) (fOf m d)))) (ix2 0 b)
      = Cert.Spec.sumExp (xOf m d) (fOf m d) b := fun b => by
    show V5 m d _ se _ (rf main_v2_1) (ix2 0 b) = _
    rw [V5_se]; exact hse 0 b
  have hls : ls = fun _ => Cert.Spec.loss (xOf m d) (tOf m d) (fOf m d) := by
    rw [RegionInst.rd2_ArrAt_eq d _ O2 B2 2 cfg2.N ls hl, Tc2.arrAt2_loss]
    funext _
    exact Tc2.lossOf_eq_spec _ _ _ _ shapeCasts_S1024_S8x128 _ hA2se hpk hA2pk
  subst hls
  refine ⟨?_, ?_⟩
  · -- the loss through the reshape, the comparison with itself and the select
    unfold Vfin
    funext i
    rw [StableHlo.ternary_result]
    rw [StableHlo.nullary_result_ne (h := (by decide : main_v8 ≠ main_cst)), StableHlo.binary_result,
      StableHlo.nullary_result, StableHlo.nullary_result_ne (h := (by decide : main_v7 ≠ main_cst)),
      StableHlo.binary_result_ne (h := (by decide : main_v7 ≠ main_v8)), StableHlo.reshape_result,
      StableHlo.unary_result_ne (h := (by decide : main_v5 ≠ main_v6)), V6_ls]
    exact HostTail.tail_loss shapeCasts_S1x1_S_ (fun _ => Cert.Spec.loss (xOf m d) (tOf m d) (fOf m d)) i
  · -- the logits through the last transpose
    unfold Vfin
    rw [StableHlo.ternary_result_ne (h := (by decide : main_v6 ≠ main_v9)),
      StableHlo.nullary_result_ne (h := (by decide : main_v6 ≠ main_cst)),
      StableHlo.binary_result_ne (h := (by decide : main_v6 ≠ main_v8)),
      StableHlo.reshape_result_ne (h := (by decide : main_v6 ≠ main_v7)),
      StableHlo.unary_result, V6_ot]
    funext i
    rw [HostTail.transpose_outT_apply]
    rfl

/-- THE VALUES at the end of @main, closed: the logits region's values are the bank-major logits and the partition
    sums, since its entry arrays are the two transposes. -/
theorem value_chain'
    (hadm : Cert.RefPre.Admitted (xOf m d) (tOf m d) (fOf m d))
    (O0 O2 : CellTallies nD τ sig (HIx 1)) (B0 B2 : Set (SemLoc sig × HIx 1))
    (ot : (rf main_v2_0).ty.Contents (Elt Ideal)) (se : (rf main_v2_1).ty.Contents (Elt Ideal))
    (ls : (rf main_v5).ty.Contents (Elt Ideal))
    (h2 : (RegionInstV.rd0V d (A0of m d) O0 B0).ArrAt 2 cfg0.N ot)
    (h3 : (RegionInstV.rd0V d (A0of m d) O0 B0).ArrAt 3 cfg0.N se)
    (hl : (RegionInst.rd2 d (A2of m d ot se (pickOf (m (tgLoc d)) ot)) O2 B2).ArrAt 2 cfg2.N ls) :
    Vfin m d ot se (pickOf (m (tgLoc d)) ot) ls (rf main_v9) = (fun _ => Cert.Spec.loss (xOf m d) (tOf m d) (fOf m d))
      ∧ Vfin m d ot se (pickOf (m (tgLoc d)) ot) ls (rf main_v6) = Cert.Spec.outputs (xOf m d) (fOf m d) :=
  value_chain m d hadm O0 O2 B0 B2 ot se ls
    (Tc0V.arrAt_out (Name := ℕ) (U := UU) (Lvl := ℕ) d (A0of m d) (xOf m d) (fOf m d) (A0of_x m d) (A0of_f m d) O0 B0)
    (fun r b => Tc0V.arrAt_se8 (Name := ℕ) (U := UU) (Lvl := ℕ) d (A0of m d) (xOf m d) (fOf m d) (A0of_x m d) (A0of_f m d) O0 B0 r b)
    h2 h3 hl

end Cert.KernelIdeal.ValueChain

end
-- ==== Proof.RefMath.lean ====
/-
  The mathematics that joins the reference's arrangement of the loss to the specification's.

  The reference divides each input row by its norm, takes the dot products with the bank rows, divides by the
  temperature, and then takes a log-softmax with the row maximum subtracted first:
  `(z − M) − log ∑ exp (z − M)`. The specification folds the reciprocal of the temperature into the
  normalised row and writes `z − log ∑ exp z`. For real inputs every intermediate value is a real number,
  the two arrangements of the logits agree by the field laws, and the shift by any real `M` cancels:
  `∑ exp (z − M) = (∑ exp z) / exp M`, so `log ∑ exp (z − M) = log ∑ exp z − M`.
-/
import proofs.«204472_g16080357556532_cont_week2b_336_33_alg».proof.Proof.Spec
import Idealize.ShloMosaic.PureOps.Ideal.Laws

noncomputable section

namespace Cert.RefMath

open Idealize.ShloMosaic Idealize.ShloMosaic.ValueIdx Cert.Spec

/-- A finite sum of real numbers taken in the extended reals is the real sum. -/
theorem coe_sum {ι : Type*} (s : Finset ι) (g : ι → ℝ) :
    (∑ i ∈ s, ((g i : ℝ) : EReal)) = ((∑ i ∈ s, g i : ℝ) : EReal) := by
  classical
  refine Finset.induction_on s (by simp) (fun a s ha ih => ?_)
  rw [Finset.sum_insert ha, Finset.sum_insert ha, ih, EReal.coe_add]

/-! ## The three single-precision words the programs carry -/

/-- The floor of the norm is a positive real. -/
theorem eps_pos : ∃ e : ℝ, 0 < e ∧ eps = (e : EReal) := by
  refine ⟨9223372 / 9223372036854775808, by norm_num, ?_⟩
  unfold eps
  simp [Ideal.ofBits, Ideal.ieee, -EReal.coe_mul]
  norm_num

/-- The temperature `0.05` in single precision is `13421773 / 2 ^ 28`. -/
theorem temp_eq : Ideal.ofBits .f32 0x3D4CCCCD#32 = ((13421773 / 268435456 : ℝ) : EReal) := by
  simp [Ideal.ofBits, Ideal.ieee, -EReal.coe_mul]
  norm_num

/-- The batch size as a single-precision word. -/
theorem batch_eq : Ideal.ofBits .f32 0x44800000#32 = ((1024 : ℝ) : EReal) := by
  simp [Ideal.ofBits, Ideal.ieee, -EReal.coe_mul]
  norm_num

/-! ## Real inputs give real intermediate values -/

section Logits
variable {x : Xs} {f : Fs}

/-- The norm of a row of real numbers, kept at least `eps`, is a positive real. -/
theorem nrm_real (hx : ∀ i, ∃ r : ℝ, x i = (r : EReal)) (b : Fin 1024) :
    ∃ ν : ℝ, 0 < ν ∧ nrm x b = (ν : EReal) := by
  choose xr hxr using hx
  obtain ⟨e, he, hee⟩ := eps_pos
  refine ⟨max (Real.sqrt (∑ d : Fin 64, xr (ix2 b d) * xr (ix2 b d))) e, lt_max_of_lt_right he, ?_⟩
  have h1 : (∑ d : Fin 64, x (ix2 b d) * x (ix2 b d))
      = ((∑ d : Fin 64, xr (ix2 b d) * xr (ix2 b d) : ℝ) : EReal) := by
    rw [← coe_sum]
    exact Finset.sum_congr rfl fun d _ => by rw [hxr, EReal.coe_mul]
  unfold nrm
  rw [h1, Ideal.sqrt_coe, if_neg (not_lt.mpr (Finset.sum_nonneg fun d _ => mul_self_nonneg _)), hee]
  exact (EReal.coe_strictMono.monotone.map_max).symm

/-- The logit over real inputs, as a real number: the norm `ν` enters through `κ · (1 / ν)`. -/
theorem logit_coe {xr : (⟨2, ![1024, 64]⟩ : Shape).Idx → ℝ} {fr : (⟨2, ![100000, 64]⟩ : Shape).Idx → ℝ}
    (hxr : ∀ i, x i = (xr i : EReal)) (hfr : ∀ i, f i = (fr i : EReal)) {b : Fin 1024} {ν : ℝ} (hν : 0 < ν)
    (hn : nrm x b = (ν : EReal)) (n : Fin 100000) :
    logit x f n b
      = ((∑ d : Fin 64, fr (ix2 n d) * (xr (ix2 b d) * (268435456 / 13421773 * (1 / ν))) : ℝ) : EReal) := by
  unfold logit xs kappa
  rw [hn, Ideal.div_coe hν.ne', ← coe_sum]
  refine Finset.sum_congr rfl fun d _ => ?_
  rw [hxr, hfr, ← EReal.coe_mul, ← EReal.coe_mul, ← EReal.coe_mul]

/-- Logits over real inputs are real. -/
theorem logit_real (hx : ∀ i, ∃ r : ℝ, x i = (r : EReal)) (hf : ∀ i, ∃ r : ℝ, f i = (r : EReal))
    (n : Fin 100000) (b : Fin 1024) : ∃ z : ℝ, logit x f n b = (z : EReal) := by
  obtain ⟨ν, hν, hn⟩ := nrm_real hx b
  choose xr hxr using hx
  choose fr hfr using hf
  exact ⟨_, logit_coe hxr hfr hν hn n⟩

/-- The reference's arrangement of a logit — divide the row by its norm, contract with the bank row, divide
    by the temperature — is the specification's, where the reciprocal of the temperature multiplies the
    normalised row before the contraction. -/
theorem ref_logit_eq (hx : ∀ i, ∃ r : ℝ, x i = (r : EReal)) (hf : ∀ i, ∃ r : ℝ, f i = (r : EReal))
    (n : Fin 100000) (b : Fin 1024) :
    Ideal.div (∑ k : Fin 64, Ideal.div (x (ix2 b k)) (nrm x b) * f (ix2 n k)) (Ideal.ofBits .f32 0x3D4CCCCD#32)
      = logit x f n b := by
  obtain ⟨ν, hν, hn⟩ := nrm_real hx b
  choose xr hxr using hx
  choose fr hfr using hf
  rw [logit_coe hxr hfr hν hn, temp_eq, hn]
  have h1 : (∑ k : Fin 64, Ideal.div (x (ix2 b k)) (ν : EReal) * f (ix2 n k))
      = ((∑ k : Fin 64, xr (ix2 b k) * (1 / ν) * fr (ix2 n k) : ℝ) : EReal) := by
    rw [← coe_sum]
    refine Finset.sum_congr rfl fun k _ => ?_
    rw [Ideal.div_coe hν.ne', hxr, hfr, ← EReal.coe_mul, ← EReal.coe_mul]
  rw [h1, Ideal.div_coe (by norm_num), ← EReal.coe_mul, Finset.sum_mul]
  congr 1
  refine Finset.sum_congr rfl fun k _ => ?_
  ring

end Logits

/-! ## The log-softmax: a real shift cancels -/

section Shift
variable {ι : Type*} [Fintype ι]

/-- Over real numbers the exponentials and their sum stay real. -/
theorem sum_exp_coe (z : ι → ℝ) :
    (∑ k, Ideal.exp ((z k : ℝ) : EReal)) = ((∑ k, Real.exp (z k) : ℝ) : EReal) := by
  rw [← coe_sum]
  exact Finset.sum_congr rfl fun k _ => rfl

/-- The logarithm of a nonempty sum of exponentials of reals is the real logarithm. -/
theorem log_sum_exp_coe [Nonempty ι] (z : ι → ℝ) :
    Ideal.log (∑ k, Ideal.exp ((z k : ℝ) : EReal)) = ((Real.log (∑ k, Real.exp (z k)) : ℝ) : EReal) := by
  rw [sum_exp_coe, Ideal.log_coe,
    if_neg (not_le.mpr (Finset.sum_pos (fun k _ => Real.exp_pos _) Finset.univ_nonempty))]

/-- `(z − m) − log ∑ exp (z − m) = z − log ∑ exp z` for every real `m`:
    `∑ exp (z − m) = (∑ exp z) / exp m`. -/
theorem log_softmax_shift [Nonempty ι] (z : ι → ℝ) (m : ℝ) (i : ι) :
    ((z i : EReal) - (m : EReal)) - Ideal.log (∑ k, Ideal.exp ((z k : EReal) - (m : EReal)))
      = (z i : EReal) - Ideal.log (∑ k, Ideal.exp (z k : EReal)) := by
  have h1 : (∑ k, Ideal.exp ((z k : EReal) - (m : EReal))) = ∑ k, Ideal.exp (((z k - m : ℝ)) : EReal) :=
    Finset.sum_congr rfl fun k _ => by rw [EReal.coe_sub]
  rw [h1, log_sum_exp_coe (fun k => z k - m), log_sum_exp_coe z, ← EReal.coe_sub, ← EReal.coe_sub, ← EReal.coe_sub]
  congr 1
  have hS : 0 < ∑ k, Real.exp (z k) := Finset.sum_pos (fun k _ => Real.exp_pos _) Finset.univ_nonempty
  have h2 : (∑ k, Real.exp (z k - m)) = (∑ k, Real.exp (z k)) / Real.exp m := by
    rw [Finset.sum_div]
    exact Finset.sum_congr rfl fun k _ => Real.exp_sub _ _
  rw [h2, Real.log_div hS.ne' (Real.exp_pos m).ne', Real.log_exp]
  ring

/-- Minus the mean of `p − l` is the mean of `l − p`, the sums taken apart. -/
theorem neg_mean (p l : ι → ℝ) {c : ℝ} (hc : c ≠ 0) :
    -(Ideal.div (∑ b, ((p b : EReal) - (l b : EReal))) (c : EReal))
      = Ideal.div ((∑ b, (l b : EReal)) - ∑ b, (p b : EReal)) (c : EReal) := by
  have h1 : (∑ b, ((p b : EReal) - (l b : EReal))) = ((∑ b, (p b - l b) : ℝ) : EReal) := by
    rw [← coe_sum]
    exact Finset.sum_congr rfl fun b _ => by rw [EReal.coe_sub]
  rw [h1, coe_sum, coe_sum, ← EReal.coe_sub, Ideal.div_coe hc, Ideal.div_coe hc, ← EReal.coe_mul, ← EReal.coe_mul,
    ← EReal.coe_neg]
  congr 1
  rw [Finset.sum_sub_distrib]
  ring

end Shift

/-! ## A running maximum over real values is real -/

/-- The maximum of `⊥` or a real with a real is a real. -/
theorem max_real_of {a v : EReal} (ha : a = ⊥ ∨ ∃ r : ℝ, a = (r : EReal)) (hv : ∃ r : ℝ, v = (r : EReal)) :
    ∃ r : ℝ, max a v = (r : EReal) := by
  obtain ⟨s, rfl⟩ := hv
  rcases ha with rfl | ⟨r, rfl⟩
  · exact ⟨s, max_eq_right bot_le⟩
  · exact ⟨max r s, (EReal.coe_strictMono.monotone.map_max).symm⟩

/-- A left fold of `max` over real values, from a real, is a real. -/
theorem foldl_max_real {κ : Type*} (g : κ → EReal) (hg : ∀ i, ∃ r : ℝ, g i = (r : EReal)) :
    ∀ (l : List κ) (a : EReal), (∃ r : ℝ, a = (r : EReal)) → ∃ r : ℝ, l.foldl (fun a i => max a (g i)) a = (r : EReal)
  | [], _, ha => ha
  | i :: l, _, ha => foldl_max_real g hg l _ (max_real_of (Or.inr ha) (hg i))

/-- From `⊥`, over a list that is not empty, likewise: the first value met replaces `⊥`. -/
theorem foldl_max_real_of_ne_nil {κ : Type*} (g : κ → EReal) (hg : ∀ i, ∃ r : ℝ, g i = (r : EReal)) :
    ∀ l : List κ, l ≠ [] → ∃ r : ℝ, l.foldl (fun a i => max a (g i)) ⊥ = (r : EReal)
  | [], h => absurd rfl h
  | i :: l, _ => foldl_max_real g hg l _ (max_real_of (Or.inl rfl) (hg i))

/-! ## This kernel's instances -/

section Loss
variable {x : Xs} {t : Ts} {f : Fs}

instance : Nonempty (Fin 100000) := ⟨⟨0, by decide⟩⟩

/-- The reference's log-softmax entry, with any real row shift `m`, is the logit minus the logarithm of the
    partition sum. -/
theorem ref_log_softmax_eq (hx : ∀ i, ∃ r : ℝ, x i = (r : EReal)) (hf : ∀ i, ∃ r : ℝ, f i = (r : EReal))
    (b : Fin 1024) (n : Fin 100000) (m : ℝ) :
    (logit x f n b - (m : EReal)) - Ideal.log (∑ k : Fin 100000, Ideal.exp (logit x f k b - (m : EReal)))
      = logit x f n b - Ideal.log (sumExp x f b) := by
  choose z hz using fun k => logit_real hx hf k b
  unfold sumExp
  simp only [hz]
  exact log_softmax_shift z m n

/-- The logarithm of a partition sum over real inputs is real. -/
theorem log_sumExp_real (hx : ∀ i, ∃ r : ℝ, x i = (r : EReal)) (hf : ∀ i, ∃ r : ℝ, f i = (r : EReal))
    (b : Fin 1024) : ∃ l : ℝ, Ideal.log (sumExp x f b) = (l : EReal) := by
  choose z hz using fun k => logit_real hx hf k b
  refine ⟨Real.log (∑ n, Real.exp (z n)), ?_⟩
  unfold sumExp
  simp only [hz]
  exact log_sum_exp_coe z

/-- The picked logit over real inputs is real. -/
theorem picked_real (hx : ∀ i, ∃ r : ℝ, x i = (r : EReal)) (hf : ∀ i, ∃ r : ℝ, f i = (r : EReal))
    (b : Fin 1024) : ∃ p : ℝ, picked x t f b = (p : EReal) := by
  unfold picked
  split
  · exact logit_real hx hf _ b
  · exact ⟨0, EReal.coe_zero.symm⟩

/-- The reference's loss, minus the mean over the batch of `picked − log sumExp`, is the specification's. -/
theorem ref_loss_eq (hx : ∀ i, ∃ r : ℝ, x i = (r : EReal)) (hf : ∀ i, ∃ r : ℝ, f i = (r : EReal)) :
    -(Ideal.div (∑ b : Fin 1024, (picked x t f b - Ideal.log (sumExp x f b))) (Ideal.ofBits .f32 0x44800000#32))
      = loss x t f := by
  choose p hp using fun b => picked_real (t := t) hx hf b
  choose l hl using fun b => log_sumExp_real hx hf b
  unfold loss
  rw [batch_eq]
  simp only [hp, hl]
  exact neg_mean p l (by norm_num)

end Loss

end Cert.RefMath

end
-- ==== Proof.RefValue.lean ====
/-
  The reference program's run, read as the specification's functions of the arguments.

  Stage by stage: the clipped row norms; the logits (rows over their norms, contracted with the bank rows, over
  the temperature), which over real inputs are the specification's; the log-softmax, whose row maximum is a real
  number and cancels; the entry at each row's target, read by the gather at an index in range; minus the mean
  over the batch; and the guard against a junk value, which does not fire.
-/
import proofs.«204472_g16080357556532_cont_week2b_336_33_alg».proof.Defs
import proofs.«204472_g16080357556532_cont_week2b_336_33_alg».proof.Proof.Gen.ReferenceIdeal
import proofs.«204472_g16080357556532_cont_week2b_336_33_alg».proof.Proof.RefRun
import proofs.«204472_g16080357556532_cont_week2b_336_33_alg».proof.Proof.RefRead
import proofs.«204472_g16080357556532_cont_week2b_336_33_alg».proof.Proof.Gen.Pre_input_domain
import proofs.«204472_g16080357556532_cont_week2b_336_33_alg».proof.Proof.Spec
import proofs.«204472_g16080357556532_cont_week2b_336_33_alg».proof.Proof.RefMath
import proofs.«204472_g16080357556532_cont_week2b_336_33_alg».proof.Proof.RefPre
import Idealize.ShloMosaic.PureOps.Reduce
import Idealize.ShloMosaic.Lib.Affine

noncomputable section

namespace Cert.RefValue

open Cert.ReferenceIdeal Cert.ReferenceIdeal.Gen Cert.ReferenceIdeal.ReadP Idealize.ShloMosaic Idealize.SL.Sem
open Idealize.ShloMosaic.ValueIdx Cert.Spec Cert.RefMath

/-! ## The logits -/

section Logits
variable (x0 : Xs) (x2 : Fs)

/-- The clipped norm of row `b`, as the reference computes it, is the specification's. -/
theorem v1_at (b : Fin 1024) : val_main_v1 (F := Ideal) x0 (ix2 b (0 : Fin 1)) = nrm x0 b := by
  rw [val_main_v1_apply, val_main_call1_v1_apply, val_main_call1_v0_apply, val_main_cst_apply, val_main_v0_apply,
    val_main_call0_v2_apply, val_main_call0_v1_apply, val_main_call0_cst_apply]
  simp only [val_main_call0_v0_apply, Ideal.maximumf_def, Ideal.hostUnary_sqrt_def, Ideal.mulf_def, Ideal.ofBits_def,
    Ideal.ofBits_zero_f32, zero_add]
  unfold nrm eps
  rw [max_comm]
  have e : ∀ k : Fin 64, idx_main_call0_v1 (idx_main_call0_v2 (ix2 b (0 : Fin 1))) k = ix2 b k := fun k =>
    funext fun a => Fin.ext (by match a with | ⟨0, _⟩ => rfl | ⟨1, _⟩ => rfl)
  simp only [e]

/-- The reference's logit of batch row `b` against bank row `n`: the row over its norm, contracted with the bank
    row, over the temperature. -/
theorem v7_at (b : Fin 1024) (n : Fin 100000) :
    val_main_v7 (F := Ideal) x0 x2 (ix2 b n)
      = Ideal.div (∑ k : Fin 64, Ideal.div (x0 (ix2 b k)) (nrm x0 b) * x2 (ix2 n k))
          (Ideal.ofBits .f32 0x3D4CCCCD#32) := by
  rw [val_main_v7_apply, val_main_v5_apply, val_main_v6_apply, val_main_cst_0_apply]
  simp only [Ideal.hostDivf_def, Ideal.ofBits_def]
  congr 1
  refine Finset.sum_congr rfl fun k _ => ?_
  have e1 : lidx_main_v5 (ix2 b n) k = ix2 b k :=
    funext fun a => Fin.ext (by match a with | ⟨0, _⟩ => rfl | ⟨1, _⟩ => rfl)
  have e2 : idx_main_v2 (ix2 b k) = ix2 b (0 : Fin 1) :=
    funext fun a => Fin.ext (by match a with | ⟨0, _⟩ => rfl | ⟨1, _⟩ => rfl)
  have e3 : idx_main_v4 (ridx_main_v5 (ix2 b n) k) = ix2 n k :=
    funext fun a => Fin.ext (by match a with | ⟨0, _⟩ => rfl | ⟨1, _⟩ => rfl)
  rw [val_main_v3_apply, val_main_v2_apply, val_main_v4_apply, Ideal.hostDivf_def, e1, e2, e3, v1_at]

variable {x0 x2}
variable (hx : ∀ i, ∃ r : ℝ, x0 i = (r : EReal)) (hf : ∀ i, ∃ r : ℝ, x2 i = (r : EReal))
include hx hf

/-- Over real inputs it is the specification's logit. -/
theorem v7_logit (b : Fin 1024) (n : Fin 100000) : val_main_v7 (F := Ideal) x0 x2 (ix2 b n) = logit x0 x2 n b := by
  rw [v7_at, ref_logit_eq hx hf]

/-- The second result, the logits batch-major. -/
theorem outputs_eq : val_main_v7 (F := Ideal) x0 x2 = outputs x0 x2 := by
  funext i
  obtain ⟨b, n, rfl⟩ : ∃ (b : Fin 1024) (n : Fin 100000), i = ix2 b n := ⟨i 0, i 1, eq_ix2 i⟩
  exact v7_logit hx hf b n

/-! ## The log-softmax -/

/-- The running maximum of a row of logits, taken from `−∞`, is a real number: the row is not empty and its
    entries are real. -/
theorem rowmax_real (b : Fin 1024) : ∃ m : ℝ, val_main_call2_v2 (F := Ideal) x0 x2 (ix1 b) = (m : EReal) := by
  have hbot : Ideal.ofBits .f32 0xFF800000#32 = ⊥ := by simp [Ideal.ofBits, Ideal.ieee]
  rw [val_main_call2_v2_apply, val_main_call2_v1_apply, val_main_call2_cst_0_apply, Ideal.maximumf_def, Ideal.ofBits_def,
    hbot, max_eq_right bot_le]
  unfold val_main_call2_v0
  rw [Host.reduce_eq_foldl]
  have hinit : val_main_call2_cst (F := Ideal) (Shape.Idx.first h_S_) = ⊥ := hbot
  rw [hinit]
  have hdrop : (reducesTo_S1024x100000_S1024_d1).drop (ix2 b (0 : Fin 100000)) = ix1 b := by
    funext a
    refine Fin.ext ?_
    match a with
    | ⟨0, _⟩ => exact (reducesTo_S1024x100000_S1024_d1).drop_apply_val_of_eq _ 0 0
  refine foldl_max_real_of_ne_nil (val_main_v7 (F := Ideal) x0 x2) (fun i => ?_) _
    (List.ne_nil_of_mem (a := ix2 b (0 : Fin 100000)) ?_)
  · obtain ⟨b', n, rfl⟩ : ∃ (b' : Fin 1024) (n : Fin 100000), i = ix2 b' n := ⟨i 0, i 1, eq_ix2 i⟩
    rw [v7_logit hx hf]
    exact logit_real hx hf n b'
  · rw [List.mem_filter]
    exact ⟨List.mem_map.2 ⟨S1024x100000.rowMajor _, List.mem_finRange _, Equiv.symm_apply_apply _ _⟩, decide_eq_true hdrop⟩

/-- The reference's log-softmax entry is the logit minus the logarithm of the row's partition sum: the row
    maximum it subtracts first, being real, cancels. -/
theorem v8_at (b : Fin 1024) (n : Fin 100000) :
    val_main_v8 (F := Ideal) x0 x2 (ix2 b n) = logit x0 x2 n b - Ideal.log (sumExp x0 x2 b) := by
  obtain ⟨m, hm⟩ := rowmax_real hx hf b
  have e4 : ∀ k : Fin 100000, idx_main_call2_v3 (idx_main_call2_v4 (ix2 b k)) = ix1 b := fun k =>
    funext fun a => Fin.ext (by match a with | ⟨0, _⟩ => rfl)
  have h5 : ∀ k : Fin 100000, val_main_call2_v5 (F := Ideal) x0 x2 (ix2 b k) = logit x0 x2 k b - (m : EReal) := fun k => by
    rw [val_main_call2_v5_apply, val_main_call2_v4_apply, val_main_call2_v3_apply, e4, hm, v7_logit hx hf,
      Ideal.subf_def]
  have e5 : ∀ k : Fin 100000,
      idx_main_call2_v7 (idx_main_call2_v8 (idx_main_call2_v10 (ix2 b n))) k = ix2 b k := fun k =>
    funext fun a => Fin.ext (by match a with | ⟨0, _⟩ => rfl | ⟨1, _⟩ => rfl)
  rw [val_main_v8_apply, h5, val_main_call2_v10_apply, val_main_call2_v9_apply, val_main_call2_v8_apply,
    val_main_call2_v7_apply, val_main_call2_cst_1_apply]
  simp only [val_main_call2_v6_apply, Ideal.subf_def, Ideal.hostUnary_log_def, Ideal.hostUnary_exp_def, Ideal.ofBits_def,
    Ideal.ofBits_zero_f32, zero_add, e5, h5]
  exact ref_log_softmax_eq hx hf b n m

end Logits

/-! ## The entry at the target -/

/-- A left fold of `and` over ones, from one, is one. -/
theorem foldl_andi_ones {κ : Type} (g : κ → BitVec 1) :
    ∀ l : List κ, (∀ n ∈ l, g n = 1#1) → l.foldl (fun r n => IntOp.andi r (g n)) 1#1 = 1#1
  | [], _ => rfl
  | a :: l, h => by
    rw [List.foldl_cons, h a List.mem_cons_self, show IntOp.andi 1#1 1#1 = 1#1 from by decide]
    exact foldl_andi_ones g l fun n hn => h n (List.mem_cons_of_mem _ hn)

/-- The gather of `take_along_axis`: batch axis 0, one start index per row on axis 1. -/
abbrev gd : GatherDims S1024x100000 S1024x1x1 S1024x1 := gather_S1024x100000_S1024x1x1_S1024x1_n_1_0_0_1_2_11

/-- That gather at row `b` reads the operand's row `b` at the row's start index, read signed and clamped into
    the row. -/
theorem gather_at {α : Type} (x : S1024x100000.Idx → α) (idx : IVec S1024x1x1 32) (b : Fin 1024) :
    Host.gather gd x idx (ix2 b (0 : Fin 1))
      = x (ix2 b ⟨min (idx (ix3 b (0 : Fin 1) (0 : Fin 1))).toInt.toNat (100000 - 1), by omega⟩) := by
  unfold Host.gather
  congr 1
  funext a
  refine Fin.ext ?_
  match a with
  | ⟨0, _⟩ =>
    show gd.start (ix2 b (0 : Fin 1)) idx 0 + gd.batchCoord (ix2 b (0 : Fin 1)) 0 + gd.offCoord (ix2 b (0 : Fin 1)) 0 = b.val
    rw [gd.start_batching _ idx 0 (by decide), gd.offCoord_eq_zero _ 0 (by decide)]
    unfold GatherDims.batchCoord
    rw [dif_pos (by decide), Nat.add_zero, Nat.zero_add]
    rfl
  | ⟨1, _⟩ =>
    show gd.start (ix2 b (0 : Fin 1)) idx 1 + gd.batchCoord (ix2 b (0 : Fin 1)) 1 + gd.offCoord (ix2 b (0 : Fin 1)) 1 = _
    rw [gd.batchCoord_eq_zero _ 1 (by decide), gd.offCoord_eq_zero _ 1 (by decide)]
    unfold GatherDims.start
    rw [dif_pos (by decide)]
    have hsi : gd.siIdx (ix2 b (0 : Fin 1)) ⟨List.idxOf (1 : Fin 2) gd.startIndexMap,
        List.idxOf_lt_length_iff.2 (by decide)⟩ = ix3 b (0 : Fin 1) (0 : Fin 1) := by
      funext c
      refine Fin.ext ?_
      match c with
      | ⟨0, _⟩ => rfl
      | ⟨1, _⟩ => rfl
      | ⟨2, _⟩ => rfl
    rw [hsi]
    rfl

section Pick
variable {x0 : Xs} {x1 : Ts} {x2 : Fs}
variable (ht : ∀ i, 0 ≤ (x1 i).toInt ∧ (x1 i).toNat < 100000)
include ht

/-- A target in range reads the same signed and unsigned. -/
theorem toInt_target (i : (⟨1, ![1024]⟩ : Shape).Idx) : (x1 i).toInt = ((x1 i).toNat : Int) := by
  have hc := BitVec.toInt_eq_toNat_cond (x1 i)
  have h1 := (ht i).1
  have h2 := (ht i).2
  split at hc <;> omega

/-- The start index of row `b`: the target itself, no wrap-around of a negative index being taken. -/
theorem v5i_at (b : Fin 1024) (p q : Fin 1) : val_main_call3_v5 (F := Ideal) x1 (ix3 b p q) = x1 (ix1 b) := by
  have e6 : idx_main_v9 (idx_main_call3_v5 (ix3 b p q)) = ix1 b := by
    funext a
    refine Fin.ext ?_
    match a with
    | ⟨0, _⟩ =>
      show ((b.val * 1 + p.val) * 1 + q.val) / 1 = b.val
      have := p.isLt
      have := q.isLt
      omega
  have hlt : IntOp.cmpi .slt (x1 (ix1 b)) 0#32 = 0#1 := by
    refine ValueIdx.eq_zero_of_ne_one fun h => ?_
    have h' := IntOp.cmpi_slt.1 h
    have e0 : (0#32 : BitVec 32).toInt = 0 := by decide
    rw [e0] at h'
    exact absurd (ht (ix1 b)).1 (not_le.mpr h')
  rw [val_main_call3_v5_apply, val_main_call3_v4_apply, val_main_call3_v1_apply, val_main_v9_apply, e6,
    val_main_call3_v0_apply, val_main_call3_c_apply, hlt, ValueIdx.select_zero]

/-- Every start index is in range, so the range mask is all ones. -/
theorem v12_at (b : Fin 1024) : val_main_call3_v12 (F := Ideal) x1 (ix2 b (0 : Fin 1)) = 1#1 := by
  unfold val_main_call3_v12
  rw [Host.reduce_eq_foldl]
  refine foldl_andi_ones _ _ fun i _ => ?_
  obtain ⟨b', p, q, rfl⟩ : ∃ (b' : Fin 1024) (p q : Fin 1), i = ix3 b' p q := ⟨i 0, i 1, i 2, eq_ix3 i⟩
  rw [val_main_call3_v11_apply, val_main_call3_v7_apply, val_main_call3_v10_apply, v5i_at ht, val_main_call3_v6_apply,
    val_main_call3_c_2_apply, val_main_call3_v9_apply, val_main_call3_v8_apply, val_main_call3_c_1_apply]
  have e0 : (0#32 : BitVec 32).toInt = 0 := by decide
  have e1 : (99999#32 : BitVec 32).toInt = 99999 := by decide
  have h1 := (ht (ix1 b')).2
  have h2 := toInt_target ht (ix1 b')
  exact IntOp.andi_eq_one.2 ⟨IntOp.cmpi_sge.2 (by rw [e0]; exact (ht _).1), IntOp.cmpi_sle.2 (by rw [e1]; omega)⟩

variable (hx : ∀ i, ∃ r : ℝ, x0 i = (r : EReal)) (hf : ∀ i, ∃ r : ℝ, x2 i = (r : EReal))
include hx hf

/-- The log-probability the reference picks for row `b`: the picked logit minus the logarithm of the row's
    partition sum. -/
theorem v10_at (b : Fin 1024) :
    val_main_v10 (F := Ideal) x0 x1 x2 (ix2 b (0 : Fin 1)) = picked x0 x1 x2 b - Ideal.log (sumExp x0 x2 b) := by
  have hlt := (ht (ix1 b)).2
  have hidx : ∀ h' : min (val_main_call3_v5 (F := Ideal) x1 (ix3 b (0 : Fin 1) (0 : Fin 1))).toInt.toNat (100000 - 1) < 100000,
      (⟨min (val_main_call3_v5 (F := Ideal) x1 (ix3 b (0 : Fin 1) (0 : Fin 1))).toInt.toNat (100000 - 1), h'⟩ : Fin 100000)
        = ⟨(x1 (ix1 b)).toNat, hlt⟩ := fun h' =>
    Fin.ext (by
      show min (val_main_call3_v5 (F := Ideal) x1 (ix3 b (0 : Fin 1) (0 : Fin 1))).toInt.toNat (100000 - 1)
        = (x1 (ix1 b)).toNat
      rw [v5i_at ht, toInt_target ht, Int.toNat_natCast]
      omega)
  rw [val_main_v10_apply, v12_at ht, ValueIdx.select_one]
  unfold val_main_call3_v13
  rw [gather_at, hidx, v8_at hx hf]
  unfold picked
  rw [dif_pos hlt]

/-- The batch axis, as the indices of a rank-one array. -/
def idxEquiv1 : Fin 1024 ≃ S1024.Idx := ⟨ix1, fun j => j 0, fun _ => rfl, fun j => (eq_ix1 j).symm⟩

/-- The first result: the loss. The guard against a junk value does not fire: the loss equals itself. -/
theorem loss_eq : val_main_v16 (F := Ideal) x0 x1 x2 = fun _ => loss x0 x1 x2 := by
  funext i
  have e7 : ∀ b : Fin 1024, idx_main_v11 (ix1 b) = ix2 b (0 : Fin 1) := fun b =>
    funext fun a => Fin.ext (by match a with | ⟨0, _⟩ => exact Nat.div_one _ | ⟨1, _⟩ => rfl)
  have h11 : ∀ b : Fin 1024, val_main_v11 (F := Ideal) x0 x1 x2 (ix1 b)
      = picked x0 x1 x2 b - Ideal.log (sumExp x0 x2 b) := fun b => by
    rw [val_main_v11_apply, e7, v10_at ht hx hf]
  have hsum : (∑ j : S1024.Idx, val_main_v11 (F := Ideal) x0 x1 x2 j)
      = ∑ b : Fin 1024, (picked x0 x1 x2 b - Ideal.log (sumExp x0 x2 b)) :=
    ((Equiv.sum_comp idxEquiv1 (fun j => val_main_v11 (F := Ideal) x0 x1 x2 j)).symm).trans
      (Finset.sum_congr rfl fun b _ => h11 b)
  have h14 : val_main_v14 (F := Ideal) x0 x1 x2 i = loss x0 x1 x2 := by
    rw [val_main_v14_apply, val_main_v13_apply, val_main_v12_apply, val_main_cst_1_apply, val_main_cst_2_apply, hsum]
    simp only [Ideal.hostNegf_def, Ideal.negf_def, Ideal.hostDivf_def, Ideal.ofBits_def, Ideal.ofBits_zero_f32, zero_add]
    exact ref_loss_eq hx hf
  have hne : FloatOps.cmpf (F := Ideal) (φ := .f32) .une (loss x0 x1 x2) (loss x0 x1 x2) = 0#1 := by
    rw [Ideal.cmpf_def]
    simp [Ideal.cmp]
  rw [val_main_v16_apply, val_main_v15_apply, h14, hne, ValueIdx.select_zero]

end Pick

/-! ## The run -/

/-- The reference's run: the loss and the logits are the specification's functions of the arguments, which end
    as they began. -/
theorem run (m : (ℓ : Loc Cert.ReferenceIdeal.nD Cert.ReferenceIdeal.τ Cert.ReferenceIdeal.sig) → Buf (Elt Ideal) ℓ)
    (ρ : Dev Cert.ReferenceIdeal.nD → PrngReg) (h : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v16)
            = (fun _ => Cert.Spec.loss
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)))
        ∧ r.2.mem ((c.tc : Thread Cert.ReferenceIdeal.nD Cert.ReferenceIdeal.τ).loc Cert.ReferenceIdeal.main_v7)
            = Cert.Spec.outputs
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run _ _ _).mono (fun r hr c => ?_) (Cert.ReferenceIdeal.RunP.run (F := Ideal) m ρ)
  obtain ⟨hx, hf, ht⟩ := Cert.RefPre.of_pre_reference m h c
  exact ⟨(hr c).1.trans ((Cert.ReferenceIdeal.ReadP.val_main_v16_eq m c).trans (loss_eq ht hx hf)),
    (hr c).2.1.trans ((Cert.ReferenceIdeal.ReadP.val_main_v7_eq _ _).trans (outputs_eq hx hf)),
    (hr c).2.2⟩

/-- The reference runs and leaves its arguments as they were. -/
theorem frame : Cert.frame_ReferenceIdeal :=
  fun m g h => (θ_run _ _ _).mono (fun _ hr c => (hr c).2.2) (run m g h)

end Cert.RefValue

end
-- ==== Proof.Assemble.lean ====
/-
  The certificate's five claims from the pieces. The kernel's run (every weakly fair execution of @main on the
  TensorCore and of the picking kernel on the 32 vector subcores terminates, and the final memory is the final valuation
  of values the two TensorCore regions may leave) is stated over the first region's proof data as a parameter. With the
  data that name nothing of that region's outputs it gives the frame at the ideal instance (and, in the sibling module over the printed
  program, at the bit-exact one): the arguments end as they began. With the exact data at the ideal instance, the region's outputs are the logits
  bank-major and the partition sums, the chain through the picking kernel, the combining region and the host tail
  makes the two results the specification's loss and logits, and the reference's run ends with the same two functions
  of the same arguments. The named constant is the table's value by definition.
-/
import proofs.«204472_g16080357556532_cont_week2b_336_33_alg».proof.Defs
import proofs.«204472_g16080357556532_cont_week2b_336_33_alg».proof.Proof.LaunchMain
import proofs.«204472_g16080357556532_cont_week2b_336_33_alg».proof.Proof.LaunchFin
import proofs.«204472_g16080357556532_cont_week2b_336_33_alg».proof.Proof.RegionInst
import proofs.«204472_g16080357556532_cont_week2b_336_33_alg».proof.Proof.RegionInstV
import proofs.«204472_g16080357556532_cont_week2b_336_33_alg».proof.Proof.Tc0BodyF
import proofs.«204472_g16080357556532_cont_week2b_336_33_alg».proof.Proof.Tc0BodyV
import proofs.«204472_g16080357556532_cont_week2b_336_33_alg».proof.Proof.Tc0Value
import proofs.«204472_g16080357556532_cont_week2b_336_33_alg».proof.Proof.ValueChain
import proofs.«204472_g16080357556532_cont_week2b_336_33_alg».proof.Proof.RefValue
import proofs.«204472_g16080357556532_cont_week2b_336_33_alg».proof.Proof.RefPre

noncomputable section

namespace Cert.Proof.Assemble

open Idealize.ShloMosaic Idealize.SL Idealize.SL.Sem
open Idealize.ShloMosaic.SparseCore.Cfg (HIx)

/-! ## The first region's data, as the launch takes them -/

section Regions

open Cert.KernelIdeal Cert.KernelIdeal.Gen Cert.KernelIdeal.LaunchSetup

variable {F : FTy → Type} [FloatOps F] [Named F]

/-- The logits region's data that name nothing of the outputs, at any float instance: what the frames run on. -/
def reg0F : LaunchSpec.Reg0 F where
  rd := RegionInst.rd0F
  body := fun c A O B => RegionInst.rd0F_body c A O B (Tc0.hbodyF c A O B none 𝒱₀)
  A_eq := RegionInst.rd0F_A
  owed_eq := RegionInst.rd0F_owed
  recorded_eq := RegionInst.rd0F_recorded
  share_eq := RegionInst.rd0F_share
  hin := RegionInst.rd0F_hin
  hout := RegionInst.rd0F_hout
  in0 := RegionInst.rd0F_ArrAt_in0
  in1 := RegionInst.rd0F_ArrAt_in1

/-- The logits region's exact data at the ideal instance: what the values run on. The two input arrays are never
    written, so whatever they may hold after the region is what they held at entry. -/
def reg0V : LaunchSpec.Reg0 Ideal where
  rd := RegionInstV.rd0V
  body := fun c A O B => RegionInstV.rd0V_body c A O B (Tc0.hbodyV c A O B none 𝒱₀)
  A_eq := RegionInstV.rd0V_A
  owed_eq := RegionInstV.rd0V_owed
  recorded_eq := RegionInstV.rd0V_recorded
  share_eq := RegionInstV.rd0V_share
  hin := RegionInstV.rd0V_hin
  hout := RegionInstV.rd0V_hout
  in0 := fun c A O B n G h => ((RegionInstV.rd0V_ArrAt c A O B 0 n G).mp h).trans
    ((Tc0.datV (F := Ideal) (Name := ℕ) (U := UU) (Lvl := ℕ) c A O B).arrAt_in 0 rfl n)
  in1 := fun c A O B n G h => ((RegionInstV.rd0V_ArrAt c A O B 1 n G).mp h).trans
    ((Tc0.datV (F := Ideal) (Name := ℕ) (U := UU) (Lvl := ℕ) c A O B).arrAt_in 1 rfl n)

end Regions

/-! ## The kernel at the ideal instance -/

section KernelIdeal

open Cert.KernelIdeal Cert.KernelIdeal.Gen Cert.KernelIdeal.LaunchSetup Cert.KernelIdeal.LaunchOps
open Cert.KernelIdeal.ValueChain (xOf tOf fOf)

/-- Every target names a row of the bank: the integer conjunct of the precondition. -/
theorem targets_in_range (m : (ℓ : Loc nD τ sig) → Buf (Elt Ideal) ℓ) (hpre : Cert.Pre_KernelIdeal m) :
    ∀ d j, (m (ScTile.tgLoc d) j).toNat < 100000 :=
  fun d j => ((Cert.RefPre.of_pre_kernel m hpre d).t_range j).2

/-- The idealized kernel runs and leaves its three arguments as they were. -/
theorem frame_KernelIdeal : Cert.frame_KernelIdeal := fun m ρ hpre =>
  (θ_run _ _ _).mono (fun r h => LaunchFin.frame_post reg0F m r h)
    (LaunchMain.run_main (F := Ideal) reg0F m ρ (targets_in_range m hpre))

/-- The idealized kernel's run with its results named: the loss and the logits are the specification's functions of
    the arguments, which end as they began. -/
theorem run_values (m : (ℓ : Loc nD τ sig) → Buf (Elt Ideal) ℓ) (ρ : Dev nD → PrngReg) (hpre : Cert.Pre_KernelIdeal m) :
    θ_run (Cert.KernelIdeal.defs (F := Ideal)) (Cert.KernelIdeal.threads (F := Ideal)) ⟨m, fun _ => 0, ρ⟩
      (fun r => ∀ c : Dev nD,
        r.2.mem ((c.tc : Thread nD τ).loc main_v9) = (fun _ => Cert.Spec.loss (xOf m c) (tOf m c) (fOf m c))
        ∧ r.2.mem ((c.tc : Thread nD τ).loc main_v6) = Cert.Spec.outputs (xOf m c) (fOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run _ _ _).mono (fun r h c => ?_) (LaunchMain.run_main (F := Ideal) reg0V m ρ (targets_in_range m hpre))
  obtain ⟨O0, O2, B0, B2, ot, se, ls, hF, h9, h6⟩ := LaunchFin.results_post reg0V m r h c
  obtain ⟨hv9, hv6⟩ := ValueChain.value_chain m c (Cert.RefPre.of_pre_kernel m hpre c) O0 O2 B0 B2 ot se ls
    (Tc0V.arrAt_out c (A0of m c) (xOf m c) (fOf m c) (ValueChain.A0of_x m c) (ValueChain.A0of_f m c) O0 B0)
    (fun r b => Tc0V.arrAt_se8 c (A0of m c) (xOf m c) (fOf m c) (ValueChain.A0of_x m c) (ValueChain.A0of_f m c) O0 B0 r b)
    hF.1 hF.2.1 hF.2.2
  exact ⟨h9.trans hv9, h6.trans hv6, LaunchFin.frame_post reg0V m r h c⟩

end KernelIdeal

/-! ## The five claims -/

/-- The named constant of the idealized kernel is the table's value. -/
theorem preserves : Cert.preserves_Kernel_KernelIdeal :=
  IdealRules.named_const.statement Cert.KernelIdeal.κ "inv_temp" .f32 0x41A00000#32 ((268435456 / 13421773 : ℝ) : EReal) rfl

/-- At the ideal instance the kernel and the reference, from memories that agree on the arguments, both run, leave
    the arguments as they were and end with the same loss and the same logits: the specification's. -/
theorem algebraic : Cert.algebraic_KernelIdeal_ReferenceIdeal := by
  intro m ρ m' ρ' hpre hagree
  refine ⟨fun c => fun _ => Cert.Spec.loss (Cert.KernelIdeal.ValueChain.xOf m c) (Cert.KernelIdeal.ValueChain.tOf m c) (Cert.KernelIdeal.ValueChain.fOf m c),
    fun c => Cert.Spec.outputs (Cert.KernelIdeal.ValueChain.xOf m c) (Cert.KernelIdeal.ValueChain.fOf m c), run_values m ρ hpre, ?_⟩
  have hpre' : Cert.Pre_ReferenceIdeal m' := fun c => by
    rw [(hagree c).1, (hagree c).2.1, (hagree c).2.2]; exact hpre c
  refine (θ_run _ _ _).mono (fun r h c => ?_) (Cert.RefValue.run m' ρ' hpre')
  obtain ⟨h16, h7, ha⟩ := h c
  rw [(hagree c).1, (hagree c).2.1, (hagree c).2.2] at h16
  rw [(hagree c).1, (hagree c).2.2] at h7
  exact ⟨h16, h7, ha⟩

end Cert.Proof.Assemble

end
-- ==== Proof.AssembleK.lean ====
/-
  The frame of the kernel as printed (the bit-exact instance): the kernel's run over the first region's proof data that
  name nothing of that region's outputs; its post says in particular that the three arguments end as they began.
-/
import proofs.«204472_g16080357556532_cont_week2b_336_33_alg».proof.Defs
import proofs.«204472_g16080357556532_cont_week2b_336_33_alg».proof.Proof.LaunchMainK
import proofs.«204472_g16080357556532_cont_week2b_336_33_alg».proof.Proof.LaunchFinK
import proofs.«204472_g16080357556532_cont_week2b_336_33_alg».proof.Proof.RegionInstK
import proofs.«204472_g16080357556532_cont_week2b_336_33_alg».proof.Proof.Tc0BodyFK
import proofs.«204472_g16080357556532_cont_week2b_336_33_alg».proof.Proof.RefPre

noncomputable section

namespace Cert.Proof.Assemble

open Idealize.ShloMosaic Idealize.SL Idealize.SL.Sem
open Idealize.ShloMosaic.SparseCore.Cfg (HIx)

section Kernel

open Cert.Kernel Cert.Kernel.Gen Cert.Kernel.LaunchSetup

/-- The logits region's data that name nothing of the outputs, over the printed program. -/
def reg0K {F : FTy → Type} [FloatOps F] : Cert.Kernel.LaunchSpec.Reg0 F where
  rd := Cert.Kernel.RegionInst.rd0F
  body := fun c A O B => Cert.Kernel.RegionInst.rd0F_body c A O B (Cert.Kernel.Tc0.hbodyF c A O B none 𝒱₀)
  A_eq := Cert.Kernel.RegionInst.rd0F_A
  owed_eq := Cert.Kernel.RegionInst.rd0F_owed
  recorded_eq := Cert.Kernel.RegionInst.rd0F_recorded
  share_eq := Cert.Kernel.RegionInst.rd0F_share
  hin := Cert.Kernel.RegionInst.rd0F_hin
  hout := Cert.Kernel.RegionInst.rd0F_hout
  in0 := Cert.Kernel.RegionInst.rd0F_ArrAt_in0
  in1 := Cert.Kernel.RegionInst.rd0F_ArrAt_in1

/-- The printed kernel runs and leaves its three arguments as they were. -/
theorem frame_Kernel : Cert.frame_Kernel := fun m ρ hpre =>
  (θ_run _ _ _).mono (fun r h => Cert.Kernel.LaunchFin.frame_post reg0K m r h)
    (Cert.Kernel.LaunchMain.run_main (F := Bits) reg0K m ρ
      (fun d j => ((Cert.RefPre.of_pre_kernel_bits m hpre d) j).2))

end Kernel

end Cert.Proof.Assemble

end
-- ==== Proof.lean ====
/- The proof of `Cert.Claim` (the claims of Defs.lean). The kernel computes a cross-entropy loss against a memory bank:
   with x the 1024 × 64 inputs, f the 100000 × 64 bank and t the 1024 targets, the logits are
   logit n b = ∑ d, f n d · (x b d · (κ / max ‖x b‖ ε)) with κ the reciprocal of the temperature, and the loss is the mean
   over b of log (∑ n, exp (logit n b)) − logit (t b) b. The first TensorCore region writes the logits bank-major, block
   of 4096 bank rows by block, and accumulates the exponentials by sublane; the vector-subcore kernel picks the target
   logits; the second region combines them into the loss; the host transposes the logits. The five claims are assembled
   in Proof/Assemble.lean and Proof/AssembleK.lean: the kernel's two frames from its run over proof data that name
   nothing of the first region's outputs (its last block overhangs the bank, and the product of a block whose tail holds
   words nothing names is a function of the rows that exist only where the product is row-wise: at the ideal instance);
   the reference's frame from its run; the named constant by the table's definition; and the algebraic claim from the
   two runs at the ideal instance, which both end with the loss and the logits above as functions of the arguments.
   The witnesses of the programs' stated facts are the instances the facts modules prove. -/
import proofs.«204472_g16080357556532_cont_week2b_336_33_alg».proof.Defs
import proofs.«204472_g16080357556532_cont_week2b_336_33_alg».proof.Proof.Gen.Kernel
import proofs.«204472_g16080357556532_cont_week2b_336_33_alg».proof.Proof.Gen.Kernel.Skeleton
import proofs.«204472_g16080357556532_cont_week2b_336_33_alg».proof.Proof.Gen.Kernel.Launch
import proofs.«204472_g16080357556532_cont_week2b_336_33_alg».proof.Proof.Gen.Kernel.Regions
import proofs.«204472_g16080357556532_cont_week2b_336_33_alg».proof.Proof.Gen.Kernel.Points
import proofs.«204472_g16080357556532_cont_week2b_336_33_alg».proof.Proof.Gen.KernelIdeal
import proofs.«204472_g16080357556532_cont_week2b_336_33_alg».proof.Proof.Gen.KernelIdeal.Skeleton
import proofs.«204472_g16080357556532_cont_week2b_336_33_alg».proof.Proof.Gen.KernelIdeal.Launch
import proofs.«204472_g16080357556532_cont_week2b_336_33_alg».proof.Proof.Gen.KernelIdeal.Regions
import proofs.«204472_g16080357556532_cont_week2b_336_33_alg».proof.Proof.Gen.KernelIdeal.Points
import proofs.«204472_g16080357556532_cont_week2b_336_33_alg».proof.Proof.Gen.ReferenceIdeal
import proofs.«204472_g16080357556532_cont_week2b_336_33_alg».proof.Proof.Gen.Pre_input_domain
import proofs.«204472_g16080357556532_cont_week2b_336_33_alg».proof.Proof.Assemble
import proofs.«204472_g16080357556532_cont_week2b_336_33_alg».proof.Proof.AssembleK
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Assemble.frame_Kernel, Assemble.frame_KernelIdeal, Cert.RefValue.frame, Assemble.preserves, Assemble.algebraic⟩

end Cert.Proof

end
